-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x784 : Shape := ⟨2, ![1024, 784]⟩
abbrev S784x392 : Shape := ⟨2, ![784, 392]⟩
abbrev S392 : Shape := ⟨1, ![392]⟩
abbrev S392x8 : Shape := ⟨2, ![392, 8]⟩
abbrev S8 : Shape := ⟨1, ![8]⟩
abbrev S8x392 : Shape := ⟨2, ![8, 392]⟩
abbrev S392x784 : Shape := ⟨2, ![392, 784]⟩
abbrev S784 : Shape := ⟨1, ![784]⟩
abbrev S_ : Shape := ⟨0, ![]⟩

class Facts : Prop where
  bcast_S_S1024x784 : S_.BroadcastsInDim S1024x784 (![] : Fin 0 → Fin S1024x784.rank)
  reducesTo_S1024x784_S_d0_1 : S1024x784.ReducesTo [0, 1] S_
  h_S_ : 0 < S_.numel
  bcast_S_S784x392 : S_.BroadcastsInDim S784x392 (![] : Fin 0 → Fin S784x392.rank)
  reducesTo_S784x392_S_d0_1 : S784x392.ReducesTo [0, 1] S_
  bcast_S_S392 : S_.BroadcastsInDim S392 (![] : Fin 0 → Fin S392.rank)
  reducesTo_S392_S_d0 : S392.ReducesTo [0] S_
  bcast_S_S392x8 : S_.BroadcastsInDim S392x8 (![] : Fin 0 → Fin S392x8.rank)
  reducesTo_S392x8_S_d0_1 : S392x8.ReducesTo [0, 1] S_
  bcast_S_S8 : S_.BroadcastsInDim S8 (![] : Fin 0 → Fin S8.rank)
  reducesTo_S8_S_d0 : S8.ReducesTo [0] S_
  bcast_S_S8x392 : S_.BroadcastsInDim S8x392 (![] : Fin 0 → Fin S8x392.rank)
  reducesTo_S8x392_S_d0_1 : S8x392.ReducesTo [0, 1] S_
  bcast_S_S392x784 : S_.BroadcastsInDim S392x784 (![] : Fin 0 → Fin S392x784.rank)
  reducesTo_S392x784_S_d0_1 : S392x784.ReducesTo [0, 1] S_
  bcast_S_S784 : S_.BroadcastsInDim S784 (![] : Fin 0 → Fin S784.rank)
  reducesTo_S784_S_d0 : S784.ReducesTo [0] S_

variable [Facts]

def fn_part3 {F : FTy → Type} [FloatOps F] (main_arg11 : FVec F S784 .f32) (main_arg12 : FVec F S784 .f32) (main_v48 : IVec S_ 1) (main_v49 : FVec F S392x784 .f32) (main_v50 : FVec F S392x784 .f32) : IVec S_ 1 :=
  let main_v51 : IVec S392x784 1 := cmpf .olt main_v49 main_v50
  let main_c_19 : IVec S_ 1 := constantI S_ 1 1#1
  let main_v52 : IVec S_ 1 := (fun x v => Host.reduce IntOp.andi x v reducesTo_S392x784_S_d0_1 h_S_) main_v51 main_c_19
  let main_v53 : IVec S_ 1 := andi main_v48 main_v52
  let main_v54 : FVec F S784 .f32 := Host.absf main_arg11
  let main_cst_20 : FVec F S_ .f32 := constant S_ .f32 0x7F800000#32
  let main_v55 : FVec F S784 .f32 := broadcastInDim S784 ![] bcast_S_S784 main_cst_20
  let main_v56 : IVec S784 1 := cmpf .olt main_v54 main_v55
  let main_c_21 : IVec S_ 1 := constantI S_ 1 1#1
  let main_v57 : IVec S_ 1 := (fun x v => Host.reduce IntOp.andi x v reducesTo_S784_S_d0 h_S_) main_v56 main_c_21
  let main_v58 : IVec S_ 1 := andi main_v53 main_v57
  let main_v59 : FVec F S784 .f32 := Host.absf main_arg12
  let main_cst_22 : FVec F S_ .f32 := constant S_ .f32 0x7F800000#32
  let main_v60 : FVec F S784 .f32 := broadcastInDim S784 ![] bcast_S_S784 main_cst_22
  let main_v61 : IVec S784 1 := cmpf .olt main_v59 main_v60
  let main_c_23 : IVec S_ 1 := constantI S_ 1 1#1
  let main_v62 : IVec S_ 1 := (fun x v => Host.reduce IntOp.andi x v reducesTo_S784_S_d0 h_S_) main_v61 main_c_23
  let main_v63 : IVec S_ 1 := andi main_v58 main_v62
  main_v63

def fn_part2 {F : FTy → Type} [FloatOps F] (main_arg7 : FVec F S8x392 .f32) (main_arg8 : FVec F S392 .f32) (main_arg9 : FVec F S392 .f32) (main_arg10 : FVec F S392x784 .f32) (main_arg11 : FVec F S784 .f32) (main_arg12 : FVec F S784 .f32) (main_v33 : IVec S_ 1) : IVec S_ 1 :=
  let main_v34 : FVec F S8x392 .f32 := Host.absf main_arg7
  let main_cst_12 : FVec F S_ .f32 := constant S_ .f32 0x7F800000#32
  let main_v35 : FVec F S8x392 .f32 := broadcastInDim S8x392 ![] bcast_S_S8x392 main_cst_12
  let main_v36 : IVec S8x392 1 := cmpf .olt main_v34 main_v35
  let main_c_13 : IVec S_ 1 := constantI S_ 1 1#1
  let main_v37 : IVec S_ 1 := (fun x v => Host.reduce IntOp.andi x v reducesTo_S8x392_S_d0_1 h_S_) main_v36 main_c_13
  let main_v38 : IVec S_ 1 := andi main_v33 main_v37
  let main_v39 : FVec F S392 .f32 := Host.absf main_arg8
  let main_cst_14 : FVec F S_ .f32 := constant S_ .f32 0x7F800000#32
  let main_v40 : FVec F S392 .f32 := broadcastInDim S392 ![] bcast_S_S392 main_cst_14
  let main_v41 : IVec S392 1 := cmpf .olt main_v39 main_v40
  let main_c_15 : IVec S_ 1 := constantI S_ 1 1#1
  let main_v42 : IVec S_ 1 := (fun x v => Host.reduce IntOp.andi x v reducesTo_S392_S_d0 h_S_) main_v41 main_c_15
  let main_v43 : IVec S_ 1 := andi main_v38 main_v42
  let main_v44 : FVec F S392 .f32 := Host.absf main_arg9
  let main_cst_16 : FVec F S_ .f32 := constant S_ .f32 0x7F800000#32
  let main_v45 : FVec F S392 .f32 := broadcastInDim S392 ![] bcast_S_S392 main_cst_16
  let main_v46 : IVec S392 1 := cmpf .olt main_v44 main_v45
  let main_c_17 : IVec S_ 1 := constantI S_ 1 1#1
  let main_v47 : IVec S_ 1 := (fun x v => Host.reduce IntOp.andi x v reducesTo_S392_S_d0 h_S_) main_v46 main_c_17
  let main_v48 : IVec S_ 1 := andi main_v43 main_v47
  let main_v49 : FVec F S392x784 .f32 := Host.absf main_arg10
  let main_cst_18 : FVec F S_ .f32 := constant S_ .f32 0x7F800000#32
  let main_v50 : FVec F S392x784 .f32 := broadcastInDim S392x784 ![] bcast_S_S392x784 main_cst_18
  fn_part3 (F := F) main_arg11 main_arg12 main_v48 main_v49 main_v50

def fn_part1 {F : FTy → Type} [FloatOps F] (main_arg4 : FVec F S392x8 .f32) (main_arg5 : FVec F S8 .f32) (main_arg6 : FVec F S8 .f32) (main_arg7 : FVec F S8x392 .f32) (main_arg8 : FVec F S392 .f32) (main_arg9 : FVec F S392 .f32) (main_arg10 : FVec F S392x784 .f32) (main_arg11 : FVec F S784 .f32) (main_arg12 : FVec F S784 .f32) (main_v13 : IVec S_ 1) (main_v16 : IVec S392 1) : IVec S_ 1 :=
  let main_c_5 : IVec S_ 1 := constantI S_ 1 1#1
  let main_v17 : IVec S_ 1 := (fun x v => Host.reduce IntOp.andi x v reducesTo_S392_S_d0 h_S_) main_v16 main_c_5
  let main_v18 : IVec S_ 1 := andi main_v13 main_v17
  let main_v19 : FVec F S392x8 .f32 := Host.absf main_arg4
  let main_cst_6 : FVec F S_ .f32 := constant S_ .f32 0x7F800000#32
  let main_v20 : FVec F S392x8 .f32 := broadcastInDim S392x8 ![] bcast_S_S392x8 main_cst_6
  let main_v21 : IVec S392x8 1 := cmpf .olt main_v19 main_v20
  let main_c_7 : IVec S_ 1 := constantI S_ 1 1#1
  let main_v22 : IVec S_ 1 := (fun x v => Host.reduce IntOp.andi x v reducesTo_S392x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x784 .f32) (main_arg1 : FVec F S784x392 .f32) (main_arg2 : FVec F S392 .f32) (main_arg3 : FVec F S392 .f32) (main_arg4 : FVec F S392x8 .f32) (main_arg5 : FVec F S8 .f32) (main_arg6 : FVec F S8 .f32) (main_arg7 : FVec F S8x392 .f32) (main_arg8 : FVec F S392 .f32) (main_arg9 : FVec F S392 .f32) (main_arg10 : FVec F S392x784 .f32) (main_arg11 : FVec F S784 .f32) (main_arg12 : FVec F S784 .f32) : IVec S_ 1 :=
  let main_v0 : FVec F S1024x784 .f32 := Host.absf main_arg0
  let main_cst : FVec F S_ .f32 := constant S_ .f32 0x7F800000#32
  let main_v1 : FVec F S1024x784 .f32 := broadcastInDim S1024x784 ![] bcast_S_S1024x784 main_cst
  let main_v2 : IVec S1024x784 1 := cmpf .olt main_v0 main_v1
  let main_c : IVec S_ 1 := constantI S_ 1 1#1
  let main_v3 : IVec S_ 1 := (fun x v => Host.reduce IntOp.andi x v reducesTo_S1024x784_S_d0_1 h_S_) main_v2 main_c
  let main_v4 : FVec F S784x392 .f32 := Host.absf main_arg1
  let main_cst_0 : FVec F S_ .f32 := constant S_ .f32 0x7F800000#32
  let main_v5 : FVec F S784x392 .f32 := broadcastInDim S784x392 ![] bcast_S_S784x392 main_cst_0
  let main_v6 : IVec S784x392 1 := cmpf .olt main_v4 main_v5
  let main_c_1 : IVec S_ 1 := constantI S_ 1 1#1
  let main_v7 : IVec S_ 1 := (fun x v => Host.reduce IntOp.andi x v reducesTo_S784x392_S_d0_1 h_S_) main_v6 main_c_1
  let main_v8 : IVec S_ 1 := andi main_v3 main_v7
  let main_v9 : FVec F S392 .f32 := Host.absf main_arg2
  let main_cst_2 : FVec F S_ .f32 := constant S_ .f32 0x7F800000#32
  let main_v10 : FVec F S392 .f32 := broadcastInDim S392 ![] bcast_S_S392 main_cst_2
  let main_v11 : IVec S392 1 := cmpf .olt main_v9 main_v10
  let main_c_3 : IVec S_ 1 := constantI S_ 1 1#1
  let main_v12 : IVec S_ 1 := (fun x v => Host.reduce IntOp.andi x v reducesTo_S392_S_d0 h_S_) main_v11 main_c_3
  let main_v13 : IVec S_ 1 := andi main_v8 main_v12
  let main_v14 : FVec F S392 .f32 := Host.absf main_arg3
  let main_cst_4 : FVec F S_ .f32 := constant S_ .f32 0x7F800000#32
  let main_v15 : FVec F S392 .f32 := broadcastInDim S392 ![] bcast_S_S392 main_cst_4
  let main_v16 : IVec S392 1 := cmpf .olt main_v14 main_v15
  fn_part1 (F := F) main_arg4 main_arg5 main_arg6 main_arg7 main_arg8 main_arg9 main_arg10 main_arg11 main_arg12 main_v13 main_v16
-- ==== Kernel.lean ====
abbrev S1024x784 : Shape := ⟨2, ![1024, 784]⟩
abbrev S784x392 : Shape := ⟨2, ![784, 392]⟩
abbrev S392 : Shape := ⟨1, ![392]⟩
abbrev S392x8 : Shape := ⟨2, ![392, 8]⟩
abbrev S8 : Shape := ⟨1, ![8]⟩
abbrev S8x392 : Shape := ⟨2, ![8, 392]⟩
abbrev S392x784 : Shape := ⟨2, ![392, 784]⟩
abbrev S784 : Shape := ⟨1, ![784]⟩
abbrev S_ : Shape := ⟨0, ![]⟩
abbrev S1x392 : Shape := ⟨2, ![1, 392]⟩
abbrev S1x8 : Shape := ⟨2, ![1, 8]⟩
abbrev S1x784 : Shape := ⟨2, ![1, 784]⟩
abbrev S4 : Shape := ⟨1, ![4]⟩
abbrev S1024 : Shape := ⟨1, ![1024]⟩
abbrev S1024x1 : Shape := ⟨2, ![1024, 1]⟩
abbrev S1024x392 : Shape := ⟨2, ![1024, 392]⟩
abbrev S1024x8 : Shape := ⟨2, ![1024, 8]⟩
abbrev S256x784 : Shape := ⟨2, ![256, 784]⟩
abbrev S1 : Shape := ⟨1, ![1]⟩

abbrev nBuf : Space → Nat
  | .hbm => 42
  | .vmem => 18
  | .smem => 0
  | _ => 0

abbrev bufTy : (tb : Table) → Fin (tcTables nBuf tb) → BufTy
  | .hbm, ⟨0, _⟩ => ⟨S1024x784, .f32⟩
  | .hbm, ⟨1, _⟩ => ⟨S784x392, .f32⟩
  | .hbm, ⟨2, _⟩ => ⟨S392, .f32⟩
  | .hbm, ⟨3, _⟩ => ⟨S392, .f32⟩
  | .hbm, ⟨4, _⟩ => ⟨S392x8, .f32⟩
  | .hbm, ⟨5, _⟩ => ⟨S8, .f32⟩
  | .hbm, ⟨6, _⟩ => ⟨S8, .f32⟩
  | .hbm, ⟨7, _⟩ => ⟨S8x392, .f32⟩
  | .hbm, ⟨8, _⟩ => ⟨S392, .f32⟩
  | .hbm, ⟨9, _⟩ => ⟨S392, .f32⟩
  | .hbm, ⟨10, _⟩ => ⟨S392x784, .f32⟩
  | .hbm, ⟨11, _⟩ => ⟨S784, .f32⟩
  | .hbm, ⟨12, _⟩ => ⟨S784, .f32⟩
  | .hbm, ⟨13, _⟩ => ⟨S784x392, .bf16⟩
  | .hbm, ⟨14, _⟩ => ⟨S784x392, .f32⟩
  | .hbm, ⟨15, _⟩ => ⟨S_, .f32⟩
  | .hbm, ⟨16, _⟩ => ⟨S392, .f32⟩
  | .hbm, ⟨17, _⟩ => ⟨S1x392, .f32⟩
  | .hbm, ⟨18, _⟩ => ⟨S392x8, .bf16⟩
  | .hbm, ⟨19, _⟩ => ⟨S392x8, .f32⟩
  | .hbm, ⟨20, _⟩ => ⟨S_, .f32⟩
  | .hbm, ⟨21, _⟩ => ⟨S8, .f32⟩
  | .hbm, ⟨22, _⟩ => ⟨S1x8, .f32⟩
  | .hbm, ⟨23, _⟩ => ⟨S8x392, .bf16⟩
  | .hbm, ⟨24, _⟩ => ⟨S8x392, .f32⟩
  | .hbm, ⟨25, _⟩ => ⟨S_, .f32⟩
  | .hbm, ⟨26, _⟩ => ⟨S392, .f32⟩
  | .hbm, ⟨27, _⟩ => ⟨S1x392, .f32⟩
  | .hbm, ⟨28, _⟩ => ⟨S392x784, .bf16⟩
  | .hbm, ⟨29, _⟩ => ⟨S392x784, .f32⟩
  | .hbm, ⟨30, _⟩ => ⟨S_, .f32⟩
  | .hbm, ⟨31, _⟩ => ⟨S784, .f32⟩
  | .hbm, ⟨32, _⟩ => ⟨S1x784, .f32⟩
  | .hbm, ⟨33, _⟩ => ⟨S1x392, .f32⟩
  | .hbm, ⟨34, _⟩ => ⟨S1x392, .f32⟩
  | .hbm, ⟨35, _⟩ => ⟨S1x8, .f32⟩
  | .hbm, ⟨36, _⟩ => ⟨S1x8, .f32⟩
  | .hbm, ⟨37, _⟩ => ⟨S1x392, .f32⟩
  | .hbm, ⟨38, _⟩ => ⟨S1x392, .f32⟩
  | .hbm, ⟨39, _⟩ => ⟨S1x784, .f32⟩
  | .hbm, ⟨40, _⟩ => ⟨S1x784, .f32⟩
  | .hbm, ⟨41, _⟩ => ⟨S1024x784, .f32⟩
  | .local _ .vmem, ⟨0, _⟩ => ⟨S1024x784, .f32⟩
  | .local _ .vmem, ⟨1, _⟩ => ⟨S784x392, .bf16⟩
  | .local _ .vmem, ⟨2, _⟩ => ⟨S1x392, .f32⟩
  | .local _ .vmem, ⟨3, _⟩ => ⟨S1x392, .f32⟩
  | .local _ .vmem, ⟨4, _⟩ => ⟨S1x392, .f32⟩
  | .local _ .vmem, ⟨5, _⟩ => ⟨S392x8, .bf16⟩
  | .local _ .vmem, ⟨6, _⟩ => ⟨S1x8, .f32⟩
  | .local _ .vmem, ⟨7, _⟩ => ⟨S1x8, .f32⟩
  | .local _ .vmem, ⟨8, _⟩ => ⟨S1x8, .f32⟩
  | .local _ .vmem, ⟨9, _⟩ => ⟨S8x392, .bf16⟩
  | .local _ .vmem, ⟨10, _⟩ => ⟨S1x392, .f32⟩
  | .local _ .vmem, ⟨11, _⟩ => ⟨S1x392, .f32⟩
  | .local _ .vmem, ⟨12, _⟩ => ⟨S1x392, .f32⟩
  | .local _ .vmem, ⟨13, _⟩ => ⟨S392x784, .bf16⟩
  | .local _ .vmem, ⟨14, _⟩ => ⟨S1x784, .f32⟩
  | .local _ .vmem, ⟨15, _⟩ => ⟨S1x784, .f32⟩
  | .local _ .vmem, ⟨16, _⟩ => ⟨S1x784, .f32⟩
  | .local _ .vmem, ⟨17, _⟩ => ⟨S1024x784, .f32⟩
  | _, _ => ⟨S1024x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_cst_0 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_cst_1 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst_2 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_v0 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x392 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x392 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x392 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x392 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S392x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x392 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x392 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x392 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x392 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S392x784 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x784 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x784 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x784 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

class Facts₀ : Prop where
  bitsLt_bf16_f32 : FTy.bits .bf16 < FTy.bits .f32
  reducesTo_S784x392_S392_d0 : S784x392.ReducesTo [0] S392
  h_S_ : 0 < S_.numel
  bcast_S392_S1x392_1 : S392.BroadcastsInDim S1x392 (![1] : Fin 1 → Fin S1x392.rank)
  reducesTo_S392x8_S8_d0 : S392x8.ReducesTo [0] S8
  bcast_S8_S1x8_1 : S8.BroadcastsInDim S1x8 (![1] : Fin 1 → Fin S1x8.rank)
  reducesTo_S8x392_S392_d0 : S8x392.ReducesTo [0] S392
  reducesTo_S392x784_S784_d0 : S392x784.ReducesTo [0] S784
  bcast_S784_S1x784_1 : S784.BroadcastsInDim S1x784 (![1] : Fin 1 → Fin S1x784.rank)
  shapeCasts_S392_S1x392 : S392.ShapeCasts S1x392
  shapeCasts_S8_S1x8 : S8.ShapeCasts S1x8
  shapeCasts_S784_S1x784 : S784.ShapeCasts S1x784
  inb_S1024x784_S1024x784_0_0 : ∀ a, (![0, 0] : Fin 2 → Nat) a + S1024x784.size a ≤ S1024x784.size a
  h_S1024x784 : 0 < S1024x784.numel
  inb_S784x392_S784x392_0_0 : ∀ a, (![0, 0] : Fin 2 → Nat) a + S784x392.size a ≤ S784x392.size a
  h_S784x392 : 0 < S784x392.numel
  shapeCasts_S784x392_S784x392 : S784x392.ShapeCasts S784x392
  inb_S1x392_S1x392_0_0 : ∀ a, (![0, 0] : Fin 2 → Nat) a + S1x392.size a ≤ S1x392.size a
  h_S1x392 : 0 < S1x392.numel
  shapeCasts_S1x392_S1x392 : S1x392.ShapeCasts S1x392
  reduces_S1024x784_S1024 : S1024x784.Reduces [1] S1024
  shapeCasts_S1024_S1024x1 : S1024.ShapeCasts S1024x1
  broadcasts_S1024x1_S1024x392 : S1024x1.Broadcasts S1024x392
  broadcasts_S1x392_S1024x392 : S1x392.Broadcasts S1024x392
  reduces_S1024x392_S392 : S1024x392.Reduces [0] S392
  inb_S392x8_S392x8_0_0 : ∀ a, (![0, 0] : Fin 2 → Nat) a + S392x8.size a ≤ S392x8.size a
  h_S392x8 : 0 < S392x8.numel
  shapeCasts_S392x8_S392x8 : S392x8.ShapeCasts S392x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  reduces_S1024x392_S1024 : S1024x392.Reduces [1] S1024
  broadcasts_S1024x1_S1024x8 : S1024x1.Broadcasts S1024x8
  broadcasts_S1x8_S1024x8 : S1x8.Broadcasts S1024x8
  reduces_S1024x8_S8 : S1024x8.Reduces [0] S8
  inb_S8x392_S8x392_0_0 : ∀ a, (![0, 0] : Fin 2 → Nat) a + S8x392.size a ≤ S8x392.size a
  h_S8x392 : 0 < S8x392.numel
  shapeCasts_S8x392_S8x392 : S8x392.ShapeCasts S8x392
  reduces_S1024x8_S1024 : S1024x8.Reduces [1] S1024
  inb_S392x784_S392x784_0_0 : ∀ a, (![0, 0] : Fin 2 → Nat) a + S392x784.size a ≤ S392x784.size a
  h_S392x784 : 0 < S392x784.numel
  shapeCasts_S392x784_S392x784 : S392x784.ShapeCasts S392x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1024x1_S1024x784 : S1024x1.Broadcasts S1024x784
  broadcasts_S1x784_S1024x784 : S1x784.Broadcasts S1024x784
  reduces_S1024x784_S784 : S1024x784.Reduces [0] S784
  slices_S1024x784_o0_0_S256x784 : S1024x784.Slices ![0, 0] S256x784
  broadcasts_S1x784_S256x784 : S1x784.Broadcasts S256x784
  inb_S1024x784_S256x784_0_0 : ∀ a, (![0, 0] : Fin 2 → Nat) a + S256x784.size a ≤ S1024x784.size a
  h_S256x784 : 0 < S256x784.numel
  shapeCasts_S256x784_S256x784 : S256x784.ShapeCasts S256x784
  inb_S4_S1_0 : ∀ a, (![0] : Fin 1 → Nat) a + S1.size a ≤ S4.size a
  squeezes_S1_S_ : S1.Squeezes S_
  slices_S1024x784_o256_0_S256x784 : S1024x784.Slices ![256, 0] S256x784
  inb_S1024x784_S256x784_256_0 : ∀ a, (![256, 0] : Fin 2 → Nat) a + S256x784.size a ≤ S1024x784.size a
  inb_S4_S1_1 : ∀ a, (![1] : Fin 1 → Nat) a + S1.size a ≤ S4.size a
  slices_S1024x784_o512_0_S256x784 : S1024x784.Slices ![512, 0] S256x784
  inb_S1024x784_S256x784_512_0 : ∀ a, (![512, 0] : Fin 2 → Nat) a + S256x784.size a ≤ S1024x784.size a
  inb_S4_S1_2 : ∀ a, (![2] : Fin 1 → Nat) a + S1.size a ≤ S4.size a
  slices_S1024x784_o768_0_S256x784 : S1024x784.Slices ![768, 0] S256x784
  inb_S1024x784_S256x784_768_0 : ∀ a, (![768, 0] : Fin 2 → Nat) a + S256x784.size a ≤ S1024x784.size a
  inb_S4_S1_3 : ∀ a, (![3] : Fin 1 → Nat) a + S1.size a ≤ S4.size a
  dot_S1024x784_S784x392_S1024x392_1_0_0_1_n_n_wf : DotDims.WF S1024x784 S784x392 S1024x392 [1] [0] [0] [1] [] []
  dot_S1024x392_S392x8_S1024x8_1_0_0_1_n_n_wf : DotDims.WF S1024x392 S392x8 S1024x8 [1] [0] [0] [1] [] []
  dot_S1024x8_S8x392_S1024x392_1_0_0_1_n_n_wf : DotDims.WF S1024x8 S8x392 S1024x392 [1] [0] [0] [1] [] []
  dot_S1024x392_S392x784_S1024x784_1_0_0_1_n_n_wf : DotDims.WF S1024x392 S392x784 S1024x784 [1] [0] [0] [1] [] []
  hcc0_scratch1 : 17 + S4.numel ≤ 21
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S1024x784.size a
  hwx0_0 : ∀ i : grid0.Coords, EltTy.bits .f32 = 32 ∨ (Rect.block (s := S1024x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x392.size a ≤ S784x392.size a
  hwx0_1 : ∀ i : grid0.Coords, EltTy.bits .bf16 = 32 ∨ (Rect.block (s := S784x392) S784x392.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x392.size a ≤ S1x392.size a
  hwx0_2 : ∀ i : grid0.Coords, EltTy.bits .f32 = 32 ∨ (Rect.block (s := S1x392) S1x392.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x392.size a ≤ S1x392.size a
  hwx0_3 : ∀ i : grid0.Coords, EltTy.bits .f32 = 32 ∨ (Rect.block (s := S1x392) S1x392.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x392.size a ≤ S1x392.size a
  hwx0_4 : ∀ i : grid0.Coords, EltTy.bits .f32 = 32 ∨ (Rect.block (s := S1x392) S1x392.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S392x8.size a ≤ S392x8.size a
  hwx0_5 : ∀ i : grid0.Coords, EltTy.bits .bf16 = 32 ∨ (Rect.block (s := S392x8) S392x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x392.size a ≤ S8x392.size a
  hwx0_9 : ∀ i : grid0.Coords, EltTy.bits .bf16 = 32 ∨ (Rect.block (s := S8x392) S8x392.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x392.size a ≤ S1x392.size a
  hwx0_10 : ∀ i : grid0.Coords, EltTy.bits .f32 = 32 ∨ (Rect.block (s := S1x392) S1x392.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x392.size a ≤ S1x392.size a
  hwx0_11 : ∀ i : grid0.Coords, EltTy.bits .f32 = 32 ∨ (Rect.block (s := S1x392) S1x392.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x392.size a ≤ S1x392.size a
  hwx0_12 : ∀ i : grid0.Coords, EltTy.bits .f32 = 32 ∨ (Rect.block (s := S1x392) S1x392.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S392x784.size a ≤ S392x784.size a
  hwx0_13 : ∀ i : grid0.Coords, EltTy.bits .bf16 = 32 ∨ (Rect.block (s := S392x784) S392x784.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x784.size a ≤ S1x784.size a
  hwx0_14 : ∀ i : grid0.Coords, EltTy.bits .f32 = 32 ∨ (Rect.block (s := S1x784) S1x784.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x784.size a ≤ S1x784.size a
  hwx0_15 : ∀ i : grid0.Coords, EltTy.bits .f32 = 32 ∨ (Rect.block (s := S1x784) S1x784.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x784.size a ≤ S1x784.size a
  hwx0_16 : ∀ i : grid0.Coords, EltTy.bits .f32 = 32 ∨ (Rect.block (s := S1x784) S1x784.size (cc0_transform_16 i) (hinb0_16 i)).WholeWords (EltTy.packing .f32)

variable [Facts₀]

abbrev cc0_scratch1 : DmaSems sig S4 := SemArray.consecutive 17 S4 hcc0_scratch1
def dot_S1024x784_S784x392_S1024x392_1_0_0_1_n_n : DotDims S1024x784 S784x392 S1024x392 where
  lhsContracting := [1]
  rhsContracting := [0]
  lhsNonContracting := [0]
  rhsNonContracting := [1]
  lhsBatch := []
  rhsBatch := []
  wf := dot_S1024x784_S784x392_S1024x392_1_0_0_1_n_n_wf
def dot_S1024x392_S392x8_S1024x8_1_0_0_1_n_n : DotDims S1024x392 S392x8 S1024x8 where
  lhsContracting := [1]
  rhsContracting := [0]
  lhsNonContracting := [0]
  rhsNonContracting := [1]
  lhsBatch := []
  rhsBatch := []
  wf := dot_S1024x392_S392x8_S1024x8_1_0_0_1_n_n_wf
def dot_S1024x8_S8x392_S1024x392_1_0_0_1_n_n : DotDims S1024x8 S8x392 S1024x392 where
  lhsContracting := [1]
  rhsContracting := [0]
  lhsNonContracting := [0]
  rhsNonContracting := [1]
  lhsBatch := []
  rhsBatch := []
  wf := dot_S1024x8_S8x392_S1024x392_1_0_0_1_n_n_wf
def dot_S1024x392_S392x784_S1024x784_1_0_0_1_n_n : DotDims S1024x392 S392x784 S1024x784 where
  lhsContracting := [1]
  rhsContracting := [0]
  lhsNonContracting := [0]
  rhsNonContracting := [1]
  lhsBatch := []
  rhsBatch := []
  wf := dot_S1024x392_S392x784_S1024x784_1_0_0_1_n_n_wf

abbrev win0_0 : Pipeline.Window sig grid0 :=
  Pipeline.Window.ofSpec (Memref.whole main_arg0) S1024x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S784x392.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x392.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S1x392.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S1x392.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S392x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v18) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v19) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v8) S8x392.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v11) S1x392.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v20) S1x392.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v21) S1x392.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v12) S392x784.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v15) S1x784.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v22) S1x784.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v23) S1x784.size cc0_transform_16 reads0_16 false true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x784 : Shape := ⟨2, ![1024, 784]⟩
abbrev S784x392 : Shape := ⟨2, ![784, 392]⟩
abbrev S392 : Shape := ⟨1, ![392]⟩
abbrev S392x8 : Shape := ⟨2, ![392, 8]⟩
abbrev S8 : Shape := ⟨1, ![8]⟩
abbrev S8x392 : Shape := ⟨2, ![8, 392]⟩
abbrev S392x784 : Shape := ⟨2, ![392, 784]⟩
abbrev S784 : Shape := ⟨1, ![784]⟩
abbrev S_ : Shape := ⟨0, ![]⟩
abbrev S1024 : Shape := ⟨1, ![1024]⟩
abbrev S1024x1 : Shape := ⟨2, ![1024, 1]⟩
abbrev S1024x392 : Shape := ⟨2, ![1024, 392]⟩
abbrev S1x392 : Shape := ⟨2, ![1, 392]⟩
abbrev S1024x8 : Shape := ⟨2, ![1024, 8]⟩
abbrev S1x8 : Shape := ⟨2, ![1, 8]⟩
abbrev S1x784 : Shape := ⟨2, ![1, 784]⟩

abbrev nBuf : Space → Nat
  | .hbm => 282
  | .vmem => 0
  | .smem => 0
  | _ => 0

abbrev hbmTy0_0 (i : Nat) : BufTy := match i % 128 with
  | 0 => ⟨S1024x784, .f32⟩
  | 1 => ⟨S784x392, .f32⟩
  | 2 => ⟨S392, .f32⟩
  | 3 => ⟨S392, .f32⟩
  | 4 => ⟨S392x8, .f32⟩
  | 5 => ⟨S8, .f32⟩
  | 6 => ⟨S8, .f32⟩
  | 7 => ⟨S8x392, .f32⟩
  | 8 => ⟨S392, .f32⟩
  | 9 => ⟨S392, .f32⟩
  | 10 => ⟨S392x784, .f32⟩
  | 11 => ⟨S784, .f32⟩
  | 12 => ⟨S784, .f32⟩
  | 13 => ⟨S1024x784, .f32⟩
  | 14 => ⟨S_, .f32⟩
  | 15 => ⟨S1024, .f32⟩
  | 16 => ⟨S1024x1, .f32⟩
  | 17 => ⟨S784x392, .f32⟩
  | 18 => ⟨S_, .f32⟩
  | 19 => ⟨S392, .f32⟩
  | 20 => ⟨S1024x392, .f32⟩
  | 21 => ⟨S_, .f32⟩
  | 22 => ⟨S1024x392, .f32⟩
  | 23 => ⟨S1024x392, .f32⟩
  | 24 => ⟨S1024x392, .f32⟩
  | 25 => ⟨S1024x392, .f32⟩
  | 26 => ⟨S1x392, .f32⟩
  | 27 => ⟨S1024x392, .f32⟩
  | 28 => ⟨S1024x392, .f32⟩
  | 29 => ⟨S_, .f32⟩
  | 30 => ⟨S1024x392, .f32⟩
  | 31 => ⟨S1024x392, .f32⟩
  | 32 => ⟨S_, .f32⟩
  | 33 => ⟨S392, .f32⟩
  | 34 => ⟨S_, .f32⟩
  | 35 => ⟨S392, .f32⟩
  | 36 => ⟨S392, .f32⟩
  | 37 => ⟨S_, .i32⟩
  | 38 => ⟨S_, .f32⟩
  | 39 => ⟨S392, .f32⟩
  | 40 => ⟨S1x392, .f32⟩
  | 41 => ⟨S_, .f32⟩
  | 42 => ⟨S1x392, .f32⟩
  | 43 => ⟨S1x392, .f32⟩
  | 44 => ⟨S1024x392, .f32⟩
  | 45 => ⟨S1024x392, .f32⟩
  | 46 => ⟨S1024x392, .f32⟩
  | 47 => ⟨S_, .f32⟩
  | 48 => ⟨S_, .f32⟩
  | 49 => ⟨S_, .f32⟩
  | 50 => ⟨S_, .f32⟩
  | 51 => ⟨S392, .f32⟩
  | 52 => ⟨S392, .f32⟩
  | 53 => ⟨S392, .f32⟩
  | 54 => ⟨S_, .f32⟩
  | 55 => ⟨S_, .i1⟩
  | 56 => ⟨S_, .f32⟩
  | 57 => ⟨S_, .f32⟩
  | 58 => ⟨S392, .f32⟩
  | 59 => ⟨S392, .f32⟩
  | 60 => ⟨S1x392, .f32⟩
  | 61 => ⟨S1024x392, .f32⟩
  | 62 => ⟨S1024x392, .f32⟩
  | 63 => ⟨S1x392, .f32⟩
  | 64 => ⟨S1024x392, .f32⟩
  | 65 => ⟨S1024x392, .f32⟩
  | 66 => ⟨S_, .f32⟩
  | 67 => ⟨S392, .f32⟩
  | 68 => ⟨S392, .f32⟩
  | 69 => ⟨S392, .f32⟩
  | 70 => ⟨S1x392, .f32⟩
  | 71 => ⟨S1024x392, .f32⟩
  | 72 => ⟨S1024x392, .f32⟩
  | 73 => ⟨S1x392, .f32⟩
  | 74 => ⟨S1024x392, .f32⟩
  | 75 => ⟨S1024x392, .f32⟩
  | 76 => ⟨S_, .f32⟩
  | 77 => ⟨S1024x392, .f32⟩
  | 78 => ⟨S1024x392, .f32⟩
  | 79 => ⟨S1024x392, .f32⟩
  | 80 => ⟨S_, .f32⟩
  | 81 => ⟨S1024, .f32⟩
  | 82 => ⟨S1024x1, .f32⟩
  | 83 => ⟨S392x8, .f32⟩
  | 84 => ⟨S_, .f32⟩
  | 85 => ⟨S8, .f32⟩
  | 86 => ⟨S1024x8, .f32⟩
  | 87 => ⟨S_, .f32⟩
  | 88 => ⟨S1024x8, .f32⟩
  | 89 => ⟨S1024x8, .f32⟩
  | 90 => ⟨S1024x8, .f32⟩
  | 91 => ⟨S1024x8, .f32⟩
  | 92 => ⟨S1x8, .f32⟩
  | 93 => ⟨S1024x8, .f32⟩
  | 94 => ⟨S1024x8, .f32⟩
  | 95 => ⟨S_, .f32⟩
  | 96 => ⟨S1024x8, .f32⟩
  | 97 => ⟨S1024x8, .f32⟩
  | 98 => ⟨S_, .f32⟩
  | 99 => ⟨S8, .f32⟩
  | 100 => ⟨S_, .f32⟩
  | 101 => ⟨S8, .f32⟩
  | 102 => ⟨S8, .f32⟩
  | 103 => ⟨S_, .i32⟩
  | 104 => ⟨S_, .f32⟩
  | 105 => ⟨S8, .f32⟩
  | 106 => ⟨S1x8, .f32⟩
  | 107 => ⟨S_, .f32⟩
  | 108 => ⟨S1x8, .f32⟩
  | 109 => ⟨S1x8, .f32⟩
  | 110 => ⟨S1024x8, .f32⟩
  | 111 => ⟨S1024x8, .f32⟩
  | 112 => ⟨S1024x8, .f32⟩
  | 113 => ⟨S_, .f32⟩
  | 114 => ⟨S_, .f32⟩
  | 115 => ⟨S_, .f32⟩
  | 116 => ⟨S_, .f32⟩
  | 117 => ⟨S8, .f32⟩
  | 118 => ⟨S8, .f32⟩
  | 119 => ⟨S8, .f32⟩
  | 120 => ⟨S_, .f32⟩
  | 121 => ⟨S_, .i1⟩
  | 122 => ⟨S_, .f32⟩
  | 123 => ⟨S_, .f32⟩
  | 124 => ⟨S8, .f32⟩
  | 125 => ⟨S8, .f32⟩
  | 126 => ⟨S1x8, .f32⟩
  | 127 => ⟨S1024x8, .f32⟩
  | _ => ⟨S1024x784, .f32⟩

abbrev hbmTy0_1 (i : Nat) : BufTy := match i % 128 with
  | 0 => ⟨S1024x8, .f32⟩
  | 1 => ⟨S1x8, .f32⟩
  | 2 => ⟨S1024x8, .f32⟩
  | 3 => ⟨S1024x8, .f32⟩
  | 4 => ⟨S_, .f32⟩
  | 5 => ⟨S8, .f32⟩
  | 6 => ⟨S8, .f32⟩
  | 7 => ⟨S8, .f32⟩
  | 8 => ⟨S1x8, .f32⟩
  | 9 => ⟨S1024x8, .f32⟩
  | 10 => ⟨S1024x8, .f32⟩
  | 11 => ⟨S1x8, .f32⟩
  | 12 => ⟨S1024x8, .f32⟩
  | 13 => ⟨S1024x8, .f32⟩
  | 14 => ⟨S_, .f32⟩
  | 15 => ⟨S1024x8, .f32⟩
  | 16 => ⟨S1024x8, .f32⟩
  | 17 => ⟨S1024x8, .f32⟩
  | 18 => ⟨S_, .f32⟩
  | 19 => ⟨S1024, .f32⟩
  | 20 => ⟨S1024x1, .f32⟩
  | 21 => ⟨S8x392, .f32⟩
  | 22 => ⟨S_, .f32⟩
  | 23 => ⟨S392, .f32⟩
  | 24 => ⟨S1024x392, .f32⟩
  | 25 => ⟨S_, .f32⟩
  | 26 => ⟨S1024x392, .f32⟩
  | 27 => ⟨S1024x392, .f32⟩
  | 28 => ⟨S1024x392, .f32⟩
  | 29 => ⟨S1024x392, .f32⟩
  | 30 => ⟨S1x392, .f32⟩
  | 31 => ⟨S1024x392, .f32⟩
  | 32 => ⟨S1024x392, .f32⟩
  | 33 => ⟨S_, .f32⟩
  | 34 => ⟨S1024x392, .f32⟩
  | 35 => ⟨S1024x392, .f32⟩
  | 36 => ⟨S_, .f32⟩
  | 37 => ⟨S392, .f32⟩
  | 38 => ⟨S_, .f32⟩
  | 39 => ⟨S392, .f32⟩
  | 40 => ⟨S392, .f32⟩
  | 41 => ⟨S_, .i32⟩
  | 42 => ⟨S_, .f32⟩
  | 43 => ⟨S392, .f32⟩
  | 44 => ⟨S1x392, .f32⟩
  | 45 => ⟨S_, .f32⟩
  | 46 => ⟨S1x392, .f32⟩
  | 47 => ⟨S1x392, .f32⟩
  | 48 => ⟨S1024x392, .f32⟩
  | 49 => ⟨S1024x392, .f32⟩
  | 50 => ⟨S1024x392, .f32⟩
  | 51 => ⟨S_, .f32⟩
  | 52 => ⟨S_, .f32⟩
  | 53 => ⟨S_, .f32⟩
  | 54 => ⟨S_, .f32⟩
  | 55 => ⟨S392, .f32⟩
  | 56 => ⟨S392, .f32⟩
  | 57 => ⟨S392, .f32⟩
  | 58 => ⟨S_, .f32⟩
  | 59 => ⟨S_, .i1⟩
  | 60 => ⟨S_, .f32⟩
  | 61 => ⟨S_, .f32⟩
  | 62 => ⟨S392, .f32⟩
  | 63 => ⟨S392, .f32⟩
  | 64 => ⟨S1x392, .f32⟩
  | 65 => ⟨S1024x392, .f32⟩
  | 66 => ⟨S1024x392, .f32⟩
  | 67 => ⟨S1x392, .f32⟩
  | 68 => ⟨S1024x392, .f32⟩
  | 69 => ⟨S1024x392, .f32⟩
  | 70 => ⟨S_, .f32⟩
  | 71 => ⟨S392, .f32⟩
  | 72 => ⟨S392, .f32⟩
  | 73 => ⟨S392, .f32⟩
  | 74 => ⟨S1x392, .f32⟩
  | 75 => ⟨S1024x392, .f32⟩
  | 76 => ⟨S1024x392, .f32⟩
  | 77 => ⟨S1x392, .f32⟩
  | 78 => ⟨S1024x392, .f32⟩
  | 79 => ⟨S1024x392, .f32⟩
  | 80 => ⟨S_, .f32⟩
  | 81 => ⟨S1024x392, .f32⟩
  | 82 => ⟨S1024x392, .f32⟩
  | 83 => ⟨S1024x392, .f32⟩
  | 84 => ⟨S_, .f32⟩
  | 85 => ⟨S1024, .f32⟩
  | 86 => ⟨S1024x1, .f32⟩
  | 87 => ⟨S392x784, .f32⟩
  | 88 => ⟨S_, .f32⟩
  | 89 => ⟨S784, .f32⟩
  | 90 => ⟨S1024x784, .f32⟩
  | 91 => ⟨S_, .f32⟩
  | 92 => ⟨S1024x784, .f32⟩
  | 93 => ⟨S1024x784, .f32⟩
  | 94 => ⟨S1024x784, .f32⟩
  | 95 => ⟨S1024x784, .f32⟩
  | 96 => ⟨S1x784, .f32⟩
  | 97 => ⟨S1024x784, .f32⟩
  | 98 => ⟨S1024x784, .f32⟩
  | 99 => ⟨S_, .f32⟩
  | 100 => ⟨S1024x784, .f32⟩
  | 101 => ⟨S1024x784, .f32⟩
  | 102 => ⟨S_, .f32⟩
  | 103 => ⟨S784, .f32⟩
  | 104 => ⟨S_, .f32⟩
  | 105 => ⟨S784, .f32⟩
  | 106 => ⟨S784, .f32⟩
  | 107 => ⟨S_, .i32⟩
  | 108 => ⟨S_, .f32⟩
  | 109 => ⟨S784, .f32⟩
  | 110 => ⟨S1x784, .f32⟩
  | 111 => ⟨S_, .f32⟩
  | 112 => ⟨S1x784, .f32⟩
  | 113 => ⟨S1x784, .f32⟩
  | 114 => ⟨S1024x784, .f32⟩
  | 115 => ⟨S1024x784, .f32⟩
  | 116 => ⟨S1024x784, .f32⟩
  | 117 => ⟨S_, .f32⟩
  | 118 => ⟨S_, .f32⟩
  | 119 => ⟨S_, .f32⟩
  | 120 => ⟨S_, .f32⟩
  | 121 => ⟨S784, .f32⟩
  | 122 => ⟨S784, .f32⟩
  | 123 => ⟨S784, .f32⟩
  | 124 => ⟨S_, .f32⟩
  | 125 => ⟨S_, .i1⟩
  | 126 => ⟨S_, .f32⟩
  | 127 => ⟨S_, .f32⟩
  | _ => ⟨S1024x784, .f32⟩

abbrev hbmTy0_2 (i : Nat) : BufTy := match i % 128 with
  | 0 => ⟨S784, .f32⟩
  | 1 => ⟨S784, .f32⟩
  | 2 => ⟨S1x784, .f32⟩
  | 3 => ⟨S1024x784, .f32⟩
  | 4 => ⟨S1024x784, .f32⟩
  | 5 => ⟨S1x784, .f32⟩
  | 6 => ⟨S1024x784, .f32⟩
  | 7 => ⟨S1024x784, .f32⟩
  | 8 => ⟨S_, .f32⟩
  | 9 => ⟨S784, .f32⟩
  | 10 => ⟨S784, .f32⟩
  | 11 => ⟨S784, .f32⟩
  | 12 => ⟨S1x784, .f32⟩
  | 13 => ⟨S1024x784, .f32⟩
  | 14 => ⟨S1024x784, .f32⟩
  | 15 => ⟨S1x784, .f32⟩
  | 16 => ⟨S1024x784, .f32⟩
  | 17 => ⟨S1024x784, .f32⟩
  | 18 => ⟨S1024x784, .f32⟩
  | 19 => ⟨S1024x784, .f32⟩
  | 20 => ⟨S_, .f32⟩
  | 21 => ⟨S1024x784, .f32⟩
  | 22 => ⟨S1024x784, .f32⟩
  | 23 => ⟨S_, .f32⟩
  | 24 => ⟨S1024x784, .f32⟩
  | 25 => ⟨S1024x784, .f32⟩
  | _ => ⟨S1024x784, .f32⟩

abbrev hbmTy (i : Nat) : BufTy := match i / 128 with
  | 0 => hbmTy0_0 i
  | 1 => hbmTy0_1 i
  | 2 => hbmTy0_2 i
  | _ => ⟨S1024x784, .f32⟩

abbrev bufTy : (tb : Table) → Fin (tcTables nBuf tb) → BufTy
  | .hbm, ⟨i, _⟩ => hbmTy i
  | _, _ => ⟨S1024x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_5 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_call1_cst : Ref sig .tc := ⟨.hbm, 76, rfl⟩
abbrev main_call1_v0 : Ref sig .tc := ⟨.hbm, 77, rfl⟩
abbrev main_v34 : Ref sig .tc := ⟨.hbm, 78, rfl⟩
abbrev main_v35 : Ref sig .tc := ⟨.hbm, 79, rfl⟩
abbrev main_cst_6 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_7 : Ref sig .tc := ⟨.hbm, 84, rfl⟩
abbrev main_v39 : Ref sig .tc := ⟨.hbm, 85, rfl⟩
abbrev main_v40 : Ref sig .tc := ⟨.hbm, 86, rfl⟩
abbrev main_cst_8 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_9 : Ref sig .tc := ⟨.hbm, 95, rfl⟩
abbrev main_v48 : Ref sig .tc := ⟨.hbm, 96, rfl⟩
abbrev main_v49 : Ref sig .tc := ⟨.hbm, 97, rfl⟩
abbrev main_cst_10 : Ref sig .tc := ⟨.hbm, 98, rfl⟩
abbrev main_v50 : Ref sig .tc := ⟨.hbm, 99, rfl⟩
abbrev main_cst_11 : Ref sig .tc := ⟨.hbm, 100, rfl⟩
abbrev main_v51 : Ref sig .tc := ⟨.hbm, 101, rfl⟩
abbrev main_v52 : Ref sig .tc := ⟨.hbm, 102, rfl⟩
abbrev main_c_12 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_cst_3 : Ref sig .tc := ⟨.hbm, 120, rfl⟩
abbrev main_call2_v12 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_cst_13 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_call3_cst : Ref sig .tc := ⟨.hbm, 142, rfl⟩
abbrev main_call3_v0 : Ref sig .tc := ⟨.hbm, 143, rfl⟩
abbrev main_v69 : Ref sig .tc := ⟨.hbm, 144, rfl⟩
abbrev main_v70 : Ref sig .tc := ⟨.hbm, 145, rfl⟩
abbrev main_cst_14 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_15 : Ref sig .tc := ⟨.hbm, 150, rfl⟩
abbrev main_v74 : Ref sig .tc := ⟨.hbm, 151, rfl⟩
abbrev main_v75 : Ref sig .tc := ⟨.hbm, 152, rfl⟩
abbrev main_cst_16 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_cst_17 : Ref sig .tc := ⟨.hbm, 161, rfl⟩
abbrev main_v83 : Ref sig .tc := ⟨.hbm, 162, rfl⟩
abbrev main_v84 : Ref sig .tc := ⟨.hbm, 163, rfl⟩
abbrev main_cst_18 : Ref sig .tc := ⟨.hbm, 164, rfl⟩
abbrev main_v85 : Ref sig .tc := ⟨.hbm, 165, rfl⟩
abbrev main_cst_19 : Ref sig .tc := ⟨.hbm, 166, rfl⟩
abbrev main_v86 : Ref sig .tc := ⟨.hbm, 167, rfl⟩
abbrev main_v87 : Ref sig .tc := ⟨.hbm, 168, rfl⟩
abbrev main_c_20 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_cst_3 : Ref sig .tc := ⟨.hbm, 186, rfl⟩
abbrev main_call4_v12 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_cst_21 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_call5_cst : Ref sig .tc := ⟨.hbm, 208, rfl⟩
abbrev main_call5_v0 : Ref sig .tc := ⟨.hbm, 209, rfl⟩
abbrev main_v104 : Ref sig .tc := ⟨.hbm, 210, rfl⟩
abbrev main_v105 : Ref sig .tc := ⟨.hbm, 211, rfl⟩
abbrev main_cst_22 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_cst_23 : Ref sig .tc := ⟨.hbm, 216, rfl⟩
abbrev main_v109 : Ref sig .tc := ⟨.hbm, 217, rfl⟩
abbrev main_v110 : Ref sig .tc := ⟨.hbm, 218, rfl⟩
abbrev main_cst_24 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_cst_25 : Ref sig .tc := ⟨.hbm, 227, rfl⟩
abbrev main_v118 : Ref sig .tc := ⟨.hbm, 228, rfl⟩
abbrev main_v119 : Ref sig .tc := ⟨.hbm, 229, rfl⟩
abbrev main_cst_26 : Ref sig .tc := ⟨.hbm, 230, rfl⟩
abbrev main_v120 : Ref sig .tc := ⟨.hbm, 231, rfl⟩
abbrev main_cst_27 : Ref sig .tc := ⟨.hbm, 232, rfl⟩
abbrev main_v121 : Ref sig .tc := ⟨.hbm, 233, rfl⟩
abbrev main_v122 : Ref sig .tc := ⟨.hbm, 234, rfl⟩
abbrev main_c_28 : Ref sig .tc := ⟨.hbm, 235, rfl⟩
abbrev main_call6_cst : Ref sig .tc := ⟨.hbm, 236, rfl⟩
abbrev main_call6_v0 : Ref sig .tc := ⟨.hbm, 237, rfl⟩
abbrev main_call6_v1 : Ref sig .tc := ⟨.hbm, 238, rfl⟩
abbrev main_call6_cst_0 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_v6 : Ref sig .tc := ⟨.hbm, 244, rfl⟩
abbrev main_call6_v7 : Ref sig .tc := ⟨.hbm, 245, rfl⟩
abbrev main_call6_cst_1 : Ref sig .tc := ⟨.hbm, 246, rfl⟩
abbrev main_call6_v8 : Ref sig .tc := ⟨.hbm, 247, rfl⟩
abbrev main_call6_cst_2 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_cst_3 : Ref sig .tc := ⟨.hbm, 252, rfl⟩
abbrev main_call6_v12 : Ref sig .tc := ⟨.hbm, 253, rfl⟩
abbrev main_call6_cst_4 : Ref sig .tc := ⟨.hbm, 254, rfl⟩
abbrev main_call6_call0_v0 : Ref sig .tc := ⟨.hbm, 255, rfl⟩
abbrev main_call6_call0_v1 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_v129 : Ref sig .tc := ⟨.hbm, 263, rfl⟩
abbrev main_cst_29 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_cst_30 : Ref sig .tc := ⟨.hbm, 276, rfl⟩
abbrev main_v141 : Ref sig .tc := ⟨.hbm, 277, rfl⟩
abbrev main_v142 : Ref sig .tc := ⟨.hbm, 278, rfl⟩
abbrev main_cst_31 : Ref sig .tc := ⟨.hbm, 279, rfl⟩
abbrev main_v143 : Ref sig .tc := ⟨.hbm, 280, rfl⟩
abbrev main_v144 : Ref sig .tc := ⟨.hbm, 281, rfl⟩

abbrev nD : Nat := 1
abbrev τ : Topo := Topo.v7x

variable {F : FTy → Type} [FloatOps F]

class Facts₀ : Prop where
  reducesTo_S1024x784_S1024_d1 : S1024x784.ReducesTo [1] S1024
  h_S_ : 0 < S_.numel
  bcast_S1024_S1024x1_0 : S1024.BroadcastsInDim S1024x1 (![0] : Fin 1 → Fin S1024x1.rank)
  reducesTo_S784x392_S392_d0 : S784x392.ReducesTo [0] S392
  bcast_S_S1024x392 : S_.BroadcastsInDim S1024x392 (![] : Fin 0 → Fin S1024x392.rank)
  bcast_S1024x1_S1024x392_0_1 : S1024x1.BroadcastsInDim S1024x392 (![0, 1] : Fin 2 → Fin S1024x392.rank)
  bcast_S392_S1x392_1 : S392.BroadcastsInDim S1x392 (![1] : Fin 1 → Fin S1x392.rank)
  bcast_S1x392_S1024x392_0_1 : S1x392.BroadcastsInDim S1024x392 (![0, 1] : Fin 2 → Fin S1024x392.rank)
  reducesTo_S1024x392_S392_d0 : S1024x392.ReducesTo [0] S392
  bcast_S_S392 : S_.BroadcastsInDim S392 (![] : Fin 0 → Fin S392.rank)
  bcast_S_S1x392 : S_.BroadcastsInDim S1x392 (![] : Fin 0 → Fin S1x392.rank)
  reducesTo_S1024x392_S1024_d1 : S1024x392.ReducesTo [1] S1024
  reducesTo_S392x8_S8_d0 : S392x8.ReducesTo [0] S8
  bcast_S_S1024x8 : S_.BroadcastsInDim S1024x8 (![] : Fin 0 → Fin S1024x8.rank)
  bcast_S1024x1_S1024x8_0_1 : S1024x1.BroadcastsInDim S1024x8 (![0, 1] : Fin 2 → Fin S1024x8.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  reducesTo_S1024x8_S8_d0 : S1024x8.ReducesTo [0] S8
  bcast_S_S8 : S_.BroadcastsInDim S8 (![] : Fin 0 → Fin S8.rank)
  bcast_S_S1x8 : S_.BroadcastsInDim S1x8 (![] : Fin 0 → Fin S1x8.rank)
  reducesTo_S1024x8_S1024_d1 : S1024x8.ReducesTo [1] S1024
  reducesTo_S8x392_S392_d0 : S8x392.ReducesTo [0] S392
  reducesTo_S392x784_S784_d0 : S392x784.ReducesTo [0] S784
  bcast_S_S1024x784 : S_.BroadcastsInDim S1024x784 (![] : Fin 0 → Fin S1024x784.rank)
  bcast_S1024x1_S1024x784_0_1 : S1024x1.BroadcastsInDim S1024x784 (![0, 1] : Fin 2 → Fin S1024x784.rank)
  bcast_S784_S1x784_1 : S784.BroadcastsInDim S1x784 (![1] : Fin 1 → Fin S1x784.rank)
  bcast_S1x784_S1024x784_0_1 : S1x784.BroadcastsInDim S1024x784 (![0, 1] : Fin 2 → Fin S1024x784.rank)
  reducesTo_S1024x784_S784_d0 : S1024x784.ReducesTo [0] S784
  bcast_S_S784 : S_.BroadcastsInDim S784 (![] : Fin 0 → Fin S784.rank)
  bcast_S_S1x784 : S_.BroadcastsInDim S1x784 (![] : Fin 0 → Fin S1x784.rank)
  dot_S1024x784_S784x392_S1024x392_1_0_0_1_n_n_wf : DotDims.WF S1024x784 S784x392 S1024x392 [1] [0] [0] [1] [] []
  dot_S1024x392_S392x8_S1024x8_1_0_0_1_n_n_wf : DotDims.WF S1024x392 S392x8 S1024x8 [1] [0] [0] [1] [] []
  dot_S1024x8_S8x392_S1024x392_1_0_0_1_n_n_wf : DotDims.WF S1024x8 S8x392 S1024x392 [1] [0] [0] [1] [] []
  dot_S1024x392_S392x784_S1024x784_1_0_0_1_n_n_wf : DotDims.WF S1024x392 S392x784 S1024x784 [1] [0] [0] [1] [] []

variable [Facts₀]

def dot_S1024x784_S784x392_S1024x392_1_0_0_1_n_n : DotDims S1024x784 S784x392 S1024x392 where
  lhsContracting := [1]
  rhsContracting := [0]
  lhsNonContracting := [0]
  rhsNonContracting := [1]
  lhsBatch := []
  rhsBatch := []
  wf := dot_S1024x784_S784x392_S1024x392_1_0_0_1_n_n_wf
def dot_S1024x392_S392x8_S1024x8_1_0_0_1_n_n : DotDims S1024x392 S392x8 S1024x8 where
  lhsContracting := [1]
  rhsContracting := [0]
  lhsNonContracting := [0]
  rhsNonContracting := [1]
  lhsBatch := []
  rhsBatch := []
  wf := dot_S1024x392_S392x8_S1024x8_1_0_0_1_n_n_wf
def dot_S1024x8_S8x392_S1024x392_1_0_0_1_n_n : DotDims S1024x8 S8x392 S1024x392 where
  lhsContracting := [1]
  rhsContracting := [0]
  lhsNonContracting := [0]
  rhsNonContracting := [1]
  lhsBatch := []
  rhsBatch := []
  wf := dot_S1024x8_S8x392_S1024x392_1_0_0_1_n_n_wf
def dot_S1024x392_S392x784_S1024x784_1_0_0_1_n_n : DotDims S1024x392 S392x784 S1024x784 where
  lhsContracting := [1]
  rhsContracting := [0]
  lhsNonContracting := [0]
  rhsNonContracting := [1]
  lhsBatch := []
  rhsBatch := []
  wf := dot_S1024x392_S392x784_S1024x784_1_0_0_1_n_n_wf

class Facts : Prop extends Facts₀ where

variable [Facts]
-- ==== Proof.KTermB.lean ====
/-
  The kernel body's values, named.

  The body's arithmetic is a chain of pure terms over the seventeen staged blocks `X0 … X16`: the batch; then per layer
  the weights, the column sums of their squares, the scale and the shift. Each name below is one value the body
  computes and uses again: a layer's pre-activation (`h1 … h4`), its batch mean, its column scale
  `g · (v + ε)^(-1/2)` and shift `b − μ · s`, and last the four slabs of 256 rows of the result.
-/
import proofs.«403897_j60078002536976_3_alg».proof.Proof.Gen.Kernel.Skeleton

noncomputable section

namespace Cert.Proof.KB

open Cert.Kernel Cert.Kernel.Gen
open Idealize.ShloMosaic

variable {F : FTy → Type} [FloatOps F]

section Chain

variable (X0 : Vec F S1024x784 .f32) (X1 : Vec F S784x392 .bf16) (X2 X3 X4 : Vec F S1x392 .f32) (X5 : Vec F S392x8 .bf16) (X6 X7 X8 : Vec F S1x8 .f32) (X9 : Vec F S8x392 .bf16) (X10 X11 X12 : Vec F S1x392 .f32) (X13 : Vec F S392x784 .bf16) (X14 X15 X16 : Vec F S1x784 .f32)

/-- Layer 1: the pre-activation, the shift `b − μ · s` and the scale `s` broadcast over the rows. -/
def h1 : FVec F S1024x392 .f32 := k0_pay1 X0 X1 X2
def shift1 : FVec F S1x392 .f32 := k0_pay4 X0 X1 X2 X3 X4
def scale1 : FVec F S1024x392 .f32 := k0_pay5 X0 X1 X2 X3
/-- Layer 2: the pre-activation, the shift row as loaded, the scale `s` and `μ · s`. -/
def h2 : FVec F S1024x8 .f32 := k0_pay6 (h1 X0 X1 X2) (shift1 X0 X1 X2 X3 X4) (scale1 X0 X1 X2 X3) X5 X6
def b2row : FVec F S1x8 .f32 := k0_pay7 X8
def scale2 : FVec F S1x8 .f32 := k0_pay9 (h1 X0 X1 X2) (shift1 X0 X1 X2 X3 X4) (scale1 X0 X1 X2 X3) X5 X6 X7
def mscale2 : FVec F S1x8 .f32 := k0_pay10 (h1 X0 X1 X2) (shift1 X0 X1 X2 X3 X4) (scale1 X0 X1 X2 X3) X5 X6 X7
/-- Layer 3: the pre-activation, the scale and shift rows as loaded, the batch mean and `(v + ε)^(-1/2)`. -/
def h3 : FVec F S1024x392 .f32 :=
  k0_pay11 (h2 X0 X1 X2 X3 X4 X5 X6) (b2row X8) (scale2 X0 X1 X2 X3 X4 X5 X6 X7) (mscale2 X0 X1 X2 X3 X4 X5 X6 X7) X9 X10
def g3row : FVec F S1x392 .f32 := k0_pay12 X11
def b3row : FVec F S1x392 .f32 := k0_pay13 X12
def mean3 : FVec F S1x392 .f32 :=
  k0_pay14 (h2 X0 X1 X2 X3 X4 X5 X6) (b2row X8) (scale2 X0 X1 X2 X3 X4 X5 X6 X7) (mscale2 X0 X1 X2 X3 X4 X5 X6 X7) X9 X10
def rs3 : FVec F S1x392 .f32 :=
  k0_pay15 (h2 X0 X1 X2 X3 X4 X5 X6) (b2row X8) (scale2 X0 X1 X2 X3 X4 X5 X6 X7) (mscale2 X0 X1 X2 X3 X4 X5 X6 X7) X9 X10
/-- Layer 4: the pre-activation, the batch mean, the scale `s` and the shift `b − μ · s`. -/
def h4 : FVec F S1024x784 .f32 :=
  k0_pay16 (h3 X0 X1 X2 X3 X4 X5 X6 X7 X8 X9 X10) (g3row X11) (b3row X12) (mean3 X0 X1 X2 X3 X4 X5 X6 X7 X8 X9 X10)
    (rs3 X0 X1 X2 X3 X4 X5 X6 X7 X8 X9 X10) X13 X14
def mean4 : FVec F S1x784 .f32 :=
  k0_pay17 (h3 X0 X1 X2 X3 X4 X5 X6 X7 X8 X9 X10) (g3row X11) (b3row X12) (mean3 X0 X1 X2 X3 X4 X5 X6 X7 X8 X9 X10)
    (rs3 X0 X1 X2 X3 X4 X5 X6 X7 X8 X9 X10) X13 X14
def scale4 : FVec F S1x784 .f32 :=
  k0_pay18 (h3 X0 X1 X2 X3 X4 X5 X6 X7 X8 X9 X10) (g3row X11) (b3row X12) (mean3 X0 X1 X2 X3 X4 X5 X6 X7 X8 X9 X10)
    (rs3 X0 X1 X2 X3 X4 X5 X6 X7 X8 X9 X10) X13 X14 X15
def shift4 : FVec F S1x784 .f32 :=
  k0_pay19 (mean4 X0 X1 X2 X3 X4 X5 X6 X7 X8 X9 X10 X11 X12 X13 X14) (scale4 X0 X1 X2 X3 X4 X5 X6 X7 X8 X9 X10 X11 X12 X13 X14 X15) X16
/-- The four slabs of the result: rows 0–255, 256–511, 512–767, 768–1023. -/
def slab0 : FVec F S256x784 .f32 :=
  k0_pay20 (h4 X0 X1 X2 X3 X4 X5 X6 X7 X8 X9 X10 X11 X12 X13 X14) (mean4 X0 X1 X2 X3 X4 X5 X6 X7 X8 X9 X10 X11 X12 X13 X14)
    (scale4 X0 X1 X2 X3 X4 X5 X6 X7 X8 X9 X10 X11 X12 X13 X14 X15) X16
def slab1 : FVec F S256x784 .f32 :=
  k0_pay21 (h4 X0 X1 X2 X3 X4 X5 X6 X7 X8 X9 X10 X11 X12 X13 X14) (mean4 X0 X1 X2 X3 X4 X5 X6 X7 X8 X9 X10 X11 X12 X13 X14)
    (scale4 X0 X1 X2 X3 X4 X5 X6 X7 X8 X9 X10 X11 X12 X13 X14 X15) X16
def slab2 : FVec F S256x784 .f32 :=
  k0_pay22 (h4 X0 X1 X2 X3 X4 X5 X6 X7 X8 X9 X10 X11 X12 X13 X14) (mean4 X0 X1 X2 X3 X4 X5 X6 X7 X8 X9 X10 X11 X12 X13 X14)
    (scale4 X0 X1 X2 X3 X4 X5 X6 X7 X8 X9 X10 X11 X12 X13 X14 X15) X16
def slab3 : FVec F S256x784 .f32 :=
  k0_pay23 (h4 X0 X1 X2 X3 X4 X5 X6 X7 X8 X9 X10 X11 X12 X13 X14) (scale4 X0 X1 X2 X3 X4 X5 X6 X7 X8 X9 X10 X11 X12 X13 X14 X15)
    (shift4 X0 X1 X2 X3 X4 X5 X6 X7 X8 X9 X10 X11 X12 X13 X14 X15 X16)

end Chain

end Cert.Proof.KB

end
-- ==== Proof.KBodyB.lean ====
/-
  The kernel body, run once at symbolic operands.

  The body reads its seventeen staged blocks (the batch, and per layer the weights, the column sums of their squares,
  the scale and the shift), computes the four layers, and writes the result in four slabs of 256 rows: each slab is
  stored into the scratch buffer at its rows and then copied, by a transfer on a semaphore cell of its own, into the
  same rows of the result array; after the fourth transfer is started the four are waited for in order. The four
  row ranges are disjoint, so a transfer in flight reads rows no later store touches, and when the last wait returns
  the result array holds the four slabs and every cell is back at zero.
  `kernelRun` is that run: from the staged blocks, the result array and the scratch buffer held whole, and the four
  cells at zero, the body terminates with the staged blocks untouched, the result array and the scratch buffer at
  the contents the run finds (the pair `W`), and the cells at zero again.
-/
import proofs.«403897_j60078002536976_3_alg».proof.Proof.Gen.Kernel
import proofs.«403897_j60078002536976_3_alg».proof.Proof.Gen.Kernel.Skeleton
import proofs.«403897_j60078002536976_3_alg».proof.Proof.Gen.Kernel.Launch
import proofs.«403897_j60078002536976_3_alg».proof.Proof.KTermB
import Idealize.ShloMosaic.Lib.Transfers
import Idealize.ShloMosaic.Lib.Writes
import Idealize.ShloMosaic.Lib.Pipeline.FrameBody
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the run: the pipeline library's copy beside the transfers' counters. -/
abbrev UC : Type := UR sig nD τ × Counters
local notation "𝕄" => MT nD τ sig Unit (Elt F) ℕ UC ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A staged block's buffer held on the elements its memref names, at `f` (what owning the memref unfolds to). -/
abbrev ptS (c : Dev nD) {sp : Space} {S : Shape} {e : EltTy} (M : Memref sig .tc sp S e) (f : Bf (F := F) c M) : sProp 𝕄 :=
  M.view.loc (c : Thread nD τ) ↦[M.view.set]{fullShare} f

/-- The four cells of the kernel's semaphore array, at zero. -/
abbrev cells0 (c : Dev nD) : sProp 𝕄 :=
  iprop(semVal ((c : Thread nD τ), SemLoc.dma (17 : DmaSem sig)) 0 ∗ semVal ((c : Thread nD τ), SemLoc.dma (18 : DmaSem sig)) 0
    ∗ semVal ((c : Thread nD τ), SemLoc.dma (19 : DmaSem sig)) 0 ∗ semVal ((c : Thread nD τ), SemLoc.dma (20 : DmaSem sig)) 0)

set_option sl_exec.dmaWindow true in
set_option maxHeartbeats 4000000 in
/-- The body's run. The result array's and the scratch buffer's final contents are the witnesses the run finds. -/
noncomputable def kernelRun (c : Dev nD) (t : Fin grid0.N) (M0 : Memref sig .tc .vmem S1024x784 .f32) (hM0 : M0.IsWhole) (M1 : Memref sig .tc .vmem S784x392 .bf16) (hM1 : M1.IsWhole) (M2 : Memref sig .tc .vmem S1x392 .f32) (hM2 : M2.IsWhole) (M3 : Memref sig .tc .vmem S1x392 .f32) (hM3 : M3.IsWhole) (M4 : Memref sig .tc .vmem S1x392 .f32) (hM4 : M4.IsWhole) (M5 : Memref sig .tc .vmem S392x8 .bf16) (hM5 : M5.IsWhole) (M6 : Memref sig .tc .vmem S1x8 .f32) (hM6 : M6.IsWhole) (M7 : Memref sig .tc .vmem S1x8 .f32) (hM7 : M7.IsWhole) (M8 : Memref sig .tc .vmem S1x8 .f32) (hM8 : M8.IsWhole) (M9 : Memref sig .tc .vmem S8x392 .bf16) (hM9 : M9.IsWhole) (M10 : Memref sig .tc .vmem S1x392 .f32) (hM10 : M10.IsWhole) (M11 : Memref sig .tc .vmem S1x392 .f32) (hM11 : M11.IsWhole) (M12 : Memref sig .tc .vmem S1x392 .f32) (hM12 : M12.IsWhole) (M13 : Memref sig .tc .vmem S392x784 .bf16) (hM13 : M13.IsWhole) (M14 : Memref sig .tc .vmem S1x784 .f32) (hM14 : M14.IsWhole) (M15 : Memref sig .tc .vmem S1x784 .f32) (hM15 : M15.IsWhole) (M16 : Memref sig .tc .vmem S1x784 .f32) (hM16 : M16.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (g : Bf (F := F) c (Memref.whole cc0_scratch0)) :
    { W : Bf (F := F) c (Memref.whole main_v0) × Bf (F := F) c (Memref.whole cc0_scratch0) //
      ∀ (fv : Bf (F := F) c (Memref.whole main_v0)) (Wt : Waits sig Unit) (Q : PUnit → sProp 𝕄),
        iprop(ptS c M0 f0 ∗ ptS c M1 f1 ∗ ptS c M2 f2 ∗ ptS c M3 f3 ∗ ptS c M4 f4 ∗ ptS c M5 f5 ∗ ptS c M6 f6 ∗ ptS c M7 f7 ∗ ptS c M8 f8 ∗ ptS c M9 f9 ∗ ptS c M10 f10 ∗ ptS c M11 f11 ∗ ptS c M12 f12 ∗ ptS c M13 f13 ∗ ptS c M14 f14 ∗ ptS c M15 f15 ∗ ptS c M16 f16
          ∗ pt c (Memref.whole main_v0) fv ∗ pt c (Memref.whole cc0_scratch0) g
          ∗ semVal ((c : Thread nD τ), SemLoc.dma (17 : DmaSem sig)) 0 ∗ semVal ((c : Thread nD τ), SemLoc.dma (18 : DmaSem sig)) 0
          ∗ semVal ((c : Thread nD τ), SemLoc.dma (19 : DmaSem sig)) 0 ∗ semVal ((c : Thread nD τ), SemLoc.dma (20 : DmaSem sig)) 0
          ∗ owes (c : Thread nD τ) 0 Wt
          ∗ (iprop(ptS c M0 f0 ∗ ptS c M1 f1 ∗ ptS c M2 f2 ∗ ptS c M3 f3 ∗ ptS c M4 f4 ∗ ptS c M5 f5 ∗ ptS c M6 f6 ∗ ptS c M7 f7 ∗ ptS c M8 f8 ∗ ptS c M9 f9 ∗ ptS c M10 f10 ∗ ptS c M11 f11 ∗ ptS c M12 f12 ∗ ptS c M13 f13 ∗ ptS c M14 f14 ∗ ptS c M15 f15 ∗ ptS c M16 f16
              ∗ pt c (Memref.whole main_v0) W.1 ∗ pt c (Memref.whole cc0_scratch0) W.2
              ∗ semVal ((c : Thread nD τ), SemLoc.dma (17 : DmaSem sig)) 0 ∗ semVal ((c : Thread nD τ), SemLoc.dma (18 : DmaSem sig)) 0
              ∗ semVal ((c : Thread nD τ), SemLoc.dma (19 : DmaSem sig)) 0 ∗ semVal ((c : Thread nD τ), SemLoc.dma (20 : DmaSem sig)) 0
              ∗ (∃ W', owes (c : Thread nD τ) 0 W')) -∗ Q ⟨⟩))
        ⊢ wp frame (wpE (defs₀ (F := F)) Variants.none c none) Set.univ
            (cc0__fused_kernel (grid0.coords t) M0 hM0 M1 hM1 M2 hM2 M3 hM3 M4 hM4 M5 hM5 M6 hM6 M7 hM7 M8 hM8 M9 hM9 M10 hM10 M11 hM11 M12 hM12 M13 hM13 M14 hM14 M15 hM15 M16 hM16 (Memref.whole main_v0) (Memref.isWhole_whole _) (Memref.whole cc0_scratch0) (Memref.isWhole_whole _) cc0_scratch1) Q } := by
  refine ⟨⟨?_, ?_⟩, fun fv Wt Q => ?run⟩
  case run =>
    iintro ⟨H0, H1, H2, H3, H4, H5, H6, H7, H8, H9, H10, H11, H12, H13, H14, H15, H16, Hv, Hg, Hs17, Hs18, Hs19, Hs20, HO, Hk⟩
    sl_exec_parts! (disch := decide)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [Hv]; · iexact Hv
    isplitl [Hg]; · iexact Hg
    isplitl [Hs17]; · iexact Hs17
    isplitl [Hs18]; · iexact Hs18
    isplitl [Hs19]; · iexact Hs19
    isplitl [Hs20]; · iexact Hs20
    iexists _; iexact HO

/-! ## The result in closed form -/

/-- The four slabs' row ranges of the [1024, 784] result and scratch: 256 rows at row 0, 256, 512, 768. -/
abbrev R0 : Rect S1024x784 := Rect.unit (s := S1024x784) ![0, 0] S256x784.size inb_S1024x784_S256x784_0_0
abbrev R256 : Rect S1024x784 := Rect.unit (s := S1024x784) ![256, 0] S256x784.size inb_S1024x784_S256x784_256_0
abbrev R512 : Rect S1024x784 := Rect.unit (s := S1024x784) ![512, 0] S256x784.size inb_S1024x784_S256x784_512_0
abbrev R768 : Rect S1024x784 := Rect.unit (s := S1024x784) ![768, 0] S256x784.size inb_S1024x784_S256x784_768_0

/-- The result array after the four transfers, over the staged blocks as the body's loads read them: slab `k` of the
    named chain written at rows `256 k` (the four ranges cover the array, so nothing of its earlier contents is left). -/
def resultW (c : Dev nD) (X0 : Vec F S1024x784 .f32) (X1 : Vec F S784x392 .bf16) (X2 X3 X4 : Vec F S1x392 .f32) (X5 : Vec F S392x8 .bf16) (X6 X7 X8 : Vec F S1x8 .f32) (X9 : Vec F S8x392 .bf16) (X10 X11 X12 : Vec F S1x392 .f32) (X13 : Vec F S392x784 .bf16) (X14 X15 X16 : Vec F S1x784 .f32) : Bf (F := F) c (Memref.whole main_v0) :=
  (View.whole main_v0).writes (Elt F) (View.whole main_v0).junk
    [⟨R768, slab3 X0 X1 X2 X3 X4 X5 X6 X7 X8 X9 X10 X11 X12 X13 X14 X15 X16⟩, ⟨R512, slab2 X0 X1 X2 X3 X4 X5 X6 X7 X8 X9 X10 X11 X12 X13 X14 X15 X16⟩, ⟨R256, slab1 X0 X1 X2 X3 X4 X5 X6 X7 X8 X9 X10 X11 X12 X13 X14 X15 X16⟩, ⟨R0, slab0 X0 X1 X2 X3 X4 X5 X6 X7 X8 X9 X10 X11 X12 X13 X14 X15 X16⟩]

/-- What a transfer moves out of the scratch buffer just stored at its own rows is the stored slab, whatever the
    buffer held before and whatever the other rows hold. -/
theorem slice_read_head {c : Dev nD} (off : Fin 2 → Nat) (inb : ∀ a, off a + S256x784.size a ≤ S1024x784.size a)
    (hp : ∀ a, (Rect.unit (s := S1024x784) off S256x784.size inb).stride a = 1) (g : Bf (F := F) c (Memref.whole cc0_scratch0))
    (q : S256x784.Idx → Elt F .f32) (L : List (View.Piece (Elt F) S1024x784 .f32)) :
    ReadAs.same.apply (View.read (Elt F) ((Memref.whole cc0_scratch0).slice (Rect.unit (s := S1024x784) off S256x784.size inb) hp).view
      ((Memref.whole cc0_scratch0).view.writes (Elt F) g (⟨Rect.unit (s := S1024x784) off S256x784.size inb, q⟩ :: L))) = q := by
  funext y
  show (View.whole (cc0_scratch0 : Ref sig .tc)).read (Elt F) ((Memref.whole cc0_scratch0).view.writes (Elt F) g
    (⟨Rect.unit (s := S1024x784) off S256x784.size inb, q⟩ :: L)) ((Rect.unit (s := S1024x784) off S256x784.size inb).emb y) = _
  rw [View.read_writes_cons_emb]

set_option maxHeartbeats 4000000 in
/-- The result the run finds is `resultW` at the blocks the body's seventeen loads read. -/
theorem kernelRun_fst (c : Dev nD) (t : Fin grid0.N) (M0 : Memref sig .tc .vmem S1024x784 .f32) (hM0 : M0.IsWhole) (M1 : Memref sig .tc .vmem S784x392 .bf16) (hM1 : M1.IsWhole) (M2 : Memref sig .tc .vmem S1x392 .f32) (hM2 : M2.IsWhole) (M3 : Memref sig .tc .vmem S1x392 .f32) (hM3 : M3.IsWhole) (M4 : Memref sig .tc .vmem S1x392 .f32) (hM4 : M4.IsWhole) (M5 : Memref sig .tc .vmem S392x8 .bf16) (hM5 : M5.IsWhole) (M6 : Memref sig .tc .vmem S1x8 .f32) (hM6 : M6.IsWhole) (M7 : Memref sig .tc .vmem S1x8 .f32) (hM7 : M7.IsWhole) (M8 : Memref sig .tc .vmem S1x8 .f32) (hM8 : M8.IsWhole) (M9 : Memref sig .tc .vmem S8x392 .bf16) (hM9 : M9.IsWhole) (M10 : Memref sig .tc .vmem S1x392 .f32) (hM10 : M10.IsWhole) (M11 : Memref sig .tc .vmem S1x392 .f32) (hM11 : M11.IsWhole) (M12 : Memref sig .tc .vmem S1x392 .f32) (hM12 : M12.IsWhole) (M13 : Memref sig .tc .vmem S392x784 .bf16) (hM13 : M13.IsWhole) (M14 : Memref sig .tc .vmem S1x784 .f32) (hM14 : M14.IsWhole) (M15 : Memref sig .tc .vmem S1x784 .f32) (hM15 : M15.IsWhole) (M16 : Memref sig .tc .vmem S1x784 .f32) (hM16 : M16.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (g : Bf (F := F) c (Memref.whole cc0_scratch0)) :
    (kernelRun c t M0 hM0 M1 hM1 M2 hM2 M3 hM3 M4 hM4 M5 hM5 M6 hM6 M7 hM7 M8 hM8 M9 hM9 M10 hM10 M11 hM11 M12 hM12 M13 hM13 M14 hM14 M15 hM15 M16 hM16 f0 f1 f2 f3 f4 f5 f6 f7 f8 f9 f10 f11 f12 f13 f14 f15 f16 g).1.1
      = resultW c
          (View.readAt (Elt F) M0.view (Rect.unit (s := S1024x784) ![0, 0] S1024x784.size inb_S1024x784_S1024x784_0_0).toLoadRect f0)
          (View.readAt (Elt F) M1.view (Rect.unit (s := S784x392) ![0, 0] S784x392.size inb_S784x392_S784x392_0_0).toLoadRect f1)
          (View.readAt (Elt F) M2.view (Rect.unit (s := S1x392) ![0, 0] S1x392.size inb_S1x392_S1x392_0_0).toLoadRect f2)
          (View.readAt (Elt F) M3.view (Rect.unit (s := S1x392) ![0, 0] S1x392.size inb_S1x392_S1x392_0_0).toLoadRect f3)
          (View.readAt (Elt F) M4.view (Rect.unit (s := S1x392) ![0, 0] S1x392.size inb_S1x392_S1x392_0_0).toLoadRect f4)
          (View.readAt (Elt F) M5.view (Rect.unit (s := S392x8) ![0, 0] S392x8.size inb_S392x8_S392x8_0_0).toLoadRect f5)
          (View.readAt (Elt F) M6.view (Rect.unit (s := S1x8) ![0, 0] S1x8.size inb_S1x8_S1x8_0_0).toLoadRect f6)
          (View.readAt (Elt F) M7.view (Rect.unit (s := S1x8) ![0, 0] S1x8.size inb_S1x8_S1x8_0_0).toLoadRect f7)
          (View.readAt (Elt F) M8.view (Rect.unit (s := S1x8) ![0, 0] S1x8.size inb_S1x8_S1x8_0_0).toLoadRect f8)
          (View.readAt (Elt F) M9.view (Rect.unit (s := S8x392) ![0, 0] S8x392.size inb_S8x392_S8x392_0_0).toLoadRect f9)
          (View.readAt (Elt F) M10.view (Rect.unit (s := S1x392) ![0, 0] S1x392.size inb_S1x392_S1x392_0_0).toLoadRect f10)
          (View.readAt (Elt F) M11.view (Rect.unit (s := S1x392) ![0, 0] S1x392.size inb_S1x392_S1x392_0_0).toLoadRect f11)
          (View.readAt (Elt F) M12.view (Rect.unit (s := S1x392) ![0, 0] S1x392.size inb_S1x392_S1x392_0_0).toLoadRect f12)
          (View.readAt (Elt F) M13.view (Rect.unit (s := S392x784) ![0, 0] S392x784.size inb_S392x784_S392x784_0_0).toLoadRect f13)
          (View.readAt (Elt F) M14.view (Rect.unit (s := S1x784) ![0, 0] S1x784.size inb_S1x784_S1x784_0_0).toLoadRect f14)
          (View.readAt (Elt F) M15.view (Rect.unit (s := S1x784) ![0, 0] S1x784.size inb_S1x784_S1x784_0_0).toLoadRect f15)
          (View.readAt (Elt F) M16.view (Rect.unit (s := S1x784) ![0, 0] S1x784.size inb_S1x784_S1x784_0_0).toLoadRect f16) := by
  unfold kernelRun
  dsimp only
  sl_unfold_run_names
  unfold resultW slab3 slab2 slab1 slab0 shift4 scale4 mean4 h4 rs3 mean3 b3row g3row h3 mscale2 scale2 b2row h2 scale1 shift1 h1
  rw [slice_read_head, slice_read_head, slice_read_head, slice_read_head]

end Cert.Proof.KB

end
-- ==== Proof.KRunB.lean ====
/-
  The kernel program's run: the proof data of its one pallas_call and the launch.

  @main is a stretch of host operations (the weights in bf16, the column sums of their squares, the scale and shift
  rows reshaped) and then the one region, a pipeline of a single grid point over seventeen input windows, each the
  whole of its array. The result array is no window's: the body writes it by its own transfers, so it is routed
  through the body's invariant, which holds it whole at its launch contents before the point and whole at `written`
  after it, the four semaphore cells at zero both times. `run_main`: from any memory with zero counters every weakly
  fair execution of @main terminates, with the result array at `written` and every other unscoped buffer as the region
  found it; the argument arrays are among those and no host operation writes them.
-/
import proofs.«403897_j60078002536976_3_alg».proof.Proof.KBodyB
import Idealize.ShloMosaic.Lib.Pipeline.Routed
import Idealize.ShloMosaic.Lib.Pipeline.Value
import proofs.«403897_j60078002536976_3_alg».proof.Proof.Gen.Kernel.Frame
import proofs.«403897_j60078002536976_3_alg».proof.Proof.Gen.Kernel.Points

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed_singleton)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cells: the four DMA semaphores of its semaphore array, cell `k` for slab `k`. -/
abbrev osem : Fin 4 → SemLoc sig := fun | 0 => .dma 17 | 1 => .dma 18 | 2 => .dma 19 | 3 => .dma 20

/-- The result array after the run: the four slabs of the body's chain at the seventeen windows' blocks. -/
def written (c : Dev nD) : Buf (Elt F) ((c : Thread nD τ).loc main_v0) :=
  resultW c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0)

/-- The routed buffer's exit contents as a valuation. -/
def Y (c : Dev nD) : (b : Ref sig .tc) → Buf (Elt F) ((c : Thread nD τ).loc b) := Function.update (V m c) main_v0 (written m c)

theorem Y_main_v0 (c : Dev nD) : Y m c main_v0 = written m c := Function.update_self ..

/-! ## The proof data -/

/-- The proof data on core `c`: the arrays at their entry contents; after the body each input's staging buffer at its
    block; the invariant before and after the one point; nothing owed; full shares. -/
def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨_ + 17, h⟩ => absurd h (Nat.not_lt.2 (Nat.le_add_left _ _))
  Φ t := match t with
    | ⟨0, _⟩ => Ends spec0 osem {main_v0} c (V m c)
    | ⟨_ + 1, _⟩ => Ends spec0 osem {main_v0} c (Y m c)
  q _ := fullShare
  owed _ := 0

abbrev 𝒱₀ : Variants := Variants.none

omit [FloatOps F] in
/-- The kernel's own cells at zero, listed. -/
theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (17 : DmaSem sig)) 0 ∗ semVal ((c : Thread nD τ), SemLoc.dma (18 : DmaSem sig)) 0
          ∗ semVal ((c : Thread nD τ), SemLoc.dma (19 : DmaSem sig)) 0 ∗ semVal ((c : Thread nD τ), SemLoc.dma (20 : DmaSem sig)) 0) :=
  Pipeline.ownSems0_eq_of_list c osem [0, 1, 2, 3] (by decide) (by decide)

/-- `Ends` at this program's lists: the result buffer, the four cells, the scratch buffer at some contents, the register. -/
theorem ends_eq (c : Dev nD) (W : (b : Ref sig .tc) → Buf (Elt F) ((c : Thread nD τ).loc b)) :
    (Ends spec0 osem {main_v0} c W : sProp 𝕄)
      = iprop(pt c (Memref.whole main_v0) (W main_v0)
          ∗ (semVal ((c : Thread nD τ), SemLoc.dma (17 : DmaSem sig)) 0 ∗ semVal ((c : Thread nD τ), SemLoc.dma (18 : DmaSem sig)) 0
              ∗ semVal ((c : Thread nD τ), SemLoc.dma (19 : DmaSem sig)) 0 ∗ semVal ((c : Thread nD τ), SemLoc.dma (20 : DmaSem sig)) 0)
          ∗ (∃ f : Bf (F := F) c (Memref.whole cc0_scratch0), pt c (Memref.whole cc0_scratch0) f) ∗ ∃ r, prngReg c r) := by
  unfold Ends; rw [routed_singleton, ownSems0_eq, scopedRest0_eq]

/-- Every window is an input fetched at the one point: its staging buffer holds its block when the body runs. -/
theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl
theorem before_1 (c : Dev nD) (t : Fin cfg0.N) (d) : (dats m 0 c).before 1 t d = iblk m c 1 t := by
  rw [(dats m 0 c).before_fetched 1 t (fetch0_1 t)]; unfold Dat.fetched Dat.blockOf; dsimp only [dats]; rfl
theorem before_2 (c : Dev nD) (t : Fin cfg0.N) (d) : (dats m 0 c).before 2 t d = iblk m c 2 t := by
  rw [(dats m 0 c).before_fetched 2 t (fetch0_2 t)]; unfold Dat.fetched Dat.blockOf; dsimp only [dats]; rfl
theorem before_3 (c : Dev nD) (t : Fin cfg0.N) (d) : (dats m 0 c).before 3 t d = iblk m c 3 t := by
  rw [(dats m 0 c).before_fetched 3 t (fetch0_3 t)]; unfold Dat.fetched Dat.blockOf; dsimp only [dats]; rfl
theorem before_4 (c : Dev nD) (t : Fin cfg0.N) (d) : (dats m 0 c).before 4 t d = iblk m c 4 t := by
  rw [(dats m 0 c).before_fetched 4 t (fetch0_4 t)]; unfold Dat.fetched Dat.blockOf; dsimp only [dats]; rfl
theorem before_5 (c : Dev nD) (t : Fin cfg0.N) (d) : (dats m 0 c).before 5 t d = iblk m c 5 t := by
  rw [(dats m 0 c).before_fetched 5 t (fetch0_5 t)]; unfold Dat.fetched Dat.blockOf; dsimp only [dats]; rfl
theorem before_6 (c : Dev nD) (t : Fin cfg0.N) (d) : (dats m 0 c).before 6 t d = iblk m c 6 t := by
  rw [(dats m 0 c).before_fetched 6 t (fetch0_6 t)]; unfold Dat.fetched Dat.blockOf; dsimp only [dats]; rfl
theorem before_7 (c : Dev nD) (t : Fin cfg0.N) (d) : (dats m 0 c).before 7 t d = iblk m c 7 t := by
  rw [(dats m 0 c).before_fetched 7 t (fetch0_7 t)]; unfold Dat.fetched Dat.blockOf; dsimp only [dats]; rfl
theorem before_8 (c : Dev nD) (t : Fin cfg0.N) (d) : (dats m 0 c).before 8 t d = iblk m c 8 t := by
  rw [(dats m 0 c).before_fetched 8 t (fetch0_8 t)]; unfold Dat.fetched Dat.blockOf; dsimp only [dats]; rfl
theorem before_9 (c : Dev nD) (t : Fin cfg0.N) (d) : (dats m 0 c).before 9 t d = iblk m c 9 t := by
  rw [(dats m 0 c).before_fetched 9 t (fetch0_9 t)]; unfold Dat.fetched Dat.blockOf; dsimp only [dats]; rfl
theorem before_10 (c : Dev nD) (t : Fin cfg0.N) (d) : (dats m 0 c).before 10 t d = iblk m c 10 t := by
  rw [(dats m 0 c).before_fetched 10 t (fetch0_10 t)]; unfold Dat.fetched Dat.blockOf; dsimp only [dats]; rfl
theorem before_11 (c : Dev nD) (t : Fin cfg0.N) (d) : (dats m 0 c).before 11 t d = iblk m c 11 t := by
  rw [(dats m 0 c).before_fetched 11 t (fetch0_11 t)]; unfold Dat.fetched Dat.blockOf; dsimp only [dats]; rfl
theorem before_12 (c : Dev nD) (t : Fin cfg0.N) (d) : (dats m 0 c).before 12 t d = iblk m c 12 t := by
  rw [(dats m 0 c).before_fetched 12 t (fetch0_12 t)]; unfold Dat.fetched Dat.blockOf; dsimp only [dats]; rfl
theorem before_13 (c : Dev nD) (t : Fin cfg0.N) (d) : (dats m 0 c).before 13 t d = iblk m c 13 t := by
  rw [(dats m 0 c).before_fetched 13 t (fetch0_13 t)]; unfold Dat.fetched Dat.blockOf; dsimp only [dats]; rfl
theorem before_14 (c : Dev nD) (t : Fin cfg0.N) (d) : (dats m 0 c).before 14 t d = iblk m c 14 t := by
  rw [(dats m 0 c).before_fetched 14 t (fetch0_14 t)]; unfold Dat.fetched Dat.blockOf; dsimp only [dats]; rfl
theorem before_15 (c : Dev nD) (t : Fin cfg0.N) (d) : (dats m 0 c).before 15 t d = iblk m c 15 t := by
  rw [(dats m 0 c).before_fetched 15 t (fetch0_15 t)]; unfold Dat.fetched Dat.blockOf; dsimp only [dats]; rfl
theorem before_16 (c : Dev nD) (t : Fin cfg0.N) (d) : (dats m 0 c).before 16 t d = iblk m c 16 t := by
  rw [(dats m 0 c).before_fetched 16 t (fetch0_16 t)]; unfold Dat.fetched Dat.blockOf; dsimp only [dats]; rfl

set_option maxHeartbeats 8000000 in
/-- After the body each input's staging buffer still holds its block (the proof data's `after`, window by window). -/
theorem after_0 (c : Dev nD) (t : Fin cfg0.N) : (dats m 0 c).after 0 t = iblk m c 0 t := rfl
set_option maxHeartbeats 8000000 in
theorem after_1 (c : Dev nD) (t : Fin cfg0.N) : (dats m 0 c).after 1 t = iblk m c 1 t := rfl
set_option maxHeartbeats 8000000 in
theorem after_2 (c : Dev nD) (t : Fin cfg0.N) : (dats m 0 c).after 2 t = iblk m c 2 t := rfl
set_option maxHeartbeats 8000000 in
theorem after_3 (c : Dev nD) (t : Fin cfg0.N) : (dats m 0 c).after 3 t = iblk m c 3 t := rfl
set_option maxHeartbeats 8000000 in
theorem after_4 (c : Dev nD) (t : Fin cfg0.N) : (dats m 0 c).after 4 t = iblk m c 4 t := rfl
set_option maxHeartbeats 8000000 in
theorem after_5 (c : Dev nD) (t : Fin cfg0.N) : (dats m 0 c).after 5 t = iblk m c 5 t := rfl
set_option maxHeartbeats 8000000 in
theorem after_6 (c : Dev nD) (t : Fin cfg0.N) : (dats m 0 c).after 6 t = iblk m c 6 t := rfl
set_option maxHeartbeats 8000000 in
theorem after_7 (c : Dev nD) (t : Fin cfg0.N) : (dats m 0 c).after 7 t = iblk m c 7 t := rfl
set_option maxHeartbeats 8000000 in
theorem after_8 (c : Dev nD) (t : Fin cfg0.N) : (dats m 0 c).after 8 t = iblk m c 8 t := rfl
set_option maxHeartbeats 8000000 in
theorem after_9 (c : Dev nD) (t : Fin cfg0.N) : (dats m 0 c).after 9 t = iblk m c 9 t := rfl
set_option maxHeartbeats 8000000 in
theorem after_10 (c : Dev nD) (t : Fin cfg0.N) : (dats m 0 c).after 10 t = iblk m c 10 t := rfl
set_option maxHeartbeats 8000000 in
theorem after_11 (c : Dev nD) (t : Fin cfg0.N) : (dats m 0 c).after 11 t = iblk m c 11 t := rfl
set_option maxHeartbeats 8000000 in
theorem after_12 (c : Dev nD) (t : Fin cfg0.N) : (dats m 0 c).after 12 t = iblk m c 12 t := rfl
set_option maxHeartbeats 8000000 in
theorem after_13 (c : Dev nD) (t : Fin cfg0.N) : (dats m 0 c).after 13 t = iblk m c 13 t := rfl
set_option maxHeartbeats 8000000 in
theorem after_14 (c : Dev nD) (t : Fin cfg0.N) : (dats m 0 c).after 14 t = iblk m c 14 t := rfl
set_option maxHeartbeats 8000000 in
theorem after_15 (c : Dev nD) (t : Fin cfg0.N) : (dats m 0 c).after 15 t = iblk m c 15 t := rfl
set_option maxHeartbeats 8000000 in
theorem after_16 (c : Dev nD) (t : Fin cfg0.N) : (dats m 0 c).after 16 t = iblk m c 16 t := rfl

/-- What the body is called with at point `t` (the library's body obligation, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The core's `owes` as the post wants it, from what the run hands back (nothing is taken on). -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- `![0, 0]` is the zero offset. -/
theorem off2_zero : (![0, 0] : Fin 2 → Nat) = fun _ => 0 := by
  funext a; match a with | ⟨0, _⟩ => rfl | ⟨1, _⟩ => rfl

set_option maxHeartbeats 16000000 in
/-- The result the body's run finds, at buffers whose reads are the windows' blocks, is `written`. -/
theorem found_eq_written (c : Dev nD)
    (f0 : Bf (F := F) c (st0_0 t0_0)) (f1 : Bf (F := F) c (st0_1 t0_0)) (f2 : Bf (F := F) c (st0_2 t0_0)) (f3 : Bf (F := F) c (st0_3 t0_0)) (f4 : Bf (F := F) c (st0_4 t0_0)) (f5 : Bf (F := F) c (st0_5 t0_0)) (f6 : Bf (F := F) c (st0_6 t0_0)) (f7 : Bf (F := F) c (st0_7 t0_0)) (f8 : Bf (F := F) c (st0_8 t0_0)) (f9 : Bf (F := F) c (st0_9 t0_0)) (f10 : Bf (F := F) c (st0_10 t0_0)) (f11 : Bf (F := F) c (st0_11 t0_0)) (f12 : Bf (F := F) c (st0_12 t0_0)) (f13 : Bf (F := F) c (st0_13 t0_0)) (f14 : Bf (F := F) c (st0_14 t0_0)) (f15 : Bf (F := F) c (st0_15 t0_0)) (f16 : Bf (F := F) c (st0_16 t0_0))
    (g : Bf (F := F) c (Memref.whole cc0_scratch0))
    (e0 : (st0_0 t0_0).view.read (Elt F) f0 = iblk m c 0 t0_0)
    (e1 : (st0_1 t0_0).view.read (Elt F) f1 = iblk m c 1 t0_0)
    (e2 : (st0_2 t0_0).view.read (Elt F) f2 = iblk m c 2 t0_0)
    (e3 : (st0_3 t0_0).view.read (Elt F) f3 = iblk m c 3 t0_0)
    (e4 : (st0_4 t0_0).view.read (Elt F) f4 = iblk m c 4 t0_0)
    (e5 : (st0_5 t0_0).view.read (Elt F) f5 = iblk m c 5 t0_0)
    (e6 : (st0_6 t0_0).view.read (Elt F) f6 = iblk m c 6 t0_0)
    (e7 : (st0_7 t0_0).view.read (Elt F) f7 = iblk m c 7 t0_0)
    (e8 : (st0_8 t0_0).view.read (Elt F) f8 = iblk m c 8 t0_0)
    (e9 : (st0_9 t0_0).view.read (Elt F) f9 = iblk m c 9 t0_0)
    (e10 : (st0_10 t0_0).view.read (Elt F) f10 = iblk m c 10 t0_0)
    (e11 : (st0_11 t0_0).view.read (Elt F) f11 = iblk m c 11 t0_0)
    (e12 : (st0_12 t0_0).view.read (Elt F) f12 = iblk m c 12 t0_0)
    (e13 : (st0_13 t0_0).view.read (Elt F) f13 = iblk m c 13 t0_0)
    (e14 : (st0_14 t0_0).view.read (Elt F) f14 = iblk m c 14 t0_0)
    (e15 : (st0_15 t0_0).view.read (Elt F) f15 = iblk m c 15 t0_0)
    (e16 : (st0_16 t0_0).view.read (Elt F) f16 = iblk m c 16 t0_0) :
    (kernelRun c t0_0 (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9)) (st0_10 t0_0) (hstage0_10 ((cfg0.slots t0_0 10).cast nbuf0_10)) (st0_11 t0_0) (hstage0_11 ((cfg0.slots t0_0 11).cast nbuf0_11)) (st0_12 t0_0) (hstage0_12 ((cfg0.slots t0_0 12).cast nbuf0_12)) (st0_13 t0_0) (hstage0_13 ((cfg0.slots t0_0 13).cast nbuf0_13)) (st0_14 t0_0) (hstage0_14 ((cfg0.slots t0_0 14).cast nbuf0_14)) (st0_15 t0_0) (hstage0_15 ((cfg0.slots t0_0 15).cast nbuf0_15)) (st0_16 t0_0) (hstage0_16 ((cfg0.slots t0_0 16).cast nbuf0_16))
      f0 f1 f2 f3 f4 f5 f6 f7 f8 f9 f10 f11 f12 f13 f14 f15 f16 g).1.1 = written m c := by
  rw [kernelRun_fst]
  unfold written
  simp only [View.readAt_eq_ld, e0, e1, e2, e3, e4, e5, e6, e7, e8, e9, e10, e11, e12, e13, e14, e15, e16]
  simp only [View.ld_unit_zero (S := S1024x784) off2_zero, View.ld_unit_zero (S := S784x392) off2_zero, View.ld_unit_zero (S := S1x392) off2_zero, View.ld_unit_zero (S := S392x8) off2_zero, View.ld_unit_zero (S := S1x8) off2_zero, View.ld_unit_zero (S := S8x392) off2_zero, View.ld_unit_zero (S := S392x784) off2_zero, View.ld_unit_zero (S := S1x784) off2_zero]

set_option maxHeartbeats 64000000 in
/-- The body at the one point: the invariant taken apart, the body's run applied, its post reassembled. -/
theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  simp only [before_0, before_1, before_2, before_3, before_4, before_5, before_6, before_7, before_8, before_9, before_10, before_11, before_12, before_13, before_14, before_15, before_16]
  rw [after_0 m c, after_1 m c, after_2 m c, after_3 m c, after_4 m c, after_5 m c, after_6 m c, after_7 m c, after_8 m c, after_9 m c, after_10 m c, after_11 m c, after_12 m c, after_13 m c, after_14 m c, after_15 m c, after_16 m c]
  unfold Dat.owesAt Pipeline.owesWithin
  rw [show (dats m 0 c).owed t0_0.castSucc = 0 from rfl]
  rw [show (dats m 0 c).Φ t0_0.castSucc = Ends spec0 osem {main_v0} c (V m c) from rfl,
    show (dats m 0 c).Φ t0_0.succ = Ends spec0 osem {main_v0} c (Y m c) from rfl, ends_eq, ends_eq, Y_main_v0]
  unfold owns
  iintro ⟨⟨Hv, ⟨Hs17, Hs18, Hs19, Hs20⟩, ⟨%g, Hg⟩, Hp⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩⟩
  iapply ((kernelRun c t0_0 (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9)) (st0_10 t0_0) (hstage0_10 ((cfg0.slots t0_0 10).cast nbuf0_10)) (st0_11 t0_0) (hstage0_11 ((cfg0.slots t0_0 11).cast nbuf0_11)) (st0_12 t0_0) (hstage0_12 ((cfg0.slots t0_0 12).cast nbuf0_12)) (st0_13 t0_0) (hstage0_13 ((cfg0.slots t0_0 13).cast nbuf0_13)) (st0_14 t0_0) (hstage0_14 ((cfg0.slots t0_0 14).cast nbuf0_14)) (st0_15 t0_0) (hstage0_15 ((cfg0.slots t0_0 15).cast nbuf0_15)) (st0_16 t0_0) (hstage0_16 ((cfg0.slots t0_0 16).cast nbuf0_16))
      f0 f1 f2 f3 f4 f5 f6 f7 f8 f9 f10 f11 f12 f13 f14 f15 f16 g).2 (V m c main_v0) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hv]; · iexact Hv
  isplitl [Hg]; · iexact Hg
  isplitl [Hs17]; · iexact Hs17
  isplitl [Hs18]; · iexact Hs18
  isplitl [Hs19]; · iexact Hs19
  isplitl [Hs20]; · iexact Hs20
  isplitl [HO]; · iexact HO
  iintro ⟨H0, H1, H2, H3, H4, H5, H6, H7, H8, H9, H10, H11, H12, H13, H14, H15, H16, Hv, Hg, Hs17, Hs18, Hs19, Hs20, ⟨%W', HO⟩⟩
  isplitl [Hv Hg Hs17 Hs18 Hs19 Hs20 Hp]
  · isplitl [Hv]
    · rw [← found_eq_written m c f0 f1 f2 f3 f4 f5 f6 f7 f8 f9 f10 f11 f12 f13 f14 f15 f16 g e0 e1 e2 e3 e4 e5 e6 e7 e8 e9 e10 e11 e12 e13 e14 e15 e16]; iexact Hv
    isplitl [Hs17 Hs18 Hs19 Hs20]
    · isplitl [Hs17]; · iexact Hs17
      isplitl [Hs18]; · iexact Hs18
      isplitl [Hs19]; · iexact Hs19
      iexact Hs20
    isplitl [Hg]; · iexists _; iexact Hg
    iexact Hp
  isplitl [HO]; · iapply (owesAt_intro m c); iexact HO
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  isplitl [H11]; · iexists f11; isplitr; (· ipureintro; exact e11); iexact H11
  isplitl [H12]; · iexists f12; isplitr; (· ipureintro; exact e12); iexact H12
  isplitl [H13]; · iexists f13; isplitr; (· ipureintro; exact e13); iexact H13
  isplitl [H14]; · iexists f14; isplitr; (· ipureintro; exact e14); iexact H14
  isplitl [H15]; · iexists f15; isplitr; (· ipureintro; exact e15); iexact H15
  iexists f16; isplitr; (· ipureintro; exact e16); iexact H16

/-- The library's body obligation, at the one point. -/
theorem body_obligation (c : Dev nD) : BodyObligation (dats (F := F) m 0 c) (defs₀ (F := F)) 𝒱₀ () Set.univ := fun t => by
  rw [bigSep_W0, bigSep_W0]
  exact sound_body m c t

/-! ## The launch -/

/-- The layout the launch needs of the kernel's own semaphores: scoped, distinct, and no staging semaphore. -/
theorem ownSemFacts : Pipeline.OwnSemFacts spec0 osem := by decide

/-- The result array bypasses the region: unscoped, and no window's array. -/
theorem main_v0_rest : ({main_v0} : Finset (Ref sig .tc)) ⊆ Pipeline.restRefs sig spec0 :=
  Finset.singleton_subset_iff.mpr (Pipeline.mem_restRefs_of main_v0 (by decide) (by decide))

/-- At the compiled mesh, for any float values, from any memory with zero counters: every weakly fair execution of
    @main on the TensorCores terminates, and every final state has the windows' arrays at the library's account of
    input windows, the result buffer at `written`, and every other unscoped buffer as the region found it. -/
theorem run_main : θ_run defs (onTc (τ := τ) (main (F := F))) (s₀ m ρ) (RoutedPost cfgs (dats m) 0 {main_v0} (V m) (Y m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := {main_v0}) (hR := main_v0_rest) (Y := Y m) (hin := fun _ => .rfl) (hout := fun _ => .rfl)

/-! ## The final contents, read off the post -/

variable {m ρ}

theorem final_v0 {r : PUnit × MemSt nD τ sig (Elt F)} (h : RoutedPost cfgs (dats m) 0 {main_v0} (V m) (Y m) r) (c : Dev nD) :
    r.2.mem ((c : Thread nD τ).loc main_v0) = written m c :=
  ((h c).2.1 main_v0 (Finset.mem_singleton_self _)).trans (Y_main_v0 m c)

theorem final_arg0 {r : PUnit × MemSt nD τ sig (Elt F)} (h : RoutedPost cfgs (dats m) 0 {main_v0} (V m) (Y m) r) (c : Dev nD) :
    r.2.mem ((c : Thread nD τ).loc main_arg0) = m ((c : Thread nD τ).loc main_arg0) :=
  ((h c).1 0).trans (((dats m 0 c).arrAt_in 0 rfl _).trans (V_main_arg0 m c))

theorem final_arg1 {r : PUnit × MemSt nD τ sig (Elt F)} (h : RoutedPost cfgs (dats m) 0 {main_v0} (V m) (Y m) r) (c : Dev nD) :
    r.2.mem ((c : Thread nD τ).loc main_arg1) = m ((c : Thread nD τ).loc main_arg1) :=
  ((h c).2.2 main_arg1 (Finset.mem_sdiff.mpr ⟨Pipeline.mem_restRefs_of main_arg1 (by decide) (by decide), by decide⟩)).trans (V_main_arg1 m c)

theorem final_arg2 {r : PUnit × MemSt nD τ sig (Elt F)} (h : RoutedPost cfgs (dats m) 0 {main_v0} (V m) (Y m) r) (c : Dev nD) :
    r.2.mem ((c : Thread nD τ).loc main_arg2) = m ((c : Thread nD τ).loc main_arg2) :=
  ((h c).2.2 main_arg2 (Finset.mem_sdiff.mpr ⟨Pipeline.mem_restRefs_of main_arg2 (by decide) (by decide), by decide⟩)).trans (V_main_arg2 m c)

theorem final_arg3 {r : PUnit × MemSt nD τ sig (Elt F)} (h : RoutedPost cfgs (dats m) 0 {main_v0} (V m) (Y m) r) (c : Dev nD) :
    r.2.mem ((c : Thread nD τ).loc main_arg3) = m ((c : Thread nD τ).loc main_arg3) :=
  ((h c).2.2 main_arg3 (Finset.mem_sdiff.mpr ⟨Pipeline.mem_restRefs_of main_arg3 (by decide) (by decide), by decide⟩)).trans (V_main_arg3 m c)

theorem final_arg4 {r : PUnit × MemSt nD τ sig (Elt F)} (h : RoutedPost cfgs (dats m) 0 {main_v0} (V m) (Y m) r) (c : Dev nD) :
    r.2.mem ((c : Thread nD τ).loc main_arg4) = m ((c : Thread nD τ).loc main_arg4) :=
  ((h c).2.2 main_arg4 (Finset.mem_sdiff.mpr ⟨Pipeline.mem_restRefs_of main_arg4 (by decide) (by decide), by decide⟩)).trans (V_main_arg4 m c)

theorem final_arg5 {r : PUnit × MemSt nD τ sig (Elt F)} (h : RoutedPost cfgs (dats m) 0 {main_v0} (V m) (Y m) r) (c : Dev nD) :
    r.2.mem ((c : Thread nD τ).loc main_arg5) = m ((c : Thread nD τ).loc main_arg5) :=
  ((h c).2.2 main_arg5 (Finset.mem_sdiff.mpr ⟨Pipeline.mem_restRefs_of main_arg5 (by decide) (by decide), by decide⟩)).trans (V_main_arg5 m c)

theorem final_arg6 {r : PUnit × MemSt nD τ sig (Elt F)} (h : RoutedPost cfgs (dats m) 0 {main_v0} (V m) (Y m) r) (c : Dev nD) :
    r.2.mem ((c : Thread nD τ).loc main_arg6) = m ((c : Thread nD τ).loc main_arg6) :=
  ((h c).2.2 main_arg6 (Finset.mem_sdiff.mpr ⟨Pipeline.mem_restRefs_of main_arg6 (by decide) (by decide), by decide⟩)).trans (V_main_arg6 m c)

theorem final_arg7 {r : PUnit × MemSt nD τ sig (Elt F)} (h : RoutedPost cfgs (dats m) 0 {main_v0} (V m) (Y m) r) (c : Dev nD) :
    r.2.mem ((c : Thread nD τ).loc main_arg7) = m ((c : Thread nD τ).loc main_arg7) :=
  ((h c).2.2 main_arg7 (Finset.mem_sdiff.mpr ⟨Pipeline.mem_restRefs_of main_arg7 (by decide) (by decide), by decide⟩)).trans (V_main_arg7 m c)

theorem final_arg8 {r : PUnit × MemSt nD τ sig (Elt F)} (h : RoutedPost cfgs (dats m) 0 {main_v0} (V m) (Y m) r) (c : Dev nD) :
    r.2.mem ((c : Thread nD τ).loc main_arg8) = m ((c : Thread nD τ).loc main_arg8) :=
  ((h c).2.2 main_arg8 (Finset.mem_sdiff.mpr ⟨Pipeline.mem_restRefs_of main_arg8 (by decide) (by decide), by decide⟩)).trans (V_main_arg8 m c)

theorem final_arg9 {r : PUnit × MemSt nD τ sig (Elt F)} (h : RoutedPost cfgs (dats m) 0 {main_v0} (V m) (Y m) r) (c : Dev nD) :
    r.2.mem ((c : Thread nD τ).loc main_arg9) = m ((c : Thread nD τ).loc main_arg9) :=
  ((h c).2.2 main_arg9 (Finset.mem_sdiff.mpr ⟨Pipeline.mem_restRefs_of main_arg9 (by decide) (by decide), by decide⟩)).trans (V_main_arg9 m c)

theorem final_arg10 {r : PUnit × MemSt nD τ sig (Elt F)} (h : RoutedPost cfgs (dats m) 0 {main_v0} (V m) (Y m) r) (c : Dev nD) :
    r.2.mem ((c : Thread nD τ).loc main_arg10) = m ((c : Thread nD τ).loc main_arg10) :=
  ((h c).2.2 main_arg10 (Finset.mem_sdiff.mpr ⟨Pipeline.mem_restRefs_of main_arg10 (by decide) (by decide), by decide⟩)).trans (V_main_arg10 m c)

theorem final_arg11 {r : PUnit × MemSt nD τ sig (Elt F)} (h : RoutedPost cfgs (dats m) 0 {main_v0} (V m) (Y m) r) (c : Dev nD) :
    r.2.mem ((c : Thread nD τ).loc main_arg11) = m ((c : Thread nD τ).loc main_arg11) :=
  ((h c).2.2 main_arg11 (Finset.mem_sdiff.mpr ⟨Pipeline.mem_restRefs_of main_arg11 (by decide) (by decide), by decide⟩)).trans (V_main_arg11 m c)

theorem final_arg12 {r : PUnit × MemSt nD τ sig (Elt F)} (h : RoutedPost cfgs (dats m) 0 {main_v0} (V m) (Y m) r) (c : Dev nD) :
    r.2.mem ((c : Thread nD τ).loc main_arg12) = m ((c : Thread nD τ).loc main_arg12) :=
  ((h c).2.2 main_arg12 (Finset.mem_sdiff.mpr ⟨Pipeline.mem_restRefs_of main_arg12 (by decide) (by decide), by decide⟩)).trans (V_main_arg12 m c)

variable (m ρ)

/-- The run with its post read back: the result array at `written`, the thirteen argument arrays as launched. -/
theorem run_value : θ_run defs (onTc (τ := τ) (main (F := F))) ⟨m, fun _ => 0, ρ⟩ (fun r => ∀ c : Dev nD,
      r.2.mem ((c.tc : Thread nD τ).loc main_v0) = written m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨final_v0 h c, final_arg0 h c, final_arg1 h c, final_arg2 h c, final_arg3 h c, final_arg4 h c, final_arg5 h c, final_arg6 h c, final_arg7 h c, final_arg8 h c, final_arg9 h c, final_arg10 h c, final_arg11 h c, final_arg12 h c⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_value m ρ)

end Cert.Proof.KB

end
-- ==== Proof.KTerm.lean ====
/-
  The kernel body's values, named.

  The body's arithmetic is a chain of pure terms over the seventeen staged blocks `X0 … X16`: the batch; then per layer
  the weights, the column sums of their squares, the scale and the shift. Each name below is one value the body
  computes and uses again: a layer's pre-activation (`h1 … h4`), its batch mean, its column scale
  `g · (v + ε)^(-1/2)` and shift `b − μ · s`, and last the four slabs of 256 rows of the result.
-/
import proofs.«403897_j60078002536976_3_alg».proof.Proof.Gen.KernelIdeal.Skeleton

noncomputable section

namespace Cert.Proof.KI

open Cert.KernelIdeal Cert.KernelIdeal.Gen
open Idealize.ShloMosaic

variable {F : FTy → Type} [FloatOps F]

section Chain

variable (X0 : Vec F S1024x784 .f32) (X1 : Vec F S784x392 .bf16) (X2 X3 X4 : Vec F S1x392 .f32) (X5 : Vec F S392x8 .bf16) (X6 X7 X8 : Vec F S1x8 .f32) (X9 : Vec F S8x392 .bf16) (X10 X11 X12 : Vec F S1x392 .f32) (X13 : Vec F S392x784 .bf16) (X14 X15 X16 : Vec F S1x784 .f32)

/-- Layer 1: the pre-activation, the shift `b − μ · s` and the scale `s` broadcast over the rows. -/
def h1 : FVec F S1024x392 .f32 := k0_pay1 X0 X1 X2
def shift1 : FVec F S1x392 .f32 := k0_pay4 X0 X1 X2 X3 X4
def scale1 : FVec F S1024x392 .f32 := k0_pay5 X0 X1 X2 X3
/-- Layer 2: the pre-activation, the shift row as loaded, the scale `s` and `μ · s`. -/
def h2 : FVec F S1024x8 .f32 := k0_pay6 (h1 X0 X1 X2) (shift1 X0 X1 X2 X3 X4) (scale1 X0 X1 X2 X3) X5 X6
def b2row : FVec F S1x8 .f32 := k0_pay7 X8
def scale2 : FVec F S1x8 .f32 := k0_pay9 (h1 X0 X1 X2) (shift1 X0 X1 X2 X3 X4) (scale1 X0 X1 X2 X3) X5 X6 X7
def mscale2 : FVec F S1x8 .f32 := k0_pay10 (h1 X0 X1 X2) (shift1 X0 X1 X2 X3 X4) (scale1 X0 X1 X2 X3) X5 X6 X7
/-- Layer 3: the pre-activation, the scale and shift rows as loaded, the batch mean and `(v + ε)^(-1/2)`. -/
def h3 : FVec F S1024x392 .f32 :=
  k0_pay11 (h2 X0 X1 X2 X3 X4 X5 X6) (b2row X8) (scale2 X0 X1 X2 X3 X4 X5 X6 X7) (mscale2 X0 X1 X2 X3 X4 X5 X6 X7) X9 X10
def g3row : FVec F S1x392 .f32 := k0_pay12 X11
def b3row : FVec F S1x392 .f32 := k0_pay13 X12
def mean3 : FVec F S1x392 .f32 :=
  k0_pay14 (h2 X0 X1 X2 X3 X4 X5 X6) (b2row X8) (scale2 X0 X1 X2 X3 X4 X5 X6 X7) (mscale2 X0 X1 X2 X3 X4 X5 X6 X7) X9 X10
def rs3 : FVec F S1x392 .f32 :=
  k0_pay15 (h2 X0 X1 X2 X3 X4 X5 X6) (b2row X8) (scale2 X0 X1 X2 X3 X4 X5 X6 X7) (mscale2 X0 X1 X2 X3 X4 X5 X6 X7) X9 X10
/-- Layer 4: the pre-activation, the batch mean, the scale `s` and the shift `b − μ · s`. -/
def h4 : FVec F S1024x784 .f32 :=
  k0_pay16 (h3 X0 X1 X2 X3 X4 X5 X6 X7 X8 X9 X10) (g3row X11) (b3row X12) (mean3 X0 X1 X2 X3 X4 X5 X6 X7 X8 X9 X10)
    (rs3 X0 X1 X2 X3 X4 X5 X6 X7 X8 X9 X10) X13 X14
def mean4 : FVec F S1x784 .f32 :=
  k0_pay17 (h3 X0 X1 X2 X3 X4 X5 X6 X7 X8 X9 X10) (g3row X11) (b3row X12) (mean3 X0 X1 X2 X3 X4 X5 X6 X7 X8 X9 X10)
    (rs3 X0 X1 X2 X3 X4 X5 X6 X7 X8 X9 X10) X13 X14
def scale4 : FVec F S1x784 .f32 :=
  k0_pay18 (h3 X0 X1 X2 X3 X4 X5 X6 X7 X8 X9 X10) (g3row X11) (b3row X12) (mean3 X0 X1 X2 X3 X4 X5 X6 X7 X8 X9 X10)
    (rs3 X0 X1 X2 X3 X4 X5 X6 X7 X8 X9 X10) X13 X14 X15
def shift4 : FVec F S1x784 .f32 :=
  k0_pay19 (mean4 X0 X1 X2 X3 X4 X5 X6 X7 X8 X9 X10 X11 X12 X13 X14) (scale4 X0 X1 X2 X3 X4 X5 X6 X7 X8 X9 X10 X11 X12 X13 X14 X15) X16
/-- The four slabs of the result: rows 0–255, 256–511, 512–767, 768–1023. -/
def slab0 : FVec F S256x784 .f32 :=
  k0_pay20 (h4 X0 X1 X2 X3 X4 X5 X6 X7 X8 X9 X10 X11 X12 X13 X14) (mean4 X0 X1 X2 X3 X4 X5 X6 X7 X8 X9 X10 X11 X12 X13 X14)
    (scale4 X0 X1 X2 X3 X4 X5 X6 X7 X8 X9 X10 X11 X12 X13 X14 X15) X16
def slab1 : FVec F S256x784 .f32 :=
  k0_pay21 (h4 X0 X1 X2 X3 X4 X5 X6 X7 X8 X9 X10 X11 X12 X13 X14) (mean4 X0 X1 X2 X3 X4 X5 X6 X7 X8 X9 X10 X11 X12 X13 X14)
    (scale4 X0 X1 X2 X3 X4 X5 X6 X7 X8 X9 X10 X11 X12 X13 X14 X15) X16
def slab2 : FVec F S256x784 .f32 :=
  k0_pay22 (h4 X0 X1 X2 X3 X4 X5 X6 X7 X8 X9 X10 X11 X12 X13 X14) (mean4 X0 X1 X2 X3 X4 X5 X6 X7 X8 X9 X10 X11 X12 X13 X14)
    (scale4 X0 X1 X2 X3 X4 X5 X6 X7 X8 X9 X10 X11 X12 X13 X14 X15) X16
def slab3 : FVec F S256x784 .f32 :=
  k0_pay23 (h4 X0 X1 X2 X3 X4 X5 X6 X7 X8 X9 X10 X11 X12 X13 X14) (scale4 X0 X1 X2 X3 X4 X5 X6 X7 X8 X9 X10 X11 X12 X13 X14 X15)
    (shift4 X0 X1 X2 X3 X4 X5 X6 X7 X8 X9 X10 X11 X12 X13 X14 X15 X16)

end Chain

end Cert.Proof.KI

end
-- ==== Proof.KBody.lean ====
/-
  The kernel body, run once at symbolic operands.

  The body reads its seventeen staged blocks (the batch, and per layer the weights, the column sums of their squares,
  the scale and the shift), computes the four layers, and writes the result in four slabs of 256 rows: each slab is
  stored into the scratch buffer at its rows and then copied, by a transfer on a semaphore cell of its own, into the
  same rows of the result array; after the fourth transfer is started the four are waited for in order. The four
  row ranges are disjoint, so a transfer in flight reads rows no later store touches, and when the last wait returns
  the result array holds the four slabs and every cell is back at zero.
  `kernelRun` is that run: from the staged blocks, the result array and the scratch buffer held whole, and the four
  cells at zero, the body terminates with the staged blocks untouched, the result array and the scratch buffer at
  the contents the run finds (the pair `W`), and the cells at zero again.
-/
import proofs.«403897_j60078002536976_3_alg».proof.Proof.Gen.KernelIdeal
import proofs.«403897_j60078002536976_3_alg».proof.Proof.Gen.KernelIdeal.Skeleton
import proofs.«403897_j60078002536976_3_alg».proof.Proof.Gen.KernelIdeal.Launch
import proofs.«403897_j60078002536976_3_alg».proof.Proof.KTerm
import Idealize.ShloMosaic.Lib.Transfers
import Idealize.ShloMosaic.Lib.Writes
import Idealize.ShloMosaic.Lib.Pipeline.FrameBody
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the run: the pipeline library's copy beside the transfers' counters. -/
abbrev UC : Type := UR sig nD τ × Counters
local notation "𝕄" => MT nD τ sig Unit (Elt F) ℕ UC ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A staged block's buffer held on the elements its memref names, at `f` (what owning the memref unfolds to). -/
abbrev ptS (c : Dev nD) {sp : Space} {S : Shape} {e : EltTy} (M : Memref sig .tc sp S e) (f : Bf (F := F) c M) : sProp 𝕄 :=
  M.view.loc (c : Thread nD τ) ↦[M.view.set]{fullShare} f

/-- The four cells of the kernel's semaphore array, at zero. -/
abbrev cells0 (c : Dev nD) : sProp 𝕄 :=
  iprop(semVal ((c : Thread nD τ), SemLoc.dma (17 : DmaSem sig)) 0 ∗ semVal ((c : Thread nD τ), SemLoc.dma (18 : DmaSem sig)) 0
    ∗ semVal ((c : Thread nD τ), SemLoc.dma (19 : DmaSem sig)) 0 ∗ semVal ((c : Thread nD τ), SemLoc.dma (20 : DmaSem sig)) 0)

set_option sl_exec.dmaWindow true in
set_option maxHeartbeats 4000000 in
/-- The body's run. The result array's and the scratch buffer's final contents are the witnesses the run finds. -/
noncomputable def kernelRun (c : Dev nD) (t : Fin grid0.N) (M0 : Memref sig .tc .vmem S1024x784 .f32) (hM0 : M0.IsWhole) (M1 : Memref sig .tc .vmem S784x392 .bf16) (hM1 : M1.IsWhole) (M2 : Memref sig .tc .vmem S1x392 .f32) (hM2 : M2.IsWhole) (M3 : Memref sig .tc .vmem S1x392 .f32) (hM3 : M3.IsWhole) (M4 : Memref sig .tc .vmem S1x392 .f32) (hM4 : M4.IsWhole) (M5 : Memref sig .tc .vmem S392x8 .bf16) (hM5 : M5.IsWhole) (M6 : Memref sig .tc .vmem S1x8 .f32) (hM6 : M6.IsWhole) (M7 : Memref sig .tc .vmem S1x8 .f32) (hM7 : M7.IsWhole) (M8 : Memref sig .tc .vmem S1x8 .f32) (hM8 : M8.IsWhole) (M9 : Memref sig .tc .vmem S8x392 .bf16) (hM9 : M9.IsWhole) (M10 : Memref sig .tc .vmem S1x392 .f32) (hM10 : M10.IsWhole) (M11 : Memref sig .tc .vmem S1x392 .f32) (hM11 : M11.IsWhole) (M12 : Memref sig .tc .vmem S1x392 .f32) (hM12 : M12.IsWhole) (M13 : Memref sig .tc .vmem S392x784 .bf16) (hM13 : M13.IsWhole) (M14 : Memref sig .tc .vmem S1x784 .f32) (hM14 : M14.IsWhole) (M15 : Memref sig .tc .vmem S1x784 .f32) (hM15 : M15.IsWhole) (M16 : Memref sig .tc .vmem S1x784 .f32) (hM16 : M16.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (g : Bf (F := F) c (Memref.whole cc0_scratch0)) :
    { W : Bf (F := F) c (Memref.whole main_v0) × Bf (F := F) c (Memref.whole cc0_scratch0) //
      ∀ (fv : Bf (F := F) c (Memref.whole main_v0)) (Wt : Waits sig Unit) (Q : PUnit → sProp 𝕄),
        iprop(ptS c M0 f0 ∗ ptS c M1 f1 ∗ ptS c M2 f2 ∗ ptS c M3 f3 ∗ ptS c M4 f4 ∗ ptS c M5 f5 ∗ ptS c M6 f6 ∗ ptS c M7 f7 ∗ ptS c M8 f8 ∗ ptS c M9 f9 ∗ ptS c M10 f10 ∗ ptS c M11 f11 ∗ ptS c M12 f12 ∗ ptS c M13 f13 ∗ ptS c M14 f14 ∗ ptS c M15 f15 ∗ ptS c M16 f16
          ∗ pt c (Memref.whole main_v0) fv ∗ pt c (Memref.whole cc0_scratch0) g
          ∗ semVal ((c : Thread nD τ), SemLoc.dma (17 : DmaSem sig)) 0 ∗ semVal ((c : Thread nD τ), SemLoc.dma (18 : DmaSem sig)) 0
          ∗ semVal ((c : Thread nD τ), SemLoc.dma (19 : DmaSem sig)) 0 ∗ semVal ((c : Thread nD τ), SemLoc.dma (20 : DmaSem sig)) 0
          ∗ owes (c : Thread nD τ) 0 Wt
          ∗ (iprop(ptS c M0 f0 ∗ ptS c M1 f1 ∗ ptS c M2 f2 ∗ ptS c M3 f3 ∗ ptS c M4 f4 ∗ ptS c M5 f5 ∗ ptS c M6 f6 ∗ ptS c M7 f7 ∗ ptS c M8 f8 ∗ ptS c M9 f9 ∗ ptS c M10 f10 ∗ ptS c M11 f11 ∗ ptS c M12 f12 ∗ ptS c M13 f13 ∗ ptS c M14 f14 ∗ ptS c M15 f15 ∗ ptS c M16 f16
              ∗ pt c (Memref.whole main_v0) W.1 ∗ pt c (Memref.whole cc0_scratch0) W.2
              ∗ semVal ((c : Thread nD τ), SemLoc.dma (17 : DmaSem sig)) 0 ∗ semVal ((c : Thread nD τ), SemLoc.dma (18 : DmaSem sig)) 0
              ∗ semVal ((c : Thread nD τ), SemLoc.dma (19 : DmaSem sig)) 0 ∗ semVal ((c : Thread nD τ), SemLoc.dma (20 : DmaSem sig)) 0
              ∗ (∃ W', owes (c : Thread nD τ) 0 W')) -∗ Q ⟨⟩))
        ⊢ wp frame (wpE (defs₀ (F := F)) Variants.none c none) Set.univ
            (cc0__fused_kernel (grid0.coords t) M0 hM0 M1 hM1 M2 hM2 M3 hM3 M4 hM4 M5 hM5 M6 hM6 M7 hM7 M8 hM8 M9 hM9 M10 hM10 M11 hM11 M12 hM12 M13 hM13 M14 hM14 M15 hM15 M16 hM16 (Memref.whole main_v0) (Memref.isWhole_whole _) (Memref.whole cc0_scratch0) (Memref.isWhole_whole _) cc0_scratch1) Q } := by
  refine ⟨⟨?_, ?_⟩, fun fv Wt Q => ?run⟩
  case run =>
    iintro ⟨H0, H1, H2, H3, H4, H5, H6, H7, H8, H9, H10, H11, H12, H13, H14, H15, H16, Hv, Hg, Hs17, Hs18, Hs19, Hs20, HO, Hk⟩
    sl_exec_parts! (disch := decide)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [Hv]; · iexact Hv
    isplitl [Hg]; · iexact Hg
    isplitl [Hs17]; · iexact Hs17
    isplitl [Hs18]; · iexact Hs18
    isplitl [Hs19]; · iexact Hs19
    isplitl [Hs20]; · iexact Hs20
    iexists _; iexact HO

/-! ## The result in closed form -/

/-- The four slabs' row ranges of the [1024, 784] result and scratch: 256 rows at row 0, 256, 512, 768. -/
abbrev R0 : Rect S1024x784 := Rect.unit (s := S1024x784) ![0, 0] S256x784.size inb_S1024x784_S256x784_0_0
abbrev R256 : Rect S1024x784 := Rect.unit (s := S1024x784) ![256, 0] S256x784.size inb_S1024x784_S256x784_256_0
abbrev R512 : Rect S1024x784 := Rect.unit (s := S1024x784) ![512, 0] S256x784.size inb_S1024x784_S256x784_512_0
abbrev R768 : Rect S1024x784 := Rect.unit (s := S1024x784) ![768, 0] S256x784.size inb_S1024x784_S256x784_768_0

/-- The result array after the four transfers, over the staged blocks as the body's loads read them: slab `k` of the
    named chain written at rows `256 k` (the four ranges cover the array, so nothing of its earlier contents is left). -/
def resultW (c : Dev nD) (X0 : Vec F S1024x784 .f32) (X1 : Vec F S784x392 .bf16) (X2 X3 X4 : Vec F S1x392 .f32) (X5 : Vec F S392x8 .bf16) (X6 X7 X8 : Vec F S1x8 .f32) (X9 : Vec F S8x392 .bf16) (X10 X11 X12 : Vec F S1x392 .f32) (X13 : Vec F S392x784 .bf16) (X14 X15 X16 : Vec F S1x784 .f32) : Bf (F := F) c (Memref.whole main_v0) :=
  (View.whole main_v0).writes (Elt F) (View.whole main_v0).junk
    [⟨R768, slab3 X0 X1 X2 X3 X4 X5 X6 X7 X8 X9 X10 X11 X12 X13 X14 X15 X16⟩, ⟨R512, slab2 X0 X1 X2 X3 X4 X5 X6 X7 X8 X9 X10 X11 X12 X13 X14 X15 X16⟩, ⟨R256, slab1 X0 X1 X2 X3 X4 X5 X6 X7 X8 X9 X10 X11 X12 X13 X14 X15 X16⟩, ⟨R0, slab0 X0 X1 X2 X3 X4 X5 X6 X7 X8 X9 X10 X11 X12 X13 X14 X15 X16⟩]

/-- What a transfer moves out of the scratch buffer just stored at its own rows is the stored slab, whatever the
    buffer held before and whatever the other rows hold. -/
theorem slice_read_head {c : Dev nD} (off : Fin 2 → Nat) (inb : ∀ a, off a + S256x784.size a ≤ S1024x784.size a)
    (hp : ∀ a, (Rect.unit (s := S1024x784) off S256x784.size inb).stride a = 1) (g : Bf (F := F) c (Memref.whole cc0_scratch0))
    (q : S256x784.Idx → Elt F .f32) (L : List (View.Piece (Elt F) S1024x784 .f32)) :
    ReadAs.same.apply (View.read (Elt F) ((Memref.whole cc0_scratch0).slice (Rect.unit (s := S1024x784) off S256x784.size inb) hp).view
      ((Memref.whole cc0_scratch0).view.writes (Elt F) g (⟨Rect.unit (s := S1024x784) off S256x784.size inb, q⟩ :: L))) = q := by
  funext y
  show (View.whole (cc0_scratch0 : Ref sig .tc)).read (Elt F) ((Memref.whole cc0_scratch0).view.writes (Elt F) g
    (⟨Rect.unit (s := S1024x784) off S256x784.size inb, q⟩ :: L)) ((Rect.unit (s := S1024x784) off S256x784.size inb).emb y) = _
  rw [View.read_writes_cons_emb]

set_option maxHeartbeats 4000000 in
/-- The result the run finds is `resultW` at the blocks the body's seventeen loads read. -/
theorem kernelRun_fst (c : Dev nD) (t : Fin grid0.N) (M0 : Memref sig .tc .vmem S1024x784 .f32) (hM0 : M0.IsWhole) (M1 : Memref sig .tc .vmem S784x392 .bf16) (hM1 : M1.IsWhole) (M2 : Memref sig .tc .vmem S1x392 .f32) (hM2 : M2.IsWhole) (M3 : Memref sig .tc .vmem S1x392 .f32) (hM3 : M3.IsWhole) (M4 : Memref sig .tc .vmem S1x392 .f32) (hM4 : M4.IsWhole) (M5 : Memref sig .tc .vmem S392x8 .bf16) (hM5 : M5.IsWhole) (M6 : Memref sig .tc .vmem S1x8 .f32) (hM6 : M6.IsWhole) (M7 : Memref sig .tc .vmem S1x8 .f32) (hM7 : M7.IsWhole) (M8 : Memref sig .tc .vmem S1x8 .f32) (hM8 : M8.IsWhole) (M9 : Memref sig .tc .vmem S8x392 .bf16) (hM9 : M9.IsWhole) (M10 : Memref sig .tc .vmem S1x392 .f32) (hM10 : M10.IsWhole) (M11 : Memref sig .tc .vmem S1x392 .f32) (hM11 : M11.IsWhole) (M12 : Memref sig .tc .vmem S1x392 .f32) (hM12 : M12.IsWhole) (M13 : Memref sig .tc .vmem S392x784 .bf16) (hM13 : M13.IsWhole) (M14 : Memref sig .tc .vmem S1x784 .f32) (hM14 : M14.IsWhole) (M15 : Memref sig .tc .vmem S1x784 .f32) (hM15 : M15.IsWhole) (M16 : Memref sig .tc .vmem S1x784 .f32) (hM16 : M16.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (g : Bf (F := F) c (Memref.whole cc0_scratch0)) :
    (kernelRun c t M0 hM0 M1 hM1 M2 hM2 M3 hM3 M4 hM4 M5 hM5 M6 hM6 M7 hM7 M8 hM8 M9 hM9 M10 hM10 M11 hM11 M12 hM12 M13 hM13 M14 hM14 M15 hM15 M16 hM16 f0 f1 f2 f3 f4 f5 f6 f7 f8 f9 f10 f11 f12 f13 f14 f15 f16 g).1.1
      = resultW c
          (View.readAt (Elt F) M0.view (Rect.unit (s := S1024x784) ![0, 0] S1024x784.size inb_S1024x784_S1024x784_0_0).toLoadRect f0)
          (View.readAt (Elt F) M1.view (Rect.unit (s := S784x392) ![0, 0] S784x392.size inb_S784x392_S784x392_0_0).toLoadRect f1)
          (View.readAt (Elt F) M2.view (Rect.unit (s := S1x392) ![0, 0] S1x392.size inb_S1x392_S1x392_0_0).toLoadRect f2)
          (View.readAt (Elt F) M3.view (Rect.unit (s := S1x392) ![0, 0] S1x392.size inb_S1x392_S1x392_0_0).toLoadRect f3)
          (View.readAt (Elt F) M4.view (Rect.unit (s := S1x392) ![0, 0] S1x392.size inb_S1x392_S1x392_0_0).toLoadRect f4)
          (View.readAt (Elt F) M5.view (Rect.unit (s := S392x8) ![0, 0] S392x8.size inb_S392x8_S392x8_0_0).toLoadRect f5)
          (View.readAt (Elt F) M6.view (Rect.unit (s := S1x8) ![0, 0] S1x8.size inb_S1x8_S1x8_0_0).toLoadRect f6)
          (View.readAt (Elt F) M7.view (Rect.unit (s := S1x8) ![0, 0] S1x8.size inb_S1x8_S1x8_0_0).toLoadRect f7)
          (View.readAt (Elt F) M8.view (Rect.unit (s := S1x8) ![0, 0] S1x8.size inb_S1x8_S1x8_0_0).toLoadRect f8)
          (View.readAt (Elt F) M9.view (Rect.unit (s := S8x392) ![0, 0] S8x392.size inb_S8x392_S8x392_0_0).toLoadRect f9)
          (View.readAt (Elt F) M10.view (Rect.unit (s := S1x392) ![0, 0] S1x392.size inb_S1x392_S1x392_0_0).toLoadRect f10)
          (View.readAt (Elt F) M11.view (Rect.unit (s := S1x392) ![0, 0] S1x392.size inb_S1x392_S1x392_0_0).toLoadRect f11)
          (View.readAt (Elt F) M12.view (Rect.unit (s := S1x392) ![0, 0] S1x392.size inb_S1x392_S1x392_0_0).toLoadRect f12)
          (View.readAt (Elt F) M13.view (Rect.unit (s := S392x784) ![0, 0] S392x784.size inb_S392x784_S392x784_0_0).toLoadRect f13)
          (View.readAt (Elt F) M14.view (Rect.unit (s := S1x784) ![0, 0] S1x784.size inb_S1x784_S1x784_0_0).toLoadRect f14)
          (View.readAt (Elt F) M15.view (Rect.unit (s := S1x784) ![0, 0] S1x784.size inb_S1x784_S1x784_0_0).toLoadRect f15)
          (View.readAt (Elt F) M16.view (Rect.unit (s := S1x784) ![0, 0] S1x784.size inb_S1x784_S1x784_0_0).toLoadRect f16) := by
  unfold kernelRun
  dsimp only
  sl_unfold_run_names
  unfold resultW slab3 slab2 slab1 slab0 shift4 scale4 mean4 h4 rs3 mean3 b3row g3row h3 mscale2 scale2 b2row h2 scale1 shift1 h1
  rw [slice_read_head, slice_read_head, slice_read_head, slice_read_head]

end Cert.Proof.KI

end
-- ==== Proof.KRun.lean ====
/-
  The kernel program's run: the proof data of its one pallas_call and the launch.

  @main is a stretch of host operations (the weights in bf16, the column sums of their squares, the scale and shift
  rows reshaped) and then the one region, a pipeline of a single grid point over seventeen input windows, each the
  whole of its array. The result array is no window's: the body writes it by its own transfers, so it is routed
  through the body's invariant, which holds it whole at its launch contents before the point and whole at `written`
  after it, the four semaphore cells at zero both times. `run_main`: from any memory with zero counters every weakly
  fair execution of @main terminates, with the result array at `written` and every other unscoped buffer as the region
  found it; the argument arrays are among those and no host operation writes them.
-/
import proofs.«403897_j60078002536976_3_alg».proof.Proof.KBody
import Idealize.ShloMosaic.Lib.Pipeline.Routed
import Idealize.ShloMosaic.Lib.Pipeline.Value
import proofs.«403897_j60078002536976_3_alg».proof.Proof.Gen.KernelIdeal.Frame
import proofs.«403897_j60078002536976_3_alg».proof.Proof.Gen.KernelIdeal.Points

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed_singleton)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cells: the four DMA semaphores of its semaphore array, cell `k` for slab `k`. -/
abbrev osem : Fin 4 → SemLoc sig := fun | 0 => .dma 17 | 1 => .dma 18 | 2 => .dma 19 | 3 => .dma 20

/-- The result array after the run: the four slabs of the body's chain at the seventeen windows' blocks. -/
def written (c : Dev nD) : Buf (Elt F) ((c : Thread nD τ).loc main_v0) :=
  resultW c (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0)

/-- The routed buffer's exit contents as a valuation. -/
def Y (c : Dev nD) : (b : Ref sig .tc) → Buf (Elt F) ((c : Thread nD τ).loc b) := Function.update (V m c) main_v0 (written m c)

theorem Y_main_v0 (c : Dev nD) : Y m c main_v0 = written m c := Function.update_self ..

/-! ## The proof data -/

/-- The proof data on core `c`: the arrays at their entry contents; after the body each input's staging buffer at its
    block; the invariant before and after the one point; nothing owed; full shares. -/
def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨_ + 17, h⟩ => absurd h (Nat.not_lt.2 (Nat.le_add_left _ _))
  Φ t := match t with
    | ⟨0, _⟩ => Ends spec0 osem {main_v0} c (V m c)
    | ⟨_ + 1, _⟩ => Ends spec0 osem {main_v0} c (Y m c)
  q _ := fullShare
  owed _ := 0

abbrev 𝒱₀ : Variants := Variants.none

omit [FloatOps F] in
/-- The kernel's own cells at zero, listed. -/
theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (17 : DmaSem sig)) 0 ∗ semVal ((c : Thread nD τ), SemLoc.dma (18 : DmaSem sig)) 0
          ∗ semVal ((c : Thread nD τ), SemLoc.dma (19 : DmaSem sig)) 0 ∗ semVal ((c : Thread nD τ), SemLoc.dma (20 : DmaSem sig)) 0) :=
  Pipeline.ownSems0_eq_of_list c osem [0, 1, 2, 3] (by decide) (by decide)

/-- `Ends` at this program's lists: the result buffer, the four cells, the scratch buffer at some contents, the register. -/
theorem ends_eq (c : Dev nD) (W : (b : Ref sig .tc) → Buf (Elt F) ((c : Thread nD τ).loc b)) :
    (Ends spec0 osem {main_v0} c W : sProp 𝕄)
      = iprop(pt c (Memref.whole main_v0) (W main_v0)
          ∗ (semVal ((c : Thread nD τ), SemLoc.dma (17 : DmaSem sig)) 0 ∗ semVal ((c : Thread nD τ), SemLoc.dma (18 : DmaSem sig)) 0
              ∗ semVal ((c : Thread nD τ), SemLoc.dma (19 : DmaSem sig)) 0 ∗ semVal ((c : Thread nD τ), SemLoc.dma (20 : DmaSem sig)) 0)
          ∗ (∃ f : Bf (F := F) c (Memref.whole cc0_scratch0), pt c (Memref.whole cc0_scratch0) f) ∗ ∃ r, prngReg c r) := by
  unfold Ends; rw [routed_singleton, ownSems0_eq, scopedRest0_eq]

/-- Every window is an input fetched at the one point: its staging buffer holds its block when the body runs. -/
theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl
theorem before_1 (c : Dev nD) (t : Fin cfg0.N) (d) : (dats m 0 c).before 1 t d = iblk m c 1 t := by
  rw [(dats m 0 c).before_fetched 1 t (fetch0_1 t)]; unfold Dat.fetched Dat.blockOf; dsimp only [dats]; rfl
theorem before_2 (c : Dev nD) (t : Fin cfg0.N) (d) : (dats m 0 c).before 2 t d = iblk m c 2 t := by
  rw [(dats m 0 c).before_fetched 2 t (fetch0_2 t)]; unfold Dat.fetched Dat.blockOf; dsimp only [dats]; rfl
theorem before_3 (c : Dev nD) (t : Fin cfg0.N) (d) : (dats m 0 c).before 3 t d = iblk m c 3 t := by
  rw [(dats m 0 c).before_fetched 3 t (fetch0_3 t)]; unfold Dat.fetched Dat.blockOf; dsimp only [dats]; rfl
theorem before_4 (c : Dev nD) (t : Fin cfg0.N) (d) : (dats m 0 c).before 4 t d = iblk m c 4 t := by
  rw [(dats m 0 c).before_fetched 4 t (fetch0_4 t)]; unfold Dat.fetched Dat.blockOf; dsimp only [dats]; rfl
theorem before_5 (c : Dev nD) (t : Fin cfg0.N) (d) : (dats m 0 c).before 5 t d = iblk m c 5 t := by
  rw [(dats m 0 c).before_fetched 5 t (fetch0_5 t)]; unfold Dat.fetched Dat.blockOf; dsimp only [dats]; rfl
theorem before_6 (c : Dev nD) (t : Fin cfg0.N) (d) : (dats m 0 c).before 6 t d = iblk m c 6 t := by
  rw [(dats m 0 c).before_fetched 6 t (fetch0_6 t)]; unfold Dat.fetched Dat.blockOf; dsimp only [dats]; rfl
theorem before_7 (c : Dev nD) (t : Fin cfg0.N) (d) : (dats m 0 c).before 7 t d = iblk m c 7 t := by
  rw [(dats m 0 c).before_fetched 7 t (fetch0_7 t)]; unfold Dat.fetched Dat.blockOf; dsimp only [dats]; rfl
theorem before_8 (c : Dev nD) (t : Fin cfg0.N) (d) : (dats m 0 c).before 8 t d = iblk m c 8 t := by
  rw [(dats m 0 c).before_fetched 8 t (fetch0_8 t)]; unfold Dat.fetched Dat.blockOf; dsimp only [dats]; rfl
theorem before_9 (c : Dev nD) (t : Fin cfg0.N) (d) : (dats m 0 c).before 9 t d = iblk m c 9 t := by
  rw [(dats m 0 c).before_fetched 9 t (fetch0_9 t)]; unfold Dat.fetched Dat.blockOf; dsimp only [dats]; rfl
theorem before_10 (c : Dev nD) (t : Fin cfg0.N) (d) : (dats m 0 c).before 10 t d = iblk m c 10 t := by
  rw [(dats m 0 c).before_fetched 10 t (fetch0_10 t)]; unfold Dat.fetched Dat.blockOf; dsimp only [dats]; rfl
theorem before_11 (c : Dev nD) (t : Fin cfg0.N) (d) : (dats m 0 c).before 11 t d = iblk m c 11 t := by
  rw [(dats m 0 c).before_fetched 11 t (fetch0_11 t)]; unfold Dat.fetched Dat.blockOf; dsimp only [dats]; rfl
theorem before_12 (c : Dev nD) (t : Fin cfg0.N) (d) : (dats m 0 c).before 12 t d = iblk m c 12 t := by
  rw [(dats m 0 c).before_fetched 12 t (fetch0_12 t)]; unfold Dat.fetched Dat.blockOf; dsimp only [dats]; rfl
theorem before_13 (c : Dev nD) (t : Fin cfg0.N) (d) : (dats m 0 c).before 13 t d = iblk m c 13 t := by
  rw [(dats m 0 c).before_fetched 13 t (fetch0_13 t)]; unfold Dat.fetched Dat.blockOf; dsimp only [dats]; rfl
theorem before_14 (c : Dev nD) (t : Fin cfg0.N) (d) : (dats m 0 c).before 14 t d = iblk m c 14 t := by
  rw [(dats m 0 c).before_fetched 14 t (fetch0_14 t)]; unfold Dat.fetched Dat.blockOf; dsimp only [dats]; rfl
theorem before_15 (c : Dev nD) (t : Fin cfg0.N) (d) : (dats m 0 c).before 15 t d = iblk m c 15 t := by
  rw [(dats m 0 c).before_fetched 15 t (fetch0_15 t)]; unfold Dat.fetched Dat.blockOf; dsimp only [dats]; rfl
theorem before_16 (c : Dev nD) (t : Fin cfg0.N) (d) : (dats m 0 c).before 16 t d = iblk m c 16 t := by
  rw [(dats m 0 c).before_fetched 16 t (fetch0_16 t)]; unfold Dat.fetched Dat.blockOf; dsimp only [dats]; rfl

set_option maxHeartbeats 8000000 in
/-- After the body each input's staging buffer still holds its block (the proof data's `after`, window by window). -/
theorem after_0 (c : Dev nD) (t : Fin cfg0.N) : (dats m 0 c).after 0 t = iblk m c 0 t := rfl
set_option maxHeartbeats 8000000 in
theorem after_1 (c : Dev nD) (t : Fin cfg0.N) : (dats m 0 c).after 1 t = iblk m c 1 t := rfl
set_option maxHeartbeats 8000000 in
theorem after_2 (c : Dev nD) (t : Fin cfg0.N) : (dats m 0 c).after 2 t = iblk m c 2 t := rfl
set_option maxHeartbeats 8000000 in
theorem after_3 (c : Dev nD) (t : Fin cfg0.N) : (dats m 0 c).after 3 t = iblk m c 3 t := rfl
set_option maxHeartbeats 8000000 in
theorem after_4 (c : Dev nD) (t : Fin cfg0.N) : (dats m 0 c).after 4 t = iblk m c 4 t := rfl
set_option maxHeartbeats 8000000 in
theorem after_5 (c : Dev nD) (t : Fin cfg0.N) : (dats m 0 c).after 5 t = iblk m c 5 t := rfl
set_option maxHeartbeats 8000000 in
theorem after_6 (c : Dev nD) (t : Fin cfg0.N) : (dats m 0 c).after 6 t = iblk m c 6 t := rfl
set_option maxHeartbeats 8000000 in
theorem after_7 (c : Dev nD) (t : Fin cfg0.N) : (dats m 0 c).after 7 t = iblk m c 7 t := rfl
set_option maxHeartbeats 8000000 in
theorem after_8 (c : Dev nD) (t : Fin cfg0.N) : (dats m 0 c).after 8 t = iblk m c 8 t := rfl
set_option maxHeartbeats 8000000 in
theorem after_9 (c : Dev nD) (t : Fin cfg0.N) : (dats m 0 c).after 9 t = iblk m c 9 t := rfl
set_option maxHeartbeats 8000000 in
theorem after_10 (c : Dev nD) (t : Fin cfg0.N) : (dats m 0 c).after 10 t = iblk m c 10 t := rfl
set_option maxHeartbeats 8000000 in
theorem after_11 (c : Dev nD) (t : Fin cfg0.N) : (dats m 0 c).after 11 t = iblk m c 11 t := rfl
set_option maxHeartbeats 8000000 in
theorem after_12 (c : Dev nD) (t : Fin cfg0.N) : (dats m 0 c).after 12 t = iblk m c 12 t := rfl
set_option maxHeartbeats 8000000 in
theorem after_13 (c : Dev nD) (t : Fin cfg0.N) : (dats m 0 c).after 13 t = iblk m c 13 t := rfl
set_option maxHeartbeats 8000000 in
theorem after_14 (c : Dev nD) (t : Fin cfg0.N) : (dats m 0 c).after 14 t = iblk m c 14 t := rfl
set_option maxHeartbeats 8000000 in
theorem after_15 (c : Dev nD) (t : Fin cfg0.N) : (dats m 0 c).after 15 t = iblk m c 15 t := rfl
set_option maxHeartbeats 8000000 in
theorem after_16 (c : Dev nD) (t : Fin cfg0.N) : (dats m 0 c).after 16 t = iblk m c 16 t := rfl

/-- What the body is called with at point `t` (the library's body obligation, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The core's `owes` as the post wants it, from what the run hands back (nothing is taken on). -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- `![0, 0]` is the zero offset. -/
theorem off2_zero : (![0, 0] : Fin 2 → Nat) = fun _ => 0 := by
  funext a; match a with | ⟨0, _⟩ => rfl | ⟨1, _⟩ => rfl

set_option maxHeartbeats 16000000 in
/-- The result the body's run finds, at buffers whose reads are the windows' blocks, is `written`. -/
theorem found_eq_written (c : Dev nD)
    (f0 : Bf (F := F) c (st0_0 t0_0)) (f1 : Bf (F := F) c (st0_1 t0_0)) (f2 : Bf (F := F) c (st0_2 t0_0)) (f3 : Bf (F := F) c (st0_3 t0_0)) (f4 : Bf (F := F) c (st0_4 t0_0)) (f5 : Bf (F := F) c (st0_5 t0_0)) (f6 : Bf (F := F) c (st0_6 t0_0)) (f7 : Bf (F := F) c (st0_7 t0_0)) (f8 : Bf (F := F) c (st0_8 t0_0)) (f9 : Bf (F := F) c (st0_9 t0_0)) (f10 : Bf (F := F) c (st0_10 t0_0)) (f11 : Bf (F := F) c (st0_11 t0_0)) (f12 : Bf (F := F) c (st0_12 t0_0)) (f13 : Bf (F := F) c (st0_13 t0_0)) (f14 : Bf (F := F) c (st0_14 t0_0)) (f15 : Bf (F := F) c (st0_15 t0_0)) (f16 : Bf (F := F) c (st0_16 t0_0))
    (g : Bf (F := F) c (Memref.whole cc0_scratch0))
    (e0 : (st0_0 t0_0).view.read (Elt F) f0 = iblk m c 0 t0_0)
    (e1 : (st0_1 t0_0).view.read (Elt F) f1 = iblk m c 1 t0_0)
    (e2 : (st0_2 t0_0).view.read (Elt F) f2 = iblk m c 2 t0_0)
    (e3 : (st0_3 t0_0).view.read (Elt F) f3 = iblk m c 3 t0_0)
    (e4 : (st0_4 t0_0).view.read (Elt F) f4 = iblk m c 4 t0_0)
    (e5 : (st0_5 t0_0).view.read (Elt F) f5 = iblk m c 5 t0_0)
    (e6 : (st0_6 t0_0).view.read (Elt F) f6 = iblk m c 6 t0_0)
    (e7 : (st0_7 t0_0).view.read (Elt F) f7 = iblk m c 7 t0_0)
    (e8 : (st0_8 t0_0).view.read (Elt F) f8 = iblk m c 8 t0_0)
    (e9 : (st0_9 t0_0).view.read (Elt F) f9 = iblk m c 9 t0_0)
    (e10 : (st0_10 t0_0).view.read (Elt F) f10 = iblk m c 10 t0_0)
    (e11 : (st0_11 t0_0).view.read (Elt F) f11 = iblk m c 11 t0_0)
    (e12 : (st0_12 t0_0).view.read (Elt F) f12 = iblk m c 12 t0_0)
    (e13 : (st0_13 t0_0).view.read (Elt F) f13 = iblk m c 13 t0_0)
    (e14 : (st0_14 t0_0).view.read (Elt F) f14 = iblk m c 14 t0_0)
    (e15 : (st0_15 t0_0).view.read (Elt F) f15 = iblk m c 15 t0_0)
    (e16 : (st0_16 t0_0).view.read (Elt F) f16 = iblk m c 16 t0_0) :
    (kernelRun c t0_0 (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9)) (st0_10 t0_0) (hstage0_10 ((cfg0.slots t0_0 10).cast nbuf0_10)) (st0_11 t0_0) (hstage0_11 ((cfg0.slots t0_0 11).cast nbuf0_11)) (st0_12 t0_0) (hstage0_12 ((cfg0.slots t0_0 12).cast nbuf0_12)) (st0_13 t0_0) (hstage0_13 ((cfg0.slots t0_0 13).cast nbuf0_13)) (st0_14 t0_0) (hstage0_14 ((cfg0.slots t0_0 14).cast nbuf0_14)) (st0_15 t0_0) (hstage0_15 ((cfg0.slots t0_0 15).cast nbuf0_15)) (st0_16 t0_0) (hstage0_16 ((cfg0.slots t0_0 16).cast nbuf0_16))
      f0 f1 f2 f3 f4 f5 f6 f7 f8 f9 f10 f11 f12 f13 f14 f15 f16 g).1.1 = written m c := by
  rw [kernelRun_fst]
  unfold written
  simp only [View.readAt_eq_ld, e0, e1, e2, e3, e4, e5, e6, e7, e8, e9, e10, e11, e12, e13, e14, e15, e16]
  simp only [View.ld_unit_zero (S := S1024x784) off2_zero, View.ld_unit_zero (S := S784x392) off2_zero, View.ld_unit_zero (S := S1x392) off2_zero, View.ld_unit_zero (S := S392x8) off2_zero, View.ld_unit_zero (S := S1x8) off2_zero, View.ld_unit_zero (S := S8x392) off2_zero, View.ld_unit_zero (S := S392x784) off2_zero, View.ld_unit_zero (S := S1x784) off2_zero]

set_option maxHeartbeats 64000000 in
/-- The body at the one point: the invariant taken apart, the body's run applied, its post reassembled. -/
theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  simp only [before_0, before_1, before_2, before_3, before_4, before_5, before_6, before_7, before_8, before_9, before_10, before_11, before_12, before_13, before_14, before_15, before_16]
  rw [after_0 m c, after_1 m c, after_2 m c, after_3 m c, after_4 m c, after_5 m c, after_6 m c, after_7 m c, after_8 m c, after_9 m c, after_10 m c, after_11 m c, after_12 m c, after_13 m c, after_14 m c, after_15 m c, after_16 m c]
  unfold Dat.owesAt Pipeline.owesWithin
  rw [show (dats m 0 c).owed t0_0.castSucc = 0 from rfl]
  rw [show (dats m 0 c).Φ t0_0.castSucc = Ends spec0 osem {main_v0} c (V m c) from rfl,
    show (dats m 0 c).Φ t0_0.succ = Ends spec0 osem {main_v0} c (Y m c) from rfl, ends_eq, ends_eq, Y_main_v0]
  unfold owns
  iintro ⟨⟨Hv, ⟨Hs17, Hs18, Hs19, Hs20⟩, ⟨%g, Hg⟩, Hp⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩⟩
  iapply ((kernelRun c t0_0 (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9)) (st0_10 t0_0) (hstage0_10 ((cfg0.slots t0_0 10).cast nbuf0_10)) (st0_11 t0_0) (hstage0_11 ((cfg0.slots t0_0 11).cast nbuf0_11)) (st0_12 t0_0) (hstage0_12 ((cfg0.slots t0_0 12).cast nbuf0_12)) (st0_13 t0_0) (hstage0_13 ((cfg0.slots t0_0 13).cast nbuf0_13)) (st0_14 t0_0) (hstage0_14 ((cfg0.slots t0_0 14).cast nbuf0_14)) (st0_15 t0_0) (hstage0_15 ((cfg0.slots t0_0 15).cast nbuf0_15)) (st0_16 t0_0) (hstage0_16 ((cfg0.slots t0_0 16).cast nbuf0_16))
      f0 f1 f2 f3 f4 f5 f6 f7 f8 f9 f10 f11 f12 f13 f14 f15 f16 g).2 (V m c main_v0) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hv]; · iexact Hv
  isplitl [Hg]; · iexact Hg
  isplitl [Hs17]; · iexact Hs17
  isplitl [Hs18]; · iexact Hs18
  isplitl [Hs19]; · iexact Hs19
  isplitl [Hs20]; · iexact Hs20
  isplitl [HO]; · iexact HO
  iintro ⟨H0, H1, H2, H3, H4, H5, H6, H7, H8, H9, H10, H11, H12, H13, H14, H15, H16, Hv, Hg, Hs17, Hs18, Hs19, Hs20, ⟨%W', HO⟩⟩
  isplitl [Hv Hg Hs17 Hs18 Hs19 Hs20 Hp]
  · isplitl [Hv]
    · rw [← found_eq_written m c f0 f1 f2 f3 f4 f5 f6 f7 f8 f9 f10 f11 f12 f13 f14 f15 f16 g e0 e1 e2 e3 e4 e5 e6 e7 e8 e9 e10 e11 e12 e13 e14 e15 e16]; iexact Hv
    isplitl [Hs17 Hs18 Hs19 Hs20]
    · isplitl [Hs17]; · iexact Hs17
      isplitl [Hs18]; · iexact Hs18
      isplitl [Hs19]; · iexact Hs19
      iexact Hs20
    isplitl [Hg]; · iexists _; iexact Hg
    iexact Hp
  isplitl [HO]; · iapply (owesAt_intro m c); iexact HO
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  isplitl [H11]; · iexists f11; isplitr; (· ipureintro; exact e11); iexact H11
  isplitl [H12]; · iexists f12; isplitr; (· ipureintro; exact e12); iexact H12
  isplitl [H13]; · iexists f13; isplitr; (· ipureintro; exact e13); iexact H13
  isplitl [H14]; · iexists f14; isplitr; (· ipureintro; exact e14); iexact H14
  isplitl [H15]; · iexists f15; isplitr; (· ipureintro; exact e15); iexact H15
  iexists f16; isplitr; (· ipureintro; exact e16); iexact H16

/-- The library's body obligation, at the one point. -/
theorem body_obligation (c : Dev nD) : BodyObligation (dats (F := F) m 0 c) (defs₀ (F := F)) 𝒱₀ () Set.univ := fun t => by
  rw [bigSep_W0, bigSep_W0]
  exact sound_body m c t

/-! ## The launch -/

/-- The layout the launch needs of the kernel's own semaphores: scoped, distinct, and no staging semaphore. -/
theorem ownSemFacts : Pipeline.OwnSemFacts spec0 osem := by decide

/-- The result array bypasses the region: unscoped, and no window's array. -/
theorem main_v0_rest : ({main_v0} : Finset (Ref sig .tc)) ⊆ Pipeline.restRefs sig spec0 :=
  Finset.singleton_subset_iff.mpr (Pipeline.mem_restRefs_of main_v0 (by decide) (by decide))

/-- At the compiled mesh, for any float values, from any memory with zero counters: every weakly fair execution of
    @main on the TensorCores terminates, and every final state has the windows' arrays at the library's account of
    input windows, the result buffer at `written`, and every other unscoped buffer as the region found it. -/
theorem run_main : θ_run defs (onTc (τ := τ) (main (F := F))) (s₀ m ρ) (RoutedPost cfgs (dats m) 0 {main_v0} (V m) (Y m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := {main_v0}) (hR := main_v0_rest) (Y := Y m) (hin := fun _ => .rfl) (hout := fun _ => .rfl)

/-! ## The final contents, read off the post -/

variable {m ρ}

theorem final_v0 {r : PUnit × MemSt nD τ sig (Elt F)} (h : RoutedPost cfgs (dats m) 0 {main_v0} (V m) (Y m) r) (c : Dev nD) :
    r.2.mem ((c : Thread nD τ).loc main_v0) = written m c :=
  ((h c).2.1 main_v0 (Finset.mem_singleton_self _)).trans (Y_main_v0 m c)

theorem final_arg0 {r : PUnit × MemSt nD τ sig (Elt F)} (h : RoutedPost cfgs (dats m) 0 {main_v0} (V m) (Y m) r) (c : Dev nD) :
    r.2.mem ((c : Thread nD τ).loc main_arg0) = m ((c : Thread nD τ).loc main_arg0) :=
  ((h c).1 0).trans (((dats m 0 c).arrAt_in 0 rfl _).trans (V_main_arg0 m c))

theorem final_arg1 {r : PUnit × MemSt nD τ sig (Elt F)} (h : RoutedPost cfgs (dats m) 0 {main_v0} (V m) (Y m) r) (c : Dev nD) :
    r.2.mem ((c : Thread nD τ).loc main_arg1) = m ((c : Thread nD τ).loc main_arg1) :=
  ((h c).2.2 main_arg1 (Finset.mem_sdiff.mpr ⟨Pipeline.mem_restRefs_of main_arg1 (by decide) (by decide), by decide⟩)).trans (V_main_arg1 m c)

theorem final_arg2 {r : PUnit × MemSt nD τ sig (Elt F)} (h : RoutedPost cfgs (dats m) 0 {main_v0} (V m) (Y m) r) (c : Dev nD) :
    r.2.mem ((c : Thread nD τ).loc main_arg2) = m ((c : Thread nD τ).loc main_arg2) :=
  ((h c).2.2 main_arg2 (Finset.mem_sdiff.mpr ⟨Pipeline.mem_restRefs_of main_arg2 (by decide) (by decide), by decide⟩)).trans (V_main_arg2 m c)

theorem final_arg3 {r : PUnit × MemSt nD τ sig (Elt F)} (h : RoutedPost cfgs (dats m) 0 {main_v0} (V m) (Y m) r) (c : Dev nD) :
    r.2.mem ((c : Thread nD τ).loc main_arg3) = m ((c : Thread nD τ).loc main_arg3) :=
  ((h c).2.2 main_arg3 (Finset.mem_sdiff.mpr ⟨Pipeline.mem_restRefs_of main_arg3 (by decide) (by decide), by decide⟩)).trans (V_main_arg3 m c)

theorem final_arg4 {r : PUnit × MemSt nD τ sig (Elt F)} (h : RoutedPost cfgs (dats m) 0 {main_v0} (V m) (Y m) r) (c : Dev nD) :
    r.2.mem ((c : Thread nD τ).loc main_arg4) = m ((c : Thread nD τ).loc main_arg4) :=
  ((h c).2.2 main_arg4 (Finset.mem_sdiff.mpr ⟨Pipeline.mem_restRefs_of main_arg4 (by decide) (by decide), by decide⟩)).trans (V_main_arg4 m c)

theorem final_arg5 {r : PUnit × MemSt nD τ sig (Elt F)} (h : RoutedPost cfgs (dats m) 0 {main_v0} (V m) (Y m) r) (c : Dev nD) :
    r.2.mem ((c : Thread nD τ).loc main_arg5) = m ((c : Thread nD τ).loc main_arg5) :=
  ((h c).2.2 main_arg5 (Finset.mem_sdiff.mpr ⟨Pipeline.mem_restRefs_of main_arg5 (by decide) (by decide), by decide⟩)).trans (V_main_arg5 m c)

theorem final_arg6 {r : PUnit × MemSt nD τ sig (Elt F)} (h : RoutedPost cfgs (dats m) 0 {main_v0} (V m) (Y m) r) (c : Dev nD) :
    r.2.mem ((c : Thread nD τ).loc main_arg6) = m ((c : Thread nD τ).loc main_arg6) :=
  ((h c).2.2 main_arg6 (Finset.mem_sdiff.mpr ⟨Pipeline.mem_restRefs_of main_arg6 (by decide) (by decide), by decide⟩)).trans (V_main_arg6 m c)

theorem final_arg7 {r : PUnit × MemSt nD τ sig (Elt F)} (h : RoutedPost cfgs (dats m) 0 {main_v0} (V m) (Y m) r) (c : Dev nD) :
    r.2.mem ((c : Thread nD τ).loc main_arg7) = m ((c : Thread nD τ).loc main_arg7) :=
  ((h c).2.2 main_arg7 (Finset.mem_sdiff.mpr ⟨Pipeline.mem_restRefs_of main_arg7 (by decide) (by decide), by decide⟩)).trans (V_main_arg7 m c)

theorem final_arg8 {r : PUnit × MemSt nD τ sig (Elt F)} (h : RoutedPost cfgs (dats m) 0 {main_v0} (V m) (Y m) r) (c : Dev nD) :
    r.2.mem ((c : Thread nD τ).loc main_arg8) = m ((c : Thread nD τ).loc main_arg8) :=
  ((h c).2.2 main_arg8 (Finset.mem_sdiff.mpr ⟨Pipeline.mem_restRefs_of main_arg8 (by decide) (by decide), by decide⟩)).trans (V_main_arg8 m c)

theorem final_arg9 {r : PUnit × MemSt nD τ sig (Elt F)} (h : RoutedPost cfgs (dats m) 0 {main_v0} (V m) (Y m) r) (c : Dev nD) :
    r.2.mem ((c : Thread nD τ).loc main_arg9) = m ((c : Thread nD τ).loc main_arg9) :=
  ((h c).2.2 main_arg9 (Finset.mem_sdiff.mpr ⟨Pipeline.mem_restRefs_of main_arg9 (by decide) (by decide), by decide⟩)).trans (V_main_arg9 m c)

theorem final_arg10 {r : PUnit × MemSt nD τ sig (Elt F)} (h : RoutedPost cfgs (dats m) 0 {main_v0} (V m) (Y m) r) (c : Dev nD) :
    r.2.mem ((c : Thread nD τ).loc main_arg10) = m ((c : Thread nD τ).loc main_arg10) :=
  ((h c).2.2 main_arg10 (Finset.mem_sdiff.mpr ⟨Pipeline.mem_restRefs_of main_arg10 (by decide) (by decide), by decide⟩)).trans (V_main_arg10 m c)

theorem final_arg11 {r : PUnit × MemSt nD τ sig (Elt F)} (h : RoutedPost cfgs (dats m) 0 {main_v0} (V m) (Y m) r) (c : Dev nD) :
    r.2.mem ((c : Thread nD τ).loc main_arg11) = m ((c : Thread nD τ).loc main_arg11) :=
  ((h c).2.2 main_arg11 (Finset.mem_sdiff.mpr ⟨Pipeline.mem_restRefs_of main_arg11 (by decide) (by decide), by decide⟩)).trans (V_main_arg11 m c)

theorem final_arg12 {r : PUnit × MemSt nD τ sig (Elt F)} (h : RoutedPost cfgs (dats m) 0 {main_v0} (V m) (Y m) r) (c : Dev nD) :
    r.2.mem ((c : Thread nD τ).loc main_arg12) = m ((c : Thread nD τ).loc main_arg12) :=
  ((h c).2.2 main_arg12 (Finset.mem_sdiff.mpr ⟨Pipeline.mem_restRefs_of main_arg12 (by decide) (by decide), by decide⟩)).trans (V_main_arg12 m c)

variable (m ρ)

/-- The run with its post read back: the result array at `written`, the thirteen argument arrays as launched. -/
theorem run_value : θ_run defs (onTc (τ := τ) (main (F := F))) ⟨m, fun _ => 0, ρ⟩ (fun r => ∀ c : Dev nD,
      r.2.mem ((c.tc : Thread nD τ).loc main_v0) = written m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨final_v0 h c, final_arg0 h c, final_arg1 h c, final_arg2 h c, final_arg3 h c, final_arg4 h c, final_arg5 h c, final_arg6 h c, final_arg7 h c, final_arg8 h c, final_arg9 h c, final_arg10 h c, final_arg11 h c, final_arg12 h c⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_value m ρ)

end Cert.Proof.KI

end
-- ==== Proof.Spec.lean ====
/-
  The function both programs compute, as plain mathematics over the extended reals.

  A layer maps a batch `x : B → K → EReal` and a weight matrix `w : K → N → EReal` to minus half the squared
  Euclidean distance of row `b` of `x` to column `j` of `w`, expanded as ‖x_b‖² − 2⟨x_b, w_j⟩ + ‖w_j‖² (`euclid`);
  the result is normalised column by column with the batch mean and the biased batch variance (`colMean`,
  `colVar`), scaled by `g` and shifted by `b`. The normalisation is spelt in two ways: as
  `h · s + (b − μ · s)` with `s = g · (v + ε)^(-1/2)` (`bnK`), and as `g · (h − μ) / √(v + ε) + b` (`bnR`). Over the reals
  the two are one function by distributivity; over the extended reals that needs every quantity finite, which
  `net_eq` carries through the four layers: three of them followed by `max · 0`, the last by the logistic function.
-/
import Idealize.ShloMosaic.PureOps.Ideal

noncomputable section

namespace Cert.Spec

open Idealize.ShloMosaic

/-- The four float literals of the computation, as the extended reals their binary32 words denote:
    `2`, `−1/2`, `1024` (the batch size) and the variance offset `ε` (the binary32 nearest to `1e-5`). -/
def cTwo : EReal := Ideal.ofBits .f32 0x40000000#32
def cNegHalf : EReal := Ideal.ofBits .f32 0xBF000000#32
def cN : EReal := Ideal.ofBits .f32 0x44800000#32
def cEps : EReal := Ideal.ofBits .f32 0x3727C5AC#32

section Blocks

variable {B K N : Type} [Fintype B] [Fintype K] [Fintype N]

/-- `−½ · ((‖x_b‖² − 2 · ⟨x_b, w_j⟩) + ‖w_j‖²)`. -/
def euclid (x : B → K → EReal) (w : K → N → EReal) : B → N → EReal := fun b j =>
  cNegHalf * (((∑ k, x b k * x b k) - cTwo * (∑ k, x b k * w k j)) + (∑ k, w k j * w k j))

/-- The mean of column `j` over the batch. -/
def colMean (h : B → N → EReal) : N → EReal := fun j => Ideal.div (∑ r, h r j) cN

/-- The biased variance of column `j` over the batch: the mean of the squared deviations from the mean. -/
def colVar (h : B → N → EReal) : N → EReal := fun j =>
  Ideal.div (∑ r, (h r j - colMean h j) * (h r j - colMean h j)) cN

/-- Normalisation as scale and shift: `h · s + (b − μ · s)`, `s = g · (v + ε)^(-1/2)`. -/
def bnK (h : B → N → EReal) (g b : N → EReal) : B → N → EReal := fun r j =>
  h r j * (g j * Ideal.rsqrt (colVar h j + cEps)) + (b j - colMean h j * (g j * Ideal.rsqrt (colVar h j + cEps)))

/-- Normalisation as a quotient: `g · (h − μ) / √(v + ε) + b`. -/
def bnR (h : B → N → EReal) (g b : N → EReal) : B → N → EReal := fun r j =>
  Ideal.div (g j * (h r j - colMean h j)) (Ideal.sqrt (colVar h j + cEps)) + b j

/-- `max · 0`, entry by entry. -/
def relu (h : B → N → EReal) : B → N → EReal := fun r j => max (h r j) 0

/-- The logistic function `1 / (1 + e^(−·))`, entry by entry. -/
def sigm (h : B → N → EReal) : B → N → EReal := fun r j => Ideal.logistic (h r j)

end Blocks

/-- The four layers with the normalisation spelt as scale and shift. -/
def NetK (X : Fin 1024 → Fin 784 → EReal) (W1 : Fin 784 → Fin 392 → EReal) (g1 b1 : Fin 392 → EReal)
    (W2 : Fin 392 → Fin 8 → EReal) (g2 b2 : Fin 8 → EReal) (W3 : Fin 8 → Fin 392 → EReal) (g3 b3 : Fin 392 → EReal)
    (W4 : Fin 392 → Fin 784 → EReal) (g4 b4 : Fin 784 → EReal) : Fin 1024 → Fin 784 → EReal :=
  sigm (bnK (euclid (relu (bnK (euclid (relu (bnK (euclid (relu (bnK (euclid X W1) g1 b1)) W2) g2 b2)) W3) g3 b3)) W4) g4 b4)

/-- The four layers with the normalisation spelt as a quotient. -/
def NetR (X : Fin 1024 → Fin 784 → EReal) (W1 : Fin 784 → Fin 392 → EReal) (g1 b1 : Fin 392 → EReal)
    (W2 : Fin 392 → Fin 8 → EReal) (g2 b2 : Fin 8 → EReal) (W3 : Fin 8 → Fin 392 → EReal) (g3 b3 : Fin 392 → EReal)
    (W4 : Fin 392 → Fin 784 → EReal) (g4 b4 : Fin 784 → EReal) : Fin 1024 → Fin 784 → EReal :=
  sigm (bnR (euclid (relu (bnR (euclid (relu (bnR (euclid (relu (bnR (euclid X W1) g1 b1)) W2) g2 b2)) W3) g3 b3)) W4) g4 b4)

end Cert.Spec

end
-- ==== Proof.Algebra.lean ====
/-
  The two spellings of the network are one function on finite inputs.

  For a column whose entries are all real, the mean, the variance `v ≥ 0` and `v + ε > 0` are real, so
  `(v + ε)^(-1/2)` is the real `1 / √(v + ε)`, and `g · (h − μ) / √(v + ε) + b = h · s + (b − μ · s)` with
  `s = g / √(v + ε)` is distributivity over the reals (`bn_eq`). Every block maps arrays of reals to arrays of reals
  (`euclid_real`, `bnK_real`, `relu_real`), which carries the hypothesis from one layer to the next (`net_eq`).
-/
import proofs.«403897_j60078002536976_3_alg».proof.Proof.Spec

noncomputable section

namespace Cert.Spec

open Idealize.ShloMosaic

/-! ### The four literals as reals -/

/-- The word `0x40000000` denotes `2`. -/
theorem cTwo_eq : cTwo = ((2 : ℝ) : EReal) := by
  simp [cTwo, Ideal.ofBits, Ideal.ieee, -EReal.coe_mul]; norm_num

/-- The word `0xBF000000` denotes `−1/2`. -/
theorem cNegHalf_eq : cNegHalf = ((-(1 / 2) : ℝ) : EReal) := by
  simp [cNegHalf, Ideal.ofBits, Ideal.ieee, -EReal.coe_mul]; norm_num

/-- The word `0x44800000` denotes `1024`. -/
theorem cN_eq : cN = ((1024 : ℝ) : EReal) := by
  simp [cN, Ideal.ofBits, Ideal.ieee, -EReal.coe_mul]; norm_num

/-- The variance offset as a real: the word `0x3727C5AC` has exponent field `110` and significand
    `2^23 + 0x27C5AC = 10995116`, so it denotes `10995116 · 2^(110 − 127 − 23) = 10995116 / 2^40`. -/
def epsR : ℝ := 10995116 / 2 ^ 40

theorem cEps_eq : cEps = ((epsR : ℝ) : EReal) := by
  simp [cEps, epsR, Ideal.ofBits, Ideal.ieee, -EReal.coe_mul]; norm_num

theorem epsR_pos : 0 < epsR := by unfold epsR; positivity

/-! ### Finite sums and arrays of reals -/

/-- The coercion of the reals into the extended reals commutes with a finite sum. -/
theorem coe_sum {ι : Type} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- A vector whose entries are all real is the coercion of a real vector. -/
theorem exists_coe1 {α : Type} (g : α → EReal) (hg : ∀ a, ∃ r : ℝ, g a = (r : EReal)) :
    ∃ gr : α → ℝ, g = fun a => (gr a : EReal) := by
  choose gr hg using hg
  exact ⟨gr, funext hg⟩

/-- A matrix whose entries are all real is the coercion of a real matrix. -/
theorem exists_coe2 {α β : Type} (h : α → β → EReal) (hh : ∀ a b, ∃ r : ℝ, h a b = (r : EReal)) :
    ∃ hr : α → β → ℝ, h = fun a b => (hr a b : EReal) := by
  choose hr hh using hh
  exact ⟨hr, funext fun a => funext fun b => hh a b⟩

section Blocks

variable {B K N : Type} [Fintype B] [Fintype K] [Fintype N]

/-! ### The distance layer -/

/-- On real arrays the distance layer is the same expression over the reals. -/
theorem euclid_coe (x : B → K → ℝ) (w : K → N → ℝ) (b : B) (j : N) :
    euclid (fun b k => (x b k : EReal)) (fun k j => (w k j : EReal)) b j
      = ((-(1 / 2) * (((∑ k, x b k * x b k) - 2 * (∑ k, x b k * w k j)) + (∑ k, w k j * w k j)) : ℝ) : EReal) := by
  simp only [euclid, cNegHalf_eq, cTwo_eq, ← EReal.coe_mul, coe_sum, ← EReal.coe_sub, ← EReal.coe_add]

/-- The distance layer maps arrays of reals to an array of reals. -/
theorem euclid_real (x : B → K → EReal) (w : K → N → EReal) (hx : ∀ b k, ∃ r : ℝ, x b k = (r : EReal))
    (hw : ∀ k j, ∃ r : ℝ, w k j = (r : EReal)) : ∀ b j, ∃ r : ℝ, euclid x w b j = (r : EReal) := by
  obtain ⟨xr, rfl⟩ := exists_coe2 x hx
  obtain ⟨wr, rfl⟩ := exists_coe2 w hw
  intro b j
  exact ⟨_, euclid_coe xr wr b j⟩

/-! ### Column mean and variance -/

/-- The mean of column `j` of a real array over a batch of `1024` rows. -/
def meanR (h : B → N → ℝ) (j : N) : ℝ := (∑ r, h r j) * (1 / 1024)

/-- The biased variance of column `j` of a real array. -/
def varR (h : B → N → ℝ) (j : N) : ℝ := (∑ r, (h r j - meanR h j) * (h r j - meanR h j)) * (1 / 1024)

/-- A mean of squares is nonnegative. -/
theorem varR_nonneg (h : B → N → ℝ) (j : N) : 0 ≤ varR h j := by
  unfold varR
  exact mul_nonneg (Finset.sum_nonneg fun r _ => mul_self_nonneg _) (by norm_num)

theorem colMean_coe (h : B → N → ℝ) (j : N) :
    colMean (fun r j => (h r j : EReal)) j = ((meanR h j : ℝ) : EReal) := by
  simp only [colMean, meanR, cN_eq, Ideal.div_coe (show (1024 : ℝ) ≠ 0 by norm_num), coe_sum, ← EReal.coe_mul]

theorem colVar_coe (h : B → N → ℝ) (j : N) :
    colVar (fun r j => (h r j : EReal)) j = ((varR h j : ℝ) : EReal) := by
  simp only [colVar, colMean_coe, varR, cN_eq, Ideal.div_coe (show (1024 : ℝ) ≠ 0 by norm_num),
    ← EReal.coe_sub, ← EReal.coe_mul, coe_sum]

/-- `v + ε` is a positive real, so its square root is a nonzero real. -/
theorem varR_add_eps_pos (h : B → N → ℝ) (j : N) : 0 < varR h j + epsR :=
  add_pos_of_nonneg_of_pos (varR_nonneg h j) epsR_pos

/-! ### The two spellings of the normalisation -/

theorem bnK_coe (h : B → N → ℝ) (g b : N → ℝ) (r : B) (j : N) :
    bnK (fun r j => (h r j : EReal)) (fun j => (g j : EReal)) (fun j => (b j : EReal)) r j
      = ((h r j * (g j * (Real.sqrt (varR h j + epsR))⁻¹)
          + (b j - meanR h j * (g j * (Real.sqrt (varR h j + epsR))⁻¹)) : ℝ) : EReal) := by
  have hpos := varR_add_eps_pos h j
  simp only [bnK, colMean_coe, colVar_coe, cEps_eq, ← EReal.coe_add]
  rw [Ideal.rsqrt_coe, if_neg (not_lt.mpr hpos.le), if_neg hpos.ne']
  simp only [← EReal.coe_mul, ← EReal.coe_sub, ← EReal.coe_add]

theorem bnR_coe (h : B → N → ℝ) (g b : N → ℝ) (r : B) (j : N) :
    bnR (fun r j => (h r j : EReal)) (fun j => (g j : EReal)) (fun j => (b j : EReal)) r j
      = ((g j * (h r j - meanR h j) * (1 / Real.sqrt (varR h j + epsR)) + b j : ℝ) : EReal) := by
  have hpos := varR_add_eps_pos h j
  simp only [bnR, colMean_coe, colVar_coe, cEps_eq, ← EReal.coe_add]
  rw [Ideal.sqrt_coe, if_neg (not_lt.mpr hpos.le), Ideal.div_coe (Real.sqrt_pos.mpr hpos).ne']
  simp only [← EReal.coe_mul, ← EReal.coe_sub, ← EReal.coe_add]

/-- On an array of reals, with real scale and shift, the two spellings of the normalisation agree. -/
theorem bn_eq (h : B → N → EReal) (g b : N → EReal) (hh : ∀ r j, ∃ x : ℝ, h r j = (x : EReal))
    (hg : ∀ j, ∃ x : ℝ, g j = (x : EReal)) (hb : ∀ j, ∃ x : ℝ, b j = (x : EReal)) : bnK h g b = bnR h g b := by
  obtain ⟨hr, rfl⟩ := exists_coe2 h hh
  obtain ⟨gr, rfl⟩ := exists_coe1 g hg
  obtain ⟨br, rfl⟩ := exists_coe1 b hb
  funext r j
  rw [bnK_coe, bnR_coe]
  congr 1
  rw [one_div]
  ring

/-- The normalisation maps an array of reals, with real scale and shift, to an array of reals. -/
theorem bnK_real (h : B → N → EReal) (g b : N → EReal) (hh : ∀ r j, ∃ x : ℝ, h r j = (x : EReal))
    (hg : ∀ j, ∃ x : ℝ, g j = (x : EReal)) (hb : ∀ j, ∃ x : ℝ, b j = (x : EReal)) :
    ∀ r j, ∃ x : ℝ, bnK h g b r j = (x : EReal) := by
  obtain ⟨hr, rfl⟩ := exists_coe2 h hh
  obtain ⟨gr, rfl⟩ := exists_coe1 g hg
  obtain ⟨br, rfl⟩ := exists_coe1 b hb
  intro r j
  exact ⟨_, bnK_coe hr gr br r j⟩

/-- `max · 0` maps an array of reals to an array of reals. -/
theorem relu_real (h : B → N → EReal) (hh : ∀ r j, ∃ x : ℝ, h r j = (x : EReal)) :
    ∀ r j, ∃ x : ℝ, relu h r j = (x : EReal) := by
  intro r j
  obtain ⟨x, hx⟩ := hh r j
  rcases le_total (h r j) 0 with h0 | h0
  · exact ⟨0, by simp only [relu]; rw [max_eq_right h0, EReal.coe_zero]⟩
  · exact ⟨x, by simp only [relu]; rw [max_eq_left h0, hx]⟩

end Blocks

/-- On arrays of reals the network with the normalisation as scale and shift is the network with it as a quotient. -/
theorem net_eq (X : Fin 1024 → Fin 784 → EReal) (W1 : Fin 784 → Fin 392 → EReal) (g1 b1 : Fin 392 → EReal)
    (W2 : Fin 392 → Fin 8 → EReal) (g2 b2 : Fin 8 → EReal) (W3 : Fin 8 → Fin 392 → EReal) (g3 b3 : Fin 392 → EReal)
    (W4 : Fin 392 → Fin 784 → EReal) (g4 b4 : Fin 784 → EReal)
    (hX : ∀ i j, ∃ r : ℝ, X i j = (r : EReal))
    (hW1 : ∀ i j, ∃ r : ℝ, W1 i j = (r : EReal)) (hg1 : ∀ j, ∃ r : ℝ, g1 j = (r : EReal)) (hb1 : ∀ j, ∃ r : ℝ, b1 j = (r : EReal))
    (hW2 : ∀ i j, ∃ r : ℝ, W2 i j = (r : EReal)) (hg2 : ∀ j, ∃ r : ℝ, g2 j = (r : EReal)) (hb2 : ∀ j, ∃ r : ℝ, b2 j = (r : EReal))
    (hW3 : ∀ i j, ∃ r : ℝ, W3 i j = (r : EReal)) (hg3 : ∀ j, ∃ r : ℝ, g3 j = (r : EReal)) (hb3 : ∀ j, ∃ r : ℝ, b3 j = (r : EReal))
    (hW4 : ∀ i j, ∃ r : ℝ, W4 i j = (r : EReal)) (hg4 : ∀ j, ∃ r : ℝ, g4 j = (r : EReal)) (hb4 : ∀ j, ∃ r : ℝ, b4 j = (r : EReal)) :
    NetK X W1 g1 b1 W2 g2 b2 W3 g3 b3 W4 g4 b4 = NetR X W1 g1 b1 W2 g2 b2 W3 g3 b3 W4 g4 b4 := by
  unfold NetK NetR
  -- layer 1
  have e1 := euclid_real X W1 hX hW1
  rw [← bn_eq (euclid X W1) g1 b1 e1 hg1 hb1]
  have k1 := relu_real _ (bnK_real (euclid X W1) g1 b1 e1 hg1 hb1)
  -- layer 2
  have e2 := euclid_real _ W2 k1 hW2
  rw [← bn_eq _ g2 b2 e2 hg2 hb2]
  have k2 := relu_real _ (bnK_real _ g2 b2 e2 hg2 hb2)
  -- layer 3
  have e3 := euclid_real _ W3 k2 hW3
  rw [← bn_eq _ g3 b3 e3 hg3 hb3]
  have k3 := relu_real _ (bnK_real _ g3 b3 e3 hg3 hb3)
  -- layer 4
  have e4 := euclid_real _ W4 k3 hW4
  rw [← bn_eq _ g4 b4 e4 hg4 hb4]

end Cert.Spec

end
-- ==== Proof.Out.lean ====
/-
  The network over arrays indexed by a shape's indices.

  An argument array of shape [a, b] is a function of a rank-2 index; `m2` reads it as a function of its two
  coordinates, `m1` a rank-1 array as a function of its one coordinate, `row` the single row of a [1, n] array.
  `euclidW` is the layer with the column sums of squares of the weights supplied as a row `q` rather than computed
  (one of the two programs computes them before the layers); with `q` those sums it is `euclid`.
  `OutK` and `OutR` are the two spellings of the network at such arrays; on arrays of reals they are equal.
-/
import proofs.«403897_j60078002536976_3_alg».proof.Proof.Spec
import proofs.«403897_j60078002536976_3_alg».proof.Proof.Algebra
import Idealize.ShloMosaic.Lib.ValueIdx

noncomputable section

namespace Cert.Spec

variable {B K N : Type} [Fintype B] [Fintype K] [Fintype N]

/-- `−½ · ((‖x_b‖² − 2 · ⟨x_b, w_j⟩) + q_j)`: the layer with the weights' column sums of squares given. -/
def euclidW (x : B → K → EReal) (w : K → N → EReal) (q : N → EReal) : B → N → EReal := fun b j =>
  cNegHalf * (((∑ k, x b k * x b k) - cTwo * (∑ k, x b k * w k j)) + q j)

theorem euclidW_colsq (x : B → K → EReal) (w : K → N → EReal) :
    euclidW x w (fun j => ∑ k, w k j * w k j) = euclid x w := rfl

end Cert.Spec

namespace Cert.Out

open Idealize.ShloMosaic Idealize.ShloMosaic.ValueIdx Cert.Spec

/-- Arrays of extended reals of rank 2 and rank 1, by their extents. -/
abbrev A2 (a b : Nat) : Type := (⟨2, ![a, b]⟩ : Shape).Idx → EReal
abbrev A1 (a : Nat) : Type := (⟨1, ![a]⟩ : Shape).Idx → EReal

/-- A rank-2 array as a function of its two coordinates. -/
def m2 {a b : Nat} (x : A2 a b) : Fin a → Fin b → EReal := fun p q => x (ix2 p q)
/-- A rank-1 array as a function of its coordinate. -/
def m1 {a : Nat} (x : A1 a) : Fin a → EReal := fun p => x (ix1 p)
/-- The one row of a [1, n] array. -/
def row {n : Nat} (x : A2 1 n) : Fin n → EReal := fun q => x (ix2 (0 : Fin 1) q)

theorem m2_apply {a b : Nat} (x : A2 a b) (p : Fin a) (q : Fin b) : m2 x p q = x (ix2 p q) := rfl
theorem m1_apply {a : Nat} (x : A1 a) (p : Fin a) : m1 x p = x (ix1 p) := rfl
theorem row_apply {n : Nat} (x : A2 1 n) (q : Fin n) : row x q = x (ix2 (0 : Fin 1) q) := rfl

section
variable (a0 : A2 1024 784) (a1 : A2 784 392) (a2 a3 : A1 392) (a4 : A2 392 8) (a5 a6 : A1 8)
  (a7 : A2 8 392) (a8 a9 : A1 392) (a10 : A2 392 784) (a11 a12 : A1 784)

/-- The network, normalisation as scale and shift, at the thirteen argument arrays. -/
def OutK : A2 1024 784 := fun i =>
  NetK (m2 a0) (m2 a1) (m1 a2) (m1 a3) (m2 a4) (m1 a5) (m1 a6) (m2 a7) (m1 a8) (m1 a9) (m2 a10) (m1 a11) (m1 a12) (i 0) (i 1)

/-- The network, normalisation as a quotient, at the thirteen argument arrays. -/
def OutR : A2 1024 784 := fun i =>
  NetR (m2 a0) (m2 a1) (m1 a2) (m1 a3) (m2 a4) (m1 a5) (m1 a6) (m2 a7) (m1 a8) (m1 a9) (m2 a10) (m1 a11) (m1 a12) (i 0) (i 1)

theorem OutK_apply (r : Fin 1024) (j : Fin 784) : OutK a0 a1 a2 a3 a4 a5 a6 a7 a8 a9 a10 a11 a12 (ix2 r j)
    = NetK (m2 a0) (m2 a1) (m1 a2) (m1 a3) (m2 a4) (m1 a5) (m1 a6) (m2 a7) (m1 a8) (m1 a9) (m2 a10) (m1 a11) (m1 a12) r j := rfl

theorem OutR_apply (r : Fin 1024) (j : Fin 784) : OutR a0 a1 a2 a3 a4 a5 a6 a7 a8 a9 a10 a11 a12 (ix2 r j)
    = NetR (m2 a0) (m2 a1) (m1 a2) (m1 a3) (m2 a4) (m1 a5) (m1 a6) (m2 a7) (m1 a8) (m1 a9) (m2 a10) (m1 a11) (m1 a12) r j := rfl

/-- On arrays of reals the two spellings of the network are one array. -/
theorem out_eq (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) (h8 : ∀ i, ∃ r : ℝ, a8 i = (r : EReal))
    (h9 : ∀ i, ∃ r : ℝ, a9 i = (r : EReal)) (h10 : ∀ i, ∃ r : ℝ, a10 i = (r : EReal)) (h11 : ∀ i, ∃ r : ℝ, a11 i = (r : EReal))
    (h12 : ∀ i, ∃ r : ℝ, a12 i = (r : EReal)) :
    OutK a0 a1 a2 a3 a4 a5 a6 a7 a8 a9 a10 a11 a12 = OutR a0 a1 a2 a3 a4 a5 a6 a7 a8 a9 a10 a11 a12 := by
  funext i
  unfold OutK OutR
  rw [net_eq (m2 a0) (m2 a1) (m1 a2) (m1 a3) (m2 a4) (m1 a5) (m1 a6) (m2 a7) (m1 a8) (m1 a9) (m2 a10) (m1 a11) (m1 a12)
    (fun p q => h0 _) (fun p q => h1 _) (fun p => h2 _) (fun p => h3 _) (fun p q => h4 _) (fun p => h5 _) (fun p => h6 _)
    (fun p q => h7 _) (fun p => h8 _) (fun p => h9 _) (fun p q => h10 _) (fun p => h11 _) (fun p => h12 _)]

end

end Cert.Out

end
-- ==== Proof.KValOut.lean ====
/-
  The last normalisation and the logistic function, read at an index.

  The fourth layer's pre-activation `H` is a [1024, 784] array. The body takes the row `μ` of its column means
  (the column sums over 1024), the row `s = g · (v + ε)^(-1/2)` with `v` the mean of the squared deviations from `μ`,
  and the row `b − μ · s`; it then cuts `H` into four slabs of 256 rows, from rows 0, 256, 512 and 768, and on each
  computes `H · s + (b − μ · s)` followed by the logistic function. Read at row `r` of a slab and column `q`, each of
  these is the normalisation `bnK` of the whole of `H` at row `offset + r`, under `sigm`: the operations and their
  order are those of `bnK`'s definition, so after the sums, the broadcasts and the slices are read at an index
  nothing is left to compute. The lemmas are stated over an arbitrary `H` and then taken at the chain's `h4`.
-/
import proofs.«403897_j60078002536976_3_alg».proof.Proof.KTerm
import proofs.«403897_j60078002536976_3_alg».proof.Proof.Out
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen Idealize.ShloMosaic Idealize.ShloMosaic.ValueIdx Cert.Spec Cert.Out

/-! ## The operations of the last normalisation, each read at an index -/

section Ops

/-- The sum down the rows of a [1024, 784] array, kept as a [1, 784] row, read at column `q`. -/
theorem colSumRow_apply (V : FVec Ideal S1024x784 .f32) (u : Fin 1) (q : Fin 784) :
    shapeCast S1x784 (multiReduction (F := Ideal) .add [0] S784 V 0x00000000#32 reduces_S1024x784_S784 (.inl rfl) rfl)
        shapeCasts_S784_S1x784 (ix2 u q)
      = ∑ r : Fin 1024, V (ix2 r q) := by
  refine (shapeCast_a_1a_apply _ shapeCasts_S784_S1x784 u q).trans ?_
  refine (Ideal.multiReduction_add_single V 0x00000000#32 reduces_S1024x784_S784 (.inl rfl) rfl (ix1 q)).trans ?_
  refine Finset.sum_congr rfl fun r _ => congrArg V ?_
  funext a
  match a with
  | ⟨0, _⟩ => rfl
  | ⟨1, _⟩ => rfl

/-- The row of column means of `V`: the column sums divided by the number of rows. -/
def meanRow (V : FVec Ideal S1024x784 .f32) : FVec Ideal S1x784 .f32 :=
  divf (shapeCast S1x784 (multiReduction .add [0] S784 V 0x00000000#32 reduces_S1024x784_S784 (.inl rfl) rfl) shapeCasts_S784_S1x784)
    (broadcast S1x784 (Scalar.ofBits .f32 0x44800000#32))

theorem meanRow_apply (V : FVec Ideal S1024x784 .f32) (u : Fin 1) (q : Fin 784) :
    meanRow V (ix2 u q) = colMean (m2 V) q :=
  congrArg (fun t => Ideal.div t cN) (colSumRow_apply V u q)

/-- The row of column scales `g · (v + ε)^(-1/2)`, `v` the mean of the squared deviations from the row `M`. -/
def scaleRow (V : FVec Ideal S1024x784 .f32) (M : FVec Ideal S1x784 .f32) (g : Vec Ideal S1x784 .f32) : FVec Ideal S1x784 .f32 :=
  mulf (shapeCast S1x784 g shapeCasts_S1x784_S1x784)
    (rsqrt (addf
      (divf (shapeCast S1x784 (multiReduction .add [0] S784
          (mulf (subf V (broadcastTo S1024x784 M broadcasts_S1x784_S1024x784)) (subf V (broadcastTo S1024x784 M broadcasts_S1x784_S1024x784)))
          0x00000000#32 reduces_S1024x784_S784 (.inl rfl) rfl) shapeCasts_S784_S1x784)
        (broadcast S1x784 (Scalar.ofBits .f32 0x44800000#32)))
      (broadcast S1x784 (Scalar.ofBits .f32 0x3727C5AC#32))))

theorem scaleRow_apply (V : FVec Ideal S1024x784 .f32) (g : Vec Ideal S1x784 .f32) (u : Fin 1) (q : Fin 784) :
    scaleRow V (meanRow V) g (ix2 u q) = g (ix2 u q) * Ideal.rsqrt (colVar (m2 V) q + cEps) := by
  have hg : shapeCast S1x784 g shapeCasts_S1x784_S1x784 (ix2 u q) = g (ix2 u q) :=
    congrFun (shapeCast_self g shapeCasts_S1x784_S1x784) (ix2 u q)
  have hv : shapeCast S1x784 (multiReduction (F := Ideal) .add [0] S784
        (mulf (subf V (broadcastTo S1024x784 (meanRow V) broadcasts_S1x784_S1024x784))
          (subf V (broadcastTo S1024x784 (meanRow V) broadcasts_S1x784_S1024x784)))
        0x00000000#32 reduces_S1024x784_S784 (.inl rfl) rfl) shapeCasts_S784_S1x784 (ix2 u q)
      = ∑ r : Fin 1024, (m2 V r q - colMean (m2 V) q) * (m2 V r q - colMean (m2 V) q) := by
    refine (colSumRow_apply _ u q).trans ?_
    refine Finset.sum_congr rfl fun r _ => ?_
    have hb : broadcastTo S1024x784 (meanRow V) broadcasts_S1x784_S1024x784 (ix2 r q) = colMean (m2 V) q :=
      (broadcastTo_1b_ab_apply (meanRow V) broadcasts_S1x784_S1024x784 r q).trans (meanRow_apply V 0 q)
    show (V (ix2 r q) - broadcastTo S1024x784 (meanRow V) broadcasts_S1x784_S1024x784 (ix2 r q))
        * (V (ix2 r q) - broadcastTo S1024x784 (meanRow V) broadcasts_S1x784_S1024x784 (ix2 r q)) = _
    rw [hb]
    rfl
  show shapeCast S1x784 g shapeCasts_S1x784_S1x784 (ix2 u q)
      * Ideal.rsqrt (Ideal.div (shapeCast S1x784 (multiReduction (F := Ideal) .add [0] S784
        (mulf (subf V (broadcastTo S1024x784 (meanRow V) broadcasts_S1x784_S1024x784))
          (subf V (broadcastTo S1024x784 (meanRow V) broadcasts_S1x784_S1024x784)))
        0x00000000#32 reduces_S1024x784_S784 (.inl rfl) rfl) shapeCasts_S784_S1x784 (ix2 u q)) cN + cEps) = _
  rw [hg, hv]
  rfl

/-- The row of column shifts `b − μ · s`. -/
theorem shiftRow_apply (M S : FVec Ideal S1x784 .f32) (b : Vec Ideal S1x784 .f32) (u : Fin 1) (q : Fin 784) :
    k0_pay19 M S b (ix2 u q) = b (ix2 u q) - M (ix2 u q) * S (ix2 u q) := by
  have hb : shapeCast S1x784 b shapeCasts_S1x784_S1x784 (ix2 u q) = b (ix2 u q) :=
    congrFun (shapeCast_self b shapeCasts_S1x784_S1x784) (ix2 u q)
  show shapeCast S1x784 b shapeCasts_S1x784_S1x784 (ix2 u q) - M (ix2 u q) * S (ix2 u q) = _
  rw [hb]

/-- A slab of 256 rows times the scale row plus the shift row, then the logistic function, read at an index. -/
theorem scaleShiftSigm_apply (W : FVec Ideal S256x784 .f32) (S T : FVec Ideal S1x784 .f32) (r : Fin 256) (q : Fin 784) :
    shapeCast S256x784 (logistic (addf (mulf W (broadcastTo S256x784 S broadcasts_S1x784_S256x784))
        (broadcastTo S256x784 T broadcasts_S1x784_S256x784))) shapeCasts_S256x784_S256x784 (ix2 r q)
      = Ideal.logistic (W (ix2 r q) * S (ix2 (0 : Fin 1) q) + T (ix2 (0 : Fin 1) q)) := by
  refine (congrFun (shapeCast_self _ shapeCasts_S256x784_S256x784) (ix2 r q)).trans ?_
  show Ideal.logistic (W (ix2 r q) * broadcastTo S256x784 S broadcasts_S1x784_S256x784 (ix2 r q)
      + broadcastTo S256x784 T broadcasts_S1x784_S256x784 (ix2 r q)) = _
  rw [broadcastTo_1b_ab_apply S broadcasts_S1x784_S256x784 r q, broadcastTo_1b_ab_apply T broadcasts_S1x784_S256x784 r q]

end Ops

/-! ## The four slabs over a general pre-activation -/

section Slabs

/-- At row `ρ` and column `q`: `H · s + (b − μ · s)` with the kernel's rows `μ` and `s` is the normalisation `bnK`, under the logistic function. -/
theorem normSigm_eq (H : FVec Ideal S1024x784 .f32) (g b : Vec Ideal S1x784 .f32) (ρ : Fin 1024) (q : Fin 784) :
    Ideal.logistic (H (ix2 ρ q) * scaleRow H (meanRow H) g (ix2 (0 : Fin 1) q)
        + k0_pay19 (meanRow H) (scaleRow H (meanRow H) g) b (ix2 (0 : Fin 1) q))
      = sigm (bnK (m2 H) (row g) (row b)) ρ q := by
  rw [shiftRow_apply, scaleRow_apply, meanRow_apply]
  rfl

/-- Rows 0 to 255: the slab of `H` from row 0 times the scale row plus the shift row, under the logistic function. -/
theorem pay20_apply (H : FVec Ideal S1024x784 .f32) (M S : FVec Ideal S1x784 .f32) (b : Vec Ideal S1x784 .f32) (r : Fin 256) (q : Fin 784) :
    k0_pay20 H M S b (ix2 r q)
      = Ideal.logistic (H (ix2 (⟨r.val, by omega⟩ : Fin 1024) q) * S (ix2 (0 : Fin 1) q) + (k0_pay19 M S b) (ix2 (0 : Fin 1) q)) := by
  have hs : extractStridedSlice S256x784 ![0, 0] H slices_S1024x784_o0_0_S256x784 (ix2 r q)
      = H (ix2 (⟨r.val, by omega⟩ : Fin 1024) q) :=
    slice2_axis0_apply 0 H slices_S1024x784_o0_0_S256x784 r q ⟨r.val, by omega⟩ (Nat.zero_add _).symm
  show shapeCast S256x784 (logistic (addf
      (mulf (extractStridedSlice S256x784 ![0, 0] H slices_S1024x784_o0_0_S256x784) (broadcastTo S256x784 S broadcasts_S1x784_S256x784))
      (broadcastTo S256x784 (k0_pay19 M S b) broadcasts_S1x784_S256x784))) shapeCasts_S256x784_S256x784 (ix2 r q) = _
  rw [scaleShiftSigm_apply, hs]

/-- … with the batch statistics of the whole of `H` for the rows: the normalisation `bnK` under the logistic function. -/
theorem pay20_norm (H : FVec Ideal S1024x784 .f32) (g b : Vec Ideal S1x784 .f32) (r : Fin 256) (q : Fin 784) :
    k0_pay20 H (meanRow H) (scaleRow H (meanRow H) g) b (ix2 r q)
      = sigm (bnK (m2 H) (row g) (row b)) ⟨r.val, by omega⟩ q :=
  (pay20_apply H (meanRow H) (scaleRow H (meanRow H) g) b r q).trans
    (normSigm_eq H g b ⟨r.val, by omega⟩ q)

/-- Rows 256 to 511: the slab of `H` from row 256 times the scale row plus the shift row, under the logistic function. -/
theorem pay21_apply (H : FVec Ideal S1024x784 .f32) (M S : FVec Ideal S1x784 .f32) (b : Vec Ideal S1x784 .f32) (r : Fin 256) (q : Fin 784) :
    k0_pay21 H M S b (ix2 r q)
      = Ideal.logistic (H (ix2 (⟨256 + r.val, by omega⟩ : Fin 1024) q) * S (ix2 (0 : Fin 1) q) + (k0_pay19 M S b) (ix2 (0 : Fin 1) q)) := by
  have hs : extractStridedSlice S256x784 ![256, 0] H slices_S1024x784_o256_0_S256x784 (ix2 r q)
      = H (ix2 (⟨256 + r.val, by omega⟩ : Fin 1024) q) :=
    slice2_axis0_apply 256 H slices_S1024x784_o256_0_S256x784 r q ⟨256 + r.val, by omega⟩ rfl
  show shapeCast S256x784 (logistic (addf
      (mulf (extractStridedSlice S256x784 ![256, 0] H slices_S1024x784_o256_0_S256x784) (broadcastTo S256x784 S broadcasts_S1x784_S256x784))
      (broadcastTo S256x784 (k0_pay19 M S b) broadcasts_S1x784_S256x784))) shapeCasts_S256x784_S256x784 (ix2 r q) = _
  rw [scaleShiftSigm_apply, hs]

/-- … with the batch statistics of the whole of `H` for the rows: the normalisation `bnK` under the logistic function. -/
theorem pay21_norm (H : FVec Ideal S1024x784 .f32) (g b : Vec Ideal S1x784 .f32) (r : Fin 256) (q : Fin 784) :
    k0_pay21 H (meanRow H) (scaleRow H (meanRow H) g) b (ix2 r q)
      = sigm (bnK (m2 H) (row g) (row b)) ⟨256 + r.val, by omega⟩ q :=
  (pay21_apply H (meanRow H) (scaleRow H (meanRow H) g) b r q).trans
    (normSigm_eq H g b ⟨256 + r.val, by omega⟩ q)

/-- Rows 512 to 767: the slab of `H` from row 512 times the scale row plus the shift row, under the logistic function. -/
theorem pay22_apply (H : FVec Ideal S1024x784 .f32) (M S : FVec Ideal S1x784 .f32) (b : Vec Ideal S1x784 .f32) (r : Fin 256) (q : Fin 784) :
    k0_pay22 H M S b (ix2 r q)
      = Ideal.logistic (H (ix2 (⟨512 + r.val, by omega⟩ : Fin 1024) q) * S (ix2 (0 : Fin 1) q) + (k0_pay19 M S b) (ix2 (0 : Fin 1) q)) := by
  have hs : extractStridedSlice S256x784 ![512, 0] H slices_S1024x784_o512_0_S256x784 (ix2 r q)
      = H (ix2 (⟨512 + r.val, by omega⟩ : Fin 1024) q) :=
    slice2_axis0_apply 512 H slices_S1024x784_o512_0_S256x784 r q ⟨512 + r.val, by omega⟩ rfl
  show shapeCast S256x784 (logistic (addf
      (mulf (extractStridedSlice S256x784 ![512, 0] H slices_S1024x784_o512_0_S256x784) (broadcastTo S256x784 S broadcasts_S1x784_S256x784))
      (broadcastTo S256x784 (k0_pay19 M S b) broadcasts_S1x784_S256x784))) shapeCasts_S256x784_S256x784 (ix2 r q) = _
  rw [scaleShiftSigm_apply, hs]

/-- … with the batch statistics of the whole of `H` for the rows: the normalisation `bnK` under the logistic function. -/
theorem pay22_norm (H : FVec Ideal S1024x784 .f32) (g b : Vec Ideal S1x784 .f32) (r : Fin 256) (q : Fin 784) :
    k0_pay22 H (meanRow H) (scaleRow H (meanRow H) g) b (ix2 r q)
      = sigm (bnK (m2 H) (row g) (row b)) ⟨512 + r.val, by omega⟩ q :=
  (pay22_apply H (meanRow H) (scaleRow H (meanRow H) g) b r q).trans
    (normSigm_eq H g b ⟨512 + r.val, by omega⟩ q)

/-- Rows 768 to 1023: the slab of `H` from row 768 times the scale row plus the shift row, under the logistic function. -/
theorem pay23_apply (H : FVec Ideal S1024x784 .f32) (S T : FVec Ideal S1x784 .f32) (r : Fin 256) (q : Fin 784) :
    k0_pay23 H S T (ix2 r q)
      = Ideal.logistic (H (ix2 (⟨768 + r.val, by omega⟩ : Fin 1024) q) * S (ix2 (0 : Fin 1) q) + T (ix2 (0 : Fin 1) q)) := by
  have hs : extractStridedSlice S256x784 ![768, 0] H slices_S1024x784_o768_0_S256x784 (ix2 r q)
      = H (ix2 (⟨768 + r.val, by omega⟩ : Fin 1024) q) :=
    slice2_axis0_apply 768 H slices_S1024x784_o768_0_S256x784 r q ⟨768 + r.val, by omega⟩ rfl
  show shapeCast S256x784 (logistic (addf
      (mulf (extractStridedSlice S256x784 ![768, 0] H slices_S1024x784_o768_0_S256x784) (broadcastTo S256x784 S broadcasts_S1x784_S256x784))
      (broadcastTo S256x784 T broadcasts_S1x784_S256x784))) shapeCasts_S256x784_S256x784 (ix2 r q) = _
  rw [scaleShiftSigm_apply, hs]

/-- … with the batch statistics of the whole of `H` for the rows: the normalisation `bnK` under the logistic function. -/
theorem pay23_norm (H : FVec Ideal S1024x784 .f32) (g b : Vec Ideal S1x784 .f32) (r : Fin 256) (q : Fin 784) :
    k0_pay23 H (scaleRow H (meanRow H) g) (k0_pay19 (meanRow H) (scaleRow H (meanRow H) g) b) (ix2 r q)
      = sigm (bnK (m2 H) (row g) (row b)) ⟨768 + r.val, by omega⟩ q :=
  (pay23_apply H (scaleRow H (meanRow H) g) (k0_pay19 (meanRow H) (scaleRow H (meanRow H) g) b) r q).trans
    (normSigm_eq H g b ⟨768 + r.val, by omega⟩ q)

end Slabs

/-! ## The four slabs of the kernel's chain -/

section Chain

variable (X0 : Vec Ideal S1024x784 .f32) (X1 : Vec Ideal S784x392 .bf16) (X2 X3 X4 : Vec Ideal S1x392 .f32) (X5 : Vec Ideal S392x8 .bf16) (X6 X7 X8 : Vec Ideal S1x8 .f32) (X9 : Vec Ideal S8x392 .bf16) (X10 X11 X12 : Vec Ideal S1x392 .f32) (X13 : Vec Ideal S392x784 .bf16) (X14 X15 X16 : Vec Ideal S1x784 .f32)

theorem slab0_apply (r : Fin 256) (q : Fin 784) :
    slab0 X0 X1 X2 X3 X4 X5 X6 X7 X8 X9 X10 X11 X12 X13 X14 X15 X16 (ix2 r q)
      = sigm (bnK (m2 (h4 X0 X1 X2 X3 X4 X5 X6 X7 X8 X9 X10 X11 X12 X13 X14)) (row X15) (row X16)) ⟨r.val, by omega⟩ q := by
  have e : slab0 X0 X1 X2 X3 X4 X5 X6 X7 X8 X9 X10 X11 X12 X13 X14 X15 X16
      = k0_pay20 (h4 X0 X1 X2 X3 X4 X5 X6 X7 X8 X9 X10 X11 X12 X13 X14) (meanRow (h4 X0 X1 X2 X3 X4 X5 X6 X7 X8 X9 X10 X11 X12 X13 X14)) (scaleRow (h4 X0 X1 X2 X3 X4 X5 X6 X7 X8 X9 X10 X11 X12 X13 X14) (meanRow (h4 X0 X1 X2 X3 X4 X5 X6 X7 X8 X9 X10 X11 X12 X13 X14)) X15) X16 := rfl
  refine (congrFun e (ix2 r q)).trans ?_
  exact pay20_norm (h4 X0 X1 X2 X3 X4 X5 X6 X7 X8 X9 X10 X11 X12 X13 X14) X15 X16 r q

theorem slab1_apply (r : Fin 256) (q : Fin 784) :
    slab1 X0 X1 X2 X3 X4 X5 X6 X7 X8 X9 X10 X11 X12 X13 X14 X15 X16 (ix2 r q)
      = sigm (bnK (m2 (h4 X0 X1 X2 X3 X4 X5 X6 X7 X8 X9 X10 X11 X12 X13 X14)) (row X15) (row X16)) ⟨256 + r.val, by omega⟩ q := by
  have e : slab1 X0 X1 X2 X3 X4 X5 X6 X7 X8 X9 X10 X11 X12 X13 X14 X15 X16
      = k0_pay21 (h4 X0 X1 X2 X3 X4 X5 X6 X7 X8 X9 X10 X11 X12 X13 X14) (meanRow (h4 X0 X1 X2 X3 X4 X5 X6 X7 X8 X9 X10 X11 X12 X13 X14)) (scaleRow (h4 X0 X1 X2 X3 X4 X5 X6 X7 X8 X9 X10 X11 X12 X13 X14) (meanRow (h4 X0 X1 X2 X3 X4 X5 X6 X7 X8 X9 X10 X11 X12 X13 X14)) X15) X16 := rfl
  refine (congrFun e (ix2 r q)).trans ?_
  exact pay21_norm (h4 X0 X1 X2 X3 X4 X5 X6 X7 X8 X9 X10 X11 X12 X13 X14) X15 X16 r q

theorem slab2_apply (r : Fin 256) (q : Fin 784) :
    slab2 X0 X1 X2 X3 X4 X5 X6 X7 X8 X9 X10 X11 X12 X13 X14 X15 X16 (ix2 r q)
      = sigm (bnK (m2 (h4 X0 X1 X2 X3 X4 X5 X6 X7 X8 X9 X10 X11 X12 X13 X14)) (row X15) (row X16)) ⟨512 + r.val, by omega⟩ q := by
  have e : slab2 X0 X1 X2 X3 X4 X5 X6 X7 X8 X9 X10 X11 X12 X13 X14 X15 X16
      = k0_pay22 (h4 X0 X1 X2 X3 X4 X5 X6 X7 X8 X9 X10 X11 X12 X13 X14) (meanRow (h4 X0 X1 X2 X3 X4 X5 X6 X7 X8 X9 X10 X11 X12 X13 X14)) (scaleRow (h4 X0 X1 X2 X3 X4 X5 X6 X7 X8 X9 X10 X11 X12 X13 X14) (meanRow (h4 X0 X1 X2 X3 X4 X5 X6 X7 X8 X9 X10 X11 X12 X13 X14)) X15) X16 := rfl
  refine (congrFun e (ix2 r q)).trans ?_
  exact pay22_norm (h4 X0 X1 X2 X3 X4 X5 X6 X7 X8 X9 X10 X11 X12 X13 X14) X15 X16 r q

theorem slab3_apply (r : Fin 256) (q : Fin 784) :
    slab3 X0 X1 X2 X3 X4 X5 X6 X7 X8 X9 X10 X11 X12 X13 X14 X15 X16 (ix2 r q)
      = sigm (bnK (m2 (h4 X0 X1 X2 X3 X4 X5 X6 X7 X8 X9 X10 X11 X12 X13 X14)) (row X15) (row X16)) ⟨768 + r.val, by omega⟩ q := by
  have e : slab3 X0 X1 X2 X3 X4 X5 X6 X7 X8 X9 X10 X11 X12 X13 X14 X15 X16
      = k0_pay23 (h4 X0 X1 X2 X3 X4 X5 X6 X7 X8 X9 X10 X11 X12 X13 X14) (scaleRow (h4 X0 X1 X2 X3 X4 X5 X6 X7 X8 X9 X10 X11 X12 X13 X14) (meanRow (h4 X0 X1 X2 X3 X4 X5 X6 X7 X8 X9 X10 X11 X12 X13 X14)) X15)
          (k0_pay19 (meanRow (h4 X0 X1 X2 X3 X4 X5 X6 X7 X8 X9 X10 X11 X12 X13 X14)) (scaleRow (h4 X0 X1 X2 X3 X4 X5 X6 X7 X8 X9 X10 X11 X12 X13 X14) (meanRow (h4 X0 X1 X2 X3 X4 X5 X6 X7 X8 X9 X10 X11 X12 X13 X14)) X15) X16) := rfl
  refine (congrFun e (ix2 r q)).trans ?_
  exact pay23_norm (h4 X0 X1 X2 X3 X4 X5 X6 X7 X8 X9 X10 X11 X12 X13 X14) X15 X16 r q

end Chain

end Cert.Proof.KI

end
-- ==== Proof.KSlab.lean ====
/-
  The result array at an index.

  The result array after the run is the four slabs written at rows 0, 256, 512, 768; the four row ranges tile the
  array, so every index lies in exactly one slab, and every slab is the same function of the array index: the last
  layer's pre-activation normalised over the batch, scaled and shifted, through the logistic function.
-/
import proofs.«403897_j60078002536976_3_alg».proof.Proof.KRun
import proofs.«403897_j60078002536976_3_alg».proof.Proof.KValOut
import proofs.«403897_j60078002536976_3_alg».proof.Proof.Out
import Idealize.ShloMosaic.Lib.Writes
import Idealize.ShloMosaic.Lib.ValueIdx

noncomputable section

namespace Cert.Proof.KI

open Cert.KernelIdeal Cert.KernelIdeal.Gen
open Idealize.ShloMosaic Idealize.ShloMosaic.TcCoe Idealize.ShloMosaic.ValueIdx Idealize.SL.Sem
open Cert.Spec Cert.Out

variable (m : (ℓ : Loc nD τ sig) → Buf (Elt Ideal) ℓ)

/-- The last layer's output as a function of the array index, at the windows' blocks. -/
def lastLayer (c : Dev nD) : S1024x784.Idx → EReal := fun i =>
  sigm (bnK (m2 (h4 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0))) (row (iblk m c 15 t0_0)) (row (iblk m c 16 t0_0))) (i 0) (i 1)

/-- A slab's local index sits in the array at its rows' offset. -/
theorem emb_R (o : Nat) (inb : ∀ a, (![o, 0] : Fin 2 → Nat) a + S256x784.size a ≤ S1024x784.size a) (r : Fin 256) (q : Fin 784)
    (ho : o + r.val < 1024) :
    (Rect.unit (s := S1024x784) ![o, 0] S256x784.size inb).emb (ix2 r q) = ix2 (⟨o + r.val, ho⟩ : Fin 1024) q := by
  funext a
  match a with
  | ⟨0, _⟩ => apply Fin.ext; show o + 1 * r.val = o + r.val; omega
  | ⟨1, _⟩ => apply Fin.ext; show 0 + 1 * q.val = q.val; omega

/-- The result array at an index is the last layer's output there. -/
theorem written_apply (c : Dev nD) (i : S1024x784.Idx) :
    (written (F := Ideal) m c : S1024x784.Idx → EReal) i = lastLayer m c i := by
  unfold written resultW
  refine Eq.trans (congrFun (View.read_whole (Val := Elt Ideal) (main_v0 : Ref sig .tc) _).symm i) ?_
  refine View.read_writes_apply_of_pieces (Val := Elt Ideal) (View.whole (main_v0 : Ref sig .tc)) _ (lastLayer m c) _ ?_ i ?_
  case refine_2 => exact View.cover_of_tiled (s := S1024x784) _ S256x784.size rfl i
  intro p hp
  simp only [List.mem_cons, List.not_mem_nil, or_false] at hp
  rcases hp with rfl | rfl | rfl | rfl
  · intro (x : S256x784.Idx)
    obtain ⟨r, q, rfl⟩ : ∃ (r : Fin 256) (q : Fin 784), x = ix2 r q := ⟨x 0, x 1, eq_ix2 x⟩
    show slab3 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (ix2 r q) = lastLayer m c (R768.emb (ix2 r q))
    rw [slab3_apply, emb_R 768 _ r q (by omega)]; rfl
  · intro (x : S256x784.Idx)
    obtain ⟨r, q, rfl⟩ : ∃ (r : Fin 256) (q : Fin 784), x = ix2 r q := ⟨x 0, x 1, eq_ix2 x⟩
    show slab2 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (ix2 r q) = lastLayer m c (R512.emb (ix2 r q))
    rw [slab2_apply, emb_R 512 _ r q (by omega)]; rfl
  · intro (x : S256x784.Idx)
    obtain ⟨r, q, rfl⟩ : ∃ (r : Fin 256) (q : Fin 784), x = ix2 r q := ⟨x 0, x 1, eq_ix2 x⟩
    show slab1 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (ix2 r q) = lastLayer m c (R256.emb (ix2 r q))
    rw [slab1_apply, emb_R 256 _ r q (by omega)]; rfl
  · intro (x : S256x784.Idx)
    obtain ⟨r, q, rfl⟩ : ∃ (r : Fin 256) (q : Fin 784), x = ix2 r q := ⟨x 0, x 1, eq_ix2 x⟩
    show slab0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (ix2 r q) = lastLayer m c (R0.emb (ix2 r q))
    rw [slab0_apply, emb_R 0 _ r q (by omega)]
    show _ = sigm _ (⟨0 + r.val, _⟩ : Fin 1024) q
    congr 2; omega

end Cert.Proof.KI

end
-- ==== Proof.KVal12.lean ====
/-
  Layers 1 and 2 of the kernel body's arithmetic, read at an index, at the ideal values.

  At the ideal instance a float is an extended real, every operation the exact one, and a change of float format the
  identity. The body's values `h1`, `shift1`, `scale1` and `h2` (KTerm.lean) are then, entry by entry, the layer
  function `euclidW` (Out.lean) and the pieces of the normalisation `bnK` (Spec.lean):
  • `h1 (r, j) = −½ · ((‖x_r‖² − 2 · ⟨x_r, w_j⟩) + q_j)`: the row's sum of squares is a sum along the row kept as a
    column and broadcast along the rows, the inner product a matrix product into a zero accumulator, `q` the staged
    row of the weights' column sums of squares;
  • the batch mean `μ_k` of a column is its sum over the 1024 rows divided by 1024, the variance `v_k` the mean of
    the squared deviations from `μ_k`; `scale1 (r, k) = s_k = g_k · (v_k + ε)^(-1/2)` on every row `r`, and
    `shift1 (0, k) = b_k − μ_k · s_k`;
  • `h2 (r, j)` is the layer function of `relu (bnK h1 g b)`, the layer-2 weights and their row: the body forms
    `h1 · s + (b − μ · s)` and then `max · 0`, which is `bnK` followed by `relu` by definition, with no algebra.
  Nothing here runs a program: the body's values are pure terms; they are unfolded, the index is pushed through the
  entrywise operations, and each layout operation, sum along an axis and matrix product is read at the index by
  one small lemma (namespace `L12`).
-/
import proofs.«403897_j60078002536976_3_alg».proof.Proof.KTerm
import proofs.«403897_j60078002536976_3_alg».proof.Proof.Out
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen Idealize.ShloMosaic Idealize.ShloMosaic.ValueIdx Cert.Spec Cert.Out
open scoped BigOperators

namespace L12

/-! ## Layout operations at an index: a column kept by a sum along the rows -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along one axis of a matrix

The accumulator's word is the zero word, and the evidence that it is the sum's neutral word is stated as the equation
of words it is in the body's text. -/

section Sums

/-- The sum along a row (axis 1) of an `[a, b]` array, at row `r`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- The sum down a column (axis 0) of an `[a, b]` array, at column `j`. -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction (F := Ideal) .add [0] ⟨1, ![b]⟩ src 0x00000000#32 h hφ hacc (ix1 j) = ∑ r : Fin a, src (ix2 r j) := by
  refine (Ideal.multiReduction_add_single src 0x00000000#32 h hφ hacc (ix1 j)).trans ?_
  refine Finset.sum_congr rfl fun k _ => congrArg src ?_
  funext c
  match c with
  | ⟨0, _⟩ => rfl
  | ⟨1, _⟩ => rfl

end Sums

/-! ## Two entrywise facts at the ideal values -/

section AtIdeal
variable {s : Shape} {φ : FTy}

/-- A reciprocal square root at an index is the extended reals' `(·)^(-1/2)` of the element. -/
theorem rsqrt_apply (a : FVec Ideal s φ) (i : s.Idx) : rsqrt a i = Ideal.rsqrt (a i) := rfl

/-- The zero word denotes the extended real `0`. -/
theorem scalar_zero_f32 : (Scalar.ofBits .f32 0x00000000#32 : Ideal .f32) = 0 := Ideal.ofBits_zero_f32

end AtIdeal

/-! ## The two matrix products: a sum over the contracted coordinate

Each product contracts the left operand's columns with the right operand's rows. Its operand indices at a result
index and a contraction index are named axis by axis, and the contraction index, which has one coordinate, is
re-indexed by that coordinate. -/

/-- On the left operand's row axis the product's index is the result's row. -/
theorem lhs_d1_0 (i : S1024x392.Idx) (q : dot_S1024x784_S784x392_S1024x392_1_0_0_1_n_n.contr.Idx) :
    (dot_S1024x784_S784x392_S1024x392_1_0_0_1_n_n.lhsIdx i q 0).val = (i 0).val := by
  unfold DotDims.lhsIdx
  rw [dif_neg (show ¬(0 : Fin S1024x784.rank) ∈ dot_S1024x784_S784x392_S1024x392_1_0_0_1_n_n.lhsBatch by decide),
    dif_pos (show (0 : Fin S1024x784.rank) ∈ dot_S1024x784_S784x392_S1024x392_1_0_0_1_n_n.lhsNonContracting by decide)]
  rfl

/-- On the left operand's column axis it is the contracted coordinate. -/
theorem lhs_d1_1 (i : S1024x392.Idx) (q : dot_S1024x784_S784x392_S1024x392_1_0_0_1_n_n.contr.Idx) :
    (dot_S1024x784_S784x392_S1024x392_1_0_0_1_n_n.lhsIdx i q 1).val = (q ⟨0, by decide⟩).val :=
  dot_S1024x784_S784x392_S1024x392_1_0_0_1_n_n.lhsIdx_val_of_single rfl i q

/-- On the right operand's row axis it is the contracted coordinate. -/
theorem rhs_d1_0 (i : S1024x392.Idx) (q : dot_S1024x784_S784x392_S1024x392_1_0_0_1_n_n.contr.Idx) :
    (dot_S1024x784_S784x392_S1024x392_1_0_0_1_n_n.rhsIdx i q 0).val = (q ⟨0, by decide⟩).val :=
  dot_S1024x784_S784x392_S1024x392_1_0_0_1_n_n.rhsIdx_val_of_single rfl i q

/-- On the right operand's column axis it is the result's column. -/
theorem rhs_d1_1 (i : S1024x392.Idx) (q : dot_S1024x784_S784x392_S1024x392_1_0_0_1_n_n.contr.Idx) :
    (dot_S1024x784_S784x392_S1024x392_1_0_0_1_n_n.rhsIdx i q 1).val = (i 1).val := by
  unfold DotDims.rhsIdx
  rw [dif_neg (show ¬(1 : Fin S784x392.rank) ∈ dot_S1024x784_S784x392_S1024x392_1_0_0_1_n_n.rhsBatch by decide),
    dif_pos (show (1 : Fin S784x392.rank) ∈ dot_S1024x784_S784x392_S1024x392_1_0_0_1_n_n.rhsNonContracting by decide)]
  rfl

/-- The product of a `[1024, 784]` by a `[784, 392]` matrix into the zero accumulator, at `(r, j)`. -/
theorem matmul_d1_apply (A : FVec Ideal S1024x784 .bf16) (B : FVec Ideal S784x392 .bf16) (r : Fin 1024) (j : Fin 392) :
    matmul dot_S1024x784_S784x392_S1024x392_1_0_0_1_n_n none A B (constant (F := Ideal) S1024x392 .f32 0x00000000#32) (ix2 r j)
      = ∑ k : Fin 784, A (ix2 r k) * B (ix2 k j) := by
  show FloatOps.matmul _ none A B _ (ix2 r j) = _
  rw [Ideal.matmul_constant_zero_apply,
    ← Equiv.sum_comp (contrEquiv1 dot_S1024x784_S784x392_S1024x392_1_0_0_1_n_n 784 rfl rfl).symm]
  refine Finset.sum_congr rfl fun k _ => ?_
  have hk := contrEquiv1_symm_val dot_S1024x784_S784x392_S1024x392_1_0_0_1_n_n 784 rfl rfl k
  have el : dot_S1024x784_S784x392_S1024x392_1_0_0_1_n_n.lhsIdx (ix2 r j)
      ((contrEquiv1 dot_S1024x784_S784x392_S1024x392_1_0_0_1_n_n 784 rfl rfl).symm k) = ix2 r k := funext fun a => Fin.ext (by
    match a with
    | ⟨0, _⟩ => exact lhs_d1_0 _ _
    | ⟨1, _⟩ => exact (lhs_d1_1 _ _).trans hk)
  have er : dot_S1024x784_S784x392_S1024x392_1_0_0_1_n_n.rhsIdx (ix2 r j)
      ((contrEquiv1 dot_S1024x784_S784x392_S1024x392_1_0_0_1_n_n 784 rfl rfl).symm k) = ix2 k j := funext fun a => Fin.ext (by
    match a with
    | ⟨0, _⟩ => exact (rhs_d1_0 _ _).trans hk
    | ⟨1, _⟩ => exact rhs_d1_1 _ _)
  rw [el, er]

/-- On the left operand's row axis the product's index is the result's row. -/
theorem lhs_d2_0 (i : S1024x8.Idx) (q : dot_S1024x392_S392x8_S1024x8_1_0_0_1_n_n.contr.Idx) :
    (dot_S1024x392_S392x8_S1024x8_1_0_0_1_n_n.lhsIdx i q 0).val = (i 0).val := by
  unfold DotDims.lhsIdx
  rw [dif_neg (show ¬(0 : Fin S1024x392.rank) ∈ dot_S1024x392_S392x8_S1024x8_1_0_0_1_n_n.lhsBatch by decide),
    dif_pos (show (0 : Fin S1024x392.rank) ∈ dot_S1024x392_S392x8_S1024x8_1_0_0_1_n_n.lhsNonContracting by decide)]
  rfl

/-- On the left operand's column axis it is the contracted coordinate. -/
theorem lhs_d2_1 (i : S1024x8.Idx) (q : dot_S1024x392_S392x8_S1024x8_1_0_0_1_n_n.contr.Idx) :
    (dot_S1024x392_S392x8_S1024x8_1_0_0_1_n_n.lhsIdx i q 1).val = (q ⟨0, by decide⟩).val :=
  dot_S1024x392_S392x8_S1024x8_1_0_0_1_n_n.lhsIdx_val_of_single rfl i q

/-- On the right operand's row axis it is the contracted coordinate. -/
theorem rhs_d2_0 (i : S1024x8.Idx) (q : dot_S1024x392_S392x8_S1024x8_1_0_0_1_n_n.contr.Idx) :
    (dot_S1024x392_S392x8_S1024x8_1_0_0_1_n_n.rhsIdx i q 0).val = (q ⟨0, by decide⟩).val :=
  dot_S1024x392_S392x8_S1024x8_1_0_0_1_n_n.rhsIdx_val_of_single rfl i q

/-- On the right operand's column axis it is the result's column. -/
theorem rhs_d2_1 (i : S1024x8.Idx) (q : dot_S1024x392_S392x8_S1024x8_1_0_0_1_n_n.contr.Idx) :
    (dot_S1024x392_S392x8_S1024x8_1_0_0_1_n_n.rhsIdx i q 1).val = (i 1).val := by
  unfold DotDims.rhsIdx
  rw [dif_neg (show ¬(1 : Fin S392x8.rank) ∈ dot_S1024x392_S392x8_S1024x8_1_0_0_1_n_n.rhsBatch by decide),
    dif_pos (show (1 : Fin S392x8.rank) ∈ dot_S1024x392_S392x8_S1024x8_1_0_0_1_n_n.rhsNonContracting by decide)]
  rfl

/-- The product of a `[1024, 392]` by a `[392, 8]` matrix into the zero accumulator, at `(r, j)`. -/
theorem matmul_d2_apply (A : FVec Ideal S1024x392 .bf16) (B : FVec Ideal S392x8 .bf16) (r : Fin 1024) (j : Fin 8) :
    matmul dot_S1024x392_S392x8_S1024x8_1_0_0_1_n_n none A B (constant (F := Ideal) S1024x8 .f32 0x00000000#32) (ix2 r j)
      = ∑ k : Fin 392, A (ix2 r k) * B (ix2 k j) := by
  show FloatOps.matmul _ none A B _ (ix2 r j) = _
  rw [Ideal.matmul_constant_zero_apply,
    ← Equiv.sum_comp (contrEquiv1 dot_S1024x392_S392x8_S1024x8_1_0_0_1_n_n 392 rfl rfl).symm]
  refine Finset.sum_congr rfl fun k _ => ?_
  have hk := contrEquiv1_symm_val dot_S1024x392_S392x8_S1024x8_1_0_0_1_n_n 392 rfl rfl k
  have el : dot_S1024x392_S392x8_S1024x8_1_0_0_1_n_n.lhsIdx (ix2 r j)
      ((contrEquiv1 dot_S1024x392_S392x8_S1024x8_1_0_0_1_n_n 392 rfl rfl).symm k) = ix2 r k := funext fun a => Fin.ext (by
    match a with
    | ⟨0, _⟩ => exact lhs_d2_0 _ _
    | ⟨1, _⟩ => exact (lhs_d2_1 _ _).trans hk)
  have er : dot_S1024x392_S392x8_S1024x8_1_0_0_1_n_n.rhsIdx (ix2 r j)
      ((contrEquiv1 dot_S1024x392_S392x8_S1024x8_1_0_0_1_n_n 392 rfl rfl).symm k) = ix2 k j := funext fun a => Fin.ext (by
    match a with
    | ⟨0, _⟩ => exact (rhs_d2_0 _ _).trans hk
    | ⟨1, _⟩ => exact rhs_d2_1 _ _)
  rw [el, er]

end L12

open L12

section Chain
variable (X0 : Vec Ideal S1024x784 .f32) (X1 : Vec Ideal S784x392 .bf16) (X2 X3 X4 : Vec Ideal S1x392 .f32) (X5 : Vec Ideal S392x8 .bf16) (X6 X7 X8 : Vec Ideal S1x8 .f32) (X9 : Vec Ideal S8x392 .bf16) (X10 X11 X12 : Vec Ideal S1x392 .f32) (X13 : Vec Ideal S392x784 .bf16) (X14 X15 X16 : Vec Ideal S1x784 .f32)

/-! ## Layer 1 -/

/-- Layer 1's pre-activation is the layer function of the batch, the weights and the staged row of the weights' column
    sums of squares. -/
theorem h1_apply (r : Fin 1024) (j : Fin 392) : h1 X0 X1 X2 (ix2 r j) = euclidW (m2 X0) (m2 X1) (row X2) r j := by
  unfold h1 k0_pay1 euclidW
  simp only [mulf_apply, addf_apply, subf_apply, broadcast_apply]
  rw [broadcastTo_a1_ab_apply, shapeCast_a_a1_apply, rowSum_apply, matmul_d1_apply, broadcastTo_1b_ab_apply, shapeCast_self,
    shapeCast_self]
  rfl

/-- The batch mean of column `k` of layer 1's pre-activation. -/
theorem mean1_apply (u : Fin 1) (k : Fin 392) : k0_pay2 X0 X1 X2 (ix2 u k) = colMean (m2 (h1 X0 X1 X2)) k := by
  unfold k0_pay2
  simp only [divf_apply, broadcast_apply]
  rw [shapeCast_a_1a_apply, colSum_apply]
  rfl

/-- Layer 1's column scale `s_k = g_k · (v_k + ε)^(-1/2)`, as a row. -/
theorem srow1_apply (u : Fin 1) (k : Fin 392) :
    k0_pay3 X0 X1 X2 X3 (ix2 u k) = row X3 k * Ideal.rsqrt (colVar (m2 (h1 X0 X1 X2)) k + cEps) := by
  obtain rfl : u = 0 := Subsingleton.elim _ _
  unfold k0_pay3
  simp only [mulf_apply, addf_apply, divf_apply, broadcast_apply, rsqrt_apply]
  rw [shapeCast_self, shapeCast_a_1a_apply, colSum_apply]
  simp only [mulf_apply, subf_apply, broadcastTo_1b_ab_apply, mean1_apply]
  rfl

/-- Layer 1's column shift `b_k − μ_k · s_k`. -/
theorem shift1_apply (u : Fin 1) (k : Fin 392) :
    shift1 X0 X1 X2 X3 X4 (ix2 u k)
      = row X4 k - colMean (m2 (h1 X0 X1 X2)) k * (row X3 k * Ideal.rsqrt (colVar (m2 (h1 X0 X1 X2)) k + cEps)) := by
  obtain rfl : u = 0 := Subsingleton.elim _ _
  unfold shift1 k0_pay4
  simp only [subf_apply, mulf_apply]
  rw [shapeCast_self, mean1_apply, srow1_apply]
  rfl

/-- Layer 1's column scale `s_k`, the same on every row. -/
theorem scale1_apply (r : Fin 1024) (k : Fin 392) :
    scale1 X0 X1 X2 X3 (ix2 r k) = row X3 k * Ideal.rsqrt (colVar (m2 (h1 X0 X1 X2)) k + cEps) := by
  unfold scale1 k0_pay5
  rw [broadcastTo_1b_ab_apply, srow1_apply]

/-! ## Layer 2 -/

/-- Layer 2's pre-activation is the layer function of layer 1's normalised and rectified output, the layer-2 weights
    and the staged row of their column sums of squares. The body's `h1 · s + (b − μ · s)` followed by `max · 0` is
    `relu (bnK h1 g b)` entry by entry, by unfolding. -/
theorem h2_apply (r : Fin 1024) (j : Fin 8) :
    h2 X0 X1 X2 X3 X4 X5 X6 (ix2 r j)
      = euclidW (relu (bnK (m2 (h1 X0 X1 X2)) (row X3) (row X4))) (m2 X5) (row X6) r j := by
  unfold h2 k0_pay6 euclidW
  simp only [mulf_apply, addf_apply, subf_apply, broadcast_apply]
  rw [broadcastTo_a1_ab_apply, shapeCast_a_a1_apply, rowSum_apply, matmul_d2_apply, broadcastTo_1b_ab_apply, shapeCast_self,
    shapeCast_self]
  simp only [mulf_apply, truncf_apply, maximumf_apply, addf_apply, broadcast_apply, broadcastTo_1b_ab_apply, scale1_apply,
    shift1_apply, scalar_zero_f32]
  rfl

end Chain

end Cert.Proof.KI

end
-- ==== Proof.KVal34.lean ====
/-
  Layers 3 and 4 of the kernel's arithmetic, read at an index.

  At the ideal instance a float is an extended real, every operation is the exact one and a change of float format is
  the identity, so each value the body computes is a function of its index given by a closed expression. This file
  reads two of them: the pre-activation of layer 3 (`h3`) and of layer 4 (`h4`), each at `(r, j)`, as the layer
  `−½ · ((‖x_r‖² − 2 · ⟨x_r, w_j⟩) + q_j)` (`euclidW`) at the previous layer's pre-activation normalised column by
  column and rectified, `x = max (h · s + (b − μ · s)) 0` with `s = g · (v + ε)^(-1/2)` (`relu (bnK h g b)`).

  The steps, each stated once over general extents and then used at both layers:
  • layout: a vector kept as a column (`[a] → [a, 1]`), a column and a row broadcast over a matrix, the sum along the
    rows and the sum down the columns of a matrix, each at an index given by its coordinates;
  • the column statistics: the mean `(∑_r h_{r,q}) / 1024` and `(v + ε)^(-1/2)`, `v` the mean of the squared
    deviations from a row of means, which at the row of column means is `colMean` and `colVar`;
  • a product into a zero accumulator is the sum over the one contracted axis of the operands' products;
  • the layer itself from its input, the product and the row of the weights' column sums of squares.
  The normalisation needs no algebra: `bnK` spells `s`, `b − μ · s` and `h · s + ·` in the order the body computes
  them, so once the mean, the variance and the broadcasts are read at an index the two sides agree by unfolding.
-/
import proofs.«403897_j60078002536976_3_alg».proof.Proof.KTerm
import proofs.«403897_j60078002536976_3_alg».proof.Proof.Out
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen Idealize.ShloMosaic Idealize.ShloMosaic.ValueIdx Cert.Spec Cert.Out

namespace L34

/-! ## Layout operations at an index -/

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, k]` array, read at row `p`. -/
theorem rowSum_apply {a k : ℕ} {φ : FTy} (V : FVec Ideal ⟨2, ![a, k]⟩ φ) (acc : BitVec φ.bits)
    (h : (⟨2, ![a, k]⟩ : Shape).Reduces [1] ⟨1, ![a]⟩) (hφ : FKind.Formats φ) (hacc : acc = FKind.add.neutral φ hφ) (p : Fin a) :
    multiReduction (F := Ideal) .add [1] ⟨1, ![a]⟩ V acc h hφ hacc (ix1 p) = ∑ c : Fin k, V (ix2 p c) := by
  refine (Ideal.multiReduction_add_single V acc h hφ hacc (ix1 p)).trans ?_
  refine Finset.sum_congr rfl fun c _ => congrArg V ?_
  funext ax
  match ax with
  | ⟨0, _⟩ => rfl
  | ⟨1, _⟩ => rfl

/-- The sum down the columns of an `[a, b]` array, read at column `q`. -/
theorem colSum_apply {a b : ℕ} {φ : FTy} (V : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction (F := Ideal) .add [0] ⟨1, ![b]⟩ V acc h hφ hacc (ix1 q) = ∑ r : Fin a, V (ix2 r q) := by
  refine (Ideal.multiReduction_add_single V acc h hφ hacc (ix1 q)).trans ?_
  refine Finset.sum_congr rfl fun r _ => congrArg V ?_
  funext ax
  match ax with
  | ⟨0, _⟩ => rfl
  | ⟨1, _⟩ => rfl

/-! ## The column statistics as the kernel forms them -/

/-- The mean of each column: the column sums, kept as a row, divided by the batch size. -/
theorem mean_apply {a b : ℕ} (H : FVec Ideal ⟨2, ![a, b]⟩ .f32)
    (h : (⟨2, ![a, b]⟩ : Shape).Reduces [0] ⟨1, ![b]⟩) (hc : (⟨1, ![b]⟩ : Shape).ShapeCasts ⟨2, ![1, b]⟩) (u : Fin 1) (q : Fin b) :
    divf (shapeCast ⟨2, ![1, b]⟩ (multiReduction (F := Ideal) .add [0] ⟨1, ![b]⟩ H 0x00000000#32 h (.inl rfl) rfl) hc)
        (broadcast ⟨2, ![1, b]⟩ (Scalar.ofBits (F := Ideal) .f32 0x44800000#32)) (ix2 u q)
      = colMean (m2 H) q := by
  show Ideal.div (shapeCast ⟨2, ![1, b]⟩ _ hc (ix2 u q)) cN = Ideal.div (∑ r : Fin a, H (ix2 r q)) cN
  refine congrArg (Ideal.div · cN) ?_
  exact (shapeCast_a_1a_apply _ hc u q).trans (colSum_apply H _ h _ _ q)

/-- `(v + ε)^(-1/2)` of each column, `v` the mean of the squared deviations from a row `M` of means. -/
theorem rsqrtVar_apply {a b : ℕ} (H : FVec Ideal ⟨2, ![a, b]⟩ .f32) (M : FVec Ideal ⟨2, ![1, b]⟩ .f32)
    (hb : (⟨2, ![1, b]⟩ : Shape).Broadcasts ⟨2, ![a, b]⟩)
    (h : (⟨2, ![a, b]⟩ : Shape).Reduces [0] ⟨1, ![b]⟩) (hc : (⟨1, ![b]⟩ : Shape).ShapeCasts ⟨2, ![1, b]⟩) (u : Fin 1) (q : Fin b) :
    rsqrt (addf (divf (shapeCast ⟨2, ![1, b]⟩ (multiReduction (F := Ideal) .add [0] ⟨1, ![b]⟩
              (mulf (subf H (broadcastTo ⟨2, ![a, b]⟩ M hb)) (subf H (broadcastTo ⟨2, ![a, b]⟩ M hb))) 0x00000000#32 h (.inl rfl) rfl) hc)
            (broadcast ⟨2, ![1, b]⟩ (Scalar.ofBits (F := Ideal) .f32 0x44800000#32)))
          (broadcast ⟨2, ![1, b]⟩ (Scalar.ofBits (F := Ideal) .f32 0x3727C5AC#32))) (ix2 u q)
      = Ideal.rsqrt (Ideal.div (∑ r : Fin a, (H (ix2 r q) - M (ix2 (0 : Fin 1) q)) * (H (ix2 r q) - M (ix2 (0 : Fin 1) q))) cN + cEps) := by
  show Ideal.rsqrt (Ideal.div (shapeCast ⟨2, ![1, b]⟩ _ hc (ix2 u q)) cN + cEps) = _
  refine congrArg (fun x => Ideal.rsqrt (Ideal.div x cN + cEps)) ?_
  refine (shapeCast_a_1a_apply _ hc u q).trans ((colSum_apply _ _ h _ _ q).trans ?_)
  refine Finset.sum_congr rfl fun r _ => ?_
  show (H (ix2 r q) - broadcastTo ⟨2, ![a, b]⟩ M hb (ix2 r q)) * (H (ix2 r q) - broadcastTo ⟨2, ![a, b]⟩ M hb (ix2 r q)) = _
  rw [broadcastTo_1b_ab_apply M hb r q]

/-! ## Layer 3's product -/

theorem lhs_d3_0 (i : S1024x392.Idx) (q : dot_S1024x8_S8x392_S1024x392_1_0_0_1_n_n.contr.Idx) :
    (dot_S1024x8_S8x392_S1024x392_1_0_0_1_n_n.lhsIdx i q 0).val = (i 0).val := by
  unfold DotDims.lhsIdx
  rw [dif_neg (show ¬(0 : Fin S1024x8.rank) ∈ dot_S1024x8_S8x392_S1024x392_1_0_0_1_n_n.lhsBatch by decide),
    dif_pos (show (0 : Fin S1024x8.rank) ∈ dot_S1024x8_S8x392_S1024x392_1_0_0_1_n_n.lhsNonContracting by decide)]
  rfl
theorem lhs_d3_1 (i : S1024x392.Idx) (q : dot_S1024x8_S8x392_S1024x392_1_0_0_1_n_n.contr.Idx) :
    (dot_S1024x8_S8x392_S1024x392_1_0_0_1_n_n.lhsIdx i q 1).val = (q ⟨0, by decide⟩).val :=
  dot_S1024x8_S8x392_S1024x392_1_0_0_1_n_n.lhsIdx_val_of_single rfl i q
theorem rhs_d3_0 (i : S1024x392.Idx) (q : dot_S1024x8_S8x392_S1024x392_1_0_0_1_n_n.contr.Idx) :
    (dot_S1024x8_S8x392_S1024x392_1_0_0_1_n_n.rhsIdx i q 0).val = (q ⟨0, by decide⟩).val :=
  dot_S1024x8_S8x392_S1024x392_1_0_0_1_n_n.rhsIdx_val_of_single rfl i q
theorem rhs_d3_1 (i : S1024x392.Idx) (q : dot_S1024x8_S8x392_S1024x392_1_0_0_1_n_n.contr.Idx) :
    (dot_S1024x8_S8x392_S1024x392_1_0_0_1_n_n.rhsIdx i q 1).val = (i 1).val := by
  unfold DotDims.rhsIdx
  rw [dif_neg (show ¬(1 : Fin S8x392.rank) ∈ dot_S1024x8_S8x392_S1024x392_1_0_0_1_n_n.rhsBatch by decide),
    dif_pos (show (1 : Fin S8x392.rank) ∈ dot_S1024x8_S8x392_S1024x392_1_0_0_1_n_n.rhsNonContracting by decide)]
  rfl

/-- The product of a `[1024, 8]` by an `[8, 392]` array into a zero accumulator, read at `(r, j)`. -/
theorem matmul3_apply (L : FVec Ideal S1024x8 .bf16) (R : FVec Ideal S8x392 .bf16) (r : Fin 1024) (j : Fin 392) :
    matmul dot_S1024x8_S8x392_S1024x392_1_0_0_1_n_n none L R (constant (F := Ideal) S1024x392 .f32 0x00000000#32) (ix2 r j)
      = ∑ k : Fin 8, L (ix2 r k) * R (ix2 k j) := by
  simp only [matmul]
  rw [Ideal.matmul_constant_zero_apply,
    ← Equiv.sum_comp (contrEquiv1 dot_S1024x8_S8x392_S1024x392_1_0_0_1_n_n 8 rfl rfl).symm]
  refine Finset.sum_congr rfl fun k _ => ?_
  have hk := contrEquiv1_symm_val dot_S1024x8_S8x392_S1024x392_1_0_0_1_n_n 8 rfl rfl k
  have el : dot_S1024x8_S8x392_S1024x392_1_0_0_1_n_n.lhsIdx (ix2 r j)
      ((contrEquiv1 dot_S1024x8_S8x392_S1024x392_1_0_0_1_n_n 8 rfl rfl).symm k) = ix2 r k := funext fun a => Fin.ext (by
    match a with
    | ⟨0, _⟩ => exact lhs_d3_0 _ _
    | ⟨1, _⟩ => exact (lhs_d3_1 _ _).trans hk)
  have er : dot_S1024x8_S8x392_S1024x392_1_0_0_1_n_n.rhsIdx (ix2 r j)
      ((contrEquiv1 dot_S1024x8_S8x392_S1024x392_1_0_0_1_n_n 8 rfl rfl).symm k) = ix2 k j := funext fun a => Fin.ext (by
    match a with
    | ⟨0, _⟩ => exact (rhs_d3_0 _ _).trans hk
    | ⟨1, _⟩ => exact rhs_d3_1 _ _)
  rw [el, er]

/-! ## A layer's input and the layer itself, at an index -/

/-- The previous pre-activation scaled by a row `s`, shifted by a row `t` and rectified, read at `(p, k)`. -/
theorem act_apply {a b : ℕ} (H : FVec Ideal ⟨2, ![a, b]⟩ .f32) (s t : FVec Ideal ⟨2, ![1, b]⟩ .f32)
    (hb : (⟨2, ![1, b]⟩ : Shape).Broadcasts ⟨2, ![a, b]⟩) (p : Fin a) (k : Fin b) :
    maximumf (addf (mulf H (broadcastTo ⟨2, ![a, b]⟩ s hb)) (broadcastTo ⟨2, ![a, b]⟩ t hb))
        (broadcast ⟨2, ![a, b]⟩ (Scalar.ofBits (F := Ideal) .f32 0x00000000#32)) (ix2 p k)
      = max (H (ix2 p k) * s (ix2 (0 : Fin 1) k) + t (ix2 (0 : Fin 1) k)) 0 := by
  show max (H (ix2 p k) * broadcastTo ⟨2, ![a, b]⟩ s hb (ix2 p k) + broadcastTo ⟨2, ![a, b]⟩ t hb (ix2 p k))
      (Ideal.ofBits .f32 0x00000000#32) = _
  rw [broadcastTo_1b_ab_apply s hb p k, broadcastTo_1b_ab_apply t hb p k, Ideal.ofBits_zero_f32]

/-- The layer `−½ · ((‖x_r‖² − 2 · P) + q)` as the kernel forms it from its input `A`, a product `P` and the row `Q`,
    read at `(r, j)` where `P` is the product of `A` with the weights `W`. -/
theorem euclidChain_apply {a k n : ℕ} (A : FVec Ideal ⟨2, ![a, k]⟩ .f32) (P : FVec Ideal ⟨2, ![a, n]⟩ .f32)
    (W : (⟨2, ![k, n]⟩ : Shape).Idx → EReal) (Q : FVec Ideal ⟨2, ![1, n]⟩ .f32)
    (hr : (⟨2, ![a, k]⟩ : Shape).Reduces [1] ⟨1, ![a]⟩) (hs : (⟨1, ![a]⟩ : Shape).ShapeCasts ⟨2, ![a, 1]⟩)
    (hb : (⟨2, ![a, 1]⟩ : Shape).Broadcasts ⟨2, ![a, n]⟩) (hq : (⟨2, ![1, n]⟩ : Shape).ShapeCasts ⟨2, ![1, n]⟩)
    (hb' : (⟨2, ![1, n]⟩ : Shape).Broadcasts ⟨2, ![a, n]⟩) (r : Fin a) (j : Fin n)
    (hP : P (ix2 r j) = ∑ c : Fin k, A (ix2 r c) * W (ix2 c j)) :
    mulf (broadcast ⟨2, ![a, n]⟩ (Scalar.ofBits (F := Ideal) .f32 0xBF000000#32))
        (addf (subf (broadcastTo ⟨2, ![a, n]⟩ (shapeCast ⟨2, ![a, 1]⟩
                  (multiReduction (F := Ideal) .add [1] ⟨1, ![a]⟩ (mulf A A) 0x00000000#32 hr (.inl rfl) rfl) hs) hb)
                (mulf (broadcast ⟨2, ![a, n]⟩ (Scalar.ofBits (F := Ideal) .f32 0x40000000#32)) P))
          (broadcastTo ⟨2, ![a, n]⟩ (shapeCast ⟨2, ![1, n]⟩ Q hq) hb')) (ix2 r j)
      = euclidW (m2 A) (m2 W) (row Q) r j := by
  have e1 : broadcastTo ⟨2, ![a, n]⟩ (shapeCast ⟨2, ![a, 1]⟩
      (multiReduction (F := Ideal) .add [1] ⟨1, ![a]⟩ (mulf A A) 0x00000000#32 hr (.inl rfl) rfl) hs) hb (ix2 r j)
      = ∑ c : Fin k, A (ix2 r c) * A (ix2 r c) :=
    (broadcastTo_a1_ab_apply _ hb r j).trans ((shapeCast_a_a1_apply _ hs r 0).trans (rowSum_apply (mulf A A) _ hr _ _ r))
  have e2 : broadcastTo ⟨2, ![a, n]⟩ (shapeCast ⟨2, ![1, n]⟩ Q hq) hb' (ix2 r j) = Q (ix2 (0 : Fin 1) j) :=
    (broadcastTo_1b_ab_apply _ hb' r j).trans (congrFun (shapeCast_self Q hq) _)
  exact congrArg (cNegHalf * ·) (congrArg₂ (· + ·) (congrArg₂ (· - ·) e1 (congrArg (cTwo * ·) hP)) e2)

/-- Layer 3's product as the kernel forms it: the input narrowed, the weights as loaded. -/
theorem matmul3_read (A : FVec Ideal S1024x8 .f32) (W : FVec Ideal S8x392 .bf16) (hlt : FTy.bits .bf16 < FTy.bits .f32)
    (hs : S8x392.ShapeCasts S8x392) (r : Fin 1024) (j : Fin 392) :
    matmul dot_S1024x8_S8x392_S1024x392_1_0_0_1_n_n none (truncf .bf16 A hlt) (shapeCast S8x392 W hs)
        (constant (F := Ideal) S1024x392 .f32 0x00000000#32) (ix2 r j)
      = ∑ c : Fin 8, A (ix2 r c) * W (ix2 c j) := by
  rw [shapeCast_self W hs]
  exact matmul3_apply (truncf .bf16 A hlt) W r j

/-! ## Layer 2's statistics and layer 3 -/

section L3
variable (v17 : FVec Ideal S1024x392 .f32) (v38 : FVec Ideal S1x392 .f32) (v39 : FVec Ideal S1024x392 .f32)
  (v45 : FVec Ideal S392x8 .bf16) (v47 v62 : FVec Ideal S1x8 .f32)

/-- The batch mean of layer 2's pre-activation. -/
theorem pay8_apply (u : Fin 1) (k : Fin 8) :
    k0_pay8 v17 v38 v39 v45 v47 (ix2 u k) = colMean (m2 (k0_pay6 v17 v38 v39 v45 v47)) k := by
  unfold k0_pay8
  exact mean_apply (k0_pay6 v17 v38 v39 v45 v47) _ _ u k

/-- Layer 2's scale `g · (v + ε)^(-1/2)`. -/
theorem pay9_apply (u : Fin 1) (k : Fin 8) :
    k0_pay9 v17 v38 v39 v45 v47 v62 (ix2 u k)
      = v62 (ix2 u k) * Ideal.rsqrt (colVar (m2 (k0_pay6 v17 v38 v39 v45 v47)) k + cEps) := by
  unfold k0_pay9
  refine congrArg₂ (· * ·) (congrFun (shapeCast_self v62 _) (ix2 u k)) ?_
  refine (rsqrtVar_apply (k0_pay6 v17 v38 v39 v45 v47) (k0_pay8 v17 v38 v39 v45 v47) _ _ _ u k).trans ?_
  rw [pay8_apply v17 v38 v39 v45 v47 0 k]
  rfl

/-- Layer 2's `μ · s`. -/
theorem pay10_apply (u : Fin 1) (k : Fin 8) :
    k0_pay10 v17 v38 v39 v45 v47 v62 (ix2 u k)
      = colMean (m2 (k0_pay6 v17 v38 v39 v45 v47)) k
          * (v62 (ix2 u k) * Ideal.rsqrt (colVar (m2 (k0_pay6 v17 v38 v39 v45 v47)) k + cEps)) := by
  unfold k0_pay10
  exact congrArg₂ (· * ·) (pay8_apply v17 v38 v39 v45 v47 u k) (pay9_apply v17 v38 v39 v45 v47 v62 u k)

end L3

/-- Layer 3's pre-activation over general operands: the layer at the input `max (h · s + (b − μs)) 0`. -/
theorem pay11_apply (v61 : FVec Ideal S1024x8 .f32) (v65 v80 v81 : FVec Ideal S1x8 .f32) (v89 : FVec Ideal S8x392 .bf16)
    (v91 : FVec Ideal S1x392 .f32) (r : Fin 1024) (j : Fin 392) :
    k0_pay11 v61 v65 v80 v81 v89 v91 (ix2 r j)
      = euclidW (fun p k => max (v61 (ix2 p k) * v80 (ix2 (0 : Fin 1) k) + (v65 (ix2 (0 : Fin 1) k) - v81 (ix2 (0 : Fin 1) k))) 0)
          (m2 v89) (row v91) r j := by
  unfold k0_pay11
  refine (euclidChain_apply _ _ v89 v91 _ _ _ _ _ r j (matmul3_read _ v89 _ _ r j)).trans ?_
  refine congrArg (fun x => euclidW x (m2 v89) (row v91) r j) ?_
  funext p k
  exact act_apply v61 v80 (subf v65 v81) _ p k

/-! ## Layer 4's product -/

theorem lhs_d4_0 (i : S1024x784.Idx) (q : dot_S1024x392_S392x784_S1024x784_1_0_0_1_n_n.contr.Idx) :
    (dot_S1024x392_S392x784_S1024x784_1_0_0_1_n_n.lhsIdx i q 0).val = (i 0).val := by
  unfold DotDims.lhsIdx
  rw [dif_neg (show ¬(0 : Fin S1024x392.rank) ∈ dot_S1024x392_S392x784_S1024x784_1_0_0_1_n_n.lhsBatch by decide),
    dif_pos (show (0 : Fin S1024x392.rank) ∈ dot_S1024x392_S392x784_S1024x784_1_0_0_1_n_n.lhsNonContracting by decide)]
  rfl
theorem lhs_d4_1 (i : S1024x784.Idx) (q : dot_S1024x392_S392x784_S1024x784_1_0_0_1_n_n.contr.Idx) :
    (dot_S1024x392_S392x784_S1024x784_1_0_0_1_n_n.lhsIdx i q 1).val = (q ⟨0, by decide⟩).val :=
  dot_S1024x392_S392x784_S1024x784_1_0_0_1_n_n.lhsIdx_val_of_single rfl i q
theorem rhs_d4_0 (i : S1024x784.Idx) (q : dot_S1024x392_S392x784_S1024x784_1_0_0_1_n_n.contr.Idx) :
    (dot_S1024x392_S392x784_S1024x784_1_0_0_1_n_n.rhsIdx i q 0).val = (q ⟨0, by decide⟩).val :=
  dot_S1024x392_S392x784_S1024x784_1_0_0_1_n_n.rhsIdx_val_of_single rfl i q
theorem rhs_d4_1 (i : S1024x784.Idx) (q : dot_S1024x392_S392x784_S1024x784_1_0_0_1_n_n.contr.Idx) :
    (dot_S1024x392_S392x784_S1024x784_1_0_0_1_n_n.rhsIdx i q 1).val = (i 1).val := by
  unfold DotDims.rhsIdx
  rw [dif_neg (show ¬(1 : Fin S392x784.rank) ∈ dot_S1024x392_S392x784_S1024x784_1_0_0_1_n_n.rhsBatch by decide),
    dif_pos (show (1 : Fin S392x784.rank) ∈ dot_S1024x392_S392x784_S1024x784_1_0_0_1_n_n.rhsNonContracting by decide)]
  rfl

/-- The product of a `[1024, 392]` by a `[392, 784]` array into a zero accumulator, read at `(r, j)`. -/
theorem matmul4_apply (L : FVec Ideal S1024x392 .bf16) (R : FVec Ideal S392x784 .bf16) (r : Fin 1024) (j : Fin 784) :
    matmul dot_S1024x392_S392x784_S1024x784_1_0_0_1_n_n none L R (constant (F := Ideal) S1024x784 .f32 0x00000000#32) (ix2 r j)
      = ∑ k : Fin 392, L (ix2 r k) * R (ix2 k j) := by
  simp only [matmul]
  rw [Ideal.matmul_constant_zero_apply,
    ← Equiv.sum_comp (contrEquiv1 dot_S1024x392_S392x784_S1024x784_1_0_0_1_n_n 392 rfl rfl).symm]
  refine Finset.sum_congr rfl fun k _ => ?_
  have hk := contrEquiv1_symm_val dot_S1024x392_S392x784_S1024x784_1_0_0_1_n_n 392 rfl rfl k
  have el : dot_S1024x392_S392x784_S1024x784_1_0_0_1_n_n.lhsIdx (ix2 r j)
      ((contrEquiv1 dot_S1024x392_S392x784_S1024x784_1_0_0_1_n_n 392 rfl rfl).symm k) = ix2 r k := funext fun a => Fin.ext (by
    match a with
    | ⟨0, _⟩ => exact lhs_d4_0 _ _
    | ⟨1, _⟩ => exact (lhs_d4_1 _ _).trans hk)
  have er : dot_S1024x392_S392x784_S1024x784_1_0_0_1_n_n.rhsIdx (ix2 r j)
      ((contrEquiv1 dot_S1024x392_S392x784_S1024x784_1_0_0_1_n_n 392 rfl rfl).symm k) = ix2 k j := funext fun a => Fin.ext (by
    match a with
    | ⟨0, _⟩ => exact (rhs_d4_0 _ _).trans hk
    | ⟨1, _⟩ => exact rhs_d4_1 _ _)
  rw [el, er]

/-- Layer 4's product as the kernel forms it: the input narrowed, the weights as loaded. -/
theorem matmul4_read (A : FVec Ideal S1024x392 .f32) (W : FVec Ideal S392x784 .bf16) (hlt : FTy.bits .bf16 < FTy.bits .f32)
    (hs : S392x784.ShapeCasts S392x784) (r : Fin 1024) (j : Fin 784) :
    matmul dot_S1024x392_S392x784_S1024x784_1_0_0_1_n_n none (truncf .bf16 A hlt) (shapeCast S392x784 W hs)
        (constant (F := Ideal) S1024x784 .f32 0x00000000#32) (ix2 r j)
      = ∑ c : Fin 392, A (ix2 r c) * W (ix2 c j) := by
  rw [shapeCast_self W hs]
  exact matmul4_apply (truncf .bf16 A hlt) W r j

/-! ## Layer 3's statistics and layer 4 -/

section L4
variable (v61 : FVec Ideal S1024x8 .f32) (v65 v80 v81 : FVec Ideal S1x8 .f32) (v89 : FVec Ideal S8x392 .bf16)
  (v91 : FVec Ideal S1x392 .f32)

/-- The batch mean of layer 3's pre-activation. -/
theorem pay14_apply (u : Fin 1) (k : Fin 392) :
    k0_pay14 v61 v65 v80 v81 v89 v91 (ix2 u k) = colMean (m2 (k0_pay11 v61 v65 v80 v81 v89 v91)) k := by
  unfold k0_pay14
  exact mean_apply (k0_pay11 v61 v65 v80 v81 v89 v91) _ _ u k

/-- Layer 3's `(v + ε)^(-1/2)`. -/
theorem pay15_apply (u : Fin 1) (k : Fin 392) :
    k0_pay15 v61 v65 v80 v81 v89 v91 (ix2 u k)
      = Ideal.rsqrt (colVar (m2 (k0_pay11 v61 v65 v80 v81 v89 v91)) k + cEps) := by
  unfold k0_pay15
  refine (rsqrtVar_apply (k0_pay11 v61 v65 v80 v81 v89 v91) (k0_pay14 v61 v65 v80 v81 v89 v91) _ _ _ u k).trans ?_
  rw [pay14_apply v61 v65 v80 v81 v89 v91 0 k]
  rfl

end L4

/-- Layer 4's pre-activation over general operands: the layer at the input `max (h · s + (b − μ · s)) 0`, `s = g · ρ`. -/
theorem pay16_apply (v105 : FVec Ideal S1024x392 .f32) (v107 v109 v113 v123 : FVec Ideal S1x392 .f32)
    (v133 : FVec Ideal S392x784 .bf16) (v135 : FVec Ideal S1x784 .f32) (r : Fin 1024) (j : Fin 784) :
    k0_pay16 v105 v107 v109 v113 v123 v133 v135 (ix2 r j)
      = euclidW (fun p k => max (v105 (ix2 p k) * (v107 (ix2 (0 : Fin 1) k) * v123 (ix2 (0 : Fin 1) k))
            + (v109 (ix2 (0 : Fin 1) k) - v113 (ix2 (0 : Fin 1) k) * (v107 (ix2 (0 : Fin 1) k) * v123 (ix2 (0 : Fin 1) k)))) 0)
          (m2 v133) (row v135) r j := by
  unfold k0_pay16
  refine (euclidChain_apply _ _ v133 v135 _ _ _ _ _ r j (matmul4_read _ v133 _ _ r j)).trans ?_
  refine congrArg (fun x => euclidW x (m2 v133) (row v135) r j) ?_
  funext p k
  exact act_apply v105 (mulf v107 v123) (subf v109 (mulf v113 (mulf v107 v123))) _ p k

end L34

/-! ## The two layers on the staged blocks -/

section Chain

variable (X0 : Vec Ideal S1024x784 .f32) (X1 : Vec Ideal S784x392 .bf16) (X2 X3 X4 : Vec Ideal S1x392 .f32) (X5 : Vec Ideal S392x8 .bf16) (X6 X7 X8 : Vec Ideal S1x8 .f32) (X9 : Vec Ideal S8x392 .bf16) (X10 X11 X12 : Vec Ideal S1x392 .f32) (X13 : Vec Ideal S392x784 .bf16) (X14 X15 X16 : Vec Ideal S1x784 .f32)

namespace L34

/-- Layer 2's shift row as loaded. -/
theorem b2row_apply (k : Fin 8) : b2row X8 (ix2 (0 : Fin 1) k) = row X8 k := by
  unfold b2row k0_pay7
  exact congrFun (shapeCast_self X8 _) _

/-- Layer 2's scale at the staged blocks. -/
theorem scale2_apply (k : Fin 8) :
    scale2 X0 X1 X2 X3 X4 X5 X6 X7 (ix2 (0 : Fin 1) k)
      = row X7 k * Ideal.rsqrt (colVar (m2 (h2 X0 X1 X2 X3 X4 X5 X6)) k + cEps) := by
  unfold scale2 h2
  exact pay9_apply _ _ _ X5 X6 X7 0 k

/-- Layer 2's `μ · s` at the staged blocks. -/
theorem mscale2_apply (k : Fin 8) :
    mscale2 X0 X1 X2 X3 X4 X5 X6 X7 (ix2 (0 : Fin 1) k)
      = colMean (m2 (h2 X0 X1 X2 X3 X4 X5 X6)) k
          * (row X7 k * Ideal.rsqrt (colVar (m2 (h2 X0 X1 X2 X3 X4 X5 X6)) k + cEps)) := by
  unfold mscale2 h2
  exact pay10_apply _ _ _ X5 X6 X7 0 k

/-- Layer 3's scale and shift rows as loaded. -/
theorem g3row_apply (k : Fin 392) : g3row X11 (ix2 (0 : Fin 1) k) = row X11 k := by
  unfold g3row k0_pay12
  exact congrFun (shapeCast_self X11 _) _
theorem b3row_apply (k : Fin 392) : b3row X12 (ix2 (0 : Fin 1) k) = row X12 k := by
  unfold b3row k0_pay13
  exact congrFun (shapeCast_self X12 _) _

/-- Layer 3's batch mean and `(v + ε)^(-1/2)` at the staged blocks. -/
theorem mean3_apply (k : Fin 392) :
    mean3 X0 X1 X2 X3 X4 X5 X6 X7 X8 X9 X10 (ix2 (0 : Fin 1) k) = colMean (m2 (h3 X0 X1 X2 X3 X4 X5 X6 X7 X8 X9 X10)) k := by
  unfold mean3 h3
  exact pay14_apply _ _ _ _ X9 X10 0 k
theorem rs3_apply (k : Fin 392) :
    rs3 X0 X1 X2 X3 X4 X5 X6 X7 X8 X9 X10 (ix2 (0 : Fin 1) k)
      = Ideal.rsqrt (colVar (m2 (h3 X0 X1 X2 X3 X4 X5 X6 X7 X8 X9 X10)) k + cEps) := by
  unfold rs3 h3
  exact pay15_apply _ _ _ _ X9 X10 0 k

end L34

open L34

/-- Layer 3's pre-activation at `(r, j)`: the layer at layer 2's normalised, rectified pre-activation. -/
theorem h3_apply (r : Fin 1024) (j : Fin 392) :
    h3 X0 X1 X2 X3 X4 X5 X6 X7 X8 X9 X10 (ix2 r j)
      = euclidW (relu (bnK (m2 (h2 X0 X1 X2 X3 X4 X5 X6)) (row X7) (row X8))) (m2 X9) (row X10) r j := by
  unfold h3
  refine (pay11_apply _ _ _ _ X9 X10 r j).trans ?_
  refine congrArg (fun x => euclidW x (m2 X9) (row X10) r j) ?_
  funext p k
  show max (_ * scale2 X0 X1 X2 X3 X4 X5 X6 X7 (ix2 (0 : Fin 1) k)
      + (b2row X8 (ix2 (0 : Fin 1) k) - mscale2 X0 X1 X2 X3 X4 X5 X6 X7 (ix2 (0 : Fin 1) k))) 0 = _
  rw [scale2_apply, mscale2_apply, b2row_apply]
  rfl

/-- Layer 4's pre-activation at `(r, j)`: the layer at layer 3's normalised, rectified pre-activation. -/
theorem h4_apply (r : Fin 1024) (j : Fin 784) :
    h4 X0 X1 X2 X3 X4 X5 X6 X7 X8 X9 X10 X11 X12 X13 X14 (ix2 r j)
      = euclidW (relu (bnK (m2 (h3 X0 X1 X2 X3 X4 X5 X6 X7 X8 X9 X10)) (row X11) (row X12))) (m2 X13) (row X14) r j := by
  unfold h4
  refine (pay16_apply _ _ _ _ _ X13 X14 r j).trans ?_
  refine congrArg (fun x => euclidW x (m2 X13) (row X14) r j) ?_
  funext p k
  show max (_ * (g3row X11 (ix2 (0 : Fin 1) k) * rs3 X0 X1 X2 X3 X4 X5 X6 X7 X8 X9 X10 (ix2 (0 : Fin 1) k))
      + (b3row X12 (ix2 (0 : Fin 1) k) - mean3 X0 X1 X2 X3 X4 X5 X6 X7 X8 X9 X10 (ix2 (0 : Fin 1) k)
          * (g3row X11 (ix2 (0 : Fin 1) k) * rs3 X0 X1 X2 X3 X4 X5 X6 X7 X8 X9 X10 (ix2 (0 : Fin 1) k)))) 0 = _
  rw [g3row_apply, rs3_apply, b3row_apply, mean3_apply]
  rfl

end Chain

end Cert.Proof.KI

end
-- ==== Proof.KHost.lean ====
/-
  The seventeen input windows' blocks of the kernel program, read back to the program's argument arrays, at the
  ideal values.

  The kernel's grid has one point, and at that point each window's block is the whole of its array: the block's
  index is zero on both axes, so the block's coordinate (0 · size + 1 · y) is y itself (`blkW_arr`). What the
  array holds when the region is entered is what the host operations before the region left there (`V_vJ`):
    * window 0's array is the argument `main_arg0`, which no host operation writes;
    * per layer (windows 1, 5, 9, 13) the weights narrowed to bf16 — the identity at the ideal values;
    * per layer (windows 2, 6, 10, 14) the one row of the sums, down the rows of the weights, of the squares of
      their entries, from a zero initial value: at column j, ∑ k, w k j · w k j;
    * the eight scale and shift vectors (windows 3, 4, 7, 8, 11, 12, 15, 16) of length n as rows [1, n].
  `blkW_apply` composes the two steps: window W's block at an index is the argument array at that index (at the
  column, for a row), or that sum.
-/
import proofs.«403897_j60078002536976_3_alg».proof.Proof.Gen.KernelIdeal.Frame
import proofs.«403897_j60078002536976_3_alg».proof.Proof.Out
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

set_option maxRecDepth 16384

noncomputable section

namespace Cert.Proof.KI

open Cert.KernelIdeal Cert.KernelIdeal.Gen Idealize.ShloMosaic Idealize.ShloMosaic.TcCoe Idealize.ShloMosaic.ValueIdx Idealize.SL.Sem Cert.Out

variable (m : (ℓ : Loc nD τ sig) → Buf (Elt Ideal) ℓ)

/-! ## Two host operations read at an index -/

/-- A vector copied into the one row of a [1, b] array (the operand's axis sent to axis 1) reads, at (0, j), the vector at j. -/
theorem rowOf_apply {α : Type} {b : Nat} (x : (⟨1, ![b]⟩ : Shape).Idx → α)
    (h : (⟨1, ![b]⟩ : Shape).BroadcastsInDim ⟨2, ![1, b]⟩ (![1] : Fin 1 → Fin 2)) (j : Fin b) :
    broadcastInDim ⟨2, ![1, b]⟩ ![1] h x (ix2 (0 : Fin 1) j) = x (ix1 j) :=
  broadcastInDim_apply _ h x _ (ix1 j) (fun a => by
    match a with
    | ⟨0, _⟩ =>
      show j.val = if b = 1 then 0 else j.val
      have := j.isLt
      split <;> omega)

/-- The sums over the rows of the squares of a matrix's entries, from a zero initial value, as the one row of a [1, b]
    array: at (0, j) the sum over k of the square of the entry (k, j). -/
theorem colsq_apply {a b : Nat} (A : FVec Ideal ⟨2, ![a, b]⟩ .f32)
    (hr : (⟨2, ![a, b]⟩ : Shape).ReducesTo [(0 : Fin 2)] ⟨1, ![b]⟩) (hR : (⟨2, ![a, b]⟩ : Shape).Reduces [(0 : Fin 2)] ⟨1, ![b]⟩)
    (hu : 0 < S_.numel)
    (h : (⟨1, ![b]⟩ : Shape).BroadcastsInDim ⟨2, ![1, b]⟩ (![1] : Fin 1 → Fin 2)) (j : Fin b) :
    broadcastInDim ⟨2, ![1, b]⟩ ![1] h (Host.reduceAdd (mulf A A) (constant (F := Ideal) S_ .f32 0x00000000#32) hr hu) (ix2 (0 : Fin 1) j)
      = ∑ k : Fin a, A (ix2 k j) * A (ix2 k j) := by
  rw [rowOf_apply, hostReduceAdd_apply, Ideal.hostReduceAdd_single hr hR, constant_apply, Ideal.ofBits_zero_f32, zero_add]
  show (∑ k : Fin a, mulf A A (hR.lift (ix1 j) k)) = _
  refine Finset.sum_congr rfl fun k _ => ?_
  have e : hR.lift (ix1 j) k = ix2 k j := by
    funext d; apply Fin.ext
    match d with
    | ⟨0, _⟩ => rfl
    | ⟨1, _⟩ => rfl
  rw [e]; rfl

/-! ## Window 0 -/

/-- Window 0's block index at the one grid point is zero on both axes. -/
theorem idx0 : ∀ a : Fin 2, win0_0.index t0_0 a = 0 := by decide

/-- Window 0's one block is the whole of its [1024, 784] array. -/
theorem blk0_arr (c : Dev nD) (y : S1024x784.Idx) : iblk m c 0 t0_0 y = V m c main_arg0 y := by
  show V m c main_arg0 (((cfg0.win 0).blk t0_0).view.emb y) = V m c main_arg0 y
  refine congrArg _ (funext fun a => Fin.ext ?_)
  match a with
  | ⟨0, _⟩ => show win0_0.index t0_0 (0 : Fin 2) * 1024 + 1 * (y 0).val = (y 0).val; rw [idx0 0]; omega
  | ⟨1, _⟩ => show win0_0.index t0_0 (1 : Fin 2) * 784 + 1 * (y 1).val = (y 1).val; rw [idx0 1]; omega

/-- Window 0's block is the argument array `main_arg0`, which no host operation writes. -/
theorem blk0_apply (c : Dev nD) (p : Fin 1024) (q : Fin 784) : iblk m c 0 t0_0 (ix2 p q) = (m ((c : Thread nD τ).loc main_arg0)) (ix2 p q) := by
  rw [blk0_arr, V_main_arg0]

/-! ## Window 1 -/

/-- Window 1's block index at the one grid point is zero on both axes. -/
theorem idx1 : ∀ a : Fin 2, win0_1.index t0_0 a = 0 := by decide

/-- Window 1's one block is the whole of its [784, 392] array. -/
theorem blk1_arr (c : Dev nD) (y : S784x392.Idx) : iblk m c 1 t0_0 y = V m c main_call0_v0 y := by
  show V m c main_call0_v0 (((cfg0.win 1).blk t0_0).view.emb y) = V m c main_call0_v0 y
  refine congrArg _ (funext fun a => Fin.ext ?_)
  match a with
  | ⟨0, _⟩ => show win0_1.index t0_0 (0 : Fin 2) * 784 + 1 * (y 0).val = (y 0).val; rw [idx1 0]; omega
  | ⟨1, _⟩ => show win0_1.index t0_0 (1 : Fin 2) * 392 + 1 * (y 1).val = (y 1).val; rw [idx1 1]; omega

/-- The array of window 1 when the region is entered: `main_arg1` narrowed to bf16. -/
theorem V_v0 (c : Dev nD) : @Eq (FVec Ideal S784x392 .bf16) (V m c main_call0_v0)
    (truncf .bf16 (show FVec Ideal S784x392 .f32 from m ((c : Thread nD τ).loc main_arg1)) bitsLt_bf16_f32) := by
  dsimp only [Gen.V, Gen.hostOps0]; after_results; rfl

/-- At the ideal values the narrowing is the identity: window 1's block is `main_arg1`. -/
theorem blk1_apply (c : Dev nD) (p : Fin 784) (q : Fin 392) : iblk m c 1 t0_0 (ix2 p q) = (m ((c : Thread nD τ).loc main_arg1)) (ix2 p q) := by
  rw [blk1_arr, V_v0]; rfl

/-! ## Window 2 -/

/-- Window 2's block index at the one grid point is zero on both axes. -/
theorem idx2 : ∀ a : Fin 2, win0_2.index t0_0 a = 0 := by decide

/-- Window 2's one block is the whole of its [1, 392] array. -/
theorem blk2_arr (c : Dev nD) (y : S1x392.Idx) : iblk m c 2 t0_0 y = V m c main_call0_v3 y := by
  show V m c main_call0_v3 (((cfg0.win 2).blk t0_0).view.emb y) = V m c main_call0_v3 y
  refine congrArg _ (funext fun a => Fin.ext ?_)
  match a with
  | ⟨0, _⟩ => show win0_2.index t0_0 (0 : Fin 2) * 1 + 1 * (y 0).val = (y 0).val; rw [idx2 0]; omega
  | ⟨1, _⟩ => show win0_2.index t0_0 (1 : Fin 2) * 392 + 1 * (y 1).val = (y 1).val; rw [idx2 1]; omega

/-- The array of window 2 when the region is entered: the sums down the rows of the squares of `main_arg1`'s
    entries, from zero, as one row. -/
theorem V_v3 (c : Dev nD) : @Eq (FVec Ideal S1x392 .f32) (V m c main_call0_v3)
    (broadcastInDim S1x392 ![1] bcast_S392_S1x392_1
      (Host.reduceAdd (mulf (show FVec Ideal S784x392 .f32 from m ((c : Thread nD τ).loc main_arg1)) (show FVec Ideal S784x392 .f32 from m ((c : Thread nD τ).loc main_arg1)))
        (constant (F := Ideal) S_ .f32 0x00000000#32) reducesTo_S784x392_S392_d0 h_S_)) := by
  dsimp only [Gen.V, Gen.hostOps0]; after_results; rfl

/-- Window 2's block at column j is the sum over k of the square of `main_arg1` at (k, j). -/
theorem blk2_apply (c : Dev nD) (j : Fin 392) : iblk m c 2 t0_0 (ix2 (0 : Fin 1) j)
    = ∑ k : Fin 784, m2 (m ((c : Thread nD τ).loc main_arg1)) k j * m2 (m ((c : Thread nD τ).loc main_arg1)) k j := by
  rw [blk2_arr, V_v3]
  exact colsq_apply _ reducesTo_S784x392_S392_d0 (by decide) h_S_ bcast_S392_S1x392_1 j

/-! ## Window 3 -/

/-- Window 3's block index at the one grid point is zero on both axes. -/
theorem idx3 : ∀ a : Fin 2, win0_3.index t0_0 a = 0 := by decide

/-- Window 3's one block is the whole of its [1, 392] array. -/
theorem blk3_arr (c : Dev nD) (y : S1x392.Idx) : iblk m c 3 t0_0 y = V m c main_call0_v16 y := by
  show V m c main_call0_v16 (((cfg0.win 3).blk t0_0).view.emb y) = V m c main_call0_v16 y
  refine congrArg _ (funext fun a => Fin.ext ?_)
  match a with
  | ⟨0, _⟩ => show win0_3.index t0_0 (0 : Fin 2) * 1 + 1 * (y 0).val = (y 0).val; rw [idx3 0]; omega
  | ⟨1, _⟩ => show win0_3.index t0_0 (1 : Fin 2) * 392 + 1 * (y 1).val = (y 1).val; rw [idx3 1]; omega

/-- The array of window 3 when the region is entered: the vector `main_arg2` as one row. -/
theorem V_v16 (c : Dev nD) : @Eq (FVec Ideal S1x392 .f32) (V m c main_call0_v16)
    (shapeCast S1x392 (show FVec Ideal S392 .f32 from m ((c : Thread nD τ).loc main_arg2)) shapeCasts_S392_S1x392) := by
  dsimp only [Gen.V, Gen.hostOps0]; after_results; rfl

/-- Window 3's block at column j is `main_arg2` at j. -/
theorem blk3_apply (c : Dev nD) (j : Fin 392) : iblk m c 3 t0_0 (ix2 (0 : Fin 1) j) = (m ((c : Thread nD τ).loc main_arg2)) (ix1 j) := by
  rw [blk3_arr, V_v16]
  exact shapeCast_a_1a_apply _ shapeCasts_S392_S1x392 0 j

/-! ## Window 4 -/

/-- Window 4's block index at the one grid point is zero on both axes. -/
theorem idx4 : ∀ a : Fin 2, win0_4.index t0_0 a = 0 := by decide

/-- Window 4's one block is the whole of its [1, 392] array. -/
theorem blk4_arr (c : Dev nD) (y : S1x392.Idx) : iblk m c 4 t0_0 y = V m c main_call0_v17 y := by
  show V m c main_call0_v17 (((cfg0.win 4).blk t0_0).view.emb y) = V m c main_call0_v17 y
  refine congrArg _ (funext fun a => Fin.ext ?_)
  match a with
  | ⟨0, _⟩ => show win0_4.index t0_0 (0 : Fin 2) * 1 + 1 * (y 0).val = (y 0).val; rw [idx4 0]; omega
  | ⟨1, _⟩ => show win0_4.index t0_0 (1 : Fin 2) * 392 + 1 * (y 1).val = (y 1).val; rw [idx4 1]; omega

/-- The array of window 4 when the region is entered: the vector `main_arg3` as one row. -/
theorem V_v17 (c : Dev nD) : @Eq (FVec Ideal S1x392 .f32) (V m c main_call0_v17)
    (shapeCast S1x392 (show FVec Ideal S392 .f32 from m ((c : Thread nD τ).loc main_arg3)) shapeCasts_S392_S1x392) := by
  dsimp only [Gen.V, Gen.hostOps0]; after_results; rfl

/-- Window 4's block at column j is `main_arg3` at j. -/
theorem blk4_apply (c : Dev nD) (j : Fin 392) : iblk m c 4 t0_0 (ix2 (0 : Fin 1) j) = (m ((c : Thread nD τ).loc main_arg3)) (ix1 j) := by
  rw [blk4_arr, V_v17]
  exact shapeCast_a_1a_apply _ shapeCasts_S392_S1x392 0 j

/-! ## Window 5 -/

/-- Window 5's block index at the one grid point is zero on both axes. -/
theorem idx5 : ∀ a : Fin 2, win0_5.index t0_0 a = 0 := by decide

/-- Window 5's one block is the whole of its [392, 8] array. -/
theorem blk5_arr (c : Dev nD) (y : S392x8.Idx) : iblk m c 5 t0_0 y = V m c main_call0_v4 y := by
  show V m c main_call0_v4 (((cfg0.win 5).blk t0_0).view.emb y) = V m c main_call0_v4 y
  refine congrArg _ (funext fun a => Fin.ext ?_)
  match a with
  | ⟨0, _⟩ => show win0_5.index t0_0 (0 : Fin 2) * 392 + 1 * (y 0).val = (y 0).val; rw [idx5 0]; omega
  | ⟨1, _⟩ => show win0_5.index t0_0 (1 : Fin 2) * 8 + 1 * (y 1).val = (y 1).val; rw [idx5 1]; omega

/-- The array of window 5 when the region is entered: `main_arg4` narrowed to bf16. -/
theorem V_v4 (c : Dev nD) : @Eq (FVec Ideal S392x8 .bf16) (V m c main_call0_v4)
    (truncf .bf16 (show FVec Ideal S392x8 .f32 from m ((c : Thread nD τ).loc main_arg4)) bitsLt_bf16_f32) := by
  dsimp only [Gen.V, Gen.hostOps0]; after_results; rfl

/-- At the ideal values the narrowing is the identity: window 5's block is `main_arg4`. -/
theorem blk5_apply (c : Dev nD) (p : Fin 392) (q : Fin 8) : iblk m c 5 t0_0 (ix2 p q) = (m ((c : Thread nD τ).loc main_arg4)) (ix2 p q) := by
  rw [blk5_arr, V_v4]; rfl

/-! ## Window 6 -/

/-- Window 6's block index at the one grid point is zero on both axes. -/
theorem idx6 : ∀ a : Fin 2, win0_6.index t0_0 a = 0 := by decide

/-- Window 6's one block is the whole of its [1, 8] array. -/
theorem blk6_arr (c : Dev nD) (y : S1x8.Idx) : iblk m c 6 t0_0 y = V m c main_call0_v7 y := by
  show V m c main_call0_v7 (((cfg0.win 6).blk t0_0).view.emb y) = V m c main_call0_v7 y
  refine congrArg _ (funext fun a => Fin.ext ?_)
  match a with
  | ⟨0, _⟩ => show win0_6.index t0_0 (0 : Fin 2) * 1 + 1 * (y 0).val = (y 0).val; rw [idx6 0]; omega
  | ⟨1, _⟩ => show win0_6.index t0_0 (1 : Fin 2) * 8 + 1 * (y 1).val = (y 1).val; rw [idx6 1]; omega

/-- The array of window 6 when the region is entered: the sums down the rows of the squares of `main_arg4`'s
    entries, from zero, as one row. -/
theorem V_v7 (c : Dev nD) : @Eq (FVec Ideal S1x8 .f32) (V m c main_call0_v7)
    (broadcastInDim S1x8 ![1] bcast_S8_S1x8_1
      (Host.reduceAdd (mulf (show FVec Ideal S392x8 .f32 from m ((c : Thread nD τ).loc main_arg4)) (show FVec Ideal S392x8 .f32 from m ((c : Thread nD τ).loc main_arg4)))
        (constant (F := Ideal) S_ .f32 0x00000000#32) reducesTo_S392x8_S8_d0 h_S_)) := by
  dsimp only [Gen.V, Gen.hostOps0]; after_results; rfl

/-- Window 6's block at column j is the sum over k of the square of `main_arg4` at (k, j). -/
theorem blk6_apply (c : Dev nD) (j : Fin 8) : iblk m c 6 t0_0 (ix2 (0 : Fin 1) j)
    = ∑ k : Fin 392, m2 (m ((c : Thread nD τ).loc main_arg4)) k j * m2 (m ((c : Thread nD τ).loc main_arg4)) k j := by
  rw [blk6_arr, V_v7]
  exact colsq_apply _ reducesTo_S392x8_S8_d0 (by decide) h_S_ bcast_S8_S1x8_1 j

/-! ## Window 7 -/

/-- Window 7's block index at the one grid point is zero on both axes. -/
theorem idx7 : ∀ a : Fin 2, win0_7.index t0_0 a = 0 := by decide

/-- Window 7's one block is the whole of its [1, 8] array. -/
theorem blk7_arr (c : Dev nD) (y : S1x8.Idx) : iblk m c 7 t0_0 y = V m c main_call0_v18 y := by
  show V m c main_call0_v18 (((cfg0.win 7).blk t0_0).view.emb y) = V m c main_call0_v18 y
  refine congrArg _ (funext fun a => Fin.ext ?_)
  match a with
  | ⟨0, _⟩ => show win0_7.index t0_0 (0 : Fin 2) * 1 + 1 * (y 0).val = (y 0).val; rw [idx7 0]; omega
  | ⟨1, _⟩ => show win0_7.index t0_0 (1 : Fin 2) * 8 + 1 * (y 1).val = (y 1).val; rw [idx7 1]; omega

/-- The array of window 7 when the region is entered: the vector `main_arg5` as one row. -/
theorem V_v18 (c : Dev nD) : @Eq (FVec Ideal S1x8 .f32) (V m c main_call0_v18)
    (shapeCast S1x8 (show FVec Ideal S8 .f32 from m ((c : Thread nD τ).loc main_arg5)) shapeCasts_S8_S1x8) := by
  dsimp only [Gen.V, Gen.hostOps0]; after_results; rfl

/-- Window 7's block at column j is `main_arg5` at j. -/
theorem blk7_apply (c : Dev nD) (j : Fin 8) : iblk m c 7 t0_0 (ix2 (0 : Fin 1) j) = (m ((c : Thread nD τ).loc main_arg5)) (ix1 j) := by
  rw [blk7_arr, V_v18]
  exact shapeCast_a_1a_apply _ shapeCasts_S8_S1x8 0 j

/-! ## Window 8 -/

/-- Window 8's block index at the one grid point is zero on both axes. -/
theorem idx8 : ∀ a : Fin 2, win0_8.index t0_0 a = 0 := by decide

/-- Window 8's one block is the whole of its [1, 8] array. -/
theorem blk8_arr (c : Dev nD) (y : S1x8.Idx) : iblk m c 8 t0_0 y = V m c main_call0_v19 y := by
  show V m c main_call0_v19 (((cfg0.win 8).blk t0_0).view.emb y) = V m c main_call0_v19 y
  refine congrArg _ (funext fun a => Fin.ext ?_)
  match a with
  | ⟨0, _⟩ => show win0_8.index t0_0 (0 : Fin 2) * 1 + 1 * (y 0).val = (y 0).val; rw [idx8 0]; omega
  | ⟨1, _⟩ => show win0_8.index t0_0 (1 : Fin 2) * 8 + 1 * (y 1).val = (y 1).val; rw [idx8 1]; omega

/-- The array of window 8 when the region is entered: the vector `main_arg6` as one row. -/
theorem V_v19 (c : Dev nD) : @Eq (FVec Ideal S1x8 .f32) (V m c main_call0_v19)
    (shapeCast S1x8 (show FVec Ideal S8 .f32 from m ((c : Thread nD τ).loc main_arg6)) shapeCasts_S8_S1x8) := by
  dsimp only [Gen.V, Gen.hostOps0]; after_results; rfl

/-- Window 8's block at column j is `main_arg6` at j. -/
theorem blk8_apply (c : Dev nD) (j : Fin 8) : iblk m c 8 t0_0 (ix2 (0 : Fin 1) j) = (m ((c : Thread nD τ).loc main_arg6)) (ix1 j) := by
  rw [blk8_arr, V_v19]
  exact shapeCast_a_1a_apply _ shapeCasts_S8_S1x8 0 j

/-! ## Window 9 -/

/-- Window 9's block index at the one grid point is zero on both axes. -/
theorem idx9 : ∀ a : Fin 2, win0_9.index t0_0 a = 0 := by decide

/-- Window 9's one block is the whole of its [8, 392] array. -/
theorem blk9_arr (c : Dev nD) (y : S8x392.Idx) : iblk m c 9 t0_0 y = V m c main_call0_v8 y := by
  show V m c main_call0_v8 (((cfg0.win 9).blk t0_0).view.emb y) = V m c main_call0_v8 y
  refine congrArg _ (funext fun a => Fin.ext ?_)
  match a with
  | ⟨0, _⟩ => show win0_9.index t0_0 (0 : Fin 2) * 8 + 1 * (y 0).val = (y 0).val; rw [idx9 0]; omega
  | ⟨1, _⟩ => show win0_9.index t0_0 (1 : Fin 2) * 392 + 1 * (y 1).val = (y 1).val; rw [idx9 1]; omega

/-- The array of window 9 when the region is entered: `main_arg7` narrowed to bf16. -/
theorem V_v8 (c : Dev nD) : @Eq (FVec Ideal S8x392 .bf16) (V m c main_call0_v8)
    (truncf .bf16 (show FVec Ideal S8x392 .f32 from m ((c : Thread nD τ).loc main_arg7)) bitsLt_bf16_f32) := by
  dsimp only [Gen.V, Gen.hostOps0]; after_results; rfl

/-- At the ideal values the narrowing is the identity: window 9's block is `main_arg7`. -/
theorem blk9_apply (c : Dev nD) (p : Fin 8) (q : Fin 392) : iblk m c 9 t0_0 (ix2 p q) = (m ((c : Thread nD τ).loc main_arg7)) (ix2 p q) := by
  rw [blk9_arr, V_v8]; rfl

/-! ## Window 10 -/

/-- Window 10's block index at the one grid point is zero on both axes. -/
theorem idx10 : ∀ a : Fin 2, win0_10.index t0_0 a = 0 := by decide

/-- Window 10's one block is the whole of its [1, 392] array. -/
theorem blk10_arr (c : Dev nD) (y : S1x392.Idx) : iblk m c 10 t0_0 y = V m c main_call0_v11 y := by
  show V m c main_call0_v11 (((cfg0.win 10).blk t0_0).view.emb y) = V m c main_call0_v11 y
  refine congrArg _ (funext fun a => Fin.ext ?_)
  match a with
  | ⟨0, _⟩ => show win0_10.index t0_0 (0 : Fin 2) * 1 + 1 * (y 0).val = (y 0).val; rw [idx10 0]; omega
  | ⟨1, _⟩ => show win0_10.index t0_0 (1 : Fin 2) * 392 + 1 * (y 1).val = (y 1).val; rw [idx10 1]; omega

/-- The array of window 10 when the region is entered: the sums down the rows of the squares of `main_arg7`'s
    entries, from zero, as one row. -/
theorem V_v11 (c : Dev nD) : @Eq (FVec Ideal S1x392 .f32) (V m c main_call0_v11)
    (broadcastInDim S1x392 ![1] bcast_S392_S1x392_1
      (Host.reduceAdd (mulf (show FVec Ideal S8x392 .f32 from m ((c : Thread nD τ).loc main_arg7)) (show FVec Ideal S8x392 .f32 from m ((c : Thread nD τ).loc main_arg7)))
        (constant (F := Ideal) S_ .f32 0x00000000#32) reducesTo_S8x392_S392_d0 h_S_)) := by
  dsimp only [Gen.V, Gen.hostOps0]; after_results; rfl

/-- Window 10's block at column j is the sum over k of the square of `main_arg7` at (k, j). -/
theorem blk10_apply (c : Dev nD) (j : Fin 392) : iblk m c 10 t0_0 (ix2 (0 : Fin 1) j)
    = ∑ k : Fin 8, m2 (m ((c : Thread nD τ).loc main_arg7)) k j * m2 (m ((c : Thread nD τ).loc main_arg7)) k j := by
  rw [blk10_arr, V_v11]
  exact colsq_apply _ reducesTo_S8x392_S392_d0 (by decide) h_S_ bcast_S392_S1x392_1 j

/-! ## Window 11 -/

/-- Window 11's block index at the one grid point is zero on both axes. -/
theorem idx11 : ∀ a : Fin 2, win0_11.index t0_0 a = 0 := by decide

/-- Window 11's one block is the whole of its [1, 392] array. -/
theorem blk11_arr (c : Dev nD) (y : S1x392.Idx) : iblk m c 11 t0_0 y = V m c main_call0_v20 y := by
  show V m c main_call0_v20 (((cfg0.win 11).blk t0_0).view.emb y) = V m c main_call0_v20 y
  refine congrArg _ (funext fun a => Fin.ext ?_)
  match a with
  | ⟨0, _⟩ => show win0_11.index t0_0 (0 : Fin 2) * 1 + 1 * (y 0).val = (y 0).val; rw [idx11 0]; omega
  | ⟨1, _⟩ => show win0_11.index t0_0 (1 : Fin 2) * 392 + 1 * (y 1).val = (y 1).val; rw [idx11 1]; omega

/-- The array of window 11 when the region is entered: the vector `main_arg8` as one row. -/
theorem V_v20 (c : Dev nD) : @Eq (FVec Ideal S1x392 .f32) (V m c main_call0_v20)
    (shapeCast S1x392 (show FVec Ideal S392 .f32 from m ((c : Thread nD τ).loc main_arg8)) shapeCasts_S392_S1x392) := by
  dsimp only [Gen.V, Gen.hostOps0]; after_results; rfl

/-- Window 11's block at column j is `main_arg8` at j. -/
theorem blk11_apply (c : Dev nD) (j : Fin 392) : iblk m c 11 t0_0 (ix2 (0 : Fin 1) j) = (m ((c : Thread nD τ).loc main_arg8)) (ix1 j) := by
  rw [blk11_arr, V_v20]
  exact shapeCast_a_1a_apply _ shapeCasts_S392_S1x392 0 j

/-! ## Window 12 -/

/-- Window 12's block index at the one grid point is zero on both axes. -/
theorem idx12 : ∀ a : Fin 2, win0_12.index t0_0 a = 0 := by decide

/-- Window 12's one block is the whole of its [1, 392] array. -/
theorem blk12_arr (c : Dev nD) (y : S1x392.Idx) : iblk m c 12 t0_0 y = V m c main_call0_v21 y := by
  show V m c main_call0_v21 (((cfg0.win 12).blk t0_0).view.emb y) = V m c main_call0_v21 y
  refine congrArg _ (funext fun a => Fin.ext ?_)
  match a with
  | ⟨0, _⟩ => show win0_12.index t0_0 (0 : Fin 2) * 1 + 1 * (y 0).val = (y 0).val; rw [idx12 0]; omega
  | ⟨1, _⟩ => show win0_12.index t0_0 (1 : Fin 2) * 392 + 1 * (y 1).val = (y 1).val; rw [idx12 1]; omega

/-- The array of window 12 when the region is entered: the vector `main_arg9` as one row. -/
theorem V_v21 (c : Dev nD) : @Eq (FVec Ideal S1x392 .f32) (V m c main_call0_v21)
    (shapeCast S1x392 (show FVec Ideal S392 .f32 from m ((c : Thread nD τ).loc main_arg9)) shapeCasts_S392_S1x392) := by
  dsimp only [Gen.V, Gen.hostOps0]; after_results; rfl

/-- Window 12's block at column j is `main_arg9` at j. -/
theorem blk12_apply (c : Dev nD) (j : Fin 392) : iblk m c 12 t0_0 (ix2 (0 : Fin 1) j) = (m ((c : Thread nD τ).loc main_arg9)) (ix1 j) := by
  rw [blk12_arr, V_v21]
  exact shapeCast_a_1a_apply _ shapeCasts_S392_S1x392 0 j

/-! ## Window 13 -/

/-- Window 13's block index at the one grid point is zero on both axes. -/
theorem idx13 : ∀ a : Fin 2, win0_13.index t0_0 a = 0 := by decide

/-- Window 13's one block is the whole of its [392, 784] array. -/
theorem blk13_arr (c : Dev nD) (y : S392x784.Idx) : iblk m c 13 t0_0 y = V m c main_call0_v12 y := by
  show V m c main_call0_v12 (((cfg0.win 13).blk t0_0).view.emb y) = V m c main_call0_v12 y
  refine congrArg _ (funext fun a => Fin.ext ?_)
  match a with
  | ⟨0, _⟩ => show win0_13.index t0_0 (0 : Fin 2) * 392 + 1 * (y 0).val = (y 0).val; rw [idx13 0]; omega
  | ⟨1, _⟩ => show win0_13.index t0_0 (1 : Fin 2) * 784 + 1 * (y 1).val = (y 1).val; rw [idx13 1]; omega

/-- The array of window 13 when the region is entered: `main_arg10` narrowed to bf16. -/
theorem V_v12 (c : Dev nD) : @Eq (FVec Ideal S392x784 .bf16) (V m c main_call0_v12)
    (truncf .bf16 (show FVec Ideal S392x784 .f32 from m ((c : Thread nD τ).loc main_arg10)) bitsLt_bf16_f32) := by
  dsimp only [Gen.V, Gen.hostOps0]; after_results; rfl

/-- At the ideal values the narrowing is the identity: window 13's block is `main_arg10`. -/
theorem blk13_apply (c : Dev nD) (p : Fin 392) (q : Fin 784) : iblk m c 13 t0_0 (ix2 p q) = (m ((c : Thread nD τ).loc main_arg10)) (ix2 p q) := by
  rw [blk13_arr, V_v12]; rfl

/-! ## Window 14 -/

/-- Window 14's block index at the one grid point is zero on both axes. -/
theorem idx14 : ∀ a : Fin 2, win0_14.index t0_0 a = 0 := by decide

/-- Window 14's one block is the whole of its [1, 784] array. -/
theorem blk14_arr (c : Dev nD) (y : S1x784.Idx) : iblk m c 14 t0_0 y = V m c main_call0_v15 y := by
  show V m c main_call0_v15 (((cfg0.win 14).blk t0_0).view.emb y) = V m c main_call0_v15 y
  refine congrArg _ (funext fun a => Fin.ext ?_)
  match a with
  | ⟨0, _⟩ => show win0_14.index t0_0 (0 : Fin 2) * 1 + 1 * (y 0).val = (y 0).val; rw [idx14 0]; omega
  | ⟨1, _⟩ => show win0_14.index t0_0 (1 : Fin 2) * 784 + 1 * (y 1).val = (y 1).val; rw [idx14 1]; omega

/-- The array of window 14 when the region is entered: the sums down the rows of the squares of `main_arg10`'s
    entries, from zero, as one row. -/
theorem V_v15 (c : Dev nD) : @Eq (FVec Ideal S1x784 .f32) (V m c main_call0_v15)
    (broadcastInDim S1x784 ![1] bcast_S784_S1x784_1
      (Host.reduceAdd (mulf (show FVec Ideal S392x784 .f32 from m ((c : Thread nD τ).loc main_arg10)) (show FVec Ideal S392x784 .f32 from m ((c : Thread nD τ).loc main_arg10)))
        (constant (F := Ideal) S_ .f32 0x00000000#32) reducesTo_S392x784_S784_d0 h_S_)) := by
  dsimp only [Gen.V, Gen.hostOps0]; after_results; rfl

/-- Window 14's block at column j is the sum over k of the square of `main_arg10` at (k, j). -/
theorem blk14_apply (c : Dev nD) (j : Fin 784) : iblk m c 14 t0_0 (ix2 (0 : Fin 1) j)
    = ∑ k : Fin 392, m2 (m ((c : Thread nD τ).loc main_arg10)) k j * m2 (m ((c : Thread nD τ).loc main_arg10)) k j := by
  rw [blk14_arr, V_v15]
  exact colsq_apply _ reducesTo_S392x784_S784_d0 (by decide) h_S_ bcast_S784_S1x784_1 j

/-! ## Window 15 -/

/-- Window 15's block index at the one grid point is zero on both axes. -/
theorem idx15 : ∀ a : Fin 2, win0_15.index t0_0 a = 0 := by decide

/-- Window 15's one block is the whole of its [1, 784] array. -/
theorem blk15_arr (c : Dev nD) (y : S1x784.Idx) : iblk m c 15 t0_0 y = V m c main_call0_v22 y := by
  show V m c main_call0_v22 (((cfg0.win 15).blk t0_0).view.emb y) = V m c main_call0_v22 y
  refine congrArg _ (funext fun a => Fin.ext ?_)
  match a with
  | ⟨0, _⟩ => show win0_15.index t0_0 (0 : Fin 2) * 1 + 1 * (y 0).val = (y 0).val; rw [idx15 0]; omega
  | ⟨1, _⟩ => show win0_15.index t0_0 (1 : Fin 2) * 784 + 1 * (y 1).val = (y 1).val; rw [idx15 1]; omega

/-- The array of window 15 when the region is entered: the vector `main_arg11` as one row. -/
theorem V_v22 (c : Dev nD) : @Eq (FVec Ideal S1x784 .f32) (V m c main_call0_v22)
    (shapeCast S1x784 (show FVec Ideal S784 .f32 from m ((c : Thread nD τ).loc main_arg11)) shapeCasts_S784_S1x784) := by
  dsimp only [Gen.V, Gen.hostOps0]; after_results; rfl

/-- Window 15's block at column j is `main_arg11` at j. -/
theorem blk15_apply (c : Dev nD) (j : Fin 784) : iblk m c 15 t0_0 (ix2 (0 : Fin 1) j) = (m ((c : Thread nD τ).loc main_arg11)) (ix1 j) := by
  rw [blk15_arr, V_v22]
  exact shapeCast_a_1a_apply _ shapeCasts_S784_S1x784 0 j

/-! ## Window 16 -/

/-- Window 16's block index at the one grid point is zero on both axes. -/
theorem idx16 : ∀ a : Fin 2, win0_16.index t0_0 a = 0 := by decide

/-- Window 16's one block is the whole of its [1, 784] array. -/
theorem blk16_arr (c : Dev nD) (y : S1x784.Idx) : iblk m c 16 t0_0 y = V m c main_call0_v23 y := by
  show V m c main_call0_v23 (((cfg0.win 16).blk t0_0).view.emb y) = V m c main_call0_v23 y
  refine congrArg _ (funext fun a => Fin.ext ?_)
  match a with
  | ⟨0, _⟩ => show win0_16.index t0_0 (0 : Fin 2) * 1 + 1 * (y 0).val = (y 0).val; rw [idx16 0]; omega
  | ⟨1, _⟩ => show win0_16.index t0_0 (1 : Fin 2) * 784 + 1 * (y 1).val = (y 1).val; rw [idx16 1]; omega

/-- The array of window 16 when the region is entered: the vector `main_arg12` as one row. -/
theorem V_v23 (c : Dev nD) : @Eq (FVec Ideal S1x784 .f32) (V m c main_call0_v23)
    (shapeCast S1x784 (show FVec Ideal S784 .f32 from m ((c : Thread nD τ).loc main_arg12)) shapeCasts_S784_S1x784) := by
  dsimp only [Gen.V, Gen.hostOps0]; after_results; rfl

/-- Window 16's block at column j is `main_arg12` at j. -/
theorem blk16_apply (c : Dev nD) (j : Fin 784) : iblk m c 16 t0_0 (ix2 (0 : Fin 1) j) = (m ((c : Thread nD τ).loc main_arg12)) (ix1 j) := by
  rw [blk16_arr, V_v23]
  exact shapeCast_a_1a_apply _ shapeCasts_S784_S1x784 0 j

end Cert.Proof.KI

end
-- ==== Proof.KValue.lean ====
/-
  The kernel program's result is the network, normalisation as scale and shift, of the argument arrays.

  Each window's block is its whole array, and the host operations before the region leave in the arrays the weights
  (their format changed, which at the extended reals is the identity), the column sums of the weights' squares, and
  the scale and shift vectors as rows. So layer by layer the pre-activation the body computes from the staged blocks
  is `euclid` of the previous layer's normalised, rectified output and that layer's weights, and the result array is the
  logistic function of the last normalisation.
-/
import proofs.«403897_j60078002536976_3_alg».proof.Proof.KSlab
import proofs.«403897_j60078002536976_3_alg».proof.Proof.KVal12
import proofs.«403897_j60078002536976_3_alg».proof.Proof.KVal34
import proofs.«403897_j60078002536976_3_alg».proof.Proof.KHost
import proofs.«403897_j60078002536976_3_alg».proof.Proof.Out

noncomputable section

namespace Cert.Proof.KI

open Cert.KernelIdeal Cert.KernelIdeal.Gen
open Idealize.ShloMosaic Idealize.ShloMosaic.TcCoe Idealize.ShloMosaic.ValueIdx Idealize.SL.Sem
open Cert.Spec Cert.Out

variable (m : (ℓ : Loc nD τ sig) → Buf (Elt Ideal) ℓ)

/-! ## The staged blocks are the arguments -/

theorem hostX (c : Dev nD) : m2 (iblk m c 0 t0_0) = m2 (m ((c : Thread nD τ).loc main_arg0)) := by
  funext p q; rw [m2_apply, m2_apply]; exact blk0_apply m c p q

theorem hostW1 (c : Dev nD) : m2 (iblk m c 1 t0_0) = m2 (m ((c : Thread nD τ).loc main_arg1)) := by
  funext p q; rw [m2_apply, m2_apply]; exact blk1_apply m c p q

theorem hostQ1 (c : Dev nD) : row (iblk m c 2 t0_0) = fun j => ∑ k : Fin 784, m2 (m ((c : Thread nD τ).loc main_arg1)) k j * m2 (m ((c : Thread nD τ).loc main_arg1)) k j := by
  funext j; rw [row_apply]; exact blk2_apply m c j

theorem hostG1 (c : Dev nD) : row (iblk m c 3 t0_0) = m1 (m ((c : Thread nD τ).loc main_arg2)) := by
  funext j; rw [row_apply, m1_apply]; exact blk3_apply m c j

theorem hostB1 (c : Dev nD) : row (iblk m c 4 t0_0) = m1 (m ((c : Thread nD τ).loc main_arg3)) := by
  funext j; rw [row_apply, m1_apply]; exact blk4_apply m c j

theorem hostW2 (c : Dev nD) : m2 (iblk m c 5 t0_0) = m2 (m ((c : Thread nD τ).loc main_arg4)) := by
  funext p q; rw [m2_apply, m2_apply]; exact blk5_apply m c p q

theorem hostQ2 (c : Dev nD) : row (iblk m c 6 t0_0) = fun j => ∑ k : Fin 392, m2 (m ((c : Thread nD τ).loc main_arg4)) k j * m2 (m ((c : Thread nD τ).loc main_arg4)) k j := by
  funext j; rw [row_apply]; exact blk6_apply m c j

theorem hostG2 (c : Dev nD) : row (iblk m c 7 t0_0) = m1 (m ((c : Thread nD τ).loc main_arg5)) := by
  funext j; rw [row_apply, m1_apply]; exact blk7_apply m c j

theorem hostB2 (c : Dev nD) : row (iblk m c 8 t0_0) = m1 (m ((c : Thread nD τ).loc main_arg6)) := by
  funext j; rw [row_apply, m1_apply]; exact blk8_apply m c j

theorem hostW3 (c : Dev nD) : m2 (iblk m c 9 t0_0) = m2 (m ((c : Thread nD τ).loc main_arg7)) := by
  funext p q; rw [m2_apply, m2_apply]; exact blk9_apply m c p q

theorem hostQ3 (c : Dev nD) : row (iblk m c 10 t0_0) = fun j => ∑ k : Fin 8, m2 (m ((c : Thread nD τ).loc main_arg7)) k j * m2 (m ((c : Thread nD τ).loc main_arg7)) k j := by
  funext j; rw [row_apply]; exact blk10_apply m c j

theorem hostG3 (c : Dev nD) : row (iblk m c 11 t0_0) = m1 (m ((c : Thread nD τ).loc main_arg8)) := by
  funext j; rw [row_apply, m1_apply]; exact blk11_apply m c j

theorem hostB3 (c : Dev nD) : row (iblk m c 12 t0_0) = m1 (m ((c : Thread nD τ).loc main_arg9)) := by
  funext j; rw [row_apply, m1_apply]; exact blk12_apply m c j

theorem hostW4 (c : Dev nD) : m2 (iblk m c 13 t0_0) = m2 (m ((c : Thread nD τ).loc main_arg10)) := by
  funext p q; rw [m2_apply, m2_apply]; exact blk13_apply m c p q

theorem hostQ4 (c : Dev nD) : row (iblk m c 14 t0_0) = fun j => ∑ k : Fin 392, m2 (m ((c : Thread nD τ).loc main_arg10)) k j * m2 (m ((c : Thread nD τ).loc main_arg10)) k j := by
  funext j; rw [row_apply]; exact blk14_apply m c j

theorem hostG4 (c : Dev nD) : row (iblk m c 15 t0_0) = m1 (m ((c : Thread nD τ).loc main_arg11)) := by
  funext j; rw [row_apply, m1_apply]; exact blk15_apply m c j

theorem hostB4 (c : Dev nD) : row (iblk m c 16 t0_0) = m1 (m ((c : Thread nD τ).loc main_arg12)) := by
  funext j; rw [row_apply, m1_apply]; exact blk16_apply m c j

/-! ## Layer by layer -/

/-- Layer 1's pre-activation is the layer of the batch and the first weights. -/
theorem pre1 (c : Dev nD) : m2 (h1 (iblk m c 0 t0_0) (iblk m c 1 t0_0) (iblk m c 2 t0_0)) = euclid (m2 (m ((c : Thread nD τ).loc main_arg0))) (m2 (m ((c : Thread nD τ).loc main_arg1))) := by
  funext r j
  rw [m2_apply, h1_apply, hostX, hostW1, hostQ1, euclidW_colsq]

/-- Layer 2's pre-activation is the layer of the normalised, rectified layer 1 and the weights of layer 2. -/
theorem pre2 (c : Dev nD) : m2 (h2 (iblk m c 0 t0_0) (iblk m c 1 t0_0) (iblk m c 2 t0_0) (iblk m c 3 t0_0) (iblk m c 4 t0_0) (iblk m c 5 t0_0) (iblk m c 6 t0_0)) = euclid (relu (bnK (euclid (m2 (m ((c : Thread nD τ).loc main_arg0))) (m2 (m ((c : Thread nD τ).loc main_arg1)))) (m1 (m ((c : Thread nD τ).loc main_arg2))) (m1 (m ((c : Thread nD τ).loc main_arg3))))) (m2 (m ((c : Thread nD τ).loc main_arg4))) := by
  funext r j
  rw [m2_apply, h2_apply, pre1, hostG1, hostB1, hostW2, hostQ2, euclidW_colsq]

/-- Layer 3's pre-activation is the layer of the normalised, rectified layer 2 and the weights of layer 3. -/
theorem pre3 (c : Dev nD) : m2 (h3 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) = euclid (relu (bnK (euclid (relu (bnK (euclid (m2 (m ((c : Thread nD τ).loc main_arg0))) (m2 (m ((c : Thread nD τ).loc main_arg1)))) (m1 (m ((c : Thread nD τ).loc main_arg2))) (m1 (m ((c : Thread nD τ).loc main_arg3))))) (m2 (m ((c : Thread nD τ).loc main_arg4)))) (m1 (m ((c : Thread nD τ).loc main_arg5))) (m1 (m ((c : Thread nD τ).loc main_arg6))))) (m2 (m ((c : Thread nD τ).loc main_arg7))) := by
  funext r j
  rw [m2_apply, h3_apply, pre2, hostG2, hostB2, hostW3, hostQ3, euclidW_colsq]

/-- Layer 4's pre-activation is the layer of the normalised, rectified layer 3 and the weights of layer 4. -/
theorem pre4 (c : Dev nD) : m2 (h4 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0)) = euclid (relu (bnK (euclid (relu (bnK (euclid (relu (bnK (euclid (m2 (m ((c : Thread nD τ).loc main_arg0))) (m2 (m ((c : Thread nD τ).loc main_arg1)))) (m1 (m ((c : Thread nD τ).loc main_arg2))) (m1 (m ((c : Thread nD τ).loc main_arg3))))) (m2 (m ((c : Thread nD τ).loc main_arg4)))) (m1 (m ((c : Thread nD τ).loc main_arg5))) (m1 (m ((c : Thread nD τ).loc main_arg6))))) (m2 (m ((c : Thread nD τ).loc main_arg7)))) (m1 (m ((c : Thread nD τ).loc main_arg8))) (m1 (m ((c : Thread nD τ).loc main_arg9))))) (m2 (m ((c : Thread nD τ).loc main_arg10))) := by
  funext r j
  rw [m2_apply, h4_apply, pre3, hostG3, hostB3, hostW4, hostQ4, euclidW_colsq]

/-- The result array is the network at the thirteen argument arrays. -/
theorem written_eq (c : Dev nD) :
    (written (F := Ideal) m c : S1024x784.Idx → EReal)
      = OutK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨r, q, rfl⟩ : ∃ (r : Fin 1024) (q : Fin 784), i = ix2 r q := ⟨i 0, i 1, eq_ix2 i⟩
  rw [written_apply, OutK_apply]
  unfold lastLayer NetK
  rw [pre4, hostG4, hostB4]

end Cert.Proof.KI

end
-- ==== Proof.RefOps0.lean ====
/- The reference program's @main as a LIST of its 269 host operations, in order: each statement of the printed windows
   `main_part0`, `main_part1`, `main_part2` is one operation, and a call of an outlined function stands for the function's
   statements in the call's place — over the caller's operands for its arguments and over the call's own buffer record for
   its values, a call inside it again so. The list is written in chunks (each at most 48 operations, cut only between a
   window's stretches of statements and calls); `ops` is their concatenation. -/
import proofs.«403897_j60078002536976_3_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Operations 1 … 47 of 269 (in window `main_part0`). -/
abbrev ops0 : List (HloOp τ sig (Elt F)) :=
  [ binary main_arg0 main_arg0 main_v0 (mulf : (⟨S1024x784, .f32⟩ : BufTy).Contents (Elt F) → (⟨S1024x784, .f32⟩ : BufTy).Contents (Elt F) → (⟨S1024x784, .f32⟩ : BufTy).Contents (Elt F)),  -- %0 = stablehlo.multiply
    nullary main_cst (constant S_ .f32 0x00000000#32),  -- %cst = stablehlo.constant
    binary main_v0 main_cst main_v1 ((fun x v => Host.reduceAdd x v reducesTo_S1024x784_S1024_d1 h_S_) : (⟨S1024x784, .f32⟩ : BufTy).Contents (Elt F) → (⟨S_, .f32⟩ : BufTy).Contents (Elt F) → (⟨S1024, .f32⟩ : BufTy).Contents (Elt F)),  -- %1 = stablehlo.reduce
    unary main_v1 main_v2 (broadcastInDim S1024x1 ![0] bcast_S1024_S1024x1_0 : (⟨S1024, .f32⟩ : BufTy).Contents (Elt F) → (⟨S1024x1, .f32⟩ : BufTy).Contents (Elt F)),  -- %2 = stablehlo.broadcast_in_dim
    binary main_arg1 main_arg1 main_v3 (mulf : (⟨S784x392, .f32⟩ : BufTy).Contents (Elt F) → (⟨S784x392, .f32⟩ : BufTy).Contents (Elt F) → (⟨S784x392, .f32⟩ : BufTy).Contents (Elt F)),  -- %3 = stablehlo.multiply
    nullary main_cst_0 (constant S_ .f32 0x00000000#32),  -- %cst_0 = stablehlo.constant
    binary main_v3 main_cst_0 main_v4 ((fun x v => Host.reduceAdd x v reducesTo_S784x392_S392_d0 h_S_) : (⟨S784x392, .f32⟩ : BufTy).Contents (Elt F) → (⟨S_, .f32⟩ : BufTy).Contents (Elt F) → (⟨S392, .f32⟩ : BufTy).Contents (Elt F)),  -- %4 = stablehlo.reduce
    binary main_arg0 main_arg1 main_v5 ((fun l r => Host.dotGeneral dot_S1024x784_S784x392_S1024x392_1_0_0_1_n_n none l r) : (⟨S1024x784, .f32⟩ : BufTy).Contents (Elt F) → (⟨S784x392, .f32⟩ : BufTy).Contents (Elt F) → (⟨S1024x392, .f32⟩ : BufTy).Contents (Elt F)),  -- %5 = stablehlo.dot_general
    nullary main_cst_1 (constant S_ .f32 0x40000000#32),  -- %cst_1 = stablehlo.constant
    unary main_cst_1 main_v6 (broadcastInDim S1024x392 ![] bcast_S_S1024x392 : (⟨S_, .f32⟩ : BufTy).Contents (Elt F) → (⟨S1024x392, .f32⟩ : BufTy).Contents (Elt F)),  -- %6 = stablehlo.broadcast_in_dim
    binary main_v6 main_v5 main_v7 (mulf : (⟨S1024x392, .f32⟩ : BufTy).Contents (Elt F) → (⟨S1024x392, .f32⟩ : BufTy).Contents (Elt F) → (⟨S1024x392, .f32⟩ : BufTy).Contents (Elt F)),  -- %7 = stablehlo.multiply
    unary main_v2 main_v8 (broadcastInDim S1024x392 ![0, 1] bcast_S1024x1_S1024x392_0_1 : (⟨S1024x1, .f32⟩ : BufTy).Contents (Elt F) → (⟨S1024x392, .f32⟩ : BufTy).Contents (Elt F)),  -- %8 = stablehlo.broadcast_in_dim
    binary main_v8 main_v7 main_v9 (subf : (⟨S1024x392, .f32⟩ : BufTy).Contents (Elt F) → (⟨S1024x392, .f32⟩ : BufTy).Contents (Elt F) → (⟨S1024x392, .f32⟩ : BufTy).Contents (Elt F)),  -- %9 = stablehlo.subtract
    unary main_v4 main_v10 (broadcastInDim S1x392 ![1] bcast_S392_S1x392_1 : (⟨S392, .f32⟩ : BufTy).Contents (Elt F) → (⟨S1x392, .f32⟩ : BufTy).Contents (Elt F)),  -- %10 = stablehlo.broadcast_in_dim
    unary main_v10 main_v11 (broadcastInDim S1024x392 ![0, 1] bcast_S1x392_S1024x392_0_1 : (⟨S1x392, .f32⟩ : BufTy).Contents (Elt F) → (⟨S1024x392, .f32⟩ : BufTy).Contents (Elt F)),  -- %11 = stablehlo.broadcast_in_dim
    binary main_v9 main_v11 main_v12 (addf : (⟨S1024x392, .f32⟩ : BufTy).Contents (Elt F) → (⟨S1024x392, .f32⟩ : BufTy).Contents (Elt F) → (⟨S1024x392, .f32⟩ : BufTy).Contents (Elt F)),  -- %12 = stablehlo.add
    nullary main_cst_2 (constant S_ .f32 0xBF000000#32),  -- %cst_2 = stablehlo.constant
    unary main_cst_2 main_v13 (broadcastInDim S1024x392 ![] bcast_S_S1024x392 : (⟨S_, .f32⟩ : BufTy).Contents (Elt F) → (⟨S1024x392, .f32⟩ : BufTy).Contents (Elt F)),  -- %13 = stablehlo.broadcast_in_dim
    binary main_v13 main_v12 main_v14 (mulf : (⟨S1024x392, .f32⟩ : BufTy).Contents (Elt F) → (⟨S1024x392, .f32⟩ : BufTy).Contents (Elt F) → (⟨S1024x392, .f32⟩ : BufTy).Contents (Elt F)),  -- %14 = stablehlo.multiply
    nullary main_cst_3 (constant S_ .f32 0x00000000#32),  -- %cst_3 = stablehlo.constant
    binary main_v14 main_cst_3 main_v15 ((fun x v => Host.reduceAdd x v reducesTo_S1024x392_S392_d0 h_S_) : (⟨S1024x392, .f32⟩ : BufTy).Contents (Elt F) → (⟨S_, .f32⟩ : BufTy).Contents (Elt F) → (⟨S392, .f32⟩ : BufTy).Contents (Elt F)),  -- %15 = stablehlo.reduce
    nullary main_cst_4 (constant S_ .f32 0x44800000#32),  -- %cst_4 = stablehlo.constant
    unary main_cst_4 main_v16 (broadcastInDim S392 ![] bcast_S_S392 : (⟨S_, .f32⟩ : BufTy).Contents (Elt F) → (⟨S392, .f32⟩ : BufTy).Contents (Elt F)),  -- %16 = stablehlo.broadcast_in_dim
    binary main_v15 main_v16 main_v17 (Host.divf : (⟨S392, .f32⟩ : BufTy).Contents (Elt F) → (⟨S392, .f32⟩ : BufTy).Contents (Elt F) → (⟨S392, .f32⟩ : BufTy).Contents (Elt F)),  -- %17 = stablehlo.divide
    nullary main_c (constantI S_ 32 0#32),  -- %c = stablehlo.constant
    TRef.nullary main_call0.cst (constant S_ .f32 0x00000000#32),  -- in @_var: %cst = stablehlo.constant
    TRef.binary (.of main_v14 : TRef sig ⟨S1024x392, .f32⟩) main_call0.cst main_call0.v0 (fun x v => Host.reduceAdd x v reducesTo_S1024x392_S392_d0 h_S_),  -- in @_var: %0 = stablehlo.reduce
    TRef.unary main_call0.v0 main_call0.v1 (broadcastInDim S1x392 ![1] bcast_S392_S1x392_1),  -- in @_var: %1 = stablehlo.broadcast_in_dim
    TRef.nullary main_call0.cst_0 (constant S_ .f32 0x44800000#32),  -- in @_var: %cst_0 = stablehlo.constant
    TRef.unary main_call0.cst_0 main_call0.v2 (broadcastInDim S1x392 ![] bcast_S_S1x392),  -- in @_var: %2 = stablehlo.broadcast_in_dim
    TRef.binary main_call0.v1 main_call0.v2 main_call0.v3 Host.divf,  -- in @_var: %3 = stablehlo.divide
    TRef.unary main_call0.v3 main_call0.v4 (broadcastInDim S1024x392 ![0, 1] bcast_S1x392_S1024x392_0_1),  -- in @_var: %4 = stablehlo.broadcast_in_dim
    TRef.binary (.of main_v14 : TRef sig ⟨S1024x392, .f32⟩) main_call0.v4 main_call0.v5 subf,  -- in @_var: %5 = stablehlo.subtract
    TRef.binary main_call0.v5 main_call0.v5 main_call0.v6 mulf,  -- in @_var: %6 = chlo.square
    TRef.unary (.of main_c : TRef sig ⟨S_, .i32⟩) main_call0.v7 (sitofp .f32),  -- in @_var: %7 = stablehlo.convert
    TRef.nullary main_call0.cst_1 (constant S_ .f32 0x44800000#32),  -- in @_var: %cst_1 = stablehlo.constant
    TRef.binary main_call0.cst_1 main_call0.v7 main_call0.v8 subf,  -- in @_var: %8 = stablehlo.subtract
    TRef.nullary main_call0.cst_2 (constant S_ .f32 0x00000000#32),  -- in @_var: %cst_2 = stablehlo.constant
    TRef.binary main_call0.v6 main_call0.cst_2 main_call0.v9 (fun x v => Host.reduceAdd x v reducesTo_S1024x392_S392_d0 h_S_),  -- in @_var: %9 = stablehlo.reduce
    TRef.unary main_call0.v8 main_call0.v10 (broadcastInDim S392 ![] bcast_S_S392),  -- in @_var: %10 = stablehlo.broadcast_in_dim
    TRef.binary main_call0.v9 main_call0.v10 main_call0.v11 Host.divf,  -- in @_var: %11 = stablehlo.divide
    TRef.nullary main_call0.cst_3 (constant S_ .f32 0x00000000#32),  -- in @_var: %cst_3 = stablehlo.constant
    TRef.binary main_call0.v8 main_call0.cst_3 main_call0.v12 (cmpf .ogt),  -- in @_var: %12 = stablehlo.compare
    TRef.nullary main_call0.cst_4 (constant S_ .f32 0x7FC00000#32),  -- in @_var: %cst_4 = stablehlo.constant
    TRef.unary main_call0.cst_4 main_call0.call0.v0 id,  -- in @_var → @_where: %0 = stablehlo.convert
    TRef.unary main_call0.call0.v0 main_call0.call0.v1 (broadcastInDim S392 ![] bcast_S_S392),  -- in @_var → @_where: %1 = stablehlo.broadcast_in_dim
    TRef.ternary main_call0.v12 main_call0.v11 main_call0.call0.v1 main_call0.call0.v2 (fun p a b => select (broadcastInDim S392 ![] bcast_S_S392 p) a b) ]  -- in @_var → @_where: %2 = stablehlo.select

/-- Operations 48 … 83 of 269 (in window `main_part0`). -/
abbrev ops1 : List (HloOp τ sig (Elt F)) :=
  [ unary main_v17 main_v19 (broadcastInDim S1x392 ![1] bcast_S392_S1x392_1 : (⟨S392, .f32⟩ : BufTy).Contents (Elt F) → (⟨S1x392, .f32⟩ : BufTy).Contents (Elt F)),  -- %19 = stablehlo.broadcast_in_dim
    unary main_v19 main_v20 (broadcastInDim S1024x392 ![0, 1] bcast_S1x392_S1024x392_0_1 : (⟨S1x392, .f32⟩ : BufTy).Contents (Elt F) → (⟨S1024x392, .f32⟩ : BufTy).Contents (Elt F)),  -- %20 = stablehlo.broadcast_in_dim
    binary main_v14 main_v20 main_v21 (subf : (⟨S1024x392, .f32⟩ : BufTy).Contents (Elt F) → (⟨S1024x392, .f32⟩ : BufTy).Contents (Elt F) → (⟨S1024x392, .f32⟩ : BufTy).Contents (Elt F)),  -- %21 = stablehlo.subtract
    unary main_arg2 main_v22 (broadcastInDim S1x392 ![1] bcast_S392_S1x392_1 : (⟨S392, .f32⟩ : BufTy).Contents (Elt F) → (⟨S1x392, .f32⟩ : BufTy).Contents (Elt F)),  -- %22 = stablehlo.broadcast_in_dim
    unary main_v22 main_v23 (broadcastInDim S1024x392 ![0, 1] bcast_S1x392_S1024x392_0_1 : (⟨S1x392, .f32⟩ : BufTy).Contents (Elt F) → (⟨S1024x392, .f32⟩ : BufTy).Contents (Elt F)),  -- %23 = stablehlo.broadcast_in_dim
    binary main_v23 main_v21 main_v24 (mulf : (⟨S1024x392, .f32⟩ : BufTy).Contents (Elt F) → (⟨S1024x392, .f32⟩ : BufTy).Contents (Elt F) → (⟨S1024x392, .f32⟩ : BufTy).Contents (Elt F)),  -- %24 = stablehlo.multiply
    nullary main_cst_5 (constant S_ .f32 0x3727C5AC#32),  -- %cst_5 = stablehlo.constant
    unary main_cst_5 main_v25 (broadcastInDim S392 ![] bcast_S_S392 : (⟨S_, .f32⟩ : BufTy).Contents (Elt F) → (⟨S392, .f32⟩ : BufTy).Contents (Elt F)),  -- %25 = stablehlo.broadcast_in_dim
    binary main_v18 main_v25 main_v26 (addf : (⟨S392, .f32⟩ : BufTy).Contents (Elt F) → (⟨S392, .f32⟩ : BufTy).Contents (Elt F) → (⟨S392, .f32⟩ : BufTy).Contents (Elt F)),  -- %26 = stablehlo.add
    unary main_v26 main_v27 (Host.sqrt : (⟨S392, .f32⟩ : BufTy).Contents (Elt F) → (⟨S392, .f32⟩ : BufTy).Contents (Elt F)),  -- %27 = stablehlo.sqrt
    unary main_v27 main_v28 (broadcastInDim S1x392 ![1] bcast_S392_S1x392_1 : (⟨S392, .f32⟩ : BufTy).Contents (Elt F) → (⟨S1x392, .f32⟩ : BufTy).Contents (Elt F)),  -- %28 = stablehlo.broadcast_in_dim
    unary main_v28 main_v29 (broadcastInDim S1024x392 ![0, 1] bcast_S1x392_S1024x392_0_1 : (⟨S1x392, .f32⟩ : BufTy).Contents (Elt F) → (⟨S1024x392, .f32⟩ : BufTy).Contents (Elt F)),  -- %29 = stablehlo.broadcast_in_dim
    binary main_v24 main_v29 main_v30 (Host.divf : (⟨S1024x392, .f32⟩ : BufTy).Contents (Elt F) → (⟨S1024x392, .f32⟩ : BufTy).Contents (Elt F) → (⟨S1024x392, .f32⟩ : BufTy).Contents (Elt F)),  -- %30 = stablehlo.divide
    unary main_arg3 main_v31 (broadcastInDim S1x392 ![1] bcast_S392_S1x392_1 : (⟨S392, .f32⟩ : BufTy).Contents (Elt F) → (⟨S1x392, .f32⟩ : BufTy).Contents (Elt F)),  -- %31 = stablehlo.broadcast_in_dim
    unary main_v31 main_v32 (broadcastInDim S1024x392 ![0, 1] bcast_S1x392_S1024x392_0_1 : (⟨S1x392, .f32⟩ : BufTy).Contents (Elt F) → (⟨S1024x392, .f32⟩ : BufTy).Contents (Elt F)),  -- %32 = stablehlo.broadcast_in_dim
    binary main_v30 main_v32 main_v33 (addf : (⟨S1024x392, .f32⟩ : BufTy).Contents (Elt F) → (⟨S1024x392, .f32⟩ : BufTy).Contents (Elt F) → (⟨S1024x392, .f32⟩ : BufTy).Contents (Elt F)),  -- %33 = stablehlo.add
    TRef.nullary main_call1.cst (constant S_ .f32 0x00000000#32),  -- in @_relu: %cst = stablehlo.constant
    TRef.unary main_call1.cst main_call1.v0 (broadcastInDim S1024x392 ![] bcast_S_S1024x392),  -- in @_relu: %0 = stablehlo.broadcast_in_dim
    TRef.binary (.of main_v33 : TRef sig ⟨S1024x392, .f32⟩) main_call1.v0 main_call1.v1 maximumf,  -- in @_relu: %1 = stablehlo.maximum
    binary main_v34 main_v34 main_v35 (mulf : (⟨S1024x392, .f32⟩ : BufTy).Contents (Elt F) → (⟨S1024x392, .f32⟩ : BufTy).Contents (Elt F) → (⟨S1024x392, .f32⟩ : BufTy).Contents (Elt F)),  -- %35 = stablehlo.multiply
    nullary main_cst_6 (constant S_ .f32 0x00000000#32),  -- %cst_6 = stablehlo.constant
    binary main_v35 main_cst_6 main_v36 ((fun x v => Host.reduceAdd x v reducesTo_S1024x392_S1024_d1 h_S_) : (⟨S1024x392, .f32⟩ : BufTy).Contents (Elt F) → (⟨S_, .f32⟩ : BufTy).Contents (Elt F) → (⟨S1024, .f32⟩ : BufTy).Contents (Elt F)),  -- %36 = stablehlo.reduce
    unary main_v36 main_v37 (broadcastInDim S1024x1 ![0] bcast_S1024_S1024x1_0 : (⟨S1024, .f32⟩ : BufTy).Contents (Elt F) → (⟨S1024x1, .f32⟩ : BufTy).Contents (Elt F)),  -- %37 = stablehlo.broadcast_in_dim
    binary main_arg4 main_arg4 main_v38 (mulf : (⟨S392x8, .f32⟩ : BufTy).Contents (Elt F) → (⟨S392x8, .f32⟩ : BufTy).Contents (Elt F) → (⟨S392x8, .f32⟩ : BufTy).Contents (Elt F)),  -- %38 = stablehlo.multiply
    nullary main_cst_7 (constant S_ .f32 0x00000000#32),  -- %cst_7 = stablehlo.constant
    binary main_v38 main_cst_7 main_v39 ((fun x v => Host.reduceAdd x v reducesTo_S392x8_S8_d0 h_S_) : (⟨S392x8, .f32⟩ : BufTy).Contents (Elt F) → (⟨S_, .f32⟩ : BufTy).Contents (Elt F) → (⟨S8, .f32⟩ : BufTy).Contents (Elt F)),  -- %39 = stablehlo.reduce
    binary main_v34 main_arg4 main_v40 ((fun l r => Host.dotGeneral dot_S1024x392_S392x8_S1024x8_1_0_0_1_n_n none l r) : (⟨S1024x392, .f32⟩ : BufTy).Contents (Elt F) → (⟨S392x8, .f32⟩ : BufTy).Contents (Elt F) → (⟨S1024x8, .f32⟩ : BufTy).Contents (Elt F)),  -- %40 = stablehlo.dot_general
    nullary main_cst_8 (constant S_ .f32 0x40000000#32),  -- %cst_8 = stablehlo.constant
    unary main_cst_8 main_v41 (broadcastInDim S1024x8 ![] bcast_S_S1024x8 : (⟨S_, .f32⟩ : BufTy).Contents (Elt F) → (⟨S1024x8, .f32⟩ : BufTy).Contents (Elt F)),  -- %41 = stablehlo.broadcast_in_dim
    binary main_v41 main_v40 main_v42 (mulf : (⟨S1024x8, .f32⟩ : BufTy).Contents (Elt F) → (⟨S1024x8, .f32⟩ : BufTy).Contents (Elt F) → (⟨S1024x8, .f32⟩ : BufTy).Contents (Elt F)),  -- %42 = stablehlo.multiply
    unary main_v37 main_v43 (broadcastInDim S1024x8 ![0, 1] bcast_S1024x1_S1024x8_0_1 : (⟨S1024x1, .f32⟩ : BufTy).Contents (Elt F) → (⟨S1024x8, .f32⟩ : BufTy).Contents (Elt F)),  -- %43 = stablehlo.broadcast_in_dim
    binary main_v43 main_v42 main_v44 (subf : (⟨S1024x8, .f32⟩ : BufTy).Contents (Elt F) → (⟨S1024x8, .f32⟩ : BufTy).Contents (Elt F) → (⟨S1024x8, .f32⟩ : BufTy).Contents (Elt F)),  -- %44 = stablehlo.subtract
    unary main_v39 main_v45 (broadcastInDim S1x8 ![1] bcast_S8_S1x8_1 : (⟨S8, .f32⟩ : BufTy).Contents (Elt F) → (⟨S1x8, .f32⟩ : BufTy).Contents (Elt F)),  -- %45 = stablehlo.broadcast_in_dim
    unary main_v45 main_v46 (broadcastInDim S1024x8 ![0, 1] bcast_S1x8_S1024x8_0_1 : (⟨S1x8, .f32⟩ : BufTy).Contents (Elt F) → (⟨S1024x8, .f32⟩ : BufTy).Contents (Elt F)),  -- %46 = stablehlo.broadcast_in_dim
    binary main_v44 main_v46 main_v47 (addf : (⟨S1024x8, .f32⟩ : BufTy).Contents (Elt F) → (⟨S1024x8, .f32⟩ : BufTy).Contents (Elt F) → (⟨S1024x8, .f32⟩ : BufTy).Contents (Elt F)),  -- %47 = stablehlo.add
    nullary main_cst_9 (constant S_ .f32 0xBF000000#32) ]  -- %cst_9 = stablehlo.constant

/-- Operations 84 … 129 of 269 (in window `main_part1`). -/
abbrev ops2 : List (HloOp τ sig (Elt F)) :=
  [ unary main_cst_9 main_v48 (broadcastInDim S1024x8 ![] bcast_S_S1024x8 : (⟨S_, .f32⟩ : BufTy).Contents (Elt F) → (⟨S1024x8, .f32⟩ : BufTy).Contents (Elt F)),  -- %48 = stablehlo.broadcast_in_dim
    binary main_v48 main_v47 main_v49 (mulf : (⟨S1024x8, .f32⟩ : BufTy).Contents (Elt F) → (⟨S1024x8, .f32⟩ : BufTy).Contents (Elt F) → (⟨S1024x8, .f32⟩ : BufTy).Contents (Elt F)),  -- %49 = stablehlo.multiply
    nullary main_cst_10 (constant S_ .f32 0x00000000#32),  -- %cst_10 = stablehlo.constant
    binary main_v49 main_cst_10 main_v50 ((fun x v => Host.reduceAdd x v reducesTo_S1024x8_S8_d0 h_S_) : (⟨S1024x8, .f32⟩ : BufTy).Contents (Elt F) → (⟨S_, .f32⟩ : BufTy).Contents (Elt F) → (⟨S8, .f32⟩ : BufTy).Contents (Elt F)),  -- %50 = stablehlo.reduce
    nullary main_cst_11 (constant S_ .f32 0x44800000#32),  -- %cst_11 = stablehlo.constant
    unary main_cst_11 main_v51 (broadcastInDim S8 ![] bcast_S_S8 : (⟨S_, .f32⟩ : BufTy).Contents (Elt F) → (⟨S8, .f32⟩ : BufTy).Contents (Elt F)),  -- %51 = stablehlo.broadcast_in_dim
    binary main_v50 main_v51 main_v52 (Host.divf : (⟨S8, .f32⟩ : BufTy).Contents (Elt F) → (⟨S8, .f32⟩ : BufTy).Contents (Elt F) → (⟨S8, .f32⟩ : BufTy).Contents (Elt F)),  -- %52 = stablehlo.divide
    nullary main_c_12 (constantI S_ 32 0#32),  -- %c_12 = stablehlo.constant
    TRef.nullary main_call2.cst (constant S_ .f32 0x00000000#32),  -- in @_var_0: %cst = stablehlo.constant
    TRef.binary (.of main_v49 : TRef sig ⟨S1024x8, .f32⟩) main_call2.cst main_call2.v0 (fun x v => Host.reduceAdd x v reducesTo_S1024x8_S8_d0 h_S_),  -- in @_var_0: %0 = stablehlo.reduce
    TRef.unary main_call2.v0 main_call2.v1 (broadcastInDim S1x8 ![1] bcast_S8_S1x8_1),  -- in @_var_0: %1 = stablehlo.broadcast_in_dim
    TRef.nullary main_call2.cst_0 (constant S_ .f32 0x44800000#32),  -- in @_var_0: %cst_0 = stablehlo.constant
    TRef.unary main_call2.cst_0 main_call2.v2 (broadcastInDim S1x8 ![] bcast_S_S1x8),  -- in @_var_0: %2 = stablehlo.broadcast_in_dim
    TRef.binary main_call2.v1 main_call2.v2 main_call2.v3 Host.divf,  -- in @_var_0: %3 = stablehlo.divide
    TRef.unary main_call2.v3 main_call2.v4 (broadcastInDim S1024x8 ![0, 1] bcast_S1x8_S1024x8_0_1),  -- in @_var_0: %4 = stablehlo.broadcast_in_dim
    TRef.binary (.of main_v49 : TRef sig ⟨S1024x8, .f32⟩) main_call2.v4 main_call2.v5 subf,  -- in @_var_0: %5 = stablehlo.subtract
    TRef.binary main_call2.v5 main_call2.v5 main_call2.v6 mulf,  -- in @_var_0: %6 = chlo.square
    TRef.unary (.of main_c_12 : TRef sig ⟨S_, .i32⟩) main_call2.v7 (sitofp .f32),  -- in @_var_0: %7 = stablehlo.convert
    TRef.nullary main_call2.cst_1 (constant S_ .f32 0x44800000#32),  -- in @_var_0: %cst_1 = stablehlo.constant
    TRef.binary main_call2.cst_1 main_call2.v7 main_call2.v8 subf,  -- in @_var_0: %8 = stablehlo.subtract
    TRef.nullary main_call2.cst_2 (constant S_ .f32 0x00000000#32),  -- in @_var_0: %cst_2 = stablehlo.constant
    TRef.binary main_call2.v6 main_call2.cst_2 main_call2.v9 (fun x v => Host.reduceAdd x v reducesTo_S1024x8_S8_d0 h_S_),  -- in @_var_0: %9 = stablehlo.reduce
    TRef.unary main_call2.v8 main_call2.v10 (broadcastInDim S8 ![] bcast_S_S8),  -- in @_var_0: %10 = stablehlo.broadcast_in_dim
    TRef.binary main_call2.v9 main_call2.v10 main_call2.v11 Host.divf,  -- in @_var_0: %11 = stablehlo.divide
    TRef.nullary main_call2.cst_3 (constant S_ .f32 0x00000000#32),  -- in @_var_0: %cst_3 = stablehlo.constant
    TRef.binary main_call2.v8 main_call2.cst_3 main_call2.v12 (cmpf .ogt),  -- in @_var_0: %12 = stablehlo.compare
    TRef.nullary main_call2.cst_4 (constant S_ .f32 0x7FC00000#32),  -- in @_var_0: %cst_4 = stablehlo.constant
    TRef.unary main_call2.cst_4 main_call2.call0.v0 id,  -- in @_var_0 → @_where_1: %0 = stablehlo.convert
    TRef.unary main_call2.call0.v0 main_call2.call0.v1 (broadcastInDim S8 ![] bcast_S_S8),  -- in @_var_0 → @_where_1: %1 = stablehlo.broadcast_in_dim
    TRef.ternary main_call2.v12 main_call2.v11 main_call2.call0.v1 main_call2.call0.v2 (fun p a b => select (broadcastInDim S8 ![] bcast_S_S8 p) a b),  -- in @_var_0 → @_where_1: %2 = stablehlo.select
    unary main_v52 main_v54 (broadcastInDim S1x8 ![1] bcast_S8_S1x8_1 : (⟨S8, .f32⟩ : BufTy).Contents (Elt F) → (⟨S1x8, .f32⟩ : BufTy).Contents (Elt F)),  -- %54 = stablehlo.broadcast_in_dim
    unary main_v54 main_v55 (broadcastInDim S1024x8 ![0, 1] bcast_S1x8_S1024x8_0_1 : (⟨S1x8, .f32⟩ : BufTy).Contents (Elt F) → (⟨S1024x8, .f32⟩ : BufTy).Contents (Elt F)),  -- %55 = stablehlo.broadcast_in_dim
    binary main_v49 main_v55 main_v56 (subf : (⟨S1024x8, .f32⟩ : BufTy).Contents (Elt F) → (⟨S1024x8, .f32⟩ : BufTy).Contents (Elt F) → (⟨S1024x8, .f32⟩ : BufTy).Contents (Elt F)),  -- %56 = stablehlo.subtract
    unary main_arg5 main_v57 (broadcastInDim S1x8 ![1] bcast_S8_S1x8_1 : (⟨S8, .f32⟩ : BufTy).Contents (Elt F) → (⟨S1x8, .f32⟩ : BufTy).Contents (Elt F)),  -- %57 = stablehlo.broadcast_in_dim
    unary main_v57 main_v58 (broadcastInDim S1024x8 ![0, 1] bcast_S1x8_S1024x8_0_1 : (⟨S1x8, .f32⟩ : BufTy).Contents (Elt F) → (⟨S1024x8, .f32⟩ : BufTy).Contents (Elt F)),  -- %58 = stablehlo.broadcast_in_dim
    binary main_v58 main_v56 main_v59 (mulf : (⟨S1024x8, .f32⟩ : BufTy).Contents (Elt F) → (⟨S1024x8, .f32⟩ : BufTy).Contents (Elt F) → (⟨S1024x8, .f32⟩ : BufTy).Contents (Elt F)),  -- %59 = stablehlo.multiply
    nullary main_cst_13 (constant S_ .f32 0x3727C5AC#32),  -- %cst_13 = stablehlo.constant
    unary main_cst_13 main_v60 (broadcastInDim S8 ![] bcast_S_S8 : (⟨S_, .f32⟩ : BufTy).Contents (Elt F) → (⟨S8, .f32⟩ : BufTy).Contents (Elt F)),  -- %60 = stablehlo.broadcast_in_dim
    binary main_v53 main_v60 main_v61 (addf : (⟨S8, .f32⟩ : BufTy).Contents (Elt F) → (⟨S8, .f32⟩ : BufTy).Contents (Elt F) → (⟨S8, .f32⟩ : BufTy).Contents (Elt F)),  -- %61 = stablehlo.add
    unary main_v61 main_v62 (Host.sqrt : (⟨S8, .f32⟩ : BufTy).Contents (Elt F) → (⟨S8, .f32⟩ : BufTy).Contents (Elt F)),  -- %62 = stablehlo.sqrt
    unary main_v62 main_v63 (broadcastInDim S1x8 ![1] bcast_S8_S1x8_1 : (⟨S8, .f32⟩ : BufTy).Contents (Elt F) → (⟨S1x8, .f32⟩ : BufTy).Contents (Elt F)),  -- %63 = stablehlo.broadcast_in_dim
    unary main_v63 main_v64 (broadcastInDim S1024x8 ![0, 1] bcast_S1x8_S1024x8_0_1 : (⟨S1x8, .f32⟩ : BufTy).Contents (Elt F) → (⟨S1024x8, .f32⟩ : BufTy).Contents (Elt F)),  -- %64 = stablehlo.broadcast_in_dim
    binary main_v59 main_v64 main_v65 (Host.divf : (⟨S1024x8, .f32⟩ : BufTy).Contents (Elt F) → (⟨S1024x8, .f32⟩ : BufTy).Contents (Elt F) → (⟨S1024x8, .f32⟩ : BufTy).Contents (Elt F)),  -- %65 = stablehlo.divide
    unary main_arg6 main_v66 (broadcastInDim S1x8 ![1] bcast_S8_S1x8_1 : (⟨S8, .f32⟩ : BufTy).Contents (Elt F) → (⟨S1x8, .f32⟩ : BufTy).Contents (Elt F)),  -- %66 = stablehlo.broadcast_in_dim
    unary main_v66 main_v67 (broadcastInDim S1024x8 ![0, 1] bcast_S1x8_S1024x8_0_1 : (⟨S1x8, .f32⟩ : BufTy).Contents (Elt F) → (⟨S1024x8, .f32⟩ : BufTy).Contents (Elt F)),  -- %67 = stablehlo.broadcast_in_dim
    binary main_v65 main_v67 main_v68 (addf : (⟨S1024x8, .f32⟩ : BufTy).Contents (Elt F) → (⟨S1024x8, .f32⟩ : BufTy).Contents (Elt F) → (⟨S1024x8, .f32⟩ : BufTy).Contents (Elt F)) ]  -- %68 = stablehlo.add

/-- Operations 130 … 157 of 269 (in window `main_part1`). -/
abbrev ops3 : List (HloOp τ sig (Elt F)) :=
  [ TRef.nullary main_call3.cst (constant S_ .f32 0x00000000#32),  -- in @_relu_2: %cst = stablehlo.constant
    TRef.unary main_call3.cst main_call3.v0 (broadcastInDim S1024x8 ![] bcast_S_S1024x8),  -- in @_relu_2: %0 = stablehlo.broadcast_in_dim
    TRef.binary (.of main_v68 : TRef sig ⟨S1024x8, .f32⟩) main_call3.v0 main_call3.v1 maximumf,  -- in @_relu_2: %1 = stablehlo.maximum
    binary main_v69 main_v69 main_v70 (mulf : (⟨S1024x8, .f32⟩ : BufTy).Contents (Elt F) → (⟨S1024x8, .f32⟩ : BufTy).Contents (Elt F) → (⟨S1024x8, .f32⟩ : BufTy).Contents (Elt F)),  -- %70 = stablehlo.multiply
    nullary main_cst_14 (constant S_ .f32 0x00000000#32),  -- %cst_14 = stablehlo.constant
    binary main_v70 main_cst_14 main_v71 ((fun x v => Host.reduceAdd x v reducesTo_S1024x8_S1024_d1 h_S_) : (⟨S1024x8, .f32⟩ : BufTy).Contents (Elt F) → (⟨S_, .f32⟩ : BufTy).Contents (Elt F) → (⟨S1024, .f32⟩ : BufTy).Contents (Elt F)),  -- %71 = stablehlo.reduce
    unary main_v71 main_v72 (broadcastInDim S1024x1 ![0] bcast_S1024_S1024x1_0 : (⟨S1024, .f32⟩ : BufTy).Contents (Elt F) → (⟨S1024x1, .f32⟩ : BufTy).Contents (Elt F)),  -- %72 = stablehlo.broadcast_in_dim
    binary main_arg7 main_arg7 main_v73 (mulf : (⟨S8x392, .f32⟩ : BufTy).Contents (Elt F) → (⟨S8x392, .f32⟩ : BufTy).Contents (Elt F) → (⟨S8x392, .f32⟩ : BufTy).Contents (Elt F)),  -- %73 = stablehlo.multiply
    nullary main_cst_15 (constant S_ .f32 0x00000000#32),  -- %cst_15 = stablehlo.constant
    binary main_v73 main_cst_15 main_v74 ((fun x v => Host.reduceAdd x v reducesTo_S8x392_S392_d0 h_S_) : (⟨S8x392, .f32⟩ : BufTy).Contents (Elt F) → (⟨S_, .f32⟩ : BufTy).Contents (Elt F) → (⟨S392, .f32⟩ : BufTy).Contents (Elt F)),  -- %74 = stablehlo.reduce
    binary main_v69 main_arg7 main_v75 ((fun l r => Host.dotGeneral dot_S1024x8_S8x392_S1024x392_1_0_0_1_n_n none l r) : (⟨S1024x8, .f32⟩ : BufTy).Contents (Elt F) → (⟨S8x392, .f32⟩ : BufTy).Contents (Elt F) → (⟨S1024x392, .f32⟩ : BufTy).Contents (Elt F)),  -- %75 = stablehlo.dot_general
    nullary main_cst_16 (constant S_ .f32 0x40000000#32),  -- %cst_16 = stablehlo.constant
    unary main_cst_16 main_v76 (broadcastInDim S1024x392 ![] bcast_S_S1024x392 : (⟨S_, .f32⟩ : BufTy).Contents (Elt F) → (⟨S1024x392, .f32⟩ : BufTy).Contents (Elt F)),  -- %76 = stablehlo.broadcast_in_dim
    binary main_v76 main_v75 main_v77 (mulf : (⟨S1024x392, .f32⟩ : BufTy).Contents (Elt F) → (⟨S1024x392, .f32⟩ : BufTy).Contents (Elt F) → (⟨S1024x392, .f32⟩ : BufTy).Contents (Elt F)),  -- %77 = stablehlo.multiply
    unary main_v72 main_v78 (broadcastInDim S1024x392 ![0, 1] bcast_S1024x1_S1024x392_0_1 : (⟨S1024x1, .f32⟩ : BufTy).Contents (Elt F) → (⟨S1024x392, .f32⟩ : BufTy).Contents (Elt F)),  -- %78 = stablehlo.broadcast_in_dim
    binary main_v78 main_v77 main_v79 (subf : (⟨S1024x392, .f32⟩ : BufTy).Contents (Elt F) → (⟨S1024x392, .f32⟩ : BufTy).Contents (Elt F) → (⟨S1024x392, .f32⟩ : BufTy).Contents (Elt F)),  -- %79 = stablehlo.subtract
    unary main_v74 main_v80 (broadcastInDim S1x392 ![1] bcast_S392_S1x392_1 : (⟨S392, .f32⟩ : BufTy).Contents (Elt F) → (⟨S1x392, .f32⟩ : BufTy).Contents (Elt F)),  -- %80 = stablehlo.broadcast_in_dim
    unary main_v80 main_v81 (broadcastInDim S1024x392 ![0, 1] bcast_S1x392_S1024x392_0_1 : (⟨S1x392, .f32⟩ : BufTy).Contents (Elt F) → (⟨S1024x392, .f32⟩ : BufTy).Contents (Elt F)),  -- %81 = stablehlo.broadcast_in_dim
    binary main_v79 main_v81 main_v82 (addf : (⟨S1024x392, .f32⟩ : BufTy).Contents (Elt F) → (⟨S1024x392, .f32⟩ : BufTy).Contents (Elt F) → (⟨S1024x392, .f32⟩ : BufTy).Contents (Elt F)),  -- %82 = stablehlo.add
    nullary main_cst_17 (constant S_ .f32 0xBF000000#32),  -- %cst_17 = stablehlo.constant
    unary main_cst_17 main_v83 (broadcastInDim S1024x392 ![] bcast_S_S1024x392 : (⟨S_, .f32⟩ : BufTy).Contents (Elt F) → (⟨S1024x392, .f32⟩ : BufTy).Contents (Elt F)),  -- %83 = stablehlo.broadcast_in_dim
    binary main_v83 main_v82 main_v84 (mulf : (⟨S1024x392, .f32⟩ : BufTy).Contents (Elt F) → (⟨S1024x392, .f32⟩ : BufTy).Contents (Elt F) → (⟨S1024x392, .f32⟩ : BufTy).Contents (Elt F)),  -- %84 = stablehlo.multiply
    nullary main_cst_18 (constant S_ .f32 0x00000000#32),  -- %cst_18 = stablehlo.constant
    binary main_v84 main_cst_18 main_v85 ((fun x v => Host.reduceAdd x v reducesTo_S1024x392_S392_d0 h_S_) : (⟨S1024x392, .f32⟩ : BufTy).Contents (Elt F) → (⟨S_, .f32⟩ : BufTy).Contents (Elt F) → (⟨S392, .f32⟩ : BufTy).Contents (Elt F)),  -- %85 = stablehlo.reduce
    nullary main_cst_19 (constant S_ .f32 0x44800000#32),  -- %cst_19 = stablehlo.constant
    unary main_cst_19 main_v86 (broadcastInDim S392 ![] bcast_S_S392 : (⟨S_, .f32⟩ : BufTy).Contents (Elt F) → (⟨S392, .f32⟩ : BufTy).Contents (Elt F)),  -- %86 = stablehlo.broadcast_in_dim
    binary main_v85 main_v86 main_v87 (Host.divf : (⟨S392, .f32⟩ : BufTy).Contents (Elt F) → (⟨S392, .f32⟩ : BufTy).Contents (Elt F) → (⟨S392, .f32⟩ : BufTy).Contents (Elt F)),  -- %87 = stablehlo.divide
    nullary main_c_20 (constantI S_ 32 0#32) ]  -- %c_20 = stablehlo.constant

/-- Operations 158 … 187 of 269 (in window `main_part1`). -/
abbrev ops4 : List (HloOp τ sig (Elt F)) :=
  [ TRef.nullary main_call4.cst (constant S_ .f32 0x00000000#32),  -- in @_var: %cst = stablehlo.constant
    TRef.binary (.of main_v84 : TRef sig ⟨S1024x392, .f32⟩) main_call4.cst main_call4.v0 (fun x v => Host.reduceAdd x v reducesTo_S1024x392_S392_d0 h_S_),  -- in @_var: %0 = stablehlo.reduce
    TRef.unary main_call4.v0 main_call4.v1 (broadcastInDim S1x392 ![1] bcast_S392_S1x392_1),  -- in @_var: %1 = stablehlo.broadcast_in_dim
    TRef.nullary main_call4.cst_0 (constant S_ .f32 0x44800000#32),  -- in @_var: %cst_0 = stablehlo.constant
    TRef.unary main_call4.cst_0 main_call4.v2 (broadcastInDim S1x392 ![] bcast_S_S1x392),  -- in @_var: %2 = stablehlo.broadcast_in_dim
    TRef.binary main_call4.v1 main_call4.v2 main_call4.v3 Host.divf,  -- in @_var: %3 = stablehlo.divide
    TRef.unary main_call4.v3 main_call4.v4 (broadcastInDim S1024x392 ![0, 1] bcast_S1x392_S1024x392_0_1),  -- in @_var: %4 = stablehlo.broadcast_in_dim
    TRef.binary (.of main_v84 : TRef sig ⟨S1024x392, .f32⟩) main_call4.v4 main_call4.v5 subf,  -- in @_var: %5 = stablehlo.subtract
    TRef.binary main_call4.v5 main_call4.v5 main_call4.v6 mulf,  -- in @_var: %6 = chlo.square
    TRef.unary (.of main_c_20 : TRef sig ⟨S_, .i32⟩) main_call4.v7 (sitofp .f32),  -- in @_var: %7 = stablehlo.convert
    TRef.nullary main_call4.cst_1 (constant S_ .f32 0x44800000#32),  -- in @_var: %cst_1 = stablehlo.constant
    TRef.binary main_call4.cst_1 main_call4.v7 main_call4.v8 subf,  -- in @_var: %8 = stablehlo.subtract
    TRef.nullary main_call4.cst_2 (constant S_ .f32 0x00000000#32),  -- in @_var: %cst_2 = stablehlo.constant
    TRef.binary main_call4.v6 main_call4.cst_2 main_call4.v9 (fun x v => Host.reduceAdd x v reducesTo_S1024x392_S392_d0 h_S_),  -- in @_var: %9 = stablehlo.reduce
    TRef.unary main_call4.v8 main_call4.v10 (broadcastInDim S392 ![] bcast_S_S392),  -- in @_var: %10 = stablehlo.broadcast_in_dim
    TRef.binary main_call4.v9 main_call4.v10 main_call4.v11 Host.divf,  -- in @_var: %11 = stablehlo.divide
    TRef.nullary main_call4.cst_3 (constant S_ .f32 0x00000000#32),  -- in @_var: %cst_3 = stablehlo.constant
    TRef.binary main_call4.v8 main_call4.cst_3 main_call4.v12 (cmpf .ogt),  -- in @_var: %12 = stablehlo.compare
    TRef.nullary main_call4.cst_4 (constant S_ .f32 0x7FC00000#32),  -- in @_var: %cst_4 = stablehlo.constant
    TRef.unary main_call4.cst_4 main_call4.call0.v0 id,  -- in @_var → @_where: %0 = stablehlo.convert
    TRef.unary main_call4.call0.v0 main_call4.call0.v1 (broadcastInDim S392 ![] bcast_S_S392),  -- in @_var → @_where: %1 = stablehlo.broadcast_in_dim
    TRef.ternary main_call4.v12 main_call4.v11 main_call4.call0.v1 main_call4.call0.v2 (fun p a b => select (broadcastInDim S392 ![] bcast_S_S392 p) a b),  -- in @_var → @_where: %2 = stablehlo.select
    unary main_v87 main_v89 (broadcastInDim S1x392 ![1] bcast_S392_S1x392_1 : (⟨S392, .f32⟩ : BufTy).Contents (Elt F) → (⟨S1x392, .f32⟩ : BufTy).Contents (Elt F)),  -- %89 = stablehlo.broadcast_in_dim
    unary main_v89 main_v90 (broadcastInDim S1024x392 ![0, 1] bcast_S1x392_S1024x392_0_1 : (⟨S1x392, .f32⟩ : BufTy).Contents (Elt F) → (⟨S1024x392, .f32⟩ : BufTy).Contents (Elt F)),  -- %90 = stablehlo.broadcast_in_dim
    binary main_v84 main_v90 main_v91 (subf : (⟨S1024x392, .f32⟩ : BufTy).Contents (Elt F) → (⟨S1024x392, .f32⟩ : BufTy).Contents (Elt F) → (⟨S1024x392, .f32⟩ : BufTy).Contents (Elt F)),  -- %91 = stablehlo.subtract
    unary main_arg8 main_v92 (broadcastInDim S1x392 ![1] bcast_S392_S1x392_1 : (⟨S392, .f32⟩ : BufTy).Contents (Elt F) → (⟨S1x392, .f32⟩ : BufTy).Contents (Elt F)),  -- %92 = stablehlo.broadcast_in_dim
    unary main_v92 main_v93 (broadcastInDim S1024x392 ![0, 1] bcast_S1x392_S1024x392_0_1 : (⟨S1x392, .f32⟩ : BufTy).Contents (Elt F) → (⟨S1024x392, .f32⟩ : BufTy).Contents (Elt F)),  -- %93 = stablehlo.broadcast_in_dim
    binary main_v93 main_v91 main_v94 (mulf : (⟨S1024x392, .f32⟩ : BufTy).Contents (Elt F) → (⟨S1024x392, .f32⟩ : BufTy).Contents (Elt F) → (⟨S1024x392, .f32⟩ : BufTy).Contents (Elt F)),  -- %94 = stablehlo.multiply
    nullary main_cst_21 (constant S_ .f32 0x3727C5AC#32),  -- %cst_21 = stablehlo.constant
    unary main_cst_21 main_v95 (broadcastInDim S392 ![] bcast_S_S392 : (⟨S_, .f32⟩ : BufTy).Contents (Elt F) → (⟨S392, .f32⟩ : BufTy).Contents (Elt F)) ]  -- %95 = stablehlo.broadcast_in_dim

/-- Operations 188 … 223 of 269 (in window `main_part2`). -/
abbrev ops5 : List (HloOp τ sig (Elt F)) :=
  [ binary main_v88 main_v95 main_v96 (addf : (⟨S392, .f32⟩ : BufTy).Contents (Elt F) → (⟨S392, .f32⟩ : BufTy).Contents (Elt F) → (⟨S392, .f32⟩ : BufTy).Contents (Elt F)),  -- %96 = stablehlo.add
    unary main_v96 main_v97 (Host.sqrt : (⟨S392, .f32⟩ : BufTy).Contents (Elt F) → (⟨S392, .f32⟩ : BufTy).Contents (Elt F)),  -- %97 = stablehlo.sqrt
    unary main_v97 main_v98 (broadcastInDim S1x392 ![1] bcast_S392_S1x392_1 : (⟨S392, .f32⟩ : BufTy).Contents (Elt F) → (⟨S1x392, .f32⟩ : BufTy).Contents (Elt F)),  -- %98 = stablehlo.broadcast_in_dim
    unary main_v98 main_v99 (broadcastInDim S1024x392 ![0, 1] bcast_S1x392_S1024x392_0_1 : (⟨S1x392, .f32⟩ : BufTy).Contents (Elt F) → (⟨S1024x392, .f32⟩ : BufTy).Contents (Elt F)),  -- %99 = stablehlo.broadcast_in_dim
    binary main_v94 main_v99 main_v100 (Host.divf : (⟨S1024x392, .f32⟩ : BufTy).Contents (Elt F) → (⟨S1024x392, .f32⟩ : BufTy).Contents (Elt F) → (⟨S1024x392, .f32⟩ : BufTy).Contents (Elt F)),  -- %100 = stablehlo.divide
    unary main_arg9 main_v101 (broadcastInDim S1x392 ![1] bcast_S392_S1x392_1 : (⟨S392, .f32⟩ : BufTy).Contents (Elt F) → (⟨S1x392, .f32⟩ : BufTy).Contents (Elt F)),  -- %101 = stablehlo.broadcast_in_dim
    unary main_v101 main_v102 (broadcastInDim S1024x392 ![0, 1] bcast_S1x392_S1024x392_0_1 : (⟨S1x392, .f32⟩ : BufTy).Contents (Elt F) → (⟨S1024x392, .f32⟩ : BufTy).Contents (Elt F)),  -- %102 = stablehlo.broadcast_in_dim
    binary main_v100 main_v102 main_v103 (addf : (⟨S1024x392, .f32⟩ : BufTy).Contents (Elt F) → (⟨S1024x392, .f32⟩ : BufTy).Contents (Elt F) → (⟨S1024x392, .f32⟩ : BufTy).Contents (Elt F)),  -- %103 = stablehlo.add
    TRef.nullary main_call5.cst (constant S_ .f32 0x00000000#32),  -- in @_relu: %cst = stablehlo.constant
    TRef.unary main_call5.cst main_call5.v0 (broadcastInDim S1024x392 ![] bcast_S_S1024x392),  -- in @_relu: %0 = stablehlo.broadcast_in_dim
    TRef.binary (.of main_v103 : TRef sig ⟨S1024x392, .f32⟩) main_call5.v0 main_call5.v1 maximumf,  -- in @_relu: %1 = stablehlo.maximum
    binary main_v104 main_v104 main_v105 (mulf : (⟨S1024x392, .f32⟩ : BufTy).Contents (Elt F) → (⟨S1024x392, .f32⟩ : BufTy).Contents (Elt F) → (⟨S1024x392, .f32⟩ : BufTy).Contents (Elt F)),  -- %105 = stablehlo.multiply
    nullary main_cst_22 (constant S_ .f32 0x00000000#32),  -- %cst_22 = stablehlo.constant
    binary main_v105 main_cst_22 main_v106 ((fun x v => Host.reduceAdd x v reducesTo_S1024x392_S1024_d1 h_S_) : (⟨S1024x392, .f32⟩ : BufTy).Contents (Elt F) → (⟨S_, .f32⟩ : BufTy).Contents (Elt F) → (⟨S1024, .f32⟩ : BufTy).Contents (Elt F)),  -- %106 = stablehlo.reduce
    unary main_v106 main_v107 (broadcastInDim S1024x1 ![0] bcast_S1024_S1024x1_0 : (⟨S1024, .f32⟩ : BufTy).Contents (Elt F) → (⟨S1024x1, .f32⟩ : BufTy).Contents (Elt F)),  -- %107 = stablehlo.broadcast_in_dim
    binary main_arg10 main_arg10 main_v108 (mulf : (⟨S392x784, .f32⟩ : BufTy).Contents (Elt F) → (⟨S392x784, .f32⟩ : BufTy).Contents (Elt F) → (⟨S392x784, .f32⟩ : BufTy).Contents (Elt F)),  -- %108 = stablehlo.multiply
    nullary main_cst_23 (constant S_ .f32 0x00000000#32),  -- %cst_23 = stablehlo.constant
    binary main_v108 main_cst_23 main_v109 ((fun x v => Host.reduceAdd x v reducesTo_S392x784_S784_d0 h_S_) : (⟨S392x784, .f32⟩ : BufTy).Contents (Elt F) → (⟨S_, .f32⟩ : BufTy).Contents (Elt F) → (⟨S784, .f32⟩ : BufTy).Contents (Elt F)),  -- %109 = stablehlo.reduce
    binary main_v104 main_arg10 main_v110 ((fun l r => Host.dotGeneral dot_S1024x392_S392x784_S1024x784_1_0_0_1_n_n none l r) : (⟨S1024x392, .f32⟩ : BufTy).Contents (Elt F) → (⟨S392x784, .f32⟩ : BufTy).Contents (Elt F) → (⟨S1024x784, .f32⟩ : BufTy).Contents (Elt F)),  -- %110 = stablehlo.dot_general
    nullary main_cst_24 (constant S_ .f32 0x40000000#32),  -- %cst_24 = stablehlo.constant
    unary main_cst_24 main_v111 (broadcastInDim S1024x784 ![] bcast_S_S1024x784 : (⟨S_, .f32⟩ : BufTy).Contents (Elt F) → (⟨S1024x784, .f32⟩ : BufTy).Contents (Elt F)),  -- %111 = stablehlo.broadcast_in_dim
    binary main_v111 main_v110 main_v112 (mulf : (⟨S1024x784, .f32⟩ : BufTy).Contents (Elt F) → (⟨S1024x784, .f32⟩ : BufTy).Contents (Elt F) → (⟨S1024x784, .f32⟩ : BufTy).Contents (Elt F)),  -- %112 = stablehlo.multiply
    unary main_v107 main_v113 (broadcastInDim S1024x784 ![0, 1] bcast_S1024x1_S1024x784_0_1 : (⟨S1024x1, .f32⟩ : BufTy).Contents (Elt F) → (⟨S1024x784, .f32⟩ : BufTy).Contents (Elt F)),  -- %113 = stablehlo.broadcast_in_dim
    binary main_v113 main_v112 main_v114 (subf : (⟨S1024x784, .f32⟩ : BufTy).Contents (Elt F) → (⟨S1024x784, .f32⟩ : BufTy).Contents (Elt F) → (⟨S1024x784, .f32⟩ : BufTy).Contents (Elt F)),  -- %114 = stablehlo.subtract
    unary main_v109 main_v115 (broadcastInDim S1x784 ![1] bcast_S784_S1x784_1 : (⟨S784, .f32⟩ : BufTy).Contents (Elt F) → (⟨S1x784, .f32⟩ : BufTy).Contents (Elt F)),  -- %115 = stablehlo.broadcast_in_dim
    unary main_v115 main_v116 (broadcastInDim S1024x784 ![0, 1] bcast_S1x784_S1024x784_0_1 : (⟨S1x784, .f32⟩ : BufTy).Contents (Elt F) → (⟨S1024x784, .f32⟩ : BufTy).Contents (Elt F)),  -- %116 = stablehlo.broadcast_in_dim
    binary main_v114 main_v116 main_v117 (addf : (⟨S1024x784, .f32⟩ : BufTy).Contents (Elt F) → (⟨S1024x784, .f32⟩ : BufTy).Contents (Elt F) → (⟨S1024x784, .f32⟩ : BufTy).Contents (Elt F)),  -- %117 = stablehlo.add
    nullary main_cst_25 (constant S_ .f32 0xBF000000#32),  -- %cst_25 = stablehlo.constant
    unary main_cst_25 main_v118 (broadcastInDim S1024x784 ![] bcast_S_S1024x784 : (⟨S_, .f32⟩ : BufTy).Contents (Elt F) → (⟨S1024x784, .f32⟩ : BufTy).Contents (Elt F)),  -- %118 = stablehlo.broadcast_in_dim
    binary main_v118 main_v117 main_v119 (mulf : (⟨S1024x784, .f32⟩ : BufTy).Contents (Elt F) → (⟨S1024x784, .f32⟩ : BufTy).Contents (Elt F) → (⟨S1024x784, .f32⟩ : BufTy).Contents (Elt F)),  -- %119 = stablehlo.multiply
    nullary main_cst_26 (constant S_ .f32 0x00000000#32),  -- %cst_26 = stablehlo.constant
    binary main_v119 main_cst_26 main_v120 ((fun x v => Host.reduceAdd x v reducesTo_S1024x784_S784_d0 h_S_) : (⟨S1024x784, .f32⟩ : BufTy).Contents (Elt F) → (⟨S_, .f32⟩ : BufTy).Contents (Elt F) → (⟨S784, .f32⟩ : BufTy).Contents (Elt F)),  -- %120 = stablehlo.reduce
    nullary main_cst_27 (constant S_ .f32 0x44800000#32),  -- %cst_27 = stablehlo.constant
    unary main_cst_27 main_v121 (broadcastInDim S784 ![] bcast_S_S784 : (⟨S_, .f32⟩ : BufTy).Contents (Elt F) → (⟨S784, .f32⟩ : BufTy).Contents (Elt F)),  -- %121 = stablehlo.broadcast_in_dim
    binary main_v120 main_v121 main_v122 (Host.divf : (⟨S784, .f32⟩ : BufTy).Contents (Elt F) → (⟨S784, .f32⟩ : BufTy).Contents (Elt F) → (⟨S784, .f32⟩ : BufTy).Contents (Elt F)),  -- %122 = stablehlo.divide
    nullary main_c_28 (constantI S_ 32 0#32) ]  -- %c_28 = stablehlo.constant

/-- Operations 224 … 269 of 269 (in window `main_part2`). -/
abbrev ops6 : List (HloOp τ sig (Elt F)) :=
  [ TRef.nullary main_call6.cst (constant S_ .f32 0x00000000#32),  -- in @_var_3: %cst = stablehlo.constant
    TRef.binary (.of main_v119 : TRef sig ⟨S1024x784, .f32⟩) main_call6.cst main_call6.v0 (fun x v => Host.reduceAdd x v reducesTo_S1024x784_S784_d0 h_S_),  -- in @_var_3: %0 = stablehlo.reduce
    TRef.unary main_call6.v0 main_call6.v1 (broadcastInDim S1x784 ![1] bcast_S784_S1x784_1),  -- in @_var_3: %1 = stablehlo.broadcast_in_dim
    TRef.nullary main_call6.cst_0 (constant S_ .f32 0x44800000#32),  -- in @_var_3: %cst_0 = stablehlo.constant
    TRef.unary main_call6.cst_0 main_call6.v2 (broadcastInDim S1x784 ![] bcast_S_S1x784),  -- in @_var_3: %2 = stablehlo.broadcast_in_dim
    TRef.binary main_call6.v1 main_call6.v2 main_call6.v3 Host.divf,  -- in @_var_3: %3 = stablehlo.divide
    TRef.unary main_call6.v3 main_call6.v4 (broadcastInDim S1024x784 ![0, 1] bcast_S1x784_S1024x784_0_1),  -- in @_var_3: %4 = stablehlo.broadcast_in_dim
    TRef.binary (.of main_v119 : TRef sig ⟨S1024x784, .f32⟩) main_call6.v4 main_call6.v5 subf,  -- in @_var_3: %5 = stablehlo.subtract
    TRef.binary main_call6.v5 main_call6.v5 main_call6.v6 mulf,  -- in @_var_3: %6 = chlo.square
    TRef.unary (.of main_c_28 : TRef sig ⟨S_, .i32⟩) main_call6.v7 (sitofp .f32),  -- in @_var_3: %7 = stablehlo.convert
    TRef.nullary main_call6.cst_1 (constant S_ .f32 0x44800000#32),  -- in @_var_3: %cst_1 = stablehlo.constant
    TRef.binary main_call6.cst_1 main_call6.v7 main_call6.v8 subf,  -- in @_var_3: %8 = stablehlo.subtract
    TRef.nullary main_call6.cst_2 (constant S_ .f32 0x00000000#32),  -- in @_var_3: %cst_2 = stablehlo.constant
    TRef.binary main_call6.v6 main_call6.cst_2 main_call6.v9 (fun x v => Host.reduceAdd x v reducesTo_S1024x784_S784_d0 h_S_),  -- in @_var_3: %9 = stablehlo.reduce
    TRef.unary main_call6.v8 main_call6.v10 (broadcastInDim S784 ![] bcast_S_S784),  -- in @_var_3: %10 = stablehlo.broadcast_in_dim
    TRef.binary main_call6.v9 main_call6.v10 main_call6.v11 Host.divf,  -- in @_var_3: %11 = stablehlo.divide
    TRef.nullary main_call6.cst_3 (constant S_ .f32 0x00000000#32),  -- in @_var_3: %cst_3 = stablehlo.constant
    TRef.binary main_call6.v8 main_call6.cst_3 main_call6.v12 (cmpf .ogt),  -- in @_var_3: %12 = stablehlo.compare
    TRef.nullary main_call6.cst_4 (constant S_ .f32 0x7FC00000#32),  -- in @_var_3: %cst_4 = stablehlo.constant
    TRef.unary main_call6.cst_4 main_call6.call0.v0 id,  -- in @_var_3 → @_where_4: %0 = stablehlo.convert
    TRef.unary main_call6.call0.v0 main_call6.call0.v1 (broadcastInDim S784 ![] bcast_S_S784),  -- in @_var_3 → @_where_4: %1 = stablehlo.broadcast_in_dim
    TRef.ternary main_call6.v12 main_call6.v11 main_call6.call0.v1 main_call6.call0.v2 (fun p a b => select (broadcastInDim S784 ![] bcast_S_S784 p) a b),  -- in @_var_3 → @_where_4: %2 = stablehlo.select
    unary main_v122 main_v124 (broadcastInDim S1x784 ![1] bcast_S784_S1x784_1 : (⟨S784, .f32⟩ : BufTy).Contents (Elt F) → (⟨S1x784, .f32⟩ : BufTy).Contents (Elt F)),  -- %124 = stablehlo.broadcast_in_dim
    unary main_v124 main_v125 (broadcastInDim S1024x784 ![0, 1] bcast_S1x784_S1024x784_0_1 : (⟨S1x784, .f32⟩ : BufTy).Contents (Elt F) → (⟨S1024x784, .f32⟩ : BufTy).Contents (Elt F)),  -- %125 = stablehlo.broadcast_in_dim
    binary main_v119 main_v125 main_v126 (subf : (⟨S1024x784, .f32⟩ : BufTy).Contents (Elt F) → (⟨S1024x784, .f32⟩ : BufTy).Contents (Elt F) → (⟨S1024x784, .f32⟩ : BufTy).Contents (Elt F)),  -- %126 = stablehlo.subtract
    unary main_arg11 main_v127 (broadcastInDim S1x784 ![1] bcast_S784_S1x784_1 : (⟨S784, .f32⟩ : BufTy).Contents (Elt F) → (⟨S1x784, .f32⟩ : BufTy).Contents (Elt F)),  -- %127 = stablehlo.broadcast_in_dim
    unary main_v127 main_v128 (broadcastInDim S1024x784 ![0, 1] bcast_S1x784_S1024x784_0_1 : (⟨S1x784, .f32⟩ : BufTy).Contents (Elt F) → (⟨S1024x784, .f32⟩ : BufTy).Contents (Elt F)),  -- %128 = stablehlo.broadcast_in_dim
    binary main_v128 main_v126 main_v129 (mulf : (⟨S1024x784, .f32⟩ : BufTy).Contents (Elt F) → (⟨S1024x784, .f32⟩ : BufTy).Contents (Elt F) → (⟨S1024x784, .f32⟩ : BufTy).Contents (Elt F)),  -- %129 = stablehlo.multiply
    nullary main_cst_29 (constant S_ .f32 0x3727C5AC#32),  -- %cst_29 = stablehlo.constant
    unary main_cst_29 main_v130 (broadcastInDim S784 ![] bcast_S_S784 : (⟨S_, .f32⟩ : BufTy).Contents (Elt F) → (⟨S784, .f32⟩ : BufTy).Contents (Elt F)),  -- %130 = stablehlo.broadcast_in_dim
    binary main_v123 main_v130 main_v131 (addf : (⟨S784, .f32⟩ : BufTy).Contents (Elt F) → (⟨S784, .f32⟩ : BufTy).Contents (Elt F) → (⟨S784, .f32⟩ : BufTy).Contents (Elt F)),  -- %131 = stablehlo.add
    unary main_v131 main_v132 (Host.sqrt : (⟨S784, .f32⟩ : BufTy).Contents (Elt F) → (⟨S784, .f32⟩ : BufTy).Contents (Elt F)),  -- %132 = stablehlo.sqrt
    unary main_v132 main_v133 (broadcastInDim S1x784 ![1] bcast_S784_S1x784_1 : (⟨S784, .f32⟩ : BufTy).Contents (Elt F) → (⟨S1x784, .f32⟩ : BufTy).Contents (Elt F)),  -- %133 = stablehlo.broadcast_in_dim
    unary main_v133 main_v134 (broadcastInDim S1024x784 ![0, 1] bcast_S1x784_S1024x784_0_1 : (⟨S1x784, .f32⟩ : BufTy).Contents (Elt F) → (⟨S1024x784, .f32⟩ : BufTy).Contents (Elt F)),  -- %134 = stablehlo.broadcast_in_dim
    binary main_v129 main_v134 main_v135 (Host.divf : (⟨S1024x784, .f32⟩ : BufTy).Contents (Elt F) → (⟨S1024x784, .f32⟩ : BufTy).Contents (Elt F) → (⟨S1024x784, .f32⟩ : BufTy).Contents (Elt F)),  -- %135 = stablehlo.divide
    unary main_arg12 main_v136 (broadcastInDim S1x784 ![1] bcast_S784_S1x784_1 : (⟨S784, .f32⟩ : BufTy).Contents (Elt F) → (⟨S1x784, .f32⟩ : BufTy).Contents (Elt F)),  -- %136 = stablehlo.broadcast_in_dim
    unary main_v136 main_v137 (broadcastInDim S1024x784 ![0, 1] bcast_S1x784_S1024x784_0_1 : (⟨S1x784, .f32⟩ : BufTy).Contents (Elt F) → (⟨S1024x784, .f32⟩ : BufTy).Contents (Elt F)),  -- %137 = stablehlo.broadcast_in_dim
    binary main_v135 main_v137 main_v138 (addf : (⟨S1024x784, .f32⟩ : BufTy).Contents (Elt F) → (⟨S1024x784, .f32⟩ : BufTy).Contents (Elt F) → (⟨S1024x784, .f32⟩ : BufTy).Contents (Elt F)),  -- %138 = stablehlo.add
    unary main_v138 main_v139 (Host.negf : (⟨S1024x784, .f32⟩ : BufTy).Contents (Elt F) → (⟨S1024x784, .f32⟩ : BufTy).Contents (Elt F)),  -- %139 = stablehlo.negate
    unary main_v139 main_v140 (Host.exp : (⟨S1024x784, .f32⟩ : BufTy).Contents (Elt F) → (⟨S1024x784, .f32⟩ : BufTy).Contents (Elt F)),  -- %140 = stablehlo.exponential
    nullary main_cst_30 (constant S_ .f32 0x3F800000#32),  -- %cst_30 = stablehlo.constant
    unary main_cst_30 main_v141 (broadcastInDim S1024x784 ![] bcast_S_S1024x784 : (⟨S_, .f32⟩ : BufTy).Contents (Elt F) → (⟨S1024x784, .f32⟩ : BufTy).Contents (Elt F)),  -- %141 = stablehlo.broadcast_in_dim
    binary main_v141 main_v140 main_v142 (addf : (⟨S1024x784, .f32⟩ : BufTy).Contents (Elt F) → (⟨S1024x784, .f32⟩ : BufTy).Contents (Elt F) → (⟨S1024x784, .f32⟩ : BufTy).Contents (Elt F)),  -- %142 = stablehlo.add
    nullary main_cst_31 (constant S_ .f32 0x3F800000#32),  -- %cst_31 = stablehlo.constant
    unary main_cst_31 main_v143 (broadcastInDim S1024x784 ![] bcast_S_S1024x784 : (⟨S_, .f32⟩ : BufTy).Contents (Elt F) → (⟨S1024x784, .f32⟩ : BufTy).Contents (Elt F)),  -- %143 = stablehlo.broadcast_in_dim
    binary main_v143 main_v142 main_v144 (Host.divf : (⟨S1024x784, .f32⟩ : BufTy).Contents (Elt F) → (⟨S1024x784, .f32⟩ : BufTy).Contents (Elt F) → (⟨S1024x784, .f32⟩ : BufTy).Contents (Elt F)) ]  -- %144 = stablehlo.divide

/-- The operations of window `main_part0`. -/
abbrev ops_main_part0 : List (HloOp τ sig (Elt F)) := ops0 ++ ops1
/-- The operations of window `main_part1`. -/
abbrev ops_main_part1 : List (HloOp τ sig (Elt F)) := ops2 ++ (ops3 ++ ops4)
/-- The operations of window `main_part2`. -/
abbrev ops_main_part2 : List (HloOp τ sig (Elt F)) := ops5 ++ ops6

/-- @main's 269 operations, in order. -/
abbrev ops : List (HloOp τ sig (Elt F)) := ops_main_part0 ++ (ops_main_part1 ++ ops_main_part2)

end Cert.Proof.Ref

end
-- ==== Proof.RefRun.lean ====
/- The reference program's run. @main is printed in three windows and calls outlined functions at seven sites (a variance at
   four, each with a select called inside it; a rectifier at three). It is the straight line `seq ops` of its 269 operations
   (the list is the sibling module RefOps0), and so, on a signature that scopes nothing, every weakly fair execution of it
   terminates with each TensorCore buffer at the fold `after ops` of the operations' results over the launch contents. Nothing
   is read back here: a value proof evaluates the fold at the buffer it needs (`after_ops` takes it chunk by chunk). -/
import proofs.«403897_j60078002536976_3_alg».proof.Proof.RefOps0

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The contents after @main's operations, chunk by chunk. -/
theorem after_ops (V : Valuation τ sig (Elt F)) :
    after ops V = after ops6 (after ops5 (after ops4 (after ops3 (after ops2 (after ops1 (after ops0 V)))))) := by
  simp only [ops, ops_main_part0, ops_main_part1, ops_main_part2, after_append]

/-! ## @main is the line -/

set_option maxRecDepth 8192 in
/-- The first window is its operations in order: the called functions unfolded at their calls and the records at
    their fields, both sides are one chain of steps once sequencing is reassociated. -/
theorem main_part0_eq (c : Dev nD) : main_part0 (F := F) c = seq ops_main_part0 := by
  simp only [main_part0, fn_var.body, fn_where.body, fn_relu.body, ops_main_part0, seq_append, seq, bind_assoc, pure_bind]
  rfl

set_option maxRecDepth 8192 in
/-- The second window is its operations in order. -/
theorem main_part1_eq (c : Dev nD) : main_part1 (F := F) c = seq ops_main_part1 := by
  simp only [main_part1, fn_var.body, fn_var_0.body, fn_where.body, fn_where_1.body, fn_relu_2.body, ops_main_part1, seq_append, seq,
    bind_assoc, pure_bind]
  rfl

set_option maxRecDepth 8192 in
/-- The third window is its operations in order, then the return. -/
theorem main_part2_eq (c : Dev nD) : main_part2 (F := F) c = seq ops_main_part2 := by
  simp only [main_part2, fn_var_3.body, fn_where_4.body, fn_relu.body, ops_main_part2, seq_append, seq, bind_assoc, pure_bind]

/-- @main runs its windows in order, and a line of lines is their concatenation run as one. -/
theorem main_eq (c : Dev nD) : main (F := F) c = seq ops := by
  simp only [ops, seq_append, ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- What holds of every operation of each chunk holds of every operation of @main. -/
theorem forall_ops {p : HloOp τ sig (Elt F) → Prop} (h0 : ops0.Forall p) (h1 : ops1.Forall p) (h2 : ops2.Forall p)
    (h3 : ops3.Forall p) (h4 : ops4.Forall p) (h5 : ops5.Forall p) (h6 : ops6.Forall p) :
    ∀ op ∈ (ops : List (HloOp τ sig (Elt F))), p op := by
  intro op h
  simp only [ops, ops_main_part0, ops_main_part1, ops_main_part2, List.mem_append] at h
  rcases h with (h | h) | (h | h | h) | h | h
  exacts [List.forall_iff_forall_mem.mp h0 op h, List.forall_iff_forall_mem.mp h1 op h, List.forall_iff_forall_mem.mp h2 op h,
    List.forall_iff_forall_mem.mp h3 op h, List.forall_iff_forall_mem.mp h4 op h, List.forall_iff_forall_mem.mp h5 op h,
    List.forall_iff_forall_mem.mp h6 op h]

/-- Every operation touches TensorCore references only: each builder's buffers are its operands' and its result's. -/
theorem ops_sub : (ops : List (HloOp τ sig (Elt F))).Forall fun op => op.bufs ⊆ tcRefs τ sig :=
  List.forall_iff_forall_mem.mpr <| forall_ops
    (by simp only [ops0, List.Forall, nullary_bufs_sub, unary_bufs_sub, binary_bufs_sub, ternary_bufs_sub, and_self])
    (by simp only [ops1, List.Forall, nullary_bufs_sub, unary_bufs_sub, binary_bufs_sub, ternary_bufs_sub, and_self])
    (by simp only [ops2, List.Forall, nullary_bufs_sub, unary_bufs_sub, binary_bufs_sub, ternary_bufs_sub, and_self])
    (by simp only [ops3, List.Forall, nullary_bufs_sub, unary_bufs_sub, binary_bufs_sub, ternary_bufs_sub, and_self])
    (by simp only [ops4, List.Forall, nullary_bufs_sub, unary_bufs_sub, binary_bufs_sub, ternary_bufs_sub, and_self])
    (by simp only [ops5, List.Forall, nullary_bufs_sub, unary_bufs_sub, binary_bufs_sub, ternary_bufs_sub, and_self])
    (by simp only [ops6, List.Forall, nullary_bufs_sub, unary_bufs_sub, binary_bufs_sub, ternary_bufs_sub, and_self])

/-- Every operation determines its result: none leaves a buffer to the machine's choice. -/
theorem ops_fresh : ∀ op ∈ (ops : List (HloOp τ sig (Elt F))), op.fresh = ∅ :=
  forall_ops
    (by simp only [ops0, List.Forall]; repeat' constructor)
    (by simp only [ops1, List.Forall]; repeat' constructor)
    (by simp only [ops2, List.Forall]; repeat' constructor)
    (by simp only [ops3, List.Forall]; repeat' constructor)
    (by simp only [ops4, List.Forall]; repeat' constructor)
    (by simp only [ops5, List.Forall]; repeat' constructor)
    (by simp only [ops6, List.Forall]; repeat' constructor)

/-! ## The run -/

/-- At the compiled mesh, for any float values, from any memory with zero counters: every weakly fair execution of @main
    on the TensorCores terminates, and every final state has each TensorCore buffer at the operations' fold over the
    launch contents. Nothing is read back here: what one buffer holds is the fold's value at it. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.Proof.Ref

end
-- ==== Proof.RefKept.lean ====
/- The reference program's arguments are kept, and its run packaged for the assembly. Every operation of @main writes ONE
   buffer, and that buffer lies past the thirteen arguments' in the signature's table (a tensor value of @main or of an inlined
   call): so the fold `after ops` leaves each argument as it found it. With the run of the sibling module RefRun this gives the run
   stated as the claims state it: the result at the fold's value and the thirteen arguments unchanged, and the frame alone. -/
import proofs.«403897_j60078002536976_3_alg».proof.Proof.RefRun

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## No operation writes an argument -/

/-- Each operation of a chunk writes one buffer, past the thirteen arguments' in the signature's table. -/
abbrev WritesPast (op : HloOp τ sig (Elt F)) : Prop :=
  ∃ y : Ref sig .tc, op.writes = {(y : DevRef τ sig)} ∧ 13 ≤ y.idx.val

/-- Every operation of @main writes one buffer, and its index is at least thirteen: a tensor value of @main or of an
    inlined call, never an argument (the arguments are the table's first thirteen entries). -/
theorem writes_ops : ∀ op ∈ (ops : List (HloOp τ sig (Elt F))), WritesPast op :=
  forall_ops
    (by simp only [ops0, List.Forall]; repeat' apply And.intro
        all_goals exact ⟨_, rfl, by decide⟩)
    (by simp only [ops1, List.Forall]; repeat' apply And.intro
        all_goals exact ⟨_, rfl, by decide⟩)
    (by simp only [ops2, List.Forall]; repeat' apply And.intro
        all_goals exact ⟨_, rfl, by decide⟩)
    (by simp only [ops3, List.Forall]; repeat' apply And.intro
        all_goals exact ⟨_, rfl, by decide⟩)
    (by simp only [ops4, List.Forall]; repeat' apply And.intro
        all_goals exact ⟨_, rfl, by decide⟩)
    (by simp only [ops5, List.Forall]; repeat' apply And.intro
        all_goals exact ⟨_, rfl, by decide⟩)
    (by simp only [ops6, List.Forall]; repeat' apply And.intro
        all_goals exact ⟨_, rfl, by decide⟩)

/-- A buffer among the table's first thirteen is written by no operation: it keeps its contents through @main. -/
theorem kept_of_idx_lt {r : Ref sig .tc} (hr : r.idx.val < 13) (V : Valuation τ sig (Elt F)) :
    after ops V (r : DevRef τ sig) = V (r : DevRef τ sig) :=
  after_of_forall_not_mem ops V fun op hop hb => by
    obtain ⟨y, hy, h13⟩ := writes_ops op hop
    rw [hy, Finset.mem_singleton] at hb
    have e : r = y := Proc.devRef_injective _ hb
    subst e
    omega

theorem kept_0 (V : Valuation τ sig (Elt F)) : after ops V (main_arg0 : DevRef τ sig) = V (main_arg0 : DevRef τ sig) :=
  kept_of_idx_lt (by decide) V
theorem kept_1 (V : Valuation τ sig (Elt F)) : after ops V (main_arg1 : DevRef τ sig) = V (main_arg1 : DevRef τ sig) :=
  kept_of_idx_lt (by decide) V
theorem kept_2 (V : Valuation τ sig (Elt F)) : after ops V (main_arg2 : DevRef τ sig) = V (main_arg2 : DevRef τ sig) :=
  kept_of_idx_lt (by decide) V
theorem kept_3 (V : Valuation τ sig (Elt F)) : after ops V (main_arg3 : DevRef τ sig) = V (main_arg3 : DevRef τ sig) :=
  kept_of_idx_lt (by decide) V
theorem kept_4 (V : Valuation τ sig (Elt F)) : after ops V (main_arg4 : DevRef τ sig) = V (main_arg4 : DevRef τ sig) :=
  kept_of_idx_lt (by decide) V
theorem kept_5 (V : Valuation τ sig (Elt F)) : after ops V (main_arg5 : DevRef τ sig) = V (main_arg5 : DevRef τ sig) :=
  kept_of_idx_lt (by decide) V
theorem kept_6 (V : Valuation τ sig (Elt F)) : after ops V (main_arg6 : DevRef τ sig) = V (main_arg6 : DevRef τ sig) :=
  kept_of_idx_lt (by decide) V
theorem kept_7 (V : Valuation τ sig (Elt F)) : after ops V (main_arg7 : DevRef τ sig) = V (main_arg7 : DevRef τ sig) :=
  kept_of_idx_lt (by decide) V
theorem kept_8 (V : Valuation τ sig (Elt F)) : after ops V (main_arg8 : DevRef τ sig) = V (main_arg8 : DevRef τ sig) :=
  kept_of_idx_lt (by decide) V
theorem kept_9 (V : Valuation τ sig (Elt F)) : after ops V (main_arg9 : DevRef τ sig) = V (main_arg9 : DevRef τ sig) :=
  kept_of_idx_lt (by decide) V
theorem kept_10 (V : Valuation τ sig (Elt F)) : after ops V (main_arg10 : DevRef τ sig) = V (main_arg10 : DevRef τ sig) :=
  kept_of_idx_lt (by decide) V
theorem kept_11 (V : Valuation τ sig (Elt F)) : after ops V (main_arg11 : DevRef τ sig) = V (main_arg11 : DevRef τ sig) :=
  kept_of_idx_lt (by decide) V
theorem kept_12 (V : Valuation τ sig (Elt F)) : after ops V (main_arg12 : DevRef τ sig) = V (main_arg12 : DevRef τ sig) :=
  kept_of_idx_lt (by decide) V

/-! ## The run, packaged -/

/-- The run with the result at the fold's value and every argument as launched. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144) = after ops (launchContents m c) (main_v144 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v144, (h c main_arg0).trans (kept_0 _),
      (h c main_arg1).trans (kept_1 _),
      (h c main_arg2).trans (kept_2 _),
      (h c main_arg3).trans (kept_3 _),
      (h c main_arg4).trans (kept_4 _),
      (h c main_arg5).trans (kept_5 _),
      (h c main_arg6).trans (kept_6 _),
      (h c main_arg7).trans (kept_7 _),
      (h c main_arg8).trans (kept_8 _),
      (h c main_arg9).trans (kept_9 _),
      (h c main_arg10).trans (kept_10 _),
      (h c main_arg11).trans (kept_11 _),
      (h c main_arg12).trans (kept_12 _)⟩)
    (run_after m ρ)

/-- @main runs and leaves its arguments as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2) (run_value m ρ)

end Cert.Proof.Ref

end
-- ==== Proof.RefL12.lean ====
/-
  The reference program's first two layers, read at an index.

  A layer of the reference takes a batch `x` [1024, K], weights `w` [K, N], a scale `g` [N] and a shift `b` [N]. It forms
  minus half the squared distance of every row of `x` to every column of `w` from the row sums of `x ∘ x`, the column sums
  of `w ∘ w` and the product `x · w`; takes the batch mean of every column (a column sum divided by 1024) and the biased
  batch variance (the column sum of the squared deviations from a mean it computes again, divided by `1024 − 0`, the
  quotient kept because `1024 − 0 > 0`); and returns `max (g · (h − mean) / √(var + ε) + b) 0`.
  `hL1` and `hL2` repeat the printed operations of the two layers one by one, at any float instance. At the ideal values,
  read at (r, j), they are `Spec.relu (Spec.bnR (Spec.euclid x w) g b) r j` (`hL1_apply`, `hL2_apply`): a broadcast reads
  its operand at the coordinates it keeps, a sum over one axis is the initial value plus the sum over that axis's
  coordinates, the product of two matrices is the sum over the contracted coordinate, and the zero word is `0`.
  Last, in the program's run: once @main's operations have run from any contents, the first layer's last buffer holds
  `hL1` of the four argument arrays (`stage1`) and the second layer's last buffer holds `hL2` of the first layer's last
  buffer and of its own three argument arrays (`stage2`), at any float instance.
-/
import proofs.«403897_j60078002536976_3_alg».proof.Proof.Out
import proofs.«403897_j60078002536976_3_alg».proof.Proof.RefRun
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws

noncomputable section

namespace Cert.Proof.Ref

open Cert.ReferenceIdeal Cert.ReferenceIdeal.Gen Idealize.ShloMosaic Idealize.ShloMosaic.ValueIdx
open Idealize.ShloMosaic.TcCoe Idealize.SL.Sem Idealize.ShloMosaic.StableHlo
open scoped BigOperators

/-! ## Broadcasts, sums over one axis and a comparison of scalars, read at an index -/

section Kit
variable {α : Type} {m n : Nat}

/-- A vector of `m` entries made a column: the column at (r, 0) is the vector at r. -/
theorem bcast_col_apply (h : (⟨1, ![m]⟩ : Shape).BroadcastsInDim ⟨2, ![m, 1]⟩ ![0])
    (x : (⟨1, ![m]⟩ : Shape).Idx → α) (r : Fin m) :
    broadcastInDim ⟨2, ![m, 1]⟩ ![0] h x (ix2 r (0 : Fin 1)) = x (ix1 r) := by
  refine broadcastInDim_apply ![0] h x (ix2 r (0 : Fin 1)) (ix1 r) ?_
  intro a
  match a with
  | ⟨0, _⟩ =>
    show r.val = if m = 1 then 0 else r.val
    split_ifs with hm
    · have := r.isLt; omega
    · rfl

/-- A column copied into `n` columns: the matrix at (r, t) is the column at (r, 0). -/
theorem bcast_cols_apply (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split_ifs with hm
    · have := r.isLt; omega
    · rfl
  | ⟨1, _⟩ =>
    show (0 : ℕ) = if (1 : ℕ) = 1 then 0 else _
    simp

/-- A vector of `n` entries made a row: the row at (0, t) is the vector at t. -/
theorem bcast_row_apply (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  match a with
  | ⟨0, _⟩ =>
    show t.val = if n = 1 then 0 else t.val
    split_ifs with hn
    · have := t.isLt; omega
    · rfl

/-- A vector laid along every row, through the one-row matrix: at (r, t) it is the vector at t. -/
theorem bcast_rows_apply (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply, bcast_row_apply]

/-- The sum over the columns (axis 1) of an `m × n` matrix, at row r: the initial value plus the sum of the row's entries. -/
theorem reduce_rows_apply (h' : (⟨2, ![m, n]⟩ : Shape).ReducesTo [1] ⟨1, ![m]⟩) (hu : 0 < (⟨0, ![]⟩ : Shape).numel)
    (x : FVec Ideal ⟨2, ![m, n]⟩ .f32) (c : FVec Ideal ⟨0, ![]⟩ .f32) (r : Fin m) :
    Host.reduceAdd x c h' hu (ix1 r) = c ix0 + ∑ t : Fin n, x (ix2 r t) := by
  have h : (⟨2, ![m, n]⟩ : Shape).Reduces [1] ⟨1, ![m]⟩ := ⟨h'.1, Nat.one_pos, h'.2⟩
  rw [hostReduceAdd_apply, Ideal.hostReduceAdd_single h' h, eq_ix0 (Shape.Idx.first hu)]
  refine congrArg (_ + ·) (Finset.sum_congr rfl fun t _ => ?_)
  exact congrArg x (funext fun a => Fin.ext (by match a with | ⟨0, _⟩ => rfl | ⟨1, _⟩ => rfl))

/-- The sum over the rows (axis 0) of an `m × n` matrix, at column t: the initial value plus the sum of the column's entries. -/
theorem reduce_cols_apply (h' : (⟨2, ![m, n]⟩ : Shape).ReducesTo [0] ⟨1, ![n]⟩) (hu : 0 < (⟨0, ![]⟩ : Shape).numel)
    (x : FVec Ideal ⟨2, ![m, n]⟩ .f32) (c : FVec Ideal ⟨0, ![]⟩ .f32) (t : Fin n) :
    Host.reduceAdd x c h' hu (ix1 t) = c ix0 + ∑ r : Fin m, x (ix2 r t) := by
  have h : (⟨2, ![m, n]⟩ : Shape).Reduces [0] ⟨1, ![n]⟩ := ⟨h'.1, Nat.one_pos, h'.2⟩
  rw [hostReduceAdd_apply, Ideal.hostReduceAdd_single h' h, eq_ix0 (Shape.Idx.first hu)]
  refine congrArg (_ + ·) (Finset.sum_congr rfl fun r _ => ?_)
  exact congrArg x (funext fun a => Fin.ext (by match a with | ⟨0, _⟩ => rfl | ⟨1, _⟩ => rfl))

/-- The square root of a vector, at an index, is the square root of the entry. -/
theorem hostSqrt_apply {s : Shape} (x : FVec Ideal s .f32) (i : s.Idx) : Host.sqrt x i = Ideal.sqrt (x i) := rfl

/-- The batch size is positive. -/
theorem cN_pos : (0 : EReal) < Spec.cN := by
  rw [Spec.cN_eq]; exact EReal.coe_pos.mpr (by norm_num)

/-- "The batch size is above zero", as the program compares the two scalars: true. -/
theorem count_gt_zero : FloatOps.cmpf (F := Ideal) (φ := .f32) .ogt Spec.cN (0 : EReal) = 1#1 := by
  show Ideal.cmp .ogt Spec.cN 0 = 1#1
  unfold Ideal.cmp
  simp [cN_pos]

/-- The batch size minus the integer zero converted is the batch size. -/
theorem count_sub_zero :
    (Ideal.ofBits .f32 0x44800000#32 - FloatOps.sitofp (F := Ideal) .f32 (0#32 : BitVec 32) : EReal) = Spec.cN := by
  have hz : (FloatOps.sitofp (F := Ideal) .f32 (0#32 : BitVec 32) : EReal) = 0 := sitofp_zero
  rw [hz, sub_zero]; rfl

end Kit

/-! ## Layer 1 -/

section Layer1
variable {F : FTy → Type} [FloatOps F]

/-- @main's %0 … %14: the pre-activation, minus half the squared distance of every row of `x` to every column of `w`. -/
def hE1 (x : FVec F S1024x784 .f32) (w : FVec F S784x392 .f32) : FVec F S1024x392 .f32 :=
  let v0 : FVec F S1024x784 .f32 := mulf x x                                                                     -- %0
  let c : FVec F S_ .f32 := constant S_ .f32 0x00000000#32                                                       -- %cst
  let v1 : FVec F S1024 .f32 := Host.reduceAdd v0 c reducesTo_S1024x784_S1024_d1 h_S_                            -- %1
  let v2 : FVec F S1024x1 .f32 := broadcastInDim S1024x1 ![0] bcast_S1024_S1024x1_0 v1                           -- %2
  let v3 : FVec F S784x392 .f32 := mulf w w                                                                      -- %3
  let c0 : FVec F S_ .f32 := constant S_ .f32 0x00000000#32                                                      -- %cst_0
  let v4 : FVec F S392 .f32 := Host.reduceAdd v3 c0 reducesTo_S784x392_S392_d0 h_S_                              -- %4
  let v5 : FVec F S1024x392 .f32 := Host.dotGeneral dot_S1024x784_S784x392_S1024x392_1_0_0_1_n_n none x w        -- %5
  let c1 : FVec F S_ .f32 := constant S_ .f32 0x40000000#32                                                      -- %cst_1
  let v6 : FVec F S1024x392 .f32 := broadcastInDim S1024x392 ![] bcast_S_S1024x392 c1                            -- %6
  let v7 : FVec F S1024x392 .f32 := mulf v6 v5                                                                   -- %7
  let v8 : FVec F S1024x392 .f32 := broadcastInDim S1024x392 ![0, 1] bcast_S1024x1_S1024x392_0_1 v2              -- %8
  let v9 : FVec F S1024x392 .f32 := subf v8 v7                                                                   -- %9
  let v10 : FVec F S1x392 .f32 := broadcastInDim S1x392 ![1] bcast_S392_S1x392_1 v4                              -- %10
  let v11 : FVec F S1024x392 .f32 := broadcastInDim S1024x392 ![0, 1] bcast_S1x392_S1024x392_0_1 v10             -- %11
  let v12 : FVec F S1024x392 .f32 := addf v9 v11                                                                 -- %12
  let c2 : FVec F S_ .f32 := constant S_ .f32 0xBF000000#32                                                      -- %cst_2
  let v13 : FVec F S1024x392 .f32 := broadcastInDim S1024x392 ![] bcast_S_S1024x392 c2                           -- %13
  let v14 : FVec F S1024x392 .f32 := mulf v13 v12                                                                -- %14
  v14

/-- @main's %cst_3 … %17: the batch mean of every column of the pre-activation `h`. -/
def hM1 (h : FVec F S1024x392 .f32) : FVec F S392 .f32 :=
  let c3 : FVec F S_ .f32 := constant S_ .f32 0x00000000#32                                                      -- %cst_3
  let v15 : FVec F S392 .f32 := Host.reduceAdd h c3 reducesTo_S1024x392_S392_d0 h_S_                             -- %15
  let c4 : FVec F S_ .f32 := constant S_ .f32 0x44800000#32                                                      -- %cst_4
  let v16 : FVec F S392 .f32 := broadcastInDim S392 ![] bcast_S_S392 c4                                          -- %16
  let v17 : FVec F S392 .f32 := Host.divf v15 v16                                                                -- %17
  v17

/-- @main's %c and %18, the call of @_var with @_where inlined: the biased batch variance of every column of `h`, about a mean computed again. -/
def hV1 (h : FVec F S1024x392 .f32) : FVec F S392 .f32 :=
  let zi : IVec S_ 32 := constantI S_ 32 0#32                                                                    -- %c
  let mc : FVec F S_ .f32 := constant S_ .f32 0x00000000#32                                                      -- @_var's %cst
  let mv0 : FVec F S392 .f32 := Host.reduceAdd h mc reducesTo_S1024x392_S392_d0 h_S_                             -- @_var's %0
  let mv1 : FVec F S1x392 .f32 := broadcastInDim S1x392 ![1] bcast_S392_S1x392_1 mv0                             -- @_var's %1
  let mc0 : FVec F S_ .f32 := constant S_ .f32 0x44800000#32                                                     -- @_var's %cst_0
  let mv2 : FVec F S1x392 .f32 := broadcastInDim S1x392 ![] bcast_S_S1x392 mc0                                   -- @_var's %2
  let mv3 : FVec F S1x392 .f32 := Host.divf mv1 mv2                                                              -- @_var's %3
  let mv4 : FVec F S1024x392 .f32 := broadcastInDim S1024x392 ![0, 1] bcast_S1x392_S1024x392_0_1 mv3             -- @_var's %4
  let mv5 : FVec F S1024x392 .f32 := subf h mv4                                                                  -- @_var's %5
  let mv6 : FVec F S1024x392 .f32 := mulf mv5 mv5                                                                -- @_var's %6
  let mv7 : FVec F S_ .f32 := sitofp .f32 zi                                                                     -- @_var's %7
  let mc1 : FVec F S_ .f32 := constant S_ .f32 0x44800000#32                                                     -- @_var's %cst_1
  let mv8 : FVec F S_ .f32 := subf mc1 mv7                                                                       -- @_var's %8
  let mc2 : FVec F S_ .f32 := constant S_ .f32 0x00000000#32                                                     -- @_var's %cst_2
  let mv9 : FVec F S392 .f32 := Host.reduceAdd mv6 mc2 reducesTo_S1024x392_S392_d0 h_S_                          -- @_var's %9
  let mv10 : FVec F S392 .f32 := broadcastInDim S392 ![] bcast_S_S392 mv8                                        -- @_var's %10
  let mv11 : FVec F S392 .f32 := Host.divf mv9 mv10                                                              -- @_var's %11
  let mc3 : FVec F S_ .f32 := constant S_ .f32 0x00000000#32                                                     -- @_var's %cst_3
  let mv12 : IVec S_ 1 := cmpf .ogt mv8 mc3                                                                      -- @_var's %12
  let mc4 : FVec F S_ .f32 := constant S_ .f32 0x7FC00000#32                                                     -- @_var's %cst_4
  let mwv0 : FVec F S_ .f32 := id mc4                                                                            -- @_where (called at @_var's %13)'s %0
  let mwv1 : FVec F S392 .f32 := broadcastInDim S392 ![] bcast_S_S392 mwv0                                       -- @_where (called at @_var's %13)'s %1
  let v18 : FVec F S392 .f32 := select (broadcastInDim S392 ![] bcast_S_S392 mv12) mv11 mwv1                     -- @_where (called at @_var's %13)'s %2, which is @main's %18
  v18

/-- @main's %19 … %34, @relu inlined: `max (g · (h − μ) / √(v + ε) + b) 0`, the mean `μ` and the variance `v` given. -/
def hN1 (h : FVec F S1024x392 .f32) (μ v g b : FVec F S392 .f32) : FVec F S1024x392 .f32 :=
  let v19 : FVec F S1x392 .f32 := broadcastInDim S1x392 ![1] bcast_S392_S1x392_1 μ                               -- %19
  let v20 : FVec F S1024x392 .f32 := broadcastInDim S1024x392 ![0, 1] bcast_S1x392_S1024x392_0_1 v19             -- %20
  let v21 : FVec F S1024x392 .f32 := subf h v20                                                                  -- %21
  let v22 : FVec F S1x392 .f32 := broadcastInDim S1x392 ![1] bcast_S392_S1x392_1 g                               -- %22
  let v23 : FVec F S1024x392 .f32 := broadcastInDim S1024x392 ![0, 1] bcast_S1x392_S1024x392_0_1 v22             -- %23
  let v24 : FVec F S1024x392 .f32 := mulf v23 v21                                                                -- %24
  let c5 : FVec F S_ .f32 := constant S_ .f32 0x3727C5AC#32                                                      -- %cst_5
  let v25 : FVec F S392 .f32 := broadcastInDim S392 ![] bcast_S_S392 c5                                          -- %25
  let v26 : FVec F S392 .f32 := addf v v25                                                                       -- %26
  let v27 : FVec F S392 .f32 := Host.sqrt v26                                                                    -- %27
  let v28 : FVec F S1x392 .f32 := broadcastInDim S1x392 ![1] bcast_S392_S1x392_1 v27                             -- %28
  let v29 : FVec F S1024x392 .f32 := broadcastInDim S1024x392 ![0, 1] bcast_S1x392_S1024x392_0_1 v28             -- %29
  let v30 : FVec F S1024x392 .f32 := Host.divf v24 v29                                                           -- %30
  let v31 : FVec F S1x392 .f32 := broadcastInDim S1x392 ![1] bcast_S392_S1x392_1 b                               -- %31
  let v32 : FVec F S1024x392 .f32 := broadcastInDim S1024x392 ![0, 1] bcast_S1x392_S1024x392_0_1 v31             -- %32
  let v33 : FVec F S1024x392 .f32 := addf v30 v32                                                                -- %33
  let rc : FVec F S_ .f32 := constant S_ .f32 0x00000000#32                                                      -- @relu's %cst
  let rv0 : FVec F S1024x392 .f32 := broadcastInDim S1024x392 ![] bcast_S_S1024x392 rc                           -- @relu's %0
  let v34 : FVec F S1024x392 .f32 := maximumf v33 rv0                                                            -- @relu's %1, which is @main's %34
  v34

/-- layer 1 as printed: @main's %0 … %34 (with @_var = main_call0, @_where = main_call0_call0 and @relu = main_call1 inlined): from X, W1, g1, b1 to relu(batchnorm(euclid_fc(X, W1))). The four stretches above, in the program's order: each repeats its statements' printed functions one by one. -/
def hL1 (x : FVec F S1024x784 .f32) (w : FVec F S784x392 .f32) (g b : FVec F S392 .f32) : FVec F S1024x392 .f32 :=
  let h := hE1 x w
  hN1 h (hM1 h) (hV1 h) g b

end Layer1

section Layer1Ideal

/-- The product of the layer's two matrices at (r, j): the sum over the contracted coordinate. -/
theorem dot1_apply (x : FVec Ideal S1024x784 .f32) (w : FVec Ideal S784x392 .f32) (r : Fin 1024) (j : Fin 392) :
    Host.dotGeneral (F := Ideal) dot_S1024x784_S784x392_S1024x392_1_0_0_1_n_n none x w (ix2 r j) = ∑ k : Fin 784, x (ix2 r k) * w (ix2 k j) :=
  StackMember.dotGeneral_plain_apply none x w r j

/-- The pre-activation at (r, j) is `Spec.euclid` of the two arrays there. -/
theorem hE1_apply (x : FVec Ideal S1024x784 .f32) (w : FVec Ideal S784x392 .f32) (r : Fin 1024) (j : Fin 392) :
    hE1 (F := Ideal) x w (ix2 r j) = Spec.euclid (Out.m2 x) (Out.m2 w) r j := by
  unfold hE1
  simp only [mulf_apply, addf_apply, subf_apply, broadcastInDim_scalar_apply bcast_S_S1024x392, constant_apply, bcast_cols_apply bcast_S1024x1_S1024x392_0_1,
    bcast_col_apply bcast_S1024_S1024x1_0, bcast_rows_apply bcast_S392_S1x392_1 bcast_S1x392_S1024x392_0_1, reduce_rows_apply reducesTo_S1024x784_S1024_d1 h_S_, reduce_cols_apply reducesTo_S784x392_S392_d0 h_S_,
    dot1_apply, Ideal.ofBits_zero_f32, zero_add]
  rfl

/-- As arrays of two coordinates. -/
theorem m2_hE1 (x : FVec Ideal S1024x784 .f32) (w : FVec Ideal S784x392 .f32) :
    Out.m2 (hE1 (F := Ideal) x w) = Spec.euclid (Out.m2 x) (Out.m2 w) :=
  funext fun r => funext fun j => hE1_apply x w r j

/-- The batch mean at column j is `Spec.colMean` there. -/
theorem hM1_apply (h : FVec Ideal S1024x392 .f32) (j : Fin 392) :
    hM1 (F := Ideal) h (ix1 j) = Spec.colMean (Out.m2 h) j := by
  unfold hM1
  simp only [hostDivf_apply, broadcastInDim_scalar_apply bcast_S_S392, constant_apply, reduce_cols_apply reducesTo_S1024x392_S392_d0 h_S_, Ideal.ofBits_zero_f32, zero_add]
  rfl

/-- The batch variance at column j is `Spec.colVar` there: the count `1024 − 0` is 1024 and above zero, so the select keeps the quotient. -/
theorem hV1_apply (h : FVec Ideal S1024x392 .f32) (j : Fin 392) :
    hV1 (F := Ideal) h (ix1 j) = Spec.colVar (Out.m2 h) j := by
  unfold hV1
  simp only [select_apply, cmpf_apply, hostDivf_apply, mulf_apply, subf_apply, sitofp_apply, constantI_apply,
    broadcastInDim_scalar_apply bcast_S_S392, broadcastInDim_scalar_apply bcast_S_S1x392, constant_apply, broadcastInDim_oneRow_apply bcast_S1x392_S1024x392_0_1,
    bcast_row_apply bcast_S392_S1x392_1, reduce_cols_apply reducesTo_S1024x392_S392_d0 h_S_, count_gt_zero, count_sub_zero, select_one, Ideal.ofBits_zero_f32, zero_add]
  rfl

/-- The normalisation, scale, shift and rectifier at (r, j), the mean and the variance given. -/
theorem hN1_apply (h : FVec Ideal S1024x392 .f32) (μ v g b : FVec Ideal S392 .f32) (r : Fin 1024) (j : Fin 392) :
    hN1 (F := Ideal) h μ v g b (ix2 r j)
      = max (Ideal.div (g (ix1 j) * (h (ix2 r j) - μ (ix1 j))) (Ideal.sqrt (v (ix1 j) + Spec.cEps)) + b (ix1 j)) 0 := by
  unfold hN1
  simp only [maximumf_apply, addf_apply, hostDivf_apply, mulf_apply, subf_apply, hostSqrt_apply, broadcastInDim_scalar_apply bcast_S_S392,
    broadcastInDim_scalar_apply bcast_S_S1024x392, constant_apply, bcast_rows_apply bcast_S392_S1x392_1 bcast_S1x392_S1024x392_0_1, Ideal.ofBits_zero_f32]
  rfl

/-- The first layer of the reference at (r, j). -/
theorem hL1_apply (x : FVec Ideal S1024x784 .f32) (w : FVec Ideal S784x392 .f32) (g b : FVec Ideal S392 .f32) (r : Fin 1024) (j : Fin 392) :
    hL1 (F := Ideal) x w g b (ix2 r j) = Spec.relu (Spec.bnR (Spec.euclid (Out.m2 x) (Out.m2 w)) (Out.m1 g) (Out.m1 b)) r j := by
  show hN1 (hE1 x w) (hM1 (hE1 x w)) (hV1 (hE1 x w)) g b (ix2 r j) = _
  rw [hN1_apply, hM1_apply, hV1_apply, m2_hE1, hE1_apply]
  rfl

end Layer1Ideal

/-! ## Layer 2 -/

section Layer2
variable {F : FTy → Type} [FloatOps F]

/-- @main's %35 … %49: the pre-activation, minus half the squared distance of every row of `x` to every column of `w`. -/
def hE2 (x : FVec F S1024x392 .f32) (w : FVec F S392x8 .f32) : FVec F S1024x8 .f32 :=
  let v35 : FVec F S1024x392 .f32 := mulf x x                                                                    -- %35
  let c6 : FVec F S_ .f32 := constant S_ .f32 0x00000000#32                                                      -- %cst_6
  let v36 : FVec F S1024 .f32 := Host.reduceAdd v35 c6 reducesTo_S1024x392_S1024_d1 h_S_                         -- %36
  let v37 : FVec F S1024x1 .f32 := broadcastInDim S1024x1 ![0] bcast_S1024_S1024x1_0 v36                         -- %37
  let v38 : FVec F S392x8 .f32 := mulf w w                                                                       -- %38
  let c7 : FVec F S_ .f32 := constant S_ .f32 0x00000000#32                                                      -- %cst_7
  let v39 : FVec F S8 .f32 := Host.reduceAdd v38 c7 reducesTo_S392x8_S8_d0 h_S_                                  -- %39
  let v40 : FVec F S1024x8 .f32 := Host.dotGeneral dot_S1024x392_S392x8_S1024x8_1_0_0_1_n_n none x w             -- %40
  let c8 : FVec F S_ .f32 := constant S_ .f32 0x40000000#32                                                      -- %cst_8
  let v41 : FVec F S1024x8 .f32 := broadcastInDim S1024x8 ![] bcast_S_S1024x8 c8                                 -- %41
  let v42 : FVec F S1024x8 .f32 := mulf v41 v40                                                                  -- %42
  let v43 : FVec F S1024x8 .f32 := broadcastInDim S1024x8 ![0, 1] bcast_S1024x1_S1024x8_0_1 v37                  -- %43
  let v44 : FVec F S1024x8 .f32 := subf v43 v42                                                                  -- %44
  let v45 : FVec F S1x8 .f32 := broadcastInDim S1x8 ![1] bcast_S8_S1x8_1 v39                                     -- %45
  let v46 : FVec F S1024x8 .f32 := broadcastInDim S1024x8 ![0, 1] bcast_S1x8_S1024x8_0_1 v45                     -- %46
  let v47 : FVec F S1024x8 .f32 := addf v44 v46                                                                  -- %47
  let c9 : FVec F S_ .f32 := constant S_ .f32 0xBF000000#32                                                      -- %cst_9
  let v48 : FVec F S1024x8 .f32 := broadcastInDim S1024x8 ![] bcast_S_S1024x8 c9                                 -- %48
  let v49 : FVec F S1024x8 .f32 := mulf v48 v47                                                                  -- %49
  v49

/-- @main's %cst_10 … %52: the batch mean of every column of the pre-activation `h`. -/
def hM2 (h : FVec F S1024x8 .f32) : FVec F S8 .f32 :=
  let c10 : FVec F S_ .f32 := constant S_ .f32 0x00000000#32                                                     -- %cst_10
  let v50 : FVec F S8 .f32 := Host.reduceAdd h c10 reducesTo_S1024x8_S8_d0 h_S_                                  -- %50
  let c11 : FVec F S_ .f32 := constant S_ .f32 0x44800000#32                                                     -- %cst_11
  let v51 : FVec F S8 .f32 := broadcastInDim S8 ![] bcast_S_S8 c11                                               -- %51
  let v52 : FVec F S8 .f32 := Host.divf v50 v51                                                                  -- %52
  v52

/-- @main's %c_12 and %53, the call of @_var_0 with @_where_1 inlined: the biased batch variance of every column of `h`, about a mean computed again. -/
def hV2 (h : FVec F S1024x8 .f32) : FVec F S8 .f32 :=
  let zi12 : IVec S_ 32 := constantI S_ 32 0#32                                                                  -- %c_12
  let mc : FVec F S_ .f32 := constant S_ .f32 0x00000000#32                                                      -- @_var_0's %cst
  let mv0 : FVec F S8 .f32 := Host.reduceAdd h mc reducesTo_S1024x8_S8_d0 h_S_                                   -- @_var_0's %0
  let mv1 : FVec F S1x8 .f32 := broadcastInDim S1x8 ![1] bcast_S8_S1x8_1 mv0                                     -- @_var_0's %1
  let mc0 : FVec F S_ .f32 := constant S_ .f32 0x44800000#32                                                     -- @_var_0's %cst_0
  let mv2 : FVec F S1x8 .f32 := broadcastInDim S1x8 ![] bcast_S_S1x8 mc0                                         -- @_var_0's %2
  let mv3 : FVec F S1x8 .f32 := Host.divf mv1 mv2                                                                -- @_var_0's %3
  let mv4 : FVec F S1024x8 .f32 := broadcastInDim S1024x8 ![0, 1] bcast_S1x8_S1024x8_0_1 mv3                     -- @_var_0's %4
  let mv5 : FVec F S1024x8 .f32 := subf h mv4                                                                    -- @_var_0's %5
  let mv6 : FVec F S1024x8 .f32 := mulf mv5 mv5                                                                  -- @_var_0's %6
  let mv7 : FVec F S_ .f32 := sitofp .f32 zi12                                                                   -- @_var_0's %7
  let mc1 : FVec F S_ .f32 := constant S_ .f32 0x44800000#32                                                     -- @_var_0's %cst_1
  let mv8 : FVec F S_ .f32 := subf mc1 mv7                                                                       -- @_var_0's %8
  let mc2 : FVec F S_ .f32 := constant S_ .f32 0x00000000#32                                                     -- @_var_0's %cst_2
  let mv9 : FVec F S8 .f32 := Host.reduceAdd mv6 mc2 reducesTo_S1024x8_S8_d0 h_S_                                -- @_var_0's %9
  let mv10 : FVec F S8 .f32 := broadcastInDim S8 ![] bcast_S_S8 mv8                                              -- @_var_0's %10
  let mv11 : FVec F S8 .f32 := Host.divf mv9 mv10                                                                -- @_var_0's %11
  let mc3 : FVec F S_ .f32 := constant S_ .f32 0x00000000#32                                                     -- @_var_0's %cst_3
  let mv12 : IVec S_ 1 := cmpf .ogt mv8 mc3                                                                      -- @_var_0's %12
  let mc4 : FVec F S_ .f32 := constant S_ .f32 0x7FC00000#32                                                     -- @_var_0's %cst_4
  let mwv0 : FVec F S_ .f32 := id mc4                                                                            -- @_where_1 (called at @_var_0's %13)'s %0
  let mwv1 : FVec F S8 .f32 := broadcastInDim S8 ![] bcast_S_S8 mwv0                                             -- @_where_1 (called at @_var_0's %13)'s %1
  let v53 : FVec F S8 .f32 := select (broadcastInDim S8 ![] bcast_S_S8 mv12) mv11 mwv1                           -- @_where_1 (called at @_var_0's %13)'s %2, which is @main's %53
  v53

/-- @main's %54 … %69, @relu_2 inlined: `max (g · (h − μ) / √(v + ε) + b) 0`, the mean `μ` and the variance `v` given. -/
def hN2 (h : FVec F S1024x8 .f32) (μ v g b : FVec F S8 .f32) : FVec F S1024x8 .f32 :=
  let v54 : FVec F S1x8 .f32 := broadcastInDim S1x8 ![1] bcast_S8_S1x8_1 μ                                       -- %54
  let v55 : FVec F S1024x8 .f32 := broadcastInDim S1024x8 ![0, 1] bcast_S1x8_S1024x8_0_1 v54                     -- %55
  let v56 : FVec F S1024x8 .f32 := subf h v55                                                                    -- %56
  let v57 : FVec F S1x8 .f32 := broadcastInDim S1x8 ![1] bcast_S8_S1x8_1 g                                       -- %57
  let v58 : FVec F S1024x8 .f32 := broadcastInDim S1024x8 ![0, 1] bcast_S1x8_S1024x8_0_1 v57                     -- %58
  let v59 : FVec F S1024x8 .f32 := mulf v58 v56                                                                  -- %59
  let c13 : FVec F S_ .f32 := constant S_ .f32 0x3727C5AC#32                                                     -- %cst_13
  let v60 : FVec F S8 .f32 := broadcastInDim S8 ![] bcast_S_S8 c13                                               -- %60
  let v61 : FVec F S8 .f32 := addf v v60                                                                         -- %61
  let v62 : FVec F S8 .f32 := Host.sqrt v61                                                                      -- %62
  let v63 : FVec F S1x8 .f32 := broadcastInDim S1x8 ![1] bcast_S8_S1x8_1 v62                                     -- %63
  let v64 : FVec F S1024x8 .f32 := broadcastInDim S1024x8 ![0, 1] bcast_S1x8_S1024x8_0_1 v63                     -- %64
  let v65 : FVec F S1024x8 .f32 := Host.divf v59 v64                                                             -- %65
  let v66 : FVec F S1x8 .f32 := broadcastInDim S1x8 ![1] bcast_S8_S1x8_1 b                                       -- %66
  let v67 : FVec F S1024x8 .f32 := broadcastInDim S1024x8 ![0, 1] bcast_S1x8_S1024x8_0_1 v66                     -- %67
  let v68 : FVec F S1024x8 .f32 := addf v65 v67                                                                  -- %68
  let rc : FVec F S_ .f32 := constant S_ .f32 0x00000000#32                                                      -- @relu_2's %cst
  let rv0 : FVec F S1024x8 .f32 := broadcastInDim S1024x8 ![] bcast_S_S1024x8 rc                                 -- @relu_2's %0
  let v69 : FVec F S1024x8 .f32 := maximumf v68 rv0                                                              -- @relu_2's %1, which is @main's %69
  v69

/-- layer 2 as printed: @main's %35 … %69 (main_call2, main_call2_call0, main_call3): from the first layer's output (main_v34), W2, g2, b2. The four stretches above, in the program's order: each repeats its statements' printed functions one by one. -/
def hL2 (x : FVec F S1024x392 .f32) (w : FVec F S392x8 .f32) (g b : FVec F S8 .f32) : FVec F S1024x8 .f32 :=
  let h := hE2 x w
  hN2 h (hM2 h) (hV2 h) g b

end Layer2

section Layer2Ideal

/-- The product of the layer's two matrices at (r, j): the sum over the contracted coordinate. -/
theorem dot2_apply (x : FVec Ideal S1024x392 .f32) (w : FVec Ideal S392x8 .f32) (r : Fin 1024) (j : Fin 8) :
    Host.dotGeneral (F := Ideal) dot_S1024x392_S392x8_S1024x8_1_0_0_1_n_n none x w (ix2 r j) = ∑ k : Fin 392, x (ix2 r k) * w (ix2 k j) :=
  StackMember.dotGeneral_plain_apply none x w r j

/-- The pre-activation at (r, j) is `Spec.euclid` of the two arrays there. -/
theorem hE2_apply (x : FVec Ideal S1024x392 .f32) (w : FVec Ideal S392x8 .f32) (r : Fin 1024) (j : Fin 8) :
    hE2 (F := Ideal) x w (ix2 r j) = Spec.euclid (Out.m2 x) (Out.m2 w) r j := by
  unfold hE2
  simp only [mulf_apply, addf_apply, subf_apply, broadcastInDim_scalar_apply bcast_S_S1024x8, constant_apply, bcast_cols_apply bcast_S1024x1_S1024x8_0_1,
    bcast_col_apply bcast_S1024_S1024x1_0, bcast_rows_apply bcast_S8_S1x8_1 bcast_S1x8_S1024x8_0_1, reduce_rows_apply reducesTo_S1024x392_S1024_d1 h_S_, reduce_cols_apply reducesTo_S392x8_S8_d0 h_S_,
    dot2_apply, Ideal.ofBits_zero_f32, zero_add]
  rfl

/-- As arrays of two coordinates. -/
theorem m2_hE2 (x : FVec Ideal S1024x392 .f32) (w : FVec Ideal S392x8 .f32) :
    Out.m2 (hE2 (F := Ideal) x w) = Spec.euclid (Out.m2 x) (Out.m2 w) :=
  funext fun r => funext fun j => hE2_apply x w r j

/-- The batch mean at column j is `Spec.colMean` there. -/
theorem hM2_apply (h : FVec Ideal S1024x8 .f32) (j : Fin 8) :
    hM2 (F := Ideal) h (ix1 j) = Spec.colMean (Out.m2 h) j := by
  unfold hM2
  simp only [hostDivf_apply, broadcastInDim_scalar_apply bcast_S_S8, constant_apply, reduce_cols_apply reducesTo_S1024x8_S8_d0 h_S_, Ideal.ofBits_zero_f32, zero_add]
  rfl

/-- The batch variance at column j is `Spec.colVar` there: the count `1024 − 0` is 1024 and above zero, so the select keeps the quotient. -/
theorem hV2_apply (h : FVec Ideal S1024x8 .f32) (j : Fin 8) :
    hV2 (F := Ideal) h (ix1 j) = Spec.colVar (Out.m2 h) j := by
  unfold hV2
  simp only [select_apply, cmpf_apply, hostDivf_apply, mulf_apply, subf_apply, sitofp_apply, constantI_apply,
    broadcastInDim_scalar_apply bcast_S_S8, broadcastInDim_scalar_apply bcast_S_S1x8, constant_apply, broadcastInDim_oneRow_apply bcast_S1x8_S1024x8_0_1,
    bcast_row_apply bcast_S8_S1x8_1, reduce_cols_apply reducesTo_S1024x8_S8_d0 h_S_, count_gt_zero, count_sub_zero, select_one, Ideal.ofBits_zero_f32, zero_add]
  rfl

/-- The normalisation, scale, shift and rectifier at (r, j), the mean and the variance given. -/
theorem hN2_apply (h : FVec Ideal S1024x8 .f32) (μ v g b : FVec Ideal S8 .f32) (r : Fin 1024) (j : Fin 8) :
    hN2 (F := Ideal) h μ v g b (ix2 r j)
      = max (Ideal.div (g (ix1 j) * (h (ix2 r j) - μ (ix1 j))) (Ideal.sqrt (v (ix1 j) + Spec.cEps)) + b (ix1 j)) 0 := by
  unfold hN2
  simp only [maximumf_apply, addf_apply, hostDivf_apply, mulf_apply, subf_apply, hostSqrt_apply, broadcastInDim_scalar_apply bcast_S_S8,
    broadcastInDim_scalar_apply bcast_S_S1024x8, constant_apply, bcast_rows_apply bcast_S8_S1x8_1 bcast_S1x8_S1024x8_0_1, Ideal.ofBits_zero_f32]
  rfl

/-- The second layer of the reference at (r, j). -/
theorem hL2_apply (x : FVec Ideal S1024x392 .f32) (w : FVec Ideal S392x8 .f32) (g b : FVec Ideal S8 .f32) (r : Fin 1024) (j : Fin 8) :
    hL2 (F := Ideal) x w g b (ix2 r j) = Spec.relu (Spec.bnR (Spec.euclid (Out.m2 x) (Out.m2 w)) (Out.m1 g) (Out.m1 b)) r j := by
  show hN2 (hE2 x w) (hM2 (hE2 x w)) (hV2 (hE2 x w)) g b (ix2 r j) = _
  rw [hN2_apply, hM2_apply, hV2_apply, m2_hE2, hE2_apply]
  rfl

end Layer2Ideal

/-! ## The two layers in the program's run

`after ops V` is what the buffers hold once @main's operations have run from the contents `V`. Every buffer is written by
one operation, so a layer's last buffer is the layer's function of the buffers it reads: the first layer's of the four
argument arrays, the second's of the first layer's last buffer and its own three argument arrays. The list is read chunk
by chunk (`after_ops`), the contents before a chunk arbitrary. -/

section Run
variable {F : FTy → Type} [FloatOps F]

/-! ### Buffers a chunk does not write -/

theorem arg2_ops0 (V : Valuation τ sig (Elt F)) : after ops0 V (main_arg2 : DevRef τ sig) = V main_arg2 := by after_results_simp
theorem arg3_ops0 (V : Valuation τ sig (Elt F)) : after ops0 V (main_arg3 : DevRef τ sig) = V main_arg3 := by after_results_simp
theorem arg4_ops0 (V : Valuation τ sig (Elt F)) : after ops0 V (main_arg4 : DevRef τ sig) = V main_arg4 := by after_results_simp
theorem arg5_ops0 (V : Valuation τ sig (Elt F)) : after ops0 V (main_arg5 : DevRef τ sig) = V main_arg5 := by after_results_simp
theorem arg6_ops0 (V : Valuation τ sig (Elt F)) : after ops0 V (main_arg6 : DevRef τ sig) = V main_arg6 := by after_results_simp
theorem arg5_ops1 (V : Valuation τ sig (Elt F)) : after ops1 V (main_arg5 : DevRef τ sig) = V main_arg5 := by after_results_simp
theorem arg6_ops1 (V : Valuation τ sig (Elt F)) : after ops1 V (main_arg6 : DevRef τ sig) = V main_arg6 := by after_results_simp
theorem v34_ops2 (V : Valuation τ sig (Elt F)) : after ops2 V (main_v34 : DevRef τ sig) = V main_v34 := by after_results_simp
theorem v34_ops3 (V : Valuation τ sig (Elt F)) : after ops3 V (main_v34 : DevRef τ sig) = V main_v34 := by after_results_simp
theorem v34_ops4 (V : Valuation τ sig (Elt F)) : after ops4 V (main_v34 : DevRef τ sig) = V main_v34 := by after_results_simp
theorem v34_ops5 (V : Valuation τ sig (Elt F)) : after ops5 V (main_v34 : DevRef τ sig) = V main_v34 := by after_results_simp
theorem v34_ops6 (V : Valuation τ sig (Elt F)) : after ops6 V (main_v34 : DevRef τ sig) = V main_v34 := by after_results_simp
theorem v69_ops4 (V : Valuation τ sig (Elt F)) : after ops4 V (main_v69 : DevRef τ sig) = V main_v69 := by after_results_simp
theorem v69_ops5 (V : Valuation τ sig (Elt F)) : after ops5 V (main_v69 : DevRef τ sig) = V main_v69 := by after_results_simp
theorem v69_ops6 (V : Valuation τ sig (Elt F)) : after ops6 V (main_v69 : DevRef τ sig) = V main_v69 := by after_results_simp

/-- The first layer's last buffer keeps its contents from the second chunk to the end. -/
theorem v34_ops (V : Valuation τ sig (Elt F)) :
    after ops V (main_v34 : DevRef τ sig) = after ops1 (after ops0 V) (main_v34 : DevRef τ sig) := by
  rw [after_ops, v34_ops6, v34_ops5, v34_ops4, v34_ops3, v34_ops2]

/-! ### The first layer -/

theorem v14_ops0 (V : Valuation τ sig (Elt F)) :
    after ops0 V (main_v14 : DevRef τ sig) = hE1 (V main_arg0) (V main_arg1) := by
  after_results_simp
  rfl

theorem v17_ops0 (V : Valuation τ sig (Elt F)) :
    after ops0 V (main_v17 : DevRef τ sig) = hM1 (after ops0 V (main_v14 : DevRef τ sig)) := by
  after_results_simp
  rfl

theorem v18_ops0 (V : Valuation τ sig (Elt F)) :
    after ops0 V (main_v18 : DevRef τ sig) = hV1 (after ops0 V (main_v14 : DevRef τ sig)) := by
  after_results_simp
  rfl

theorem v34_ops1 (V : Valuation τ sig (Elt F)) :
    after ops1 V (main_v34 : DevRef τ sig) = hN1 (V main_v14) (V main_v17) (V main_v18) (V main_arg2) (V main_arg3) := by
  after_results_simp
  rfl

/-- The first layer's last buffer, after the whole list, is the first layer of the four argument arrays. -/
theorem stage1 (V : Valuation τ sig (Elt F)) :
    after ops V (main_v34 : DevRef τ sig) = hL1 (V main_arg0) (V main_arg1) (V main_arg2) (V main_arg3) := by
  rw [v34_ops, v34_ops1, v17_ops0, v18_ops0, v14_ops0, arg2_ops0, arg3_ops0]
  rfl

/-! ### The second layer -/

theorem v49_ops2 (V : Valuation τ sig (Elt F)) :
    after ops2 (after ops1 V) (main_v49 : DevRef τ sig) = hE2 (after ops1 V (main_v34 : DevRef τ sig)) (V main_arg4) := by
  after_results_simp
  rfl

theorem v52_ops2 (V : Valuation τ sig (Elt F)) :
    after ops2 V (main_v52 : DevRef τ sig) = hM2 (after ops2 V (main_v49 : DevRef τ sig)) := by
  after_results_simp
  rfl

theorem v53_ops2 (V : Valuation τ sig (Elt F)) :
    after ops2 V (main_v53 : DevRef τ sig) = hV2 (after ops2 V (main_v49 : DevRef τ sig)) := by
  after_results_simp
  rfl

theorem v69_ops3 (V : Valuation τ sig (Elt F)) :
    after ops3 (after ops2 V) (main_v69 : DevRef τ sig)
      = hN2 (after ops2 V (main_v49 : DevRef τ sig)) (after ops2 V (main_v52 : DevRef τ sig)) (after ops2 V (main_v53 : DevRef τ sig))
          (V main_arg5) (V main_arg6) := by
  after_results_simp
  rfl

/-- The second layer's last buffer, after the whole list, is the second layer of the first layer's last buffer (after the
    whole list) and of its three argument arrays. -/
theorem stage2 (V : Valuation τ sig (Elt F)) :
    after ops V (main_v69 : DevRef τ sig)
      = hL2 (after ops V (main_v34 : DevRef τ sig)) (V main_arg4) (V main_arg5) (V main_arg6) := by
  rw [v34_ops, after_ops, v69_ops6, v69_ops5, v69_ops4, v69_ops3, v52_ops2, v53_ops2, v49_ops2, arg4_ops0, arg5_ops1, arg6_ops1,
    arg5_ops0, arg6_ops0]
  rfl

end Run

end Cert.Proof.Ref

end
-- ==== Proof.RefL34.lean ====
/-
  Layers 3 and 4 of the reference program, as functions of their inputs, and what they compute.

  A layer of the reference is, in the program's own order: the squared norms of the rows of the input and of the
  columns of the weights, the product of the two, `−½ · ((‖x_r‖² − 2 · ⟨x_r, w_j⟩) + ‖w_j‖²)`; the column means of
  that array; its column variances, computed by a function of the program that divides the sum of the squared
  deviations by `1024 − 0` and keeps the quotient when `1024 − 0 > 0`; then `g · (h − μ) / √(v + ε) + b`, followed
  in layer 3 by the maximum with zero and in layer 4 by `1 / (1 + e^(−·))`.

  `hE3`, `var3`, `hL3` and `hE4`, `var4`, `hL4` repeat the program's pure functions statement by statement, for
  every float instance. Read at an index at the ideal values they are `Spec.euclid`, `Spec.colVar`, and the layer
  `Spec.relu (Spec.bnR (Spec.euclid · ·) · ·)`, `Spec.sigm (Spec.bnR (Spec.euclid · ·) · ·)`.

  Last, the layers in the program's run (`stage3`, `stage4`): once all of the program's operations have run, the buffer
  of %104 holds `hL3` of the buffer of %69 and of the arguments W3, g3, b3, and the buffer of %144, the result, holds
  `hL4` of the buffer of %104 and of W4, g4, b4.
-/
import proofs.«403897_j60078002536976_3_alg».proof.Proof.Out
import proofs.«403897_j60078002536976_3_alg».proof.ReferenceIdeal
import proofs.«403897_j60078002536976_3_alg».proof.Proof.RefRun
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value
import Idealize.ShloMosaic.PureOps.Ideal.Laws

noncomputable section

namespace Cert.Proof.Ref

open Cert.ReferenceIdeal Idealize.ShloMosaic Idealize.ShloMosaic.ValueIdx
open scoped BigOperators

/-! ## Reading the host operations at an index -/

namespace L34

section Kit

variable {m n : Nat}

/-- Column sums from zero: the sum over axis 0 of an [m, n] array, at column j. -/
theorem colsum_apply (h' : (⟨2, ![m, n]⟩ : Shape).ReducesTo [0] ⟨1, ![n]⟩) (hu : 0 < S_.numel)
    (x : FVec Ideal ⟨2, ![m, n]⟩ .f32) (j : Fin n) :
    Host.reduceAdd (F := Ideal) x (constant (F := Ideal) S_ .f32 0x00000000#32) h' hu (ix1 j) = ∑ k : Fin m, x (ix2 k j) := by
  have h : (⟨2, ![m, n]⟩ : Shape).Reduces [0] ⟨1, ![n]⟩ := ⟨h'.1, Nat.one_pos, h'.2⟩
  show Ideal.hostReduceAdd h' x (Ideal.ofBits .f32 0x00000000#32) (ix1 j) = _
  rw [Ideal.hostReduceAdd_single h' h, Ideal.ofBits_zero_f32, zero_add]
  refine Finset.sum_congr rfl fun k _ => congrArg x (funext fun a => Fin.ext ?_)
  match a with
  | ⟨0, _⟩ => rfl
  | ⟨1, _⟩ => rfl

/-- Row sums from zero: the sum over axis 1 of an [m, n] array, at row r. -/
theorem rowsum_apply (h' : (⟨2, ![m, n]⟩ : Shape).ReducesTo [1] ⟨1, ![m]⟩) (hu : 0 < S_.numel)
    (x : FVec Ideal ⟨2, ![m, n]⟩ .f32) (r : Fin m) :
    Host.reduceAdd (F := Ideal) x (constant (F := Ideal) S_ .f32 0x00000000#32) h' hu (ix1 r) = ∑ k : Fin n, x (ix2 r k) := by
  have h : (⟨2, ![m, n]⟩ : Shape).Reduces [1] ⟨1, ![m]⟩ := ⟨h'.1, Nat.one_pos, h'.2⟩
  show Ideal.hostReduceAdd h' x (Ideal.ofBits .f32 0x00000000#32) (ix1 r) = _
  rw [Ideal.hostReduceAdd_single h' h, Ideal.ofBits_zero_f32, zero_add]
  refine Finset.sum_congr rfl fun k _ => congrArg x (funext fun a => Fin.ext ?_)
  match a with
  | ⟨0, _⟩ => rfl
  | ⟨1, _⟩ => rfl

/- In the broadcasts below the axis map is written at the two ranks' values: `![0] : Fin 1 → Fin 2`. -/

/-- A scalar copied over an [m, n] array. -/
theorem bcast_scalar2_apply {α : Type} (h : (⟨0, ![]⟩ : Shape).BroadcastsInDim ⟨2, ![m, n]⟩ (![] : Fin 0 → Fin 2))
    (y : (⟨0, ![]⟩ : Shape).Idx → α) (i : (⟨2, ![m, n]⟩ : Shape).Idx) :
    broadcastInDim ⟨2, ![m, n]⟩ (![] : Fin 0 → Fin 2) h y i = y ix0 :=
  broadcastInDim_scalar_apply h y i

/-- A scalar copied over a vector of length n. -/
theorem bcast_scalar1_apply {α : Type} (h : (⟨0, ![]⟩ : Shape).BroadcastsInDim ⟨1, ![n]⟩ (![] : Fin 0 → Fin 1))
    (y : (⟨0, ![]⟩ : Shape).Idx → α) (i : (⟨1, ![n]⟩ : Shape).Idx) :
    broadcastInDim ⟨1, ![n]⟩ (![] : Fin 0 → Fin 1) h y i = y ix0 :=
  broadcastInDim_scalar_apply h y i

/-- A vector as a column: [m] → [m, 1] along axis 0. -/
theorem bcast_col_apply {α : Type} (h : (⟨1, ![m]⟩ : Shape).BroadcastsInDim ⟨2, ![m, 1]⟩ (![0] : Fin 1 → Fin 2))
    (y : (⟨1, ![m]⟩ : Shape).Idx → α) (r : Fin m) (c : Fin 1) :
    broadcastInDim ⟨2, ![m, 1]⟩ (![0] : Fin 1 → Fin 2) h y (ix2 r c) = y (ix1 r) := by
  refine broadcastInDim_apply ![0] h y (ix2 r c) (ix1 r) ?_
  intro a
  match a with
  | ⟨0, _⟩ =>
    show r.val = if m = 1 then 0 else r.val
    split_ifs with hm
    · have := r.isLt; omega
    · rfl

/-- A column copied along the rows: [m, 1] → [m, n] along axes 0, 1. -/
theorem bcast_colfill_apply {α : Type} (h : (⟨2, ![m, 1]⟩ : Shape).BroadcastsInDim ⟨2, ![m, n]⟩ (![0, 1] : Fin 2 → Fin 2))
    (y : (⟨2, ![m, 1]⟩ : Shape).Idx → α) (r : Fin m) (j : Fin n) :
    broadcastInDim ⟨2, ![m, n]⟩ (![0, 1] : Fin 2 → Fin 2) h y (ix2 r j) = y (ix2 r (0 : Fin 1)) := by
  refine broadcastInDim_apply ![0, 1] h y (ix2 r j) (ix2 r (0 : Fin 1)) ?_
  intro a
  match a with
  | ⟨0, _⟩ =>
    show r.val = if m = 1 then 0 else r.val
    split_ifs with hm
    · have := r.isLt; omega
    · rfl
  | ⟨1, _⟩ =>
    show (0 : ℕ) = if (1 : ℕ) = 1 then 0 else _
    simp

/-- A vector as a one-row matrix: [n] → [1, n] along axis 1. -/
theorem bcast_row_apply {α : Type} (h : (⟨1, ![n]⟩ : Shape).BroadcastsInDim ⟨2, ![1, n]⟩ (![1] : Fin 1 → Fin 2))
    (y : (⟨1, ![n]⟩ : Shape).Idx → α) (c : Fin 1) (j : Fin n) :
    broadcastInDim ⟨2, ![1, n]⟩ (![1] : Fin 1 → Fin 2) h y (ix2 c j) = y (ix1 j) := by
  refine broadcastInDim_apply ![1] h y (ix2 c j) (ix1 j) ?_
  intro a
  match a with
  | ⟨0, _⟩ =>
    show j.val = if n = 1 then 0 else j.val
    split_ifs with hn
    · have := j.isLt; omega
    · rfl

/-- A one-row matrix copied down the rows: [1, n] → [m, n] along axes 0, 1. -/
theorem bcast_rowfill_apply {α : Type} (h : (⟨2, ![1, n]⟩ : Shape).BroadcastsInDim ⟨2, ![m, n]⟩ (![0, 1] : Fin 2 → Fin 2))
    (y : (⟨2, ![1, n]⟩ : Shape).Idx → α) (r : Fin m) (j : Fin n) :
    broadcastInDim ⟨2, ![m, n]⟩ (![0, 1] : Fin 2 → Fin 2) h y (ix2 r j) = y (ix2 (0 : Fin 1) j) :=
  broadcastInDim_oneRow_apply h y r j

/-- The host's square root, negation and exponential at an index, at the ideal values. -/
theorem hostSqrt_apply {s : Shape} {φ : FTy} (a : FVec Ideal s φ) (i : s.Idx) : Host.sqrt a i = Ideal.sqrt (a i) := rfl
theorem hostNegf_apply {s : Shape} {φ : FTy} (a : FVec Ideal s φ) (i : s.Idx) : Host.negf a i = -(a i) := rfl
theorem hostExp_apply {s : Shape} {φ : FTy} (a : FVec Ideal s φ) (i : s.Idx) : Host.exp a i = Ideal.exp (a i) := rfl

/-- `1024 − 0`, the integer zero converted to a float, is the batch size. -/
theorem cN_sub_zero :
    (Ideal.ofBits .f32 0x44800000#32 : EReal) - FloatOps.sitofp (F := Ideal) .f32 (0#32 : BitVec 32) = Spec.cN := by
  show Spec.cN - (((0#32 : BitVec 32).toInt : ℝ) : EReal) = Spec.cN
  simp

/-- The batch size is above zero. -/
theorem cN_gt_zero : FloatOps.cmpf (F := Ideal) (φ := .f32) .ogt Spec.cN (Ideal.ofBits .f32 0x00000000#32) = 1#1 := by
  show Ideal.cmp .ogt Spec.cN (Ideal.ofBits .f32 0x00000000#32) = 1#1
  rw [Ideal.ofBits_zero_f32, Spec.cN_eq]
  have h : (0 : EReal) < ((1024 : ℝ) : EReal) := by exact_mod_cast (by norm_num : (0 : ℝ) < 1024)
  simp [Ideal.cmp, h]

end Kit

end L34

open L34

section Layer3

variable {F : FTy → Type} [FloatOps F] [Facts₀]
open Facts₀

/-- The pre-activation of layer 3 as printed: @main's %70 … %84, from the layer's input and its weights. -/
def hE3 (x : FVec F S1024x8 .f32) (w : FVec F S8x392 .f32) : FVec F S1024x392 .f32 :=
  let v70 : FVec F S1024x8 .f32 := mulf x x                                                                  -- %70
  let c14 : FVec F S_ .f32 := constant S_ .f32 0x00000000#32                                                 -- %cst_14
  let v71 : FVec F S1024 .f32 := Host.reduceAdd v70 c14 reducesTo_S1024x8_S1024_d1 h_S_                      -- %71
  let v72 : FVec F S1024x1 .f32 := broadcastInDim S1024x1 ![0] bcast_S1024_S1024x1_0 v71                     -- %72
  let v73 : FVec F S8x392 .f32 := mulf w w                                                                   -- %73
  let c15 : FVec F S_ .f32 := constant S_ .f32 0x00000000#32                                                 -- %cst_15
  let v74 : FVec F S392 .f32 := Host.reduceAdd v73 c15 reducesTo_S8x392_S392_d0 h_S_                         -- %74
  let v75 : FVec F S1024x392 .f32 := Host.dotGeneral dot_S1024x8_S8x392_S1024x392_1_0_0_1_n_n none x w       -- %75
  let c16 : FVec F S_ .f32 := constant S_ .f32 0x40000000#32                                                 -- %cst_16
  let v76 : FVec F S1024x392 .f32 := broadcastInDim S1024x392 ![] bcast_S_S1024x392 c16                      -- %76
  let v77 : FVec F S1024x392 .f32 := mulf v76 v75                                                            -- %77
  let v78 : FVec F S1024x392 .f32 := broadcastInDim S1024x392 ![0, 1] bcast_S1024x1_S1024x392_0_1 v72        -- %78
  let v79 : FVec F S1024x392 .f32 := subf v78 v77                                                            -- %79
  let v80 : FVec F S1x392 .f32 := broadcastInDim S1x392 ![1] bcast_S392_S1x392_1 v74                         -- %80
  let v81 : FVec F S1024x392 .f32 := broadcastInDim S1024x392 ![0, 1] bcast_S1x392_S1024x392_0_1 v80         -- %81
  let v82 : FVec F S1024x392 .f32 := addf v79 v81                                                            -- %82
  let c17 : FVec F S_ .f32 := constant S_ .f32 0xBF000000#32                                                 -- %cst_17
  let v83 : FVec F S1024x392 .f32 := broadcastInDim S1024x392 ![] bcast_S_S1024x392 c17                      -- %83
  mulf v83 v82                                                                                               -- %84

/-- The program's @_var at the shapes of layer 3 (the call main_call4), with its call of @_where (main_call4_call0)
    in place: from an array and an integer scalar, the array's column variances. -/
def var3 (h : FVec F S1024x392 .f32) (c : IVec S_ 32) : FVec F S392 .f32 :=
  let cst : FVec F S_ .f32 := constant S_ .f32 0x00000000#32                                                 -- @_var's %cst
  let v0 : FVec F S392 .f32 := Host.reduceAdd h cst reducesTo_S1024x392_S392_d0 h_S_                         -- @_var's %0
  let v1 : FVec F S1x392 .f32 := broadcastInDim S1x392 ![1] bcast_S392_S1x392_1 v0                           -- @_var's %1
  let cst_0 : FVec F S_ .f32 := constant S_ .f32 0x44800000#32                                               -- @_var's %cst_0
  let v2 : FVec F S1x392 .f32 := broadcastInDim S1x392 ![] bcast_S_S1x392 cst_0                              -- @_var's %2
  let v3 : FVec F S1x392 .f32 := Host.divf v1 v2                                                             -- @_var's %3
  let v4 : FVec F S1024x392 .f32 := broadcastInDim S1024x392 ![0, 1] bcast_S1x392_S1024x392_0_1 v3           -- @_var's %4
  let v5 : FVec F S1024x392 .f32 := subf h v4                                                                -- @_var's %5
  let v6 : FVec F S1024x392 .f32 := mulf v5 v5                                                               -- @_var's %6
  let v7 : FVec F S_ .f32 := sitofp .f32 c                                                                   -- @_var's %7
  let cst_1 : FVec F S_ .f32 := constant S_ .f32 0x44800000#32                                               -- @_var's %cst_1
  let v8 : FVec F S_ .f32 := subf cst_1 v7                                                                   -- @_var's %8
  let cst_2 : FVec F S_ .f32 := constant S_ .f32 0x00000000#32                                               -- @_var's %cst_2
  let v9 : FVec F S392 .f32 := Host.reduceAdd v6 cst_2 reducesTo_S1024x392_S392_d0 h_S_                      -- @_var's %9
  let v10 : FVec F S392 .f32 := broadcastInDim S392 ![] bcast_S_S392 v8                                      -- @_var's %10
  let v11 : FVec F S392 .f32 := Host.divf v9 v10                                                             -- @_var's %11
  let cst_3 : FVec F S_ .f32 := constant S_ .f32 0x00000000#32                                               -- @_var's %cst_3
  let v12 : IVec S_ 1 := cmpf .ogt v8 cst_3                                                                  -- @_var's %12
  let cst_4 : FVec F S_ .f32 := constant S_ .f32 0x7FC00000#32                                               -- @_var's %cst_4
  let w0 : FVec F S_ .f32 := id cst_4                                                                        -- @_where's %0
  let w1 : FVec F S392 .f32 := broadcastInDim S392 ![] bcast_S_S392 w0                                       -- @_where's %1
  select (broadcastInDim S392 ![] bcast_S_S392 v12) v11 w1                                                   -- @_where's %2 = @_var's %13

/-- Layer 3 as printed: @main's %70 … %104 (the calls main_call4 = @_var at the shapes of layer 3, its
    main_call4_call0 = @_where, and main_call5 = @relu): from main_v69, W3, g3, b3. -/
def hL3 (x : FVec F S1024x8 .f32) (w : FVec F S8x392 .f32) (g b : FVec F S392 .f32) : FVec F S1024x392 .f32 :=
  let v84 : FVec F S1024x392 .f32 := hE3 x w                                                                 -- %70 … %84
  let c18 : FVec F S_ .f32 := constant S_ .f32 0x00000000#32                                                 -- %cst_18
  let v85 : FVec F S392 .f32 := Host.reduceAdd v84 c18 reducesTo_S1024x392_S392_d0 h_S_                      -- %85
  let c19 : FVec F S_ .f32 := constant S_ .f32 0x44800000#32                                                 -- %cst_19
  let v86 : FVec F S392 .f32 := broadcastInDim S392 ![] bcast_S_S392 c19                                     -- %86
  let v87 : FVec F S392 .f32 := Host.divf v85 v86                                                            -- %87
  let c20 : IVec S_ 32 := constantI S_ 32 0#32                                                               -- %c_20
  let v88 : FVec F S392 .f32 := var3 v84 c20                                                                 -- %88 = @_var(%84, %c_20)
  let v89 : FVec F S1x392 .f32 := broadcastInDim S1x392 ![1] bcast_S392_S1x392_1 v87                         -- %89
  let v90 : FVec F S1024x392 .f32 := broadcastInDim S1024x392 ![0, 1] bcast_S1x392_S1024x392_0_1 v89         -- %90
  let v91 : FVec F S1024x392 .f32 := subf v84 v90                                                            -- %91
  let v92 : FVec F S1x392 .f32 := broadcastInDim S1x392 ![1] bcast_S392_S1x392_1 g                           -- %92
  let v93 : FVec F S1024x392 .f32 := broadcastInDim S1024x392 ![0, 1] bcast_S1x392_S1024x392_0_1 v92         -- %93
  let v94 : FVec F S1024x392 .f32 := mulf v93 v91                                                            -- %94
  let c21 : FVec F S_ .f32 := constant S_ .f32 0x3727C5AC#32                                                 -- %cst_21
  let v95 : FVec F S392 .f32 := broadcastInDim S392 ![] bcast_S_S392 c21                                     -- %95
  let v96 : FVec F S392 .f32 := addf v88 v95                                                                 -- %96
  let v97 : FVec F S392 .f32 := Host.sqrt v96                                                                -- %97
  let v98 : FVec F S1x392 .f32 := broadcastInDim S1x392 ![1] bcast_S392_S1x392_1 v97                         -- %98
  let v99 : FVec F S1024x392 .f32 := broadcastInDim S1024x392 ![0, 1] bcast_S1x392_S1024x392_0_1 v98         -- %99
  let v100 : FVec F S1024x392 .f32 := Host.divf v94 v99                                                      -- %100
  let v101 : FVec F S1x392 .f32 := broadcastInDim S1x392 ![1] bcast_S392_S1x392_1 b                          -- %101
  let v102 : FVec F S1024x392 .f32 := broadcastInDim S1024x392 ![0, 1] bcast_S1x392_S1024x392_0_1 v101       -- %102
  let v103 : FVec F S1024x392 .f32 := addf v100 v102                                                         -- %103
  let r_cst : FVec F S_ .f32 := constant S_ .f32 0x00000000#32                                               -- @relu's %cst
  let r0 : FVec F S1024x392 .f32 := broadcastInDim S1024x392 ![] bcast_S_S1024x392 r_cst                     -- @relu's %0
  maximumf v103 r0                                                                                           -- %104 = @relu's %1

end Layer3

section Layer3Ideal

variable [Facts₀]
open Facts₀

/-- The product of a [1024, 8] by an [8, 392] matrix at (r, j). -/
theorem dot3_apply (A : FVec Ideal S1024x8 .f32) (B : FVec Ideal S8x392 .f32) (r : Fin 1024) (j : Fin 392) :
    Host.dotGeneral (F := Ideal) dot_S1024x8_S8x392_S1024x392_1_0_0_1_n_n none A B (ix2 r j)
      = ∑ c : Fin 8, A (ix2 r c) * B (ix2 c j) :=
  StackMember.dotGeneral_plain_apply none A B r j

/-- The pre-activation of layer 3 at (r, j): minus half the squared distance, expanded. -/
theorem hE3_apply (x : FVec Ideal S1024x8 .f32) (w : FVec Ideal S8x392 .f32) (r : Fin 1024) (j : Fin 392) :
    hE3 (F := Ideal) x w (ix2 r j) = Spec.euclid (Out.m2 x) (Out.m2 w) r j := by
  unfold hE3
  simp only [mulf_apply, addf_apply, subf_apply, bcast_scalar2_apply, constant_apply,
    bcast_colfill_apply, bcast_col_apply, bcast_row_apply, bcast_rowfill_apply, rowsum_apply, colsum_apply,
    dot3_apply]
  rfl

/-- The pre-activation of layer 3 as a function of row and column. -/
theorem hE3_m2 (x : FVec Ideal S1024x8 .f32) (w : FVec Ideal S8x392 .f32) :
    Out.m2 (hE3 (F := Ideal) x w) = Spec.euclid (Out.m2 x) (Out.m2 w) :=
  funext fun r => funext fun j => hE3_apply x w r j

/-- The program's variance function at the integer zero, at column j: the mean of the squared deviations from the mean. -/
theorem var3_apply (h : FVec Ideal S1024x392 .f32) (j : Fin 392) :
    var3 (F := Ideal) h (constantI S_ 32 0#32) (ix1 j) = Spec.colVar (Out.m2 h) j := by
  unfold var3
  simp only [select_apply, cmpf_apply, subf_apply, mulf_apply, hostDivf_apply, sitofp_apply, constant_apply, constantI, id_eq,
    bcast_scalar1_apply, bcast_scalar2_apply, bcast_row_apply, bcast_rowfill_apply, colsum_apply]
  rw [cN_sub_zero, cN_gt_zero, select_one]
  rfl

/-- Layer 3 at (r, j). -/
theorem hL3_apply (x : FVec Ideal S1024x8 .f32) (w : FVec Ideal S8x392 .f32) (g b : FVec Ideal S392 .f32) (r : Fin 1024) (j : Fin 392) :
    hL3 (F := Ideal) x w g b (ix2 r j)
      = Spec.relu (Spec.bnR (Spec.euclid (Out.m2 x) (Out.m2 w)) (Out.m1 g) (Out.m1 b)) r j := by
  unfold hL3
  simp only [maximumf_apply, addf_apply, subf_apply, mulf_apply, hostDivf_apply, hostSqrt_apply, constant_apply,
    bcast_scalar1_apply, bcast_scalar2_apply, bcast_row_apply, bcast_rowfill_apply, colsum_apply, var3_apply, hE3_apply,
    hE3_m2, Ideal.ofBits_zero_f32]
  rfl

end Layer3Ideal

section Layer4

variable {F : FTy → Type} [FloatOps F] [Facts₀]
open Facts₀

/-- The pre-activation of layer 4 as printed: @main's %105 … %119, from the layer's input and its weights. -/
def hE4 (x : FVec F S1024x392 .f32) (w : FVec F S392x784 .f32) : FVec F S1024x784 .f32 :=
  let v105 : FVec F S1024x392 .f32 := mulf x x                                                               -- %105
  let c22 : FVec F S_ .f32 := constant S_ .f32 0x00000000#32                                                 -- %cst_22
  let v106 : FVec F S1024 .f32 := Host.reduceAdd v105 c22 reducesTo_S1024x392_S1024_d1 h_S_                  -- %106
  let v107 : FVec F S1024x1 .f32 := broadcastInDim S1024x1 ![0] bcast_S1024_S1024x1_0 v106                   -- %107
  let v108 : FVec F S392x784 .f32 := mulf w w                                                                -- %108
  let c23 : FVec F S_ .f32 := constant S_ .f32 0x00000000#32                                                 -- %cst_23
  let v109 : FVec F S784 .f32 := Host.reduceAdd v108 c23 reducesTo_S392x784_S784_d0 h_S_                     -- %109
  let v110 : FVec F S1024x784 .f32 := Host.dotGeneral dot_S1024x392_S392x784_S1024x784_1_0_0_1_n_n none x w  -- %110
  let c24 : FVec F S_ .f32 := constant S_ .f32 0x40000000#32                                                 -- %cst_24
  let v111 : FVec F S1024x784 .f32 := broadcastInDim S1024x784 ![] bcast_S_S1024x784 c24                     -- %111
  let v112 : FVec F S1024x784 .f32 := mulf v111 v110                                                         -- %112
  let v113 : FVec F S1024x784 .f32 := broadcastInDim S1024x784 ![0, 1] bcast_S1024x1_S1024x784_0_1 v107      -- %113
  let v114 : FVec F S1024x784 .f32 := subf v113 v112                                                         -- %114
  let v115 : FVec F S1x784 .f32 := broadcastInDim S1x784 ![1] bcast_S784_S1x784_1 v109                       -- %115
  let v116 : FVec F S1024x784 .f32 := broadcastInDim S1024x784 ![0, 1] bcast_S1x784_S1024x784_0_1 v115       -- %116
  let v117 : FVec F S1024x784 .f32 := addf v114 v116                                                         -- %117
  let c25 : FVec F S_ .f32 := constant S_ .f32 0xBF000000#32                                                 -- %cst_25
  let v118 : FVec F S1024x784 .f32 := broadcastInDim S1024x784 ![] bcast_S_S1024x784 c25                     -- %118
  mulf v118 v117                                                                                             -- %119

/-- The program's @_var_3 (the call main_call6), with its call of @_where_4 (main_call6_call0) in place: from an array
    and an integer scalar, the array's column variances. -/
def var4 (h : FVec F S1024x784 .f32) (c : IVec S_ 32) : FVec F S784 .f32 :=
  let cst : FVec F S_ .f32 := constant S_ .f32 0x00000000#32                                                 -- @_var_3's %cst
  let v0 : FVec F S784 .f32 := Host.reduceAdd h cst reducesTo_S1024x784_S784_d0 h_S_                         -- @_var_3's %0
  let v1 : FVec F S1x784 .f32 := broadcastInDim S1x784 ![1] bcast_S784_S1x784_1 v0                           -- @_var_3's %1
  let cst_0 : FVec F S_ .f32 := constant S_ .f32 0x44800000#32                                               -- @_var_3's %cst_0
  let v2 : FVec F S1x784 .f32 := broadcastInDim S1x784 ![] bcast_S_S1x784 cst_0                              -- @_var_3's %2
  let v3 : FVec F S1x784 .f32 := Host.divf v1 v2                                                             -- @_var_3's %3
  let v4 : FVec F S1024x784 .f32 := broadcastInDim S1024x784 ![0, 1] bcast_S1x784_S1024x784_0_1 v3           -- @_var_3's %4
  let v5 : FVec F S1024x784 .f32 := subf h v4                                                                -- @_var_3's %5
  let v6 : FVec F S1024x784 .f32 := mulf v5 v5                                                               -- @_var_3's %6
  let v7 : FVec F S_ .f32 := sitofp .f32 c                                                                   -- @_var_3's %7
  let cst_1 : FVec F S_ .f32 := constant S_ .f32 0x44800000#32                                               -- @_var_3's %cst_1
  let v8 : FVec F S_ .f32 := subf cst_1 v7                                                                   -- @_var_3's %8
  let cst_2 : FVec F S_ .f32 := constant S_ .f32 0x00000000#32                                               -- @_var_3's %cst_2
  let v9 : FVec F S784 .f32 := Host.reduceAdd v6 cst_2 reducesTo_S1024x784_S784_d0 h_S_                      -- @_var_3's %9
  let v10 : FVec F S784 .f32 := broadcastInDim S784 ![] bcast_S_S784 v8                                      -- @_var_3's %10
  let v11 : FVec F S784 .f32 := Host.divf v9 v10                                                             -- @_var_3's %11
  let cst_3 : FVec F S_ .f32 := constant S_ .f32 0x00000000#32                                               -- @_var_3's %cst_3
  let v12 : IVec S_ 1 := cmpf .ogt v8 cst_3                                                                  -- @_var_3's %12
  let cst_4 : FVec F S_ .f32 := constant S_ .f32 0x7FC00000#32                                               -- @_var_3's %cst_4
  let w0 : FVec F S_ .f32 := id cst_4                                                                        -- @_where_4's %0
  let w1 : FVec F S784 .f32 := broadcastInDim S784 ![] bcast_S_S784 w0                                       -- @_where_4's %1
  select (broadcastInDim S784 ![] bcast_S_S784 v12) v11 w1                                                   -- @_where_4's %2 = @_var_3's %13

/-- Layer 4 as printed: @main's %105 … %144 (main_call6 = @_var_3, main_call6_call0 = @_where_4; no maximum with zero;
    then the logistic function spelt negate, exponential, add 1, divide 1 by): from main_v104, W4, g4, b4 to the result
    main_v144. -/
def hL4 (x : FVec F S1024x392 .f32) (w : FVec F S392x784 .f32) (g b : FVec F S784 .f32) : FVec F S1024x784 .f32 :=
  let v119 : FVec F S1024x784 .f32 := hE4 x w                                                                -- %105 … %119
  let c26 : FVec F S_ .f32 := constant S_ .f32 0x00000000#32                                                 -- %cst_26
  let v120 : FVec F S784 .f32 := Host.reduceAdd v119 c26 reducesTo_S1024x784_S784_d0 h_S_                    -- %120
  let c27 : FVec F S_ .f32 := constant S_ .f32 0x44800000#32                                                 -- %cst_27
  let v121 : FVec F S784 .f32 := broadcastInDim S784 ![] bcast_S_S784 c27                                    -- %121
  let v122 : FVec F S784 .f32 := Host.divf v120 v121                                                         -- %122
  let c28 : IVec S_ 32 := constantI S_ 32 0#32                                                               -- %c_28
  let v123 : FVec F S784 .f32 := var4 v119 c28                                                               -- %123 = @_var_3(%119, %c_28)
  let v124 : FVec F S1x784 .f32 := broadcastInDim S1x784 ![1] bcast_S784_S1x784_1 v122                       -- %124
  let v125 : FVec F S1024x784 .f32 := broadcastInDim S1024x784 ![0, 1] bcast_S1x784_S1024x784_0_1 v124       -- %125
  let v126 : FVec F S1024x784 .f32 := subf v119 v125                                                         -- %126
  let v127 : FVec F S1x784 .f32 := broadcastInDim S1x784 ![1] bcast_S784_S1x784_1 g                          -- %127
  let v128 : FVec F S1024x784 .f32 := broadcastInDim S1024x784 ![0, 1] bcast_S1x784_S1024x784_0_1 v127       -- %128
  let v129 : FVec F S1024x784 .f32 := mulf v128 v126                                                         -- %129
  let c29 : FVec F S_ .f32 := constant S_ .f32 0x3727C5AC#32                                                 -- %cst_29
  let v130 : FVec F S784 .f32 := broadcastInDim S784 ![] bcast_S_S784 c29                                    -- %130
  let v131 : FVec F S784 .f32 := addf v123 v130                                                              -- %131
  let v132 : FVec F S784 .f32 := Host.sqrt v131                                                              -- %132
  let v133 : FVec F S1x784 .f32 := broadcastInDim S1x784 ![1] bcast_S784_S1x784_1 v132                       -- %133
  let v134 : FVec F S1024x784 .f32 := broadcastInDim S1024x784 ![0, 1] bcast_S1x784_S1024x784_0_1 v133       -- %134
  let v135 : FVec F S1024x784 .f32 := Host.divf v129 v134                                                    -- %135
  let v136 : FVec F S1x784 .f32 := broadcastInDim S1x784 ![1] bcast_S784_S1x784_1 b                          -- %136
  let v137 : FVec F S1024x784 .f32 := broadcastInDim S1024x784 ![0, 1] bcast_S1x784_S1024x784_0_1 v136       -- %137
  let v138 : FVec F S1024x784 .f32 := addf v135 v137                                                         -- %138
  let v139 : FVec F S1024x784 .f32 := Host.negf v138                                                         -- %139
  let v140 : FVec F S1024x784 .f32 := Host.exp v139                                                          -- %140
  let c30 : FVec F S_ .f32 := constant S_ .f32 0x3F800000#32                                                 -- %cst_30
  let v141 : FVec F S1024x784 .f32 := broadcastInDim S1024x784 ![] bcast_S_S1024x784 c30                     -- %141
  let v142 : FVec F S1024x784 .f32 := addf v141 v140                                                         -- %142
  let c31 : FVec F S_ .f32 := constant S_ .f32 0x3F800000#32                                                 -- %cst_31
  let v143 : FVec F S1024x784 .f32 := broadcastInDim S1024x784 ![] bcast_S_S1024x784 c31                     -- %143
  Host.divf v143 v142                                                                                        -- %144

end Layer4

section Layer4Ideal

variable [Facts₀]
open Facts₀

/-- The product of a [1024, 392] by a [392, 784] matrix at (r, j). -/
theorem dot4_apply (A : FVec Ideal S1024x392 .f32) (B : FVec Ideal S392x784 .f32) (r : Fin 1024) (j : Fin 784) :
    Host.dotGeneral (F := Ideal) dot_S1024x392_S392x784_S1024x784_1_0_0_1_n_n none A B (ix2 r j)
      = ∑ c : Fin 392, A (ix2 r c) * B (ix2 c j) :=
  StackMember.dotGeneral_plain_apply none A B r j

/-- The pre-activation of layer 4 at (r, j): minus half the squared distance, expanded. -/
theorem hE4_apply (x : FVec Ideal S1024x392 .f32) (w : FVec Ideal S392x784 .f32) (r : Fin 1024) (j : Fin 784) :
    hE4 (F := Ideal) x w (ix2 r j) = Spec.euclid (Out.m2 x) (Out.m2 w) r j := by
  unfold hE4
  simp only [mulf_apply, addf_apply, subf_apply, bcast_scalar2_apply, constant_apply,
    bcast_colfill_apply, bcast_col_apply, bcast_row_apply, bcast_rowfill_apply, rowsum_apply, colsum_apply,
    dot4_apply]
  rfl

/-- The pre-activation of layer 4 as a function of row and column. -/
theorem hE4_m2 (x : FVec Ideal S1024x392 .f32) (w : FVec Ideal S392x784 .f32) :
    Out.m2 (hE4 (F := Ideal) x w) = Spec.euclid (Out.m2 x) (Out.m2 w) :=
  funext fun r => funext fun j => hE4_apply x w r j

/-- The program's variance function at the integer zero, at column j: the mean of the squared deviations from the mean. -/
theorem var4_apply (h : FVec Ideal S1024x784 .f32) (j : Fin 784) :
    var4 (F := Ideal) h (constantI S_ 32 0#32) (ix1 j) = Spec.colVar (Out.m2 h) j := by
  unfold var4
  simp only [select_apply, cmpf_apply, subf_apply, mulf_apply, hostDivf_apply, sitofp_apply, constant_apply, constantI, id_eq,
    bcast_scalar1_apply, bcast_scalar2_apply, bcast_row_apply, bcast_rowfill_apply, colsum_apply]
  rw [cN_sub_zero, cN_gt_zero, select_one]
  rfl

/-- Layer 4 at (r, j). -/
theorem hL4_apply (x : FVec Ideal S1024x392 .f32) (w : FVec Ideal S392x784 .f32) (g b : FVec Ideal S784 .f32) (r : Fin 1024) (j : Fin 784) :
    hL4 (F := Ideal) x w g b (ix2 r j)
      = Spec.sigm (Spec.bnR (Spec.euclid (Out.m2 x) (Out.m2 w)) (Out.m1 g) (Out.m1 b)) r j := by
  unfold hL4
  simp only [addf_apply, subf_apply, mulf_apply, hostDivf_apply, hostSqrt_apply, hostNegf_apply, hostExp_apply, constant_apply,
    bcast_scalar1_apply, bcast_scalar2_apply, bcast_row_apply, bcast_rowfill_apply, colsum_apply, var4_apply, hE4_apply,
    hE4_m2, Ideal.ofBits_zero_f32, Ideal.ofBits_one_f32]
  rfl

end Layer4Ideal

/-! ## The layers in the program's run

`after ops V` is what the buffers hold once the program's operations have run in order from the contents `V`. Every
buffer is written once, so a layer's last buffer holds the layer's function of the layer's input buffer and of the
argument arrays, which no operation writes. -/

section Stages

open Cert.ReferenceIdeal.Gen Idealize.ShloMosaic.TcCoe Idealize.SL.Sem Idealize.ShloMosaic.StableHlo

variable {F : FTy → Type} [FloatOps F]

namespace L34

/-- The six argument buffers W3, g3, b3, W4, g4, b4 after a chunk of the operations are as before it. -/
abbrev ArgsKept (l : List (HloOp τ sig (Elt F))) (W : Valuation τ sig (Elt F)) : Prop :=
  after l W (main_arg7 : DevRef τ sig) = W (main_arg7 : DevRef τ sig) ∧ after l W (main_arg8 : DevRef τ sig) = W (main_arg8 : DevRef τ sig)
    ∧ after l W (main_arg9 : DevRef τ sig) = W (main_arg9 : DevRef τ sig) ∧ after l W (main_arg10 : DevRef τ sig) = W (main_arg10 : DevRef τ sig)
    ∧ after l W (main_arg11 : DevRef τ sig) = W (main_arg11 : DevRef τ sig) ∧ after l W (main_arg12 : DevRef τ sig) = W (main_arg12 : DevRef τ sig)

set_option maxHeartbeats 4000000 in
theorem args_ops0 (W : Valuation τ sig (Elt F)) : ArgsKept ops0 W := by
  refine ⟨?_, ?_, ?_, ?_, ?_, ?_⟩ <;> after_results_simp
set_option maxHeartbeats 4000000 in
theorem args_ops1 (W : Valuation τ sig (Elt F)) : ArgsKept ops1 W := by
  refine ⟨?_, ?_, ?_, ?_, ?_, ?_⟩ <;> after_results_simp
set_option maxHeartbeats 4000000 in
theorem args_ops2 (W : Valuation τ sig (Elt F)) : ArgsKept ops2 W := by
  refine ⟨?_, ?_, ?_, ?_, ?_, ?_⟩ <;> after_results_simp
set_option maxHeartbeats 4000000 in
theorem args_ops3 (W : Valuation τ sig (Elt F)) : ArgsKept ops3 W := by
  refine ⟨?_, ?_, ?_, ?_, ?_, ?_⟩ <;> after_results_simp
set_option maxHeartbeats 4000000 in
theorem args_ops4 (W : Valuation τ sig (Elt F)) : ArgsKept ops4 W := by
  refine ⟨?_, ?_, ?_, ?_, ?_, ?_⟩ <;> after_results_simp

end L34

set_option maxHeartbeats 4000000 in
/-- Layer 3 over the operations from the fourth chunk on: every buffer of the layer is its operation's function of its
    operands' buffers, down to the layer's input and the argument arrays. -/
theorem stage3_core (W : Valuation τ sig (Elt F)) :
    after ops6 (after ops5 (after ops4 (after ops3 W))) (main_v104 : DevRef τ sig)
      = hL3 (after ops6 (after ops5 (after ops4 (after ops3 W))) (main_v69 : DevRef τ sig))
          (W (main_arg7 : DevRef τ sig)) (W (main_arg8 : DevRef τ sig)) (W (main_arg9 : DevRef τ sig)) := by
  after_results_simp
  rfl

set_option maxHeartbeats 4000000 in
/-- Layer 4 over the last two chunks of the operations. -/
theorem stage4_core (W : Valuation τ sig (Elt F)) :
    after ops6 (after ops5 W) (main_v144 : DevRef τ sig)
      = hL4 (after ops6 (after ops5 W) (main_v104 : DevRef τ sig))
          (W (main_arg10 : DevRef τ sig)) (W (main_arg11 : DevRef τ sig)) (W (main_arg12 : DevRef τ sig)) := by
  after_results_simp
  rfl

/-- After the whole program the buffer of %104 is layer 3 of the buffer of %69 and of the arguments W3, g3, b3. -/
theorem stage3 (V : Valuation τ sig (Elt F)) :
    after ops V (main_v104 : DevRef τ sig)
      = hL3 (after ops V (main_v69 : DevRef τ sig)) (V main_arg7) (V main_arg8) (V main_arg9) := by
  have h0 := args_ops0 V
  have h1 := args_ops1 (after ops0 V)
  have h2 := args_ops2 (after ops1 (after ops0 V))
  rw [after_ops, stage3_core, h2.1, h1.1, h0.1, h2.2.1, h1.2.1, h0.2.1, h2.2.2.1, h1.2.2.1, h0.2.2.1]

/-- After the whole program the buffer of %144, the result, is layer 4 of the buffer of %104 and of the arguments W4, g4, b4. -/
theorem stage4 (V : Valuation τ sig (Elt F)) :
    after ops V (main_v144 : DevRef τ sig)
      = hL4 (after ops V (main_v104 : DevRef τ sig)) (V main_arg10) (V main_arg11) (V main_arg12) := by
  have h0 := args_ops0 V
  have h1 := args_ops1 (after ops0 V)
  have h2 := args_ops2 (after ops1 (after ops0 V))
  have h3 := args_ops3 (after ops2 (after ops1 (after ops0 V)))
  have h4 := args_ops4 (after ops3 (after ops2 (after ops1 (after ops0 V))))
  rw [after_ops, stage4_core, h4.2.2.2.1, h3.2.2.2.1, h2.2.2.2.1, h1.2.2.2.1, h0.2.2.2.1,
    h4.2.2.2.2.1, h3.2.2.2.2.1, h2.2.2.2.2.1, h1.2.2.2.2.1, h0.2.2.2.2.1,
    h4.2.2.2.2.2, h3.2.2.2.2.2, h2.2.2.2.2.2, h1.2.2.2.2.2, h0.2.2.2.2.2]

end Stages

end Cert.Proof.Ref

end
-- ==== Proof.RefValue.lean ====
/-
  The reference program's result is the network, normalisation as a quotient, of the argument arrays.

  The result buffer after @main's operations is the fourth layer's function of the third layer's buffer, and so on
  down to the arguments; each layer read at an index is `euclid`, the batch normalisation as a quotient, and the
  rectifier (the last: the logistic function), so the four compose to `NetR`.
-/
import proofs.«403897_j60078002536976_3_alg».proof.Proof.RefKept
import proofs.«403897_j60078002536976_3_alg».proof.Proof.RefL12
import proofs.«403897_j60078002536976_3_alg».proof.Proof.RefL34
import proofs.«403897_j60078002536976_3_alg».proof.Proof.Out

noncomputable section

namespace Cert.Proof.Ref

open Cert.ReferenceIdeal Cert.ReferenceIdeal.Gen
open Idealize.ShloMosaic Idealize.ShloMosaic.TcCoe Idealize.ShloMosaic.ValueIdx Idealize.SL.Sem Idealize.ShloMosaic.StableHlo
open Cert.Spec Cert.Out

/-- A layer's output as a function of its two coordinates. -/
theorem lay1 (x : FVec Ideal S1024x784 .f32) (w : FVec Ideal S784x392 .f32) (g b : FVec Ideal S392 .f32) :
    m2 (hL1 (F := Ideal) x w g b) = relu (bnR (euclid (m2 x) (m2 w)) (m1 g) (m1 b)) := by
  funext r j; rw [m2_apply, hL1_apply]
theorem lay2 (x : FVec Ideal S1024x392 .f32) (w : FVec Ideal S392x8 .f32) (g b : FVec Ideal S8 .f32) :
    m2 (hL2 (F := Ideal) x w g b) = relu (bnR (euclid (m2 x) (m2 w)) (m1 g) (m1 b)) := by
  funext r j; rw [m2_apply, hL2_apply]
theorem lay3 (x : FVec Ideal S1024x8 .f32) (w : FVec Ideal S8x392 .f32) (g b : FVec Ideal S392 .f32) :
    m2 (hL3 (F := Ideal) x w g b) = relu (bnR (euclid (m2 x) (m2 w)) (m1 g) (m1 b)) := by
  funext r j; rw [m2_apply, hL3_apply]

variable (m : (ℓ : Loc nD τ sig) → Buf (Elt Ideal) ℓ)

/-- The result buffer after @main's operations is the network at the thirteen argument arrays. -/
theorem result_eq (c : Dev nD) :
    (after ops (launchContents m c) (main_v144 : DevRef τ sig) : S1024x784.Idx → EReal)
      = OutR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [stage4, stage3, stage2, stage1]
  funext i
  obtain ⟨r, q, rfl⟩ : ∃ (r : Fin 1024) (q : Fin 784), i = ix2 r q := ⟨i 0, i 1, eq_ix2 i⟩
  rw [hL4_apply, lay3, lay2, lay1, OutR_apply]
  rfl

end Cert.Proof.Ref

end
-- ==== Proof.Finite.lean ====
/-
  The precondition read back: every entry of every argument array is a real number.

  The printed predicate is the conjunction, over the thirteen arguments, of "every entry's absolute value is below +∞"
  (a compare against the word of +∞, reduced by `and` over the array). An extended real whose absolute value is
  below +∞ is neither infinity, so it is the image of a real.
-/
import proofs.«403897_j60078002536976_3_alg».proof.Pre_finite_inputs
import Idealize.ShloMosaic.PureOps.Ideal
import Idealize.ShloMosaic.Lib.ValueIdx
import Idealize.ShloMosaic.Lib.ReduceAll

noncomputable section

namespace Cert.Proof.Finite

open Idealize.ShloMosaic Cert.Pre_finite_inputs

/-- The f32 word `0x7F800000` (exponent all ones, fraction zero, sign clear) denotes +∞. -/
theorem ofBits_inf : Ideal.ofBits .f32 0x7F800000#32 = (⊤ : EReal) := by
  simp [Ideal.ofBits, Ideal.ieee]

/-- An extended real whose absolute value `max x (-x)` compares strictly below the word of +∞ is a real:
    at `⊥` and at `⊤` the absolute value is `⊤`, which is not below `⊤`. -/
theorem real_of_abs_lt_inf (x : EReal)
    (h : Ideal.cmp .olt (max x (-x)) (Ideal.ofBits .f32 0x7F800000#32) = 1#1) : ∃ r : ℝ, x = ((r : ℝ) : EReal) := by
  rw [ofBits_inf] at h
  induction x using EReal.rec with
  | bot => simp [Ideal.cmp] at h
  | top => simp [Ideal.cmp] at h
  | coe r => exact ⟨r, rfl⟩

/-- One conjunct of the predicate, at any shape: if the `and` over the whole array of "|a i| < +∞" is 1,
    every entry of `a` is a real. The result of the reduction has rank 0, hence a single index, so every
    entry of the compared array reduces into it and is 1. -/
theorem real_of_all {S : Shape} {axes : List (Fin S.rank)} (hb : S_.BroadcastsInDim S (![] : Fin 0 → Fin S.rank))
    (hr : S.ReducesTo axes S_) (hu : 0 < S_.numel) (a : FVec Ideal S .f32)
    (e : Host.reduce IntOp.andi (cmpf .olt (Host.absf a) (broadcastInDim S ![] hb (constant S_ .f32 0x7F800000#32)))
      (constantI S_ 1 1#1) hr hu ValueIdx.ix0 = 1#1) :
    ∀ i, ∃ r : ℝ, a i = ((r : ℝ) : EReal) := by
  intro i
  haveI : Subsingleton S_.Idx := ⟨fun a b => funext fun d => d.elim0⟩
  exact real_of_abs_lt_inf (a i) (Host.reduce_andi_all _ _ hr hu ValueIdx.ix0 e i)

variable [Cert.Pre_finite_inputs.Facts]

/-- If the printed precondition is all ones at the thirteen arrays, every entry of each of them is a real. -/
theorem finite_of_fn (a0 : FVec Ideal S1024x784 .f32) (a1 : FVec Ideal S784x392 .f32) (a2 : FVec Ideal S392 .f32) (a3 : FVec Ideal S392 .f32) (a4 : FVec Ideal S392x8 .f32) (a5 : FVec Ideal S8 .f32) (a6 : FVec Ideal S8 .f32) (a7 : FVec Ideal S8x392 .f32) (a8 : FVec Ideal S392 .f32) (a9 : FVec Ideal S392 .f32) (a10 : FVec Ideal S392x784 .f32) (a11 : FVec Ideal S784 .f32) (a12 : FVec Ideal S784 .f32)
    (h : Cert.Pre_finite_inputs.fn (F := Ideal) a0 a1 a2 a3 a4 a5 a6 a7 a8 a9 a10 a11 a12 = fun _ => 1#1) :
    (∀ i, ∃ r : ℝ, a0 i = ((r : ℝ) : EReal))
    ∧ (∀ i, ∃ r : ℝ, a1 i = ((r : ℝ) : EReal))
    ∧ (∀ i, ∃ r : ℝ, a2 i = ((r : ℝ) : EReal))
    ∧ (∀ i, ∃ r : ℝ, a3 i = ((r : ℝ) : EReal))
    ∧ (∀ i, ∃ r : ℝ, a4 i = ((r : ℝ) : EReal))
    ∧ (∀ i, ∃ r : ℝ, a5 i = ((r : ℝ) : EReal))
    ∧ (∀ i, ∃ r : ℝ, a6 i = ((r : ℝ) : EReal))
    ∧ (∀ i, ∃ r : ℝ, a7 i = ((r : ℝ) : EReal))
    ∧ (∀ i, ∃ r : ℝ, a8 i = ((r : ℝ) : EReal))
    ∧ (∀ i, ∃ r : ℝ, a9 i = ((r : ℝ) : EReal))
    ∧ (∀ i, ∃ r : ℝ, a10 i = ((r : ℝ) : EReal))
    ∧ (∀ i, ∃ r : ℝ, a11 i = ((r : ℝ) : EReal))
    ∧ (∀ i, ∃ r : ℝ, a12 i = ((r : ℝ) : EReal)) := by
  -- the predicate at its one index, with the three parts of the chain unfolded into one conjunction
  have e := congrFun h ValueIdx.ix0
  unfold Cert.Pre_finite_inputs.fn Cert.Pre_finite_inputs.fn_part1 Cert.Pre_finite_inputs.fn_part2
    Cert.Pre_finite_inputs.fn_part3 at e
  dsimp only [andi] at e
  -- the conjunction associates to the left: peel the thirteen bits off from the last to the first
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10, real_of_all _ _ _ a11 e11,
    real_of_all _ _ _ a12 e12⟩

end Cert.Proof.Finite

end
-- ==== Proof.lean ====
/-
  A four-layer autoencoder on a batch of 1024 rows, computed by one fused kernel and by a plain array program.

  Each layer maps its input `x` and weights `w` to `−½ ‖x_b − w_j‖²`, expanded as `−½ (‖x_b‖² − 2⟨x_b, w_j⟩ + ‖w_j‖²)`,
  normalises every column with the batch mean and the biased batch variance (offset `ε`), scales and shifts it, and
  applies `max · 0` (the last layer: the logistic function). The kernel program computes the weights' column sums of
  squares on the host, then runs one kernel at a single grid point over the whole arrays; the kernel writes the
  normalisation as `h · s + (b − μ · s)` with `s = g · (v + ε)^(-1/2)`, and stores the result in four slabs of 256 rows,
  each copied to the result array by a transfer of its own that is waited for before the kernel returns. The reference
  writes the normalisation as `g · (h − μ) / √(v + ε) + b`.

  The frames: the kernel program's run (at the machine words and at the extended reals) is the pipeline library's
  launch of the one region with the result array routed through the body's invariant, the body run once at symbolic
  operands; the reference's is its operations' run. `preserves` is empty: the idealized kernel is the kernel's own text.
  The value: at the extended reals the kernel program's result array is the network with the normalisation as scale and
  shift at the thirteen arguments, the reference's the network with it as a quotient; on finite arguments, which the
  precondition gives, the two are one array, because every intermediate value is then a real, `v + ε > 0`, and the two
  spellings of the normalisation differ by distributivity over the reals.
-/
import proofs.«403897_j60078002536976_3_alg».proof.Defs
import proofs.«403897_j60078002536976_3_alg».proof.Proof.Gen.Kernel
import proofs.«403897_j60078002536976_3_alg».proof.Proof.Gen.KernelIdeal
import proofs.«403897_j60078002536976_3_alg».proof.Proof.Gen.ReferenceIdeal
import proofs.«403897_j60078002536976_3_alg».proof.Proof.Gen.Pre_finite_inputs
import proofs.«403897_j60078002536976_3_alg».proof.Proof.KRunB
import proofs.«403897_j60078002536976_3_alg».proof.Proof.KValue
import proofs.«403897_j60078002536976_3_alg».proof.Proof.RefValue
import proofs.«403897_j60078002536976_3_alg».proof.Proof.Finite
import proofs.«403897_j60078002536976_3_alg».proof.Proof.Out
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_k : Cert.frame_Kernel := fun m ρ _ => Cert.Proof.KB.frame (F := Bits) m ρ

/-- So does the idealized kernel program. -/
theorem frame_ki : Cert.frame_KernelIdeal := fun m ρ _ => Cert.Proof.KI.frame (F := Ideal) m ρ

/-- So does the idealized reference. -/
theorem frame_ri : Cert.frame_ReferenceIdeal := fun m ρ _ => Cert.Proof.Ref.frame (F := Ideal) m ρ

set_option maxHeartbeats 4000000 in
/-- From memories agreeing on the arguments, finite by the precondition, both idealized programs end with the
    network's value at the arguments: the kernel program's spelling of it and the reference's are one array there. -/
theorem algebraic : Cert.algebraic_KernelIdeal_ReferenceIdeal := by
  intro m ρ m' ρ' hpre hagree
  refine ⟨fun c => Cert.Out.OutK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c => ⟨(h c).1.trans (Cert.Proof.KI.written_eq m c), (h c).2⟩)
      (Cert.Proof.KI.run_value (F := Ideal) m ρ)
  · refine (θ_run Cert.ReferenceIdeal.defs _ _).mono (fun _ h c => ⟨(h c).1.trans ?_, (h c).2⟩)
      (Cert.Proof.Ref.run_value (F := Ideal) m' ρ')
    refine (Cert.Proof.Ref.result_eq m' c).trans ?_
    obtain ⟨e0, e1, e2, e3, e4, e5, e6, e7, e8, e9, e10, e11, e12⟩ := hagree c
    rw [e0, e1, e2, e3, e4, e5, e6, e7, e8, e9, e10, e11, e12]
    obtain ⟨f0, f1, f2, f3, f4, f5, f6, f7, f8, f9, f10, f11, f12⟩ := Cert.Proof.Finite.finite_of_fn _ _ _ _ _ _ _ _ _ _ _ _ _ (hpre c)
    exact (Cert.Out.out_eq _ _ _ _ _ _ _ _ _ _ _ _ _ f0 f1 f2 f3 f4 f5 f6 f7 f8 f9 f10 f11 f12).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
